-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S4096x256 .f32 .bf16
  ∧ IdealRules.truncf_extf.Statement Cert.KernelIdeal.S4096x64 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v74)) (v2 : (c : Dev Cert.KernelIdeal.nD) → Buf (Elt Ideal) ((c.tc : Thread Cert.KernelIdeal.nD Cert.KernelIdeal.τ).loc Cert.KernelIdeal.main_v73)) (v3 : (c : Dev Cert.KernelIdeal.nD) → Buf (Elt Ideal) ((c.tc : Thread Cert.KernelIdeal.nD Cert.KernelIdeal.τ).loc Cert.KernelIdeal.main_v76)) (v4 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v74) = v1 c
          ∧ r.2.mem ((c.tc : Thread Cert.KernelIdeal.nD Cert.KernelIdeal.τ).loc Cert.KernelIdeal.main_v73) = v2 c
          ∧ r.2.mem ((c.tc : Thread Cert.KernelIdeal.nD Cert.KernelIdeal.τ).loc Cert.KernelIdeal.main_v76) = v3 c
          ∧ r.2.mem ((c.tc : Thread Cert.KernelIdeal.nD Cert.KernelIdeal.τ).loc Cert.KernelIdeal.main_v78) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_v82) = v3 c
          ∧ r.2.mem ((c.tc : Thread Cert.ReferenceIdeal.nD Cert.ReferenceIdeal.τ).loc Cert.ReferenceIdeal.main_v84) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S131072 : Shape := ⟨1, ![131072]⟩
abbrev S64x128 : Shape := ⟨2, ![64, 128]⟩
abbrev S64 : Shape := ⟨1, ![64]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S131072 : S_.BroadcastsInDim S131072 (![] : Fin 0 → Fin S131072.rank)
  reducesTo_S131072_S_d0 : S131072.ReducesTo [0] S_

variable [Facts]

def fn_part1 {F : FTy → Type} [FloatOps F] (main_arg1 : IVec S131072 32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_c_6 : IVec S_ 32 := constantI S_ 32 0#32
  let main_v19 : IVec S131072 32 := broadcastInDim S131072 ![] bcast_S_S131072 main_c_6
  let main_v20 : IVec S131072 1 := cmpi .sge main_arg1 main_v19
  let main_c_7 : IVec S_ 32 := constantI S_ 32 64#32
  let main_v21 : IVec S131072 32 := broadcastInDim S131072 ![] bcast_S_S131072 main_c_7
  let main_v22 : IVec S131072 1 := cmpi .slt main_arg1 main_v21
  let main_v23 : IVec S131072 1 := andi main_v20 main_v22
  let main_c_8 : IVec S_ 1 := constantI S_ 1 1#1
  let main_v24 : IVec S_ 1 := (fun x v => Host.reduce IntOp.andi x v reducesTo_S131072_S_d0 h_S_) main_v23 main_c_8
  let main_v25 : IVec S_ 1 := andi main_v18 main_v24
  main_v25

def fn {F : FTy → Type} [FloatOps F] (main_arg0 : FVec F S131072x128 .f32) (main_arg1 : IVec S131072 32) (main_arg2 : FVec F S64x128 .f32) (main_arg3 : FVec F S64x128 .f32) (main_arg4 : FVec F S64x128 .f32) (main_arg5 : IVec S64 32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg1 main_v13 main_v16
-- ==== Kernel.lean ====
abbrev S131072x128 : Shape := ⟨2, ![131072, 128]⟩
abbrev S131072 : Shape := ⟨1, ![131072]⟩
abbrev S64x128 : Shape := ⟨2, ![64, 128]⟩
abbrev S64 : Shape := ⟨1, ![64]⟩
abbrev S64x256 : Shape := ⟨2, ![64, 256]⟩
abbrev S64x512 : Shape := ⟨2, ![64, 512]⟩
abbrev S2x64x128 : Shape := ⟨3, ![2, 64, 128]⟩
abbrev S2x64x256 : Shape := ⟨3, ![2, 64, 256]⟩
abbrev S4096x128 : Shape := ⟨2, ![4096, 128]⟩
abbrev S4096 : Shape := ⟨1, ![4096]⟩
abbrev S1x64x128 : Shape := ⟨3, ![1, 64, 128]⟩
abbrev S1x64x256 : Shape := ⟨3, ![1, 64, 256]⟩
abbrev S4096x64 : Shape := ⟨2, ![4096, 64]⟩
abbrev S4096x1 : Shape := ⟨2, ![4096, 1]⟩
abbrev S4096x256 : Shape := ⟨2, ![4096, 256]⟩
abbrev S64x1 : Shape := ⟨2, ![64, 1]⟩
abbrev S1x64x1 : Shape := ⟨3, ![1, 64, 1]⟩
abbrev S_ : Shape := ⟨0, ![]⟩

abbrev nBuf : Space → Nat
  | .hbm => 96
  | .vmem => 13
  | .smem => 0
  | _ => 0

abbrev bufTy : (tb : Table) → Fin (tcTables nBuf tb) → BufTy
  | .hbm, ⟨0, _⟩ => ⟨S131072x128, .f32⟩
  | .hbm, ⟨1, _⟩ => ⟨S131072, .i32⟩
  | .hbm, ⟨2, _⟩ => ⟨S64x128, .f32⟩
  | .hbm, ⟨3, _⟩ => ⟨S64x128, .f32⟩
  | .hbm, ⟨4, _⟩ => ⟨S64x128, .f32⟩
  | .hbm, ⟨5, _⟩ => ⟨S64, .i32⟩
  | .hbm, ⟨6, _⟩ => ⟨S64x128, .bf16⟩
  | .hbm, ⟨7, _⟩ => ⟨S64x128, .f32⟩
  | .hbm, ⟨8, _⟩ => ⟨S64x128, .f32⟩
  | .hbm, ⟨9, _⟩ => ⟨S64x128, .bf16⟩
  | .hbm, ⟨10, _⟩ => ⟨S64x128, .bf16⟩
  | .hbm, ⟨11, _⟩ => ⟨S64x128, .f32⟩
  | .hbm, ⟨12, _⟩ => ⟨S64x128, .f32⟩
  | .hbm, ⟨13, _⟩ => ⟨S64x128, .bf16⟩
  | .hbm, ⟨14, _⟩ => ⟨S64x256, .bf16⟩
  | .hbm, ⟨15, _⟩ => ⟨S64x256, .bf16⟩
  | .hbm, ⟨16, _⟩ => ⟨S64x512, .bf16⟩
  | .hbm, ⟨17, _⟩ => ⟨S131072x128, .f32⟩
  | .hbm, ⟨18, _⟩ => ⟨S2x64x128, .f32⟩
  | .hbm, ⟨19, _⟩ => ⟨S2x64x256, .f32⟩
  | .hbm, ⟨20, _⟩ => ⟨S1x64x1, .f32⟩
  | .hbm, ⟨21, _⟩ => ⟨S64, .f32⟩
  | .hbm, ⟨22, _⟩ => ⟨S1x64x1, .f32⟩
  | .hbm, ⟨23, _⟩ => ⟨S64, .f32⟩
  | .hbm, ⟨24, _⟩ => ⟨S64, .f32⟩
  | .hbm, ⟨25, _⟩ => ⟨S1x64x128, .f32⟩
  | .hbm, ⟨26, _⟩ => ⟨S64x128, .f32⟩
  | .hbm, ⟨27, _⟩ => ⟨S1x64x128, .f32⟩
  | .hbm, ⟨28, _⟩ => ⟨S64x128, .f32⟩
  | .hbm, ⟨29, _⟩ => ⟨S64x128, .f32⟩
  | .hbm, ⟨30, _⟩ => ⟨S1x64x128, .f32⟩
  | .hbm, ⟨31, _⟩ => ⟨S64x128, .f32⟩
  | .hbm, ⟨32, _⟩ => ⟨S1x64x128, .f32⟩
  | .hbm, ⟨33, _⟩ => ⟨S64x128, .f32⟩
  | .hbm, ⟨34, _⟩ => ⟨S64x128, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S64x1, .f32⟩
  | .hbm, ⟨39, _⟩ => ⟨S64x128, .f32⟩
  | .hbm, ⟨40, _⟩ => ⟨S64x128, .f32⟩
  | .hbm, ⟨41, _⟩ => ⟨S64x128, .f32⟩
  | .hbm, ⟨42, _⟩ => ⟨S64x128, .f32⟩
  | .hbm, ⟨43, _⟩ => ⟨S64x128, .f32⟩
  | .hbm, ⟨44, _⟩ => ⟨S64x128, .f32⟩
  | .hbm, ⟨45, _⟩ => ⟨S64x128, .f32⟩
  | .hbm, ⟨46, _⟩ => ⟨S_, .f32⟩
  | .hbm, ⟨47, _⟩ => ⟨S64x128, .f32⟩
  | .hbm, ⟨48, _⟩ => ⟨S64x128, .f32⟩
  | .hbm, ⟨49, _⟩ => ⟨S64, .f32⟩
  | .hbm, ⟨50, _⟩ => ⟨S64, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S64x128, .f32⟩
  | .hbm, ⟨55, _⟩ => ⟨S64, .f32⟩
  | .hbm, ⟨56, _⟩ => ⟨S64x1, .f32⟩
  | .hbm, ⟨57, _⟩ => ⟨S64x128, .f32⟩
  | .hbm, ⟨58, _⟩ => ⟨S64x128, .f32⟩
  | .hbm, ⟨59, _⟩ => ⟨S64x128, .f32⟩
  | .hbm, ⟨60, _⟩ => ⟨S64x1, .f32⟩
  | .hbm, ⟨61, _⟩ => ⟨S64x128, .f32⟩
  | .hbm, ⟨62, _⟩ => ⟨S64x128, .f32⟩
  | .hbm, ⟨63, _⟩ => ⟨S64x1, .f32⟩
  | .hbm, ⟨64, _⟩ => ⟨S64x128, .f32⟩
  | .hbm, ⟨65, _⟩ => ⟨S64x128, .f32⟩
  | .hbm, ⟨66, _⟩ => ⟨S64x128, .f32⟩
  | .hbm, ⟨67, _⟩ => ⟨S64x128, .f32⟩
  | .hbm, ⟨68, _⟩ => ⟨S64, .f32⟩
  | .hbm, ⟨69, _⟩ => ⟨S64, .f32⟩
  | .hbm, ⟨70, _⟩ => ⟨S64x1, .f32⟩
  | .hbm, ⟨71, _⟩ => ⟨S64x128, .f32⟩
  | .hbm, ⟨72, _⟩ => ⟨S64x128, .f32⟩
  | .hbm, ⟨73, _⟩ => ⟨S64x128, .f32⟩
  | .hbm, ⟨74, _⟩ => ⟨S64x1, .f32⟩
  | .hbm, ⟨75, _⟩ => ⟨S64x128, .f32⟩
  | .hbm, ⟨76, _⟩ => ⟨S64x128, .f32⟩
  | .hbm, ⟨77, _⟩ => ⟨S_, .f32⟩
  | .hbm, ⟨78, _⟩ => ⟨S64, .f32⟩
  | .hbm, ⟨79, _⟩ => ⟨S64, .i1⟩
  | .hbm, ⟨80, _⟩ => ⟨S64x1, .i1⟩
  | .hbm, ⟨81, _⟩ => ⟨S_, .f32⟩
  | .hbm, ⟨82, _⟩ => ⟨S64, .f32⟩
  | .hbm, ⟨83, _⟩ => ⟨S64, .i1⟩
  | .hbm, ⟨84, _⟩ => ⟨S64x1, .i1⟩
  | .hbm, ⟨85, _⟩ => ⟨S64x128, .i1⟩
  | .hbm, ⟨86, _⟩ => ⟨S64x128, .f32⟩
  | .hbm, ⟨87, _⟩ => ⟨S64x128, .i1⟩
  | .hbm, ⟨88, _⟩ => ⟨S64x128, .f32⟩
  | .hbm, ⟨89, _⟩ => ⟨S64x128, .i1⟩
  | .hbm, ⟨90, _⟩ => ⟨S64x128, .f32⟩
  | .hbm, ⟨91, _⟩ => ⟨S64x128, .f32⟩
  | .hbm, ⟨92, _⟩ => ⟨S64x128, .i1⟩
  | .hbm, ⟨93, _⟩ => ⟨S64x128, .f32⟩
  | .hbm, ⟨94, _⟩ => ⟨S64, .i32⟩
  | .hbm, ⟨95, _⟩ => ⟨S64, .i32⟩
  | .local _ .vmem, ⟨0, _⟩ => ⟨S4096x128, .f32⟩
  | .local _ .vmem, ⟨1, _⟩ => ⟨S4096x128, .f32⟩
  | .local _ .vmem, ⟨2, _⟩ => ⟨S4096, .i32⟩
  | .local _ .vmem, ⟨3, _⟩ => ⟨S4096, .i32⟩
  | .local _ .vmem, ⟨4, _⟩ => ⟨S64x512, .bf16⟩
  | .local _ .vmem, ⟨5, _⟩ => ⟨S4096x128, .f32⟩
  | .local _ .vmem, ⟨6, _⟩ => ⟨S4096x128, .f32⟩
  | .local _ .vmem, ⟨7, _⟩ => ⟨S1x64x128, .f32⟩
  | .local _ .vmem, ⟨8, _⟩ => ⟨S1x64x128, .f32⟩
  | .local _ .vmem, ⟨9, _⟩ => ⟨S1x64x256, .f32⟩
  | .local _ .vmem, ⟨10, _⟩ => ⟨S1x64x256, .f32⟩
  | .local _ .vmem, ⟨11, _⟩ => ⟨S64x128, .f32⟩
  | .local _ .vmem, ⟨12, _⟩ => ⟨S64x256, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_0 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_1 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_cst_2 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_cst_3 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_call0_v0 : Ref sig .tc := ⟨.hbm, 85, rfl⟩
abbrev main_v72 : Ref sig .tc := ⟨.hbm, 86, rfl⟩
abbrev main_call1_v0 : Ref sig .tc := ⟨.hbm, 87, rfl⟩
abbrev main_v73 : Ref sig .tc := ⟨.hbm, 88, rfl⟩
abbrev main_call2_v0 : Ref sig .tc := ⟨.hbm, 89, rfl⟩
abbrev main_v74 : Ref sig .tc := ⟨.hbm, 90, rfl⟩
abbrev main_v75 : Ref sig .tc := ⟨.hbm, 91, rfl⟩
abbrev main_call3_v0 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v51 : BitVec 1 := Scalar.cmpi .eq arg1 c15_i32
  let v52 : BitVec 32 := Scalar.extui v51
  let c0_i32_20 : BitVec 32 := 0#32
  let v53 : BitVec 1 := Scalar.cmpi .ne v52 c0_i32_20
  v53

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 1 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  ![v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bitsLt_bf16_f32 : FTy.bits .bf16 < FTy.bits .f32
  concatenates_S64x128_S64x128_S64x256_d1 : Shape.Concatenates [S64x128, S64x128] S64x256 1
  concatenates_S64x256_S64x256_S64x512_d1 : Shape.Concatenates [S64x256, S64x256] S64x512 1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S4096x128_S4096x128_0_0 : ∀ a, (![0, 0] : Fin 2 → Nat) a + S4096x128.size a ≤ S4096x128.size a
  h_S4096x128 : 0 < S4096x128.numel
  inb_S4096_S4096_0 : ∀ a, (![0] : Fin 1 → Nat) a + S4096.size a ≤ S4096.size a
  h_S4096 : 0 < S4096.numel
  iota_S4096x64_d1_w32 : S4096x64.Iotas .tc 32 [1]
  shapeCasts_S4096_S4096x1 : S4096.ShapeCasts S4096x1
  broadcasts_S4096x1_S4096x64 : S4096x1.Broadcasts S4096x64
  natLt_1_32 : 1 < 32
  inb_S64x512_S64x512_0_0 : ∀ a, (![0, 0] : Fin 2 → Nat) a + S64x512.size a ≤ S64x512.size a
  h_S64x512 : 0 < S64x512.numel
  shapeCasts_S64x512_S64x512 : S64x512.ShapeCasts S64x512
  slices_S64x512_o0_0_S64x256 : S64x512.Slices ![0, 0] S64x256
  slices_S64x512_o0_256_S64x256 : S64x512.Slices ![0, 256] S64x256
  slices_S4096x256_o0_0_S4096x128 : S4096x256.Slices ![0, 0] S4096x128
  slices_S4096x256_o0_128_S4096x128 : S4096x256.Slices ![0, 128] S4096x128
  concatenates_S4096x128_S4096x128_S4096x256_d1 : Shape.Concatenates [S4096x128, S4096x128] S4096x256 1
  reduces_S4096x64_S64 : S4096x64.Reduces [0] S64
  shapeCasts_S64_S64x1 : S64.ShapeCasts S64x1
  shapeCasts_S64x1_S64x1 : S64x1.ShapeCasts S64x1
  broadcasts_S64x1_S64x128 : S64x1.Broadcasts S64x128
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  shapeCasts_S64x256_S1x64x256 : S64x256.ShapeCasts S1x64x256
  slices_S2x64x128_S1x64x1_0_0_0 : S2x64x128.Slices ![0, 0, 0] S1x64x1
  shapeCasts_S1x64x1_S64 : S1x64x1.ShapeCasts S64
  slices_S2x64x128_S1x64x1_1_0_0 : S2x64x128.Slices ![1, 0, 0] S1x64x1
  slices_S2x64x256_S1x64x128_0_0_0 : S2x64x256.Slices ![0, 0, 0] S1x64x128
  slices_S2x64x256_S1x64x128_1_0_0 : S2x64x256.Slices ![1, 0, 0] S1x64x128
  slices_S2x64x256_S1x64x128_0_0_128 : S2x64x256.Slices ![0, 0, 128] S1x64x128
  slices_S2x64x256_S1x64x128_1_0_128 : S2x64x256.Slices ![1, 0, 128] S1x64x128
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S_S64x128 : S_.BroadcastsInDim S64x128 (![] : Fin 0 → Fin S64x128.rank)
  dot_S4096x64_S64x256_S4096x256_1_0_0_1_n_n_wf : DotDims.WF S4096x64 S64x256 S4096x256 [1] [0] [0] [1] [] []
  dot_S4096x64_S4096x256_S64x256_0_0_1_1_n_n_wf : DotDims.WF S4096x64 S4096x256 S64x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S131072.size a
  hwx0_1 : ∀ i : grid0.Coords, EltTy.bits .i32 = 32 ∨ (Rect.block (s := S131072) S4096.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x512.size a
  hwx0_2 : ∀ i : grid0.Coords, EltTy.bits .bf16 = 32 ∨ (Rect.block (s := S64x512) S64x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S131072x128.size a
  hwx0_3 : ∀ i : grid0.Coords, EltTy.bits .f32 = 32 ∨ (Rect.block (s := S131072x128) S4096x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x128.size a ≤ S2x64x128.size a
  hwx0_4 : ∀ i : grid0.Coords, EltTy.bits .f32 = 32 ∨ (Rect.block (s := S2x64x128) S1x64x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x256.size a ≤ S2x64x256.size a
  hwx0_5 : ∀ i : grid0.Coords, EltTy.bits .f32 = 32 ∨ (Rect.block (s := S2x64x256) S1x64x256.size (cc0_transform_5 i) (hinb0_5 i)).WholeWords (EltTy.packing .f32)

variable [Facts₀]

def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf
def dot_S4096x64_S4096x256_S64x256_0_0_1_1_n_n : DotDims S4096x64 S4096x256 S64x256 where
  lhsContracting := [0]
  rhsContracting := [0]
  lhsNonContracting := [1]
  rhsNonContracting := [1]
  lhsBatch := []
  rhsBatch := []
  wf := dot_S4096x64_S4096x256_S64x256_0_0_1_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S64x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11_0) S4096x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11_1) S1x64x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11_2) S1x64x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S131072x128 : Shape := ⟨2, ![131072, 128]⟩
abbrev S131072 : Shape := ⟨1, ![131072]⟩
abbrev S64x128 : Shape := ⟨2, ![64, 128]⟩
abbrev S64 : Shape := ⟨1, ![64]⟩
abbrev S_ : Shape := ⟨0, ![]⟩
abbrev S131072x1 : Shape := ⟨2, ![131072, 1]⟩
abbrev S64x1 : Shape := ⟨2, ![64, 1]⟩

abbrev nBuf : Space → Nat
  | .hbm => 110
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S131072, .i32⟩
  | .hbm, ⟨2, _⟩ => ⟨S64x128, .f32⟩
  | .hbm, ⟨3, _⟩ => ⟨S64x128, .f32⟩
  | .hbm, ⟨4, _⟩ => ⟨S64x128, .f32⟩
  | .hbm, ⟨5, _⟩ => ⟨S64, .i32⟩
  | .hbm, ⟨6, _⟩ => ⟨S_, .i32⟩
  | .hbm, ⟨7, _⟩ => ⟨S131072, .i32⟩
  | .hbm, ⟨8, _⟩ => ⟨S131072, .i1⟩
  | .hbm, ⟨9, _⟩ => ⟨S_, .i32⟩
  | .hbm, ⟨10, _⟩ => ⟨S131072, .i32⟩
  | .hbm, ⟨11, _⟩ => ⟨S131072, .i32⟩
  | .hbm, ⟨12, _⟩ => ⟨S131072, .i32⟩
  | .hbm, ⟨13, _⟩ => ⟨S131072x1, .i32⟩
  | .hbm, ⟨14, _⟩ => ⟨S131072x128, .f32⟩
  | .hbm, ⟨15, _⟩ => ⟨S_, .i32⟩
  | .hbm, ⟨16, _⟩ => ⟨S131072, .i32⟩
  | .hbm, ⟨17, _⟩ => ⟨S131072, .i1⟩
  | .hbm, ⟨18, _⟩ => ⟨S_, .i32⟩
  | .hbm, ⟨19, _⟩ => ⟨S131072, .i32⟩
  | .hbm, ⟨20, _⟩ => ⟨S131072, .i32⟩
  | .hbm, ⟨21, _⟩ => ⟨S131072, .i32⟩
  | .hbm, ⟨22, _⟩ => ⟨S131072x1, .i32⟩
  | .hbm, ⟨23, _⟩ => ⟨S131072x128, .f32⟩
  | .hbm, ⟨24, _⟩ => ⟨S131072x128, .f32⟩
  | .hbm, ⟨25, _⟩ => ⟨S_, .f32⟩
  | .hbm, ⟨26, _⟩ => ⟨S131072x128, .f32⟩
  | .hbm, ⟨27, _⟩ => ⟨S131072x128, .f32⟩
  | .hbm, ⟨28, _⟩ => ⟨S131072x128, .f32⟩
  | .hbm, ⟨29, _⟩ => ⟨S_, .f32⟩
  | .hbm, ⟨30, _⟩ => ⟨S131072, .f32⟩
  | .hbm, ⟨31, _⟩ => ⟨S_, .f32⟩
  | .hbm, ⟨32, _⟩ => ⟨S64, .f32⟩
  | .hbm, ⟨33, _⟩ => ⟨S131072x1, .i32⟩
  | .hbm, ⟨34, _⟩ => ⟨S64, .f32⟩
  | .hbm, ⟨35, _⟩ => ⟨S_, .f32⟩
  | .hbm, ⟨36, _⟩ => ⟨S64x128, .f32⟩
  | .hbm, ⟨37, _⟩ => ⟨S131072x1, .i32⟩
  | .hbm, ⟨38, _⟩ => ⟨S64x128, .f32⟩
  | .hbm, ⟨39, _⟩ => ⟨S_, .f32⟩
  | .hbm, ⟨40, _⟩ => ⟨S64, .f32⟩
  | .hbm, ⟨41, _⟩ => ⟨S64, .f32⟩
  | .hbm, ⟨42, _⟩ => ⟨S64x1, .f32⟩
  | .hbm, ⟨43, _⟩ => ⟨S64x128, .f32⟩
  | .hbm, ⟨44, _⟩ => ⟨S64x128, .f32⟩
  | .hbm, ⟨45, _⟩ => ⟨S_, .i32⟩
  | .hbm, ⟨46, _⟩ => ⟨S131072, .i32⟩
  | .hbm, ⟨47, _⟩ => ⟨S131072, .i1⟩
  | .hbm, ⟨48, _⟩ => ⟨S_, .i32⟩
  | .hbm, ⟨49, _⟩ => ⟨S131072, .i32⟩
  | .hbm, ⟨50, _⟩ => ⟨S131072, .i32⟩
  | .hbm, ⟨51, _⟩ => ⟨S131072, .i32⟩
  | .hbm, ⟨52, _⟩ => ⟨S131072x1, .i32⟩
  | .hbm, ⟨53, _⟩ => ⟨S131072x128, .f32⟩
  | .hbm, ⟨54, _⟩ => ⟨S131072x128, .f32⟩
  | .hbm, ⟨55, _⟩ => ⟨S131072x128, .f32⟩
  | .hbm, ⟨56, _⟩ => ⟨S_, .f32⟩
  | .hbm, ⟨57, _⟩ => ⟨S64x128, .f32⟩
  | .hbm, ⟨58, _⟩ => ⟨S131072x1, .i32⟩
  | .hbm, ⟨59, _⟩ => ⟨S64x128, .f32⟩
  | .hbm, ⟨60, _⟩ => ⟨S64x1, .f32⟩
  | .hbm, ⟨61, _⟩ => ⟨S64x128, .f32⟩
  | .hbm, ⟨62, _⟩ => ⟨S64x128, .f32⟩
  | .hbm, ⟨63, _⟩ => ⟨S64, .f32⟩
  | .hbm, ⟨64, _⟩ => ⟨S64, .f32⟩
  | .hbm, ⟨65, _⟩ => ⟨S_, .f32⟩
  | .hbm, ⟨66, _⟩ => ⟨S64, .f32⟩
  | .hbm, ⟨67, _⟩ => ⟨S64, .f32⟩
  | .hbm, ⟨68, _⟩ => ⟨S64x128, .f32⟩
  | .hbm, ⟨69, _⟩ => ⟨S64, .f32⟩
  | .hbm, ⟨70, _⟩ => ⟨S64x1, .f32⟩
  | .hbm, ⟨71, _⟩ => ⟨S64x128, .f32⟩
  | .hbm, ⟨72, _⟩ => ⟨S64x128, .f32⟩
  | .hbm, ⟨73, _⟩ => ⟨S64x128, .f32⟩
  | .hbm, ⟨74, _⟩ => ⟨S64x1, .f32⟩
  | .hbm, ⟨75, _⟩ => ⟨S64x128, .f32⟩
  | .hbm, ⟨76, _⟩ => ⟨S64x128, .f32⟩
  | .hbm, ⟨77, _⟩ => ⟨S64x1, .f32⟩
  | .hbm, ⟨78, _⟩ => ⟨S64x128, .f32⟩
  | .hbm, ⟨79, _⟩ => ⟨S64x128, .f32⟩
  | .hbm, ⟨80, _⟩ => ⟨S64x128, .f32⟩
  | .hbm, ⟨81, _⟩ => ⟨S64x128, .f32⟩
  | .hbm, ⟨82, _⟩ => ⟨S64, .f32⟩
  | .hbm, ⟨83, _⟩ => ⟨S64, .f32⟩
  | .hbm, ⟨84, _⟩ => ⟨S64x1, .f32⟩
  | .hbm, ⟨85, _⟩ => ⟨S64x128, .f32⟩
  | .hbm, ⟨86, _⟩ => ⟨S64x128, .f32⟩
  | .hbm, ⟨87, _⟩ => ⟨S64x128, .f32⟩
  | .hbm, ⟨88, _⟩ => ⟨S64x1, .f32⟩
  | .hbm, ⟨89, _⟩ => ⟨S64x128, .f32⟩
  | .hbm, ⟨90, _⟩ => ⟨S64x128, .f32⟩
  | .hbm, ⟨91, _⟩ => ⟨S_, .f32⟩
  | .hbm, ⟨92, _⟩ => ⟨S64, .f32⟩
  | .hbm, ⟨93, _⟩ => ⟨S64, .i1⟩
  | .hbm, ⟨94, _⟩ => ⟨S64x1, .i1⟩
  | .hbm, ⟨95, _⟩ => ⟨S_, .f32⟩
  | .hbm, ⟨96, _⟩ => ⟨S64, .f32⟩
  | .hbm, ⟨97, _⟩ => ⟨S64, .i1⟩
  | .hbm, ⟨98, _⟩ => ⟨S64x1, .i1⟩
  | .hbm, ⟨99, _⟩ => ⟨S64x128, .i1⟩
  | .hbm, ⟨100, _⟩ => ⟨S64x128, .f32⟩
  | .hbm, ⟨101, _⟩ => ⟨S64x128, .i1⟩
  | .hbm, ⟨102, _⟩ => ⟨S64x128, .f32⟩
  | .hbm, ⟨103, _⟩ => ⟨S64x128, .i1⟩
  | .hbm, ⟨104, _⟩ => ⟨S64x128, .f32⟩
  | .hbm, ⟨105, _⟩ => ⟨S64x128, .f32⟩
  | .hbm, ⟨106, _⟩ => ⟨S64x128, .i1⟩
  | .hbm, ⟨107, _⟩ => ⟨S64x128, .f32⟩
  | .hbm, ⟨108, _⟩ => ⟨S64, .i32⟩
  | .hbm, ⟨109, _⟩ => ⟨S64, .i32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_7 : Ref sig .tc := ⟨.hbm, 45, rfl⟩
abbrev main_v30 : Ref sig .tc := ⟨.hbm, 46, rfl⟩
abbrev main_v31 : Ref sig .tc := ⟨.hbm, 47, rfl⟩
abbrev main_c_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_11 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_12 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_call0_v0 : Ref sig .tc := ⟨.hbm, 99, rfl⟩
abbrev main_v78 : Ref sig .tc := ⟨.hbm, 100, rfl⟩
abbrev main_call1_v0 : Ref sig .tc := ⟨.hbm, 101, rfl⟩
abbrev main_v79 : Ref sig .tc := ⟨.hbm, 102, rfl⟩
abbrev main_call2_v0 : Ref sig .tc := ⟨.hbm, 103, rfl⟩
abbrev main_v80 : Ref sig .tc := ⟨.hbm, 104, rfl⟩
abbrev main_v81 : Ref sig .tc := ⟨.hbm, 105, rfl⟩
abbrev main_call3_v0 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  bcast_S_S131072x128 : S_.BroadcastsInDim S131072x128 (![] : Fin 0 → Fin S131072x128.rank)
  bcast_S_S64 : S_.BroadcastsInDim S64 (![] : Fin 0 → Fin S64.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  gather_S64x128_S131072x1_S131072x128_1_0_n_n_0_1_1128_wf : GatherDims.WF S64x128 S131072x1 S131072x128 [1] [0] [] [0] [] 1 ![1, 128]
  scatter_S64_S131072x1_S131072_n_0_0_1_wf : ScatterDims.WF S64 S131072x1 S131072 [] [0] [0] 1
  scatter_S64x128_S131072x1_S131072x128_1_0_0_1_wf : ScatterDims.WF S64x128 S131072x1 S131072x128 [1] [0] [0] 1

variable [Facts₀]

def gather_S64x128_S131072x1_S131072x128_1_0_n_n_0_1_1128 : GatherDims S64x128 S131072x1 S131072x128 where
  offsetDims := [1]
  collapsedSliceDims := [0]
  operandBatchingDims := []
  startIndicesBatchingDims := []
  startIndexMap := [0]
  indexVectorDim := 1
  sliceSizes := ![1, 128]
  wf := gather_S64x128_S131072x1_S131072x128_1_0_n_n_0_1_1128_wf
def scatter_S64_S131072x1_S131072_n_0_0_1 : ScatterDims S64 S131072x1 S131072 where
  updateWindowDims := []
  insertedWindowDims := [0]
  scatterDimsToOperandDims := [0]
  indexVectorDim := 1
  wf := scatter_S64_S131072x1_S131072_n_0_0_1_wf
def scatter_S64x128_S131072x1_S131072x128_1_0_0_1 : ScatterDims S64x128 S131072x1 S131072x128 where
  updateWindowDims := [1]
  insertedWindowDims := [0]
  scatterDimsToOperandDims := [0]
  indexVectorDim := 1
  wf := scatter_S64x128_S131072x1_S131072x128_1_0_0_1_wf

class Facts : Prop extends Facts₀ where

variable [Facts]
-- ==== Proof.KernelRuns.lean ====
/-
  What the runs of the kernel body at the three kinds of grid point, and the frame module that launches the
  region around them, share: @main as host lines, the region, host lines; the contents the region is entered
  at; the windows' blocks read off those contents; the two branch conditions of the body, decided over the
  32 grid points; where the two accumulator outputs are idle; the staging and scratch memrefs the body is
  called with; and the region invariant as ownership of the two scratch accumulators.
-/
import proofs.«402983_j34497177321524_3_alg».proof.Proof.Gen.Kernel.Launch
import proofs.«402983_j34497177321524_3_alg».proof.Proof.Gen.Kernel.Skeleton
import proofs.«402983_j34497177321524_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The seven host stretches that follow the region, in order. -/
abbrev tailOps : List (List (HloOp τ sig (Elt F))) :=
  [hostOps1, hostOps1_1, hostOps1_2, hostOps1_3, hostOps1_4, hostOps1_5, hostOps1_6]

/-- Core c's TensorCore buffer contents when the region is entered, as a valuation: the launch contents after
    the eleven host operations that build the gather table. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- An operation that writes one buffer y writes no reference of a list K that y is not in. -/
theorem not_writes_of {K : List (Ref sig .tc)} {op : HloOp τ sig (Elt F)} {y : Ref sig .tc}
    (hw : op.writes = {Proc.devRef .tc y}) (hy : y ∉ K) : ∀ r ∈ K, Proc.devRef .tc r ∉ op.writes := by
  intro r hr hmem
  rw [hw, Finset.mem_singleton] at hmem
  exact hy (Proc.devRef_injective _ hmem ▸ hr)

/-- The references the host lines must leave alone: the six arguments and the four arrays of the region that are
    no argument (the gather table and the three results). -/
abbrev kept : List (Ref sig .tc) :=
  [main_arg0, main_arg1, main_arg2, main_arg3, main_arg4, main_arg5, main_v10, main_v11_0, main_v11_1, main_v11_2]

theorem hostOps0_fresh : (hostOps0 : List (HloOp τ sig (Elt F))).Forall fun op => op.fresh = ∅ := by
  repeat' (first | exact rfl | refine ⟨rfl, ?_⟩)
theorem hostOps1_fresh : (hostOps1 : List (HloOp τ sig (Elt F))).Forall fun op => op.fresh = ∅ := by
  repeat' (first | exact rfl | refine ⟨rfl, ?_⟩)
theorem hostOps1_1_fresh : (hostOps1_1 : List (HloOp τ sig (Elt F))).Forall fun op => op.fresh = ∅ := by
  repeat' (first | exact rfl | refine ⟨rfl, ?_⟩)
theorem hostOps1_2_fresh : (hostOps1_2 : List (HloOp τ sig (Elt F))).Forall fun op => op.fresh = ∅ := by
  repeat' (first | exact rfl | refine ⟨rfl, ?_⟩)
theorem hostOps1_3_fresh : (hostOps1_3 : List (HloOp τ sig (Elt F))).Forall fun op => op.fresh = ∅ := by
  repeat' (first | exact rfl | refine ⟨rfl, ?_⟩)
theorem hostOps1_4_fresh : (hostOps1_4 : List (HloOp τ sig (Elt F))).Forall fun op => op.fresh = ∅ := by
  repeat' (first | exact rfl | refine ⟨rfl, ?_⟩)
theorem hostOps1_5_fresh : (hostOps1_5 : List (HloOp τ sig (Elt F))).Forall fun op => op.fresh = ∅ := by
  repeat' (first | exact rfl | refine ⟨rfl, ?_⟩)
theorem hostOps1_6_fresh : (hostOps1_6 : List (HloOp τ sig (Elt F))).Forall fun op => op.fresh = ∅ := by
  repeat' (first | exact rfl | refine ⟨rfl, ?_⟩)

/-- A property of operations that holds along each of the seven stretches holds of every operation after the region. -/
theorem tail_forall {P : HloOp τ sig (Elt F) → Prop}
    (h0 : (hostOps1 : List (HloOp τ sig (Elt F))).Forall P) (h1 : (hostOps1_1 : List (HloOp τ sig (Elt F))).Forall P)
    (h2 : (hostOps1_2 : List (HloOp τ sig (Elt F))).Forall P) (h3 : (hostOps1_3 : List (HloOp τ sig (Elt F))).Forall P)
    (h4 : (hostOps1_4 : List (HloOp τ sig (Elt F))).Forall P) (h5 : (hostOps1_5 : List (HloOp τ sig (Elt F))).Forall P)
    (h6 : (hostOps1_6 : List (HloOp τ sig (Elt F))).Forall P) :
    ∀ ops ∈ (tailOps : List (List (HloOp τ sig (Elt F)))), ∀ op ∈ ops, P op := by
  intro ops hops
  simp only [List.mem_cons, List.mem_nil_iff, or_false] at hops
  rcases hops with rfl | rfl | rfl | rfl | rfl | rfl | rfl
  exacts [List.forall_iff_forall_mem.mp h0, List.forall_iff_forall_mem.mp h1, List.forall_iff_forall_mem.mp h2,
    List.forall_iff_forall_mem.mp h3, List.forall_iff_forall_mem.mp h4, List.forall_iff_forall_mem.mp h5,
    List.forall_iff_forall_mem.mp h6]

/-- The six argument references. -/
abbrev args : List (Ref sig .tc) := [main_arg0, main_arg1, main_arg2, main_arg3, main_arg4, main_arg5]

/-- The eleven operations before the region write the table's pieces and the table, no argument. -/
theorem hostOps0_keeps : (hostOps0 : List (HloOp τ sig (Elt F))).Forall fun op => ∀ r ∈ args, Proc.devRef .tc r ∉ op.writes := by
  repeat' (first | exact not_writes_of rfl (by decide) | refine ⟨not_writes_of rfl (by decide), ?_⟩)

/-- Each operation after the region writes its own result buffer, which is no argument and no array of the region:
    stretch by stretch. -/
theorem hostOps1_keeps : (hostOps1 : List (HloOp τ sig (Elt F))).Forall fun op => ∀ r ∈ kept, Proc.devRef .tc r ∉ op.writes := by
  repeat' (first | exact not_writes_of rfl (by decide) | refine ⟨not_writes_of rfl (by decide), ?_⟩)
theorem hostOps1_1_keeps : (hostOps1_1 : List (HloOp τ sig (Elt F))).Forall fun op => ∀ r ∈ kept, Proc.devRef .tc r ∉ op.writes := by
  repeat' (first | exact not_writes_of rfl (by decide) | refine ⟨not_writes_of rfl (by decide), ?_⟩)
theorem hostOps1_2_keeps : (hostOps1_2 : List (HloOp τ sig (Elt F))).Forall fun op => ∀ r ∈ kept, Proc.devRef .tc r ∉ op.writes := by
  repeat' (first | exact not_writes_of rfl (by decide) | refine ⟨not_writes_of rfl (by decide), ?_⟩)
theorem hostOps1_3_keeps : (hostOps1_3 : List (HloOp τ sig (Elt F))).Forall fun op => ∀ r ∈ kept, Proc.devRef .tc r ∉ op.writes := by
  repeat' (first | exact not_writes_of rfl (by decide) | refine ⟨not_writes_of rfl (by decide), ?_⟩)
theorem hostOps1_4_keeps : (hostOps1_4 : List (HloOp τ sig (Elt F))).Forall fun op => ∀ r ∈ kept, Proc.devRef .tc r ∉ op.writes := by
  repeat' (first | exact not_writes_of rfl (by decide) | refine ⟨not_writes_of rfl (by decide), ?_⟩)
theorem hostOps1_5_keeps : (hostOps1_5 : List (HloOp τ sig (Elt F))).Forall fun op => ∀ r ∈ kept, Proc.devRef .tc r ∉ op.writes := by
  repeat' (first | exact not_writes_of rfl (by decide) | refine ⟨not_writes_of rfl (by decide), ?_⟩)
theorem hostOps1_6_keeps : (hostOps1_6 : List (HloOp τ sig (Elt F))).Forall fun op => ∀ r ∈ kept, Proc.devRef .tc r ∉ op.writes := by
  repeat' (first | exact not_writes_of rfl (by decide) | refine ⟨not_writes_of rfl (by decide), ?_⟩)

/-- No operation after the region writes a reference of the list. -/
theorem tail_keeps : ∀ ops ∈ (tailOps : List (List (HloOp τ sig (Elt F)))), ∀ op ∈ ops, ∀ r ∈ kept, Proc.devRef .tc r ∉ op.writes :=
  tail_forall hostOps1_keeps hostOps1_1_keeps hostOps1_2_keeps hostOps1_3_keeps hostOps1_4_keeps hostOps1_5_keeps hostOps1_6_keeps

/-- Every array of the region is in the list. -/
theorem arr_mem_kept : ∀ w : Fin 6, Pipeline.arrRef spec0 w ∈ kept := by decide

/-- @main around the region: the host lines before it, the region, the seven host stretches after it. It reduces
    to the region continued by the later stretches, at the contents after the earlier lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [hostOps0] tailOps hostOps0_sub hostOps0_fresh main_chain

/-- The stretches after the region touch the region's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  have hsub : ∀ {L : List (HloOp τ sig (Elt F))}, (L.Forall fun op => op.bufs ⊆ StableHlo.tcRefs τ sig) →
      L.Forall fun op => op.bufs ⊆ Pipeline.ucRefs τ sig := fun h =>
    List.forall_iff_forall_mem.mpr fun op hop => Pipeline.sub_ucRefs op (List.forall_iff_forall_mem.mp h op hop)
  exact tail_forall (hsub hostOps1_sub) (hsub hostOps1_1_sub) (hsub hostOps1_2_sub) (hsub hostOps1_3_sub)
    (hsub hostOps1_4_sub) (hsub hostOps1_5_sub) (hsub hostOps1_6_sub)
/-- They allocate nothing. -/
theorem sfx_fresh : ∀ ops ∈ (tailOps : List (List (HloOp τ sig (Elt F)))), ∀ op ∈ ops, op.fresh = ∅ :=
  tail_forall hostOps1_fresh hostOps1_1_fresh hostOps1_2_fresh hostOps1_3_fresh hostOps1_4_fresh hostOps1_5_fresh hostOps1_6_fresh
/-- And write no array of the region. -/
theorem sfx_keeps : ∀ ops ∈ (tailOps : List (List (HloOp τ sig (Elt F)))), ∀ op ∈ ops,
    ∀ w, Proc.devRef .tc (Pipeline.arrRef spec0 w) ∉ op.writes :=
  fun ops hops op hop w => tail_keeps ops hops op hop _ (arr_mem_kept w)

/-- An argument holds at the region's entry what it held at launch: no operation before the region writes it. -/
theorem V_of_mem_args (c : Dev nD) {r : Ref sig .tc} (hr : r ∈ args) : V m c r = m ((c : Thread nD τ).loc r) :=
  StableHlo.after_of_forall_not_mem _ _ fun op hop =>
    List.forall_iff_forall_mem.mp hostOps0_keeps op
      (by simpa only [List.flatten_cons, List.flatten_nil, List.append_nil] using hop) r hr

theorem V_main_arg0 (c : Dev nD) : V m c main_arg0 = m ((c : Thread nD τ).loc main_arg0) := V_of_mem_args m c (by decide)
theorem V_main_arg1 (c : Dev nD) : V m c main_arg1 = m ((c : Thread nD τ).loc main_arg1) := V_of_mem_args m c (by decide)
theorem V_main_arg2 (c : Dev nD) : V m c main_arg2 = m ((c : Thread nD τ).loc main_arg2) := V_of_mem_args m c (by decide)
theorem V_main_arg3 (c : Dev nD) : V m c main_arg3 = m ((c : Thread nD τ).loc main_arg3) := V_of_mem_args m c (by decide)
theorem V_main_arg4 (c : Dev nD) : V m c main_arg4 = m ((c : Thread nD τ).loc main_arg4) := V_of_mem_args m c (by decide)
theorem V_main_arg5 (c : Dev nD) : V m c main_arg5 = m ((c : Thread nD τ).loc main_arg5) := V_of_mem_args m c (by decide)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0 (the rows of x): its current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t := by
  -- the block of the proof data's array is the block of the entry contents
  have hblk : ∀ t, dat.blockOf 0 t = iblk m c 0 t := fun t =>
    congrArg (((cfg0.win 0).blk t).view.read (Elt F)) hA
  -- the body leaves the block in place (the window is uncut: what is moved is all of it)
  have hkeep : ∀ t, (cfg0.win 0).cut (cfg0.grid.coords t) (dat.after 0 t) = dat.blockOf 0 t := fun t =>
    (hafter t).trans (hblk t).symm
  -- so the buffer holds what a fetch would put there, fetched at this point or not; uncut, that is the block
  exact (dat.before_in_eq_fetched 0 rfl (fun _ => rfl) (fun _ _ _ => rfl) hkeep t d).trans (hblk t)
/-- Input window 1 (the task ids of the rows). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t := by
  -- the block of the proof data's array is the block of the entry contents
  have hblk : ∀ t, dat.blockOf 1 t = iblk m c 1 t := fun t =>
    congrArg (((cfg0.win 1).blk t).view.read (Elt F)) hA
  -- the body leaves the block in place (the window is uncut: what is moved is all of it)
  have hkeep : ∀ t, (cfg0.win 1).cut (cfg0.grid.coords t) (dat.after 1 t) = dat.blockOf 1 t := fun t =>
    (hafter t).trans (hblk t).symm
  -- so the buffer holds what a fetch would put there, fetched at this point or not; uncut, that is the block
  exact (dat.before_in_eq_fetched 1 rfl (fun _ => rfl) (fun _ _ _ => rfl) hkeep t d).trans (hblk t)
/-- Input window 2 (the gather table): fetched at the first point only, its block index never moves. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t := by
  -- the block of the proof data's array is the block of the entry contents
  have hblk : ∀ t, dat.blockOf 2 t = iblk m c 2 t := fun t =>
    congrArg (((cfg0.win 2).blk t).view.read (Elt F)) hA
  -- the body leaves the block in place (the window is uncut: what is moved is all of it)
  have hkeep : ∀ t, (cfg0.win 2).cut (cfg0.grid.coords t) (dat.after 2 t) = dat.blockOf 2 t := fun t =>
    (hafter t).trans (hblk t).symm
  -- so the buffer holds what a fetch would put there, fetched at this point or not; uncut, that is the block
  exact (dat.before_in_eq_fetched 2 rfl (fun _ => rfl) (fun _ _ _ => rfl) hkeep t d).trans (hblk t)

/-! ## The frame claim's post from the frame run's -/

/-- A listed buffer that is no array of the region holds after the seven stretches what it held at the region's
    entry: the region leaves it (it is not an array) and no later operation writes it. -/
theorem afterTail_kept (dats : (p : Fin 1) → (c : Dev nD) → Dat τ (Elt F) Unit ℕ (UR sig nD τ) ℕ (cfgs p) c) (c : Dev nD)
    {b : Ref sig .tc} (hb : b ∈ kept) (ha : ∀ w, Pipeline.arrRef spec0 w ≠ b) :
    Pipeline.afterTail₀ cfgs dats 0 (V0 m) tailOps c b = V m c b := by
  unfold Pipeline.afterTail₀
  rw [StableHlo.after_of_forall_not_mem _ _ fun op hop => ?_, Pipeline.withArrays_of_ne _ c (V0 m c) _ b ha]
  obtain ⟨ops, hops, hop'⟩ := List.mem_flatten.mp hop
  exact tail_keeps ops hops op hop' b hb

/-- THE FRAME from a frame run: the two staged arguments end at the contents the proof data enter with (an input's
    array is never written), the four arguments no window stages at what they held at the region's entry; and at
    the region's entry every argument held its launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r hr c => ?_) h
  obtain ⟨harr, hrest⟩ := hr c
  have hin : ∀ w : Fin 6, (cfg0.win w).isOut = false →
      r.2.mem (((cfgs 0).spec w).arr.view.loc (c.tc : Thread nD τ)) = V m c (Pipeline.arrRef spec0 w) :=
    fun w hw => (harr w).trans (((dats 0 c).arrAt_in w hw _).trans (hA c w))
  have hby : ∀ b : Ref sig .tc, b ∈ kept → b.isScoped = false → (∀ w, Pipeline.arrRef spec0 w ≠ b) →
      r.2.mem ((c.tc : Thread nD τ).loc b) = V m c b :=
    fun b hb hs ha => (hrest b (Pipeline.mem_restRefs_of b hs ha)).trans (afterTail_kept m dats c hb ha)
  exact ⟨(hin 0 rfl).trans (V_main_arg0 m c), (hin 1 rfl).trans (V_main_arg1 m c),
    (hby main_arg2 (by decide) rfl (by decide)).trans (V_main_arg2 m c),
    (hby main_arg3 (by decide) rfl (by decide)).trans (V_main_arg3 m c),
    (hby main_arg4 (by decide) rfl (by decide)).trans (V_main_arg4 m c),
    (hby main_arg5 (by decide) rfl (by decide)).trans (V_main_arg5 m c)⟩

/-! ## The body's branch conditions -/

/-- The condition of the body's first branch (reset the accumulators), from the grid coordinates. -/
abbrev cond0_0 (i : grid0.Coords) : Prop := (Scalar.cmpi .ne (Scalar.extui (Scalar.cmpi .eq (BitVec.ofNat 32 (i 1).val) 0#32)) 0#32) = 1#1
/-- It holds where the second coordinate is 0: the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- The condition of the body's second branch (write the accumulators out), from the grid coordinates. -/
abbrev cond0_1 (i : grid0.Coords) : Prop := k0_cond2 i = 1#1
/-- It holds where the second coordinate is 15: the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-- A 16-step axis is never at step 0 and at step 15 at once. -/
theorem noCase_AC : ∀ t : Fin cfg0.N, cond0_0 (grid0.coords t) → ¬cond0_1 (grid0.coords t) := by
  intro t h0 h1
  have e0 := (hcond0_0 t).mp h0
  have e1 := (hcond0_1 t).mp h1
  omega

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
theorem liveAt0_4_C : ∀ t : Fin cfg0.N, ¬cond0_0 (grid0.coords t) → cond0_1 (grid0.coords t) → cfg0.idle 4 (grid0.coords t) = false := by decide +kernel
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
theorem liveAt0_5_C : ∀ t : Fin cfg0.N, ¬cond0_0 (grid0.coords t) → cond0_1 (grid0.coords t) → cfg0.idle 5 (grid0.coords t) = false := by decide +kernel

/-! ## The memrefs the body is called with -/

abbrev VO0_3 : View sig .tc .vmem S4096x128 .f32 := (Memref.whole cc0_stg3_0 : Memref sig .tc .vmem S4096x128 .f32).view
abbrev VO0_4 : View sig .tc .vmem S1x64x128 .f32 := (Memref.whole cc0_stg4_0 : Memref sig .tc .vmem S1x64x128 .f32).view
abbrev VO0_5 : View sig .tc .vmem S1x64x256 .f32 := (Memref.whole cc0_stg5_0 : Memref sig .tc .vmem S1x64x256 .f32).view
abbrev ms0_0 (t : Fin cfg0.N) : Memref sig .tc .vmem S4096x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64x256 .f32 := win0_5.stage (cfg0.slots t 5)
abbrev hs0_5 (t : Fin cfg0.N) : (ms0_5 t).IsWhole := hstage0_5 ((cfg0.slots t 5).cast nbuf0_5)
abbrev scM0_0 : Memref sig .tc .vmem S64x128 .f32 := Memref.whole cc0_scratch0
abbrev scM0_1 : Memref sig .tc .vmem S64x256 .f32 := Memref.whole cc0_scratch1
abbrev VS0_0 : View sig .tc .vmem S64x128 .f32 := scM0_0.view
abbrev VS0_1 : View sig .tc .vmem S64x256 .f32 := scM0_1.view

/-- The region invariant of a kernel that keeps state in scratch: the core's scoped buffers that are no staging
    buffer are the two accumulators, each a whole buffer owned at some contents, beside the random-bit register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA
  rw [scopedRest0_eq]
  simp only [owns_whole]
  -- the two sides now differ only in how the bound contents' type is spelled
  rfl

end Cert.Kernel.Region

end
-- ==== Proof.KernelRunA.lean ====
/-
  The whole-body run of the kernel function at the first point of each core's sixteen steps: the first
  conditional of the body is taken (the second grid coordinate is 0: both scratch accumulators are set to zero
  before the step's sums are added to them) and the second is not (nothing is written to the two partial-sum
  output windows). The lists of pieces that the body's stores leave in the output window's buffer and in the
  two scratch accumulators are the witness; the triple says that from the three input buffers at their
  contents, the output buffer and the two scratches at anything, and the two idle partial-sum buffers at given
  contents, the body runs to a continuation that is handed the inputs and the idle buffers as they were and
  the three written buffers with those pieces written.
-/
import proofs.«402983_j34497177321524_3_alg».proof.Proof.KernelRuns

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run when its first conditional is taken and its second is not. The three lists are what the
    body's stores leave, last store first, in the output window's buffer and in the two scratch accumulators:
    the run finds them. On whole buffers — the three inputs at contents x0, x1, x2; the output's, which the body
    loads once before it overwrites it whole, at anything; the two partial-sum buffers, which this case leaves
    alone, at xi4 and xi5; the two scratches, which this case zeroes before it adds to them, at anything — the
    body runs to the continuation, which gets the inputs and the two partial-sum buffers back unchanged and
    the output's buffer and the scratches with their pieces written. -/
noncomputable def kernelRun0_A (c : Dev nD) (i : grid0.Coords) (arg2 : Memref sig .tc .vmem S4096x128 .f32) (harg2 : arg2.IsWhole) (arg3 : Memref sig .tc .vmem S4096 .i32) (harg3 : arg3.IsWhole) (arg4 : Memref sig .tc .vmem S64x512 .bf16) (harg4 : arg4.IsWhole) (arg5 : Memref sig .tc .vmem S4096x128 .f32) (harg5 : arg5.IsWhole) (arg6 : Memref sig .tc .vmem S1x64x128 .f32) (harg6 : arg6.IsWhole) (arg7 : Memref sig .tc .vmem S1x64x256 .f32) (harg7 : arg7.IsWhole) (arg8 : Memref sig .tc .vmem S64x128 .f32) (harg8 : arg8.IsWhole) (arg9 : Memref sig .tc .vmem S64x256 .f32) (harg9 : arg9.IsWhole) (hc0 : cond0_0 i) (hc1 : ¬cond0_1 i)
    (x0 : Vec F S4096x128 .f32) (x1 : Vec F S4096 .i32) (x2 : Vec F S64x512 .bf16) :
    Σ' (L3 : List (View.Piece (Elt F) S4096x128 .f32)) (LS0 : List (View.Piece (Elt F) S64x128 .f32)), { LS1 : List (View.Piece (Elt F) S64x256 .f32) //
      ∀ (xi4 : Vec F S1x64x128 .f32) (xi5 : Vec F S1x64x256 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨?_, ?_, ⟨?_, fun xi4 xi5 E K => ?run⟩⟩
  case run =>
    simp only [cc0__kernel_eq_skeleton]; unfold cc0__kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [H4]
    · iexists _; isplitr; · ipureintro; exact harg6.read_unread _
      iexact H4
    isplitl [H5]
    · iexists _; isplitr; · ipureintro; exact harg7.read_unread _
      iexact H5
    isplitl [HS0]
    · iexists _; iexact HS0
    iexists _; iexact HS1

end Cert.Kernel.Region

end
-- ==== Proof.KernelRunB.lean ====
/-
  The whole-body run of the kernel function at a MIDDLE grid point: neither conditional region of the body is
  entered. The two scratch accumulators hold what the point before left and the body adds this point's partial
  sums to them; the normalized block is stored whole into the output window's buffer (which the body first
  loads, a value nothing reads); the three input windows' buffers are only read; the buffers of the two
  partial-sum output windows are not touched and are handed back as they came.
-/
import proofs.«402983_j34497177321524_3_alg».proof.Proof.KernelRunA

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave, last first, in the output window's buffer (`L3`) and in the two scratch
    accumulators (`LS0`, `LS1`) at a grid point where neither conditional region is entered, WITH the run itself:
    from whole buffers — the three inputs' at contents `x0`, `x1`, `x2`, the output window's at anything, the two
    idle partial-sum windows' at `xi4`, `xi5`, the two accumulators at what the point before left, `xs0`, `xs1` —
    the body runs to a continuation that holds the inputs' and the idle windows' buffers as they were, and the
    output window's and the two accumulators' buffers with those pieces written. -/
noncomputable def kernelRun0_B (c : Dev nD) (i : grid0.Coords) (arg2 : Memref sig .tc .vmem S4096x128 .f32) (harg2 : arg2.IsWhole) (arg3 : Memref sig .tc .vmem S4096 .i32) (harg3 : arg3.IsWhole) (arg4 : Memref sig .tc .vmem S64x512 .bf16) (harg4 : arg4.IsWhole) (arg5 : Memref sig .tc .vmem S4096x128 .f32) (harg5 : arg5.IsWhole) (arg6 : Memref sig .tc .vmem S1x64x128 .f32) (harg6 : arg6.IsWhole) (arg7 : Memref sig .tc .vmem S1x64x256 .f32) (harg7 : arg7.IsWhole) (arg8 : Memref sig .tc .vmem S64x128 .f32) (harg8 : arg8.IsWhole) (arg9 : Memref sig .tc .vmem S64x256 .f32) (harg9 : arg9.IsWhole) (hc0 : ¬cond0_0 i) (hc1 : ¬cond0_1 i)
    (x0 : Vec F S4096x128 .f32) (x1 : Vec F S4096 .i32) (x2 : Vec F S64x512 .bf16) (xs0 : Vec F S64x128 .f32) (xs1 : Vec F S64x256 .f32) :
    Σ' (L3 : List (View.Piece (Elt F) S4096x128 .f32)) (LS0 : List (View.Piece (Elt F) S64x128 .f32)), { LS1 : List (View.Piece (Elt F) S64x256 .f32) //
      ∀ (xi4 : Vec F S1x64x128 .f32) (xi5 : Vec F S1x64x256 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨?_, ?_, ⟨?_, fun xi4 xi5 E K => ?run⟩⟩
  case run =>
    simp only [cc0__kernel_eq_skeleton]; unfold cc0__kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hf4; obtain rfl := harg7.eq_unread hf5
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [H4]
    · iexists _; isplitr; · ipureintro; exact harg6.read_unread _
      iexact H4
    isplitl [H5]
    · iexists _; isplitr; · ipureintro; exact harg7.read_unread _
      iexact H5
    isplitl [HS0]
    · iexists _; iexact HS0
    iexists _; iexact HS1

end Cert.Kernel.Region

end
-- ==== Proof.KernelRunC.lean ====
/-
  The run of the whole kernel body at the last step of a core: the second grid coordinate is 15, so the first
  conditional of the body (the reset of the two accumulators, at coordinate 0) is not taken and the second (the
  write-out, at coordinate 15) is taken.  At such a point the body reads the three input windows, stores the
  normalized block whole into the first output window's buffer (which it has loaded once before, a value it never
  uses), adds the step's per-task sums to the two scratch accumulators it finds at what the point before left in
  them, and then copies each accumulator whole into its partial-sum window's buffer (again after a load whose
  value is dropped).
-/
import proofs.«402983_j34497177321524_3_alg».proof.Proof.KernelRunB

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the proof term of the run is large: closing the definition walks it past the default budget)
set_option maxHeartbeats 1000000 in
/-- The pieces the body's stores leave in the three output windows' buffers and in the two scratch accumulators
    when the first conditional is not taken and the second is, together with the triple that finds them: on this
    path each of the five buffers is stored into exactly once, whole, so each list is one piece (`View.writes` would
    list a later store ahead of an earlier one).  Held at entry: the three input windows' buffers at their contents `x0`, `x1`, `x2`; the three
    output windows' buffers at any contents; the two accumulators at the contents `xs0`, `xs1` the point before
    left.  Every buffer is a whole memref, so what a whole-rectangle load reads of an input is the contents
    themselves.  The body then runs to any continuation that accepts the inputs as they were and each of the five
    written buffers at some base contents with its pieces written over them.  The two conditionals are decided by
    the hypotheses `hc0`, `hc1`; a piece list is fixed at the moment its buffer is handed to the continuation. -/
noncomputable def kernelRun0_C (c : Dev nD) (i : grid0.Coords) (arg2 : Memref sig .tc .vmem S4096x128 .f32) (harg2 : arg2.IsWhole) (arg3 : Memref sig .tc .vmem S4096 .i32) (harg3 : arg3.IsWhole) (arg4 : Memref sig .tc .vmem S64x512 .bf16) (harg4 : arg4.IsWhole) (arg5 : Memref sig .tc .vmem S4096x128 .f32) (harg5 : arg5.IsWhole) (arg6 : Memref sig .tc .vmem S1x64x128 .f32) (harg6 : arg6.IsWhole) (arg7 : Memref sig .tc .vmem S1x64x256 .f32) (harg7 : arg7.IsWhole) (arg8 : Memref sig .tc .vmem S64x128 .f32) (harg8 : arg8.IsWhole) (arg9 : Memref sig .tc .vmem S64x256 .f32) (harg9 : arg9.IsWhole) (hc0 : ¬cond0_0 i) (hc1 : cond0_1 i)
    (x0 : Vec F S4096x128 .f32) (x1 : Vec F S4096 .i32) (x2 : Vec F S64x512 .bf16) (xs0 : Vec F S64x128 .f32) (xs1 : Vec F S64x256 .f32) :
    Σ' (L3 : List (View.Piece (Elt F) S4096x128 .f32)) (L4 : List (View.Piece (Elt F) S1x64x128 .f32)) (L5 : List (View.Piece (Elt F) S1x64x256 .f32)) (LS0 : List (View.Piece (Elt F) S64x128 .f32)), { LS1 : List (View.Piece (Elt F) S64x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨?_, ?_, ?_, ?_, ?_, fun E K => ?run⟩
  case run =>
    simp only [cc0__kernel_eq_skeleton]; unfold cc0__kernel_skel
    unfold owns
    -- inputs and accumulators: contents read through the whole view; outputs: any contents
    iintro ⟨⟨%f0, %hf0, H0⟩, ⟨%f1, %hf1, H1⟩, ⟨%f2, %hf2, H2⟩, ⟨%d3, %f3, -, H3⟩, ⟨%d4, %f4, -, H4⟩,
      ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg8.eq_unread hfs0; obtain rfl := harg9.eq_unread hfs1
    -- the loads, stores and the two decided conditionals, in program order; then the return
    sl_exec (disch := first | exact hc0 | exact hc1)
    sl_step
    iapply Hk
    -- the three inputs are unchanged: reading back what was laid out gives the contents
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    -- the three outputs and the two accumulators: each buffer's writes are its piece list
    isplitl [H3]; · iexists _; iexact H3
    isplitl [H4]; · iexists _; iexact H4
    isplitl [H5]; · iexists _; iexact H5
    isplitl [HS0]; · iexists _; iexact HS0
    iexists _; iexact HS1

end Cert.Kernel.Region

end
-- ==== Proof.KernelData.lean ====
/-
  What the three cases of the kernel body leave in the output buffers and in the two scratch accumulators, as
  their piece lists read back; the accumulation of those contents point by point over the 32 grid points; the region
  invariant position by position; and the proof data of the pipeline stated over them.
-/
import proofs.«402983_j34497177321524_3_alg».proof.Proof.KernelRunC

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case of the body leaves -/

section Cases

variable (c : Dev nD) (i : grid0.Coords)
  (arg2 : Memref sig .tc .vmem S4096x128 .f32) (harg2 : arg2.IsWhole)
  (arg3 : Memref sig .tc .vmem S4096 .i32) (harg3 : arg3.IsWhole)
  (arg4 : Memref sig .tc .vmem S64x512 .bf16) (harg4 : arg4.IsWhole)
  (arg5 : Memref sig .tc .vmem S4096x128 .f32) (harg5 : arg5.IsWhole)
  (arg6 : Memref sig .tc .vmem S1x64x128 .f32) (harg6 : arg6.IsWhole)
  (arg7 : Memref sig .tc .vmem S1x64x256 .f32) (harg7 : arg7.IsWhole)
  (arg8 : Memref sig .tc .vmem S64x128 .f32) (harg8 : arg8.IsWhole)
  (arg9 : Memref sig .tc .vmem S64x256 .f32) (harg9 : arg9.IsWhole)

/-! ### Case A: the second coordinate is 0 — the accumulators are reset, then this block is added -/

/-- Case A's stores into the normalized-rows buffer tile it, so they cover it. -/
theorem cover0_A_3 (hc0 : cond0_0 i) (hc1 : ¬cond0_1 i) (x0 : Vec F S4096x128 .f32) (x1 : Vec F S4096 .i32) (x2 : Vec F S64x512 .bf16) (y : S4096x128.Idx) :
    ∃ pc ∈ (kernelRun0_A c i arg2 harg2 arg3 harg3 arg4 harg4 arg5 harg5 arg6 harg6 arg7 harg7 arg8 harg8 arg9 harg9 hc0 hc1 x0 x1 x2).1, y ∈ pc.1.set :=
  View.cover_of_tiledL (kernelRun0_A c i arg2 harg2 arg3 harg3 arg4 harg4 arg5 harg5 arg6 harg6 arg7 harg7 arg8 harg8 arg9 harg9 hc0 hc1 x0 x1 x2).1 S4096x128.size (by sl_kernel_rfl) y
/-- What case A leaves in the normalized-rows buffer: its pieces read back over junk. -/
def out0_A_3 (hc0 : cond0_0 i) (hc1 : ¬cond0_1 i) (x0 : Vec F S4096x128 .f32) (x1 : Vec F S4096 .i32) (x2 : Vec F S64x512 .bf16) : Vec F S4096x128 .f32 :=
  VO0_3.read (Elt F) (VO0_3.writes (Elt F) VO0_3.junk (kernelRun0_A c i arg2 harg2 arg3 harg3 arg4 harg4 arg5 harg5 arg6 harg6 arg7 harg7 arg8 harg8 arg9 harg9 hc0 hc1 x0 x1 x2).1)
/-- Case A's stores into the first accumulator cover it. -/
theorem scover0_A_0 (hc0 : cond0_0 i) (hc1 : ¬cond0_1 i) (x0 : Vec F S4096x128 .f32) (x1 : Vec F S4096 .i32) (x2 : Vec F S64x512 .bf16) (y : S64x128.Idx) :
    ∃ pc ∈ (kernelRun0_A c i arg2 harg2 arg3 harg3 arg4 harg4 arg5 harg5 arg6 harg6 arg7 harg7 arg8 harg8 arg9 harg9 hc0 hc1 x0 x1 x2).2.1, y ∈ pc.1.set :=
  View.cover_of_tiledL (kernelRun0_A c i arg2 harg2 arg3 harg3 arg4 harg4 arg5 harg5 arg6 harg6 arg7 harg7 arg8 harg8 arg9 harg9 hc0 hc1 x0 x1 x2).2.1 S64x128.size (by sl_kernel_rfl) y
/-- What case A leaves in the first accumulator. -/
def sout0_A_0 (hc0 : cond0_0 i) (hc1 : ¬cond0_1 i) (x0 : Vec F S4096x128 .f32) (x1 : Vec F S4096 .i32) (x2 : Vec F S64x512 .bf16) : Vec F S64x128 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2).2.1)
/-- Case A's stores into the second accumulator cover it. -/
theorem scover0_A_1 (hc0 : cond0_0 i) (hc1 : ¬cond0_1 i) (x0 : Vec F S4096x128 .f32) (x1 : Vec F S4096 .i32) (x2 : Vec F S64x512 .bf16) (y : S64x256.Idx) :
    ∃ pc ∈ (kernelRun0_A c i arg2 harg2 arg3 harg3 arg4 harg4 arg5 harg5 arg6 harg6 arg7 harg7 arg8 harg8 arg9 harg9 hc0 hc1 x0 x1 x2).2.2.1, y ∈ pc.1.set :=
  View.cover_of_tiledL (kernelRun0_A c i arg2 harg2 arg3 harg3 arg4 harg4 arg5 harg5 arg6 harg6 arg7 harg7 arg8 harg8 arg9 harg9 hc0 hc1 x0 x1 x2).2.2.1 S64x256.size (by sl_kernel_rfl) y
/-- What case A leaves in the second accumulator. -/
def sout0_A_1 (hc0 : cond0_0 i) (hc1 : ¬cond0_1 i) (x0 : Vec F S4096x128 .f32) (x1 : Vec F S4096 .i32) (x2 : Vec F S64x512 .bf16) : Vec F S64x256 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1 x2).2.2.1)

/-! ### Case B: the second coordinate is strictly between 0 and 15 — this block is added to what the point before left -/

theorem cover0_B_3 (hc0 : ¬cond0_0 i) (hc1 : ¬cond0_1 i) (x0 : Vec F S4096x128 .f32) (x1 : Vec F S4096 .i32) (x2 : Vec F S64x512 .bf16) (xs0 : Vec F S64x128 .f32) (xs1 : Vec F S64x256 .f32) (y : S4096x128.Idx) :
    ∃ pc ∈ (kernelRun0_B c i arg2 harg2 arg3 harg3 arg4 harg4 arg5 harg5 arg6 harg6 arg7 harg7 arg8 harg8 arg9 harg9 hc0 hc1 x0 x1 x2 xs0 xs1).1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1).1 S4096x128.size (by sl_kernel_rfl) y
def out0_B_3 (hc0 : ¬cond0_0 i) (hc1 : ¬cond0_1 i) (x0 : Vec F S4096x128 .f32) (x1 : Vec F S4096 .i32) (x2 : Vec F S64x512 .bf16) (xs0 : Vec F S64x128 .f32) (xs1 : Vec F S64x256 .f32) : Vec F S4096x128 .f32 :=
  VO0_3.read (Elt F) (VO0_3.writes (Elt F) VO0_3.junk (kernelRun0_B c i arg2 harg2 arg3 harg3 arg4 harg4 arg5 harg5 arg6 harg6 arg7 harg7 arg8 harg8 arg9 harg9 hc0 hc1 x0 x1 x2 xs0 xs1).1)
theorem scover0_B_0 (hc0 : ¬cond0_0 i) (hc1 : ¬cond0_1 i) (x0 : Vec F S4096x128 .f32) (x1 : Vec F S4096 .i32) (x2 : Vec F S64x512 .bf16) (xs0 : Vec F S64x128 .f32) (xs1 : Vec F S64x256 .f32) (y : S64x128.Idx) :
    ∃ pc ∈ (kernelRun0_B c i arg2 harg2 arg3 harg3 arg4 harg4 arg5 harg5 arg6 harg6 arg7 harg7 arg8 harg8 arg9 harg9 hc0 hc1 x0 x1 x2 xs0 xs1).2.1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1).2.1 S64x128.size (by sl_kernel_rfl) y
def sout0_B_0 (hc0 : ¬cond0_0 i) (hc1 : ¬cond0_1 i) (x0 : Vec F S4096x128 .f32) (x1 : Vec F S4096 .i32) (x2 : Vec F S64x512 .bf16) (xs0 : Vec F S64x128 .f32) (xs1 : Vec F S64x256 .f32) : Vec F S64x128 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 xs0 xs1).2.1)
theorem scover0_B_1 (hc0 : ¬cond0_0 i) (hc1 : ¬cond0_1 i) (x0 : Vec F S4096x128 .f32) (x1 : Vec F S4096 .i32) (x2 : Vec F S64x512 .bf16) (xs0 : Vec F S64x128 .f32) (xs1 : Vec F S64x256 .f32) (y : S64x256.Idx) :
    ∃ pc ∈ (kernelRun0_B c i arg2 harg2 arg3 harg3 arg4 harg4 arg5 harg5 arg6 harg6 arg7 harg7 arg8 harg8 arg9 harg9 hc0 hc1 x0 x1 x2 xs0 xs1).2.2.1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1).2.2.1 S64x256.size (by sl_kernel_rfl) y
def sout0_B_1 (hc0 : ¬cond0_0 i) (hc1 : ¬cond0_1 i) (x0 : Vec F S4096x128 .f32) (x1 : Vec F S4096 .i32) (x2 : Vec F S64x512 .bf16) (xs0 : Vec F S64x128 .f32) (xs1 : Vec F S64x256 .f32) : Vec F S64x256 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 x2 xs0 xs1).2.2.1)

/-! ### Case C: the second coordinate is 15 — this block is added and the accumulators are written out -/

theorem cover0_C_3 (hc0 : ¬cond0_0 i) (hc1 : cond0_1 i) (x0 : Vec F S4096x128 .f32) (x1 : Vec F S4096 .i32) (x2 : Vec F S64x512 .bf16) (xs0 : Vec F S64x128 .f32) (xs1 : Vec F S64x256 .f32) (y : S4096x128.Idx) :
    ∃ pc ∈ (kernelRun0_C c i arg2 harg2 arg3 harg3 arg4 harg4 arg5 harg5 arg6 harg6 arg7 harg7 arg8 harg8 arg9 harg9 hc0 hc1 x0 x1 x2 xs0 xs1).1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1).1 S4096x128.size (by sl_kernel_rfl) y
def out0_C_3 (hc0 : ¬cond0_0 i) (hc1 : cond0_1 i) (x0 : Vec F S4096x128 .f32) (x1 : Vec F S4096 .i32) (x2 : Vec F S64x512 .bf16) (xs0 : Vec F S64x128 .f32) (xs1 : Vec F S64x256 .f32) : Vec F S4096x128 .f32 :=
  VO0_3.read (Elt F) (VO0_3.writes (Elt F) VO0_3.junk (kernelRun0_C c i arg2 harg2 arg3 harg3 arg4 harg4 arg5 harg5 arg6 harg6 arg7 harg7 arg8 harg8 arg9 harg9 hc0 hc1 x0 x1 x2 xs0 xs1).1)
/-- Case C's store into the per-task counts' buffer covers it. -/
theorem cover0_C_4 (hc0 : ¬cond0_0 i) (hc1 : cond0_1 i) (x0 : Vec F S4096x128 .f32) (x1 : Vec F S4096 .i32) (x2 : Vec F S64x512 .bf16) (xs0 : Vec F S64x128 .f32) (xs1 : Vec F S64x256 .f32) (y : S1x64x128.Idx) :
    ∃ pc ∈ (kernelRun0_C c i arg2 harg2 arg3 harg3 arg4 harg4 arg5 harg5 arg6 harg6 arg7 harg7 arg8 harg8 arg9 harg9 hc0 hc1 x0 x1 x2 xs0 xs1).2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1).2.1 S1x64x128.size (by sl_kernel_rfl) y
/-- What case C leaves in the per-task counts' buffer. -/
def out0_C_4 (hc0 : ¬cond0_0 i) (hc1 : cond0_1 i) (x0 : Vec F S4096x128 .f32) (x1 : Vec F S4096 .i32) (x2 : Vec F S64x512 .bf16) (xs0 : Vec F S64x128 .f32) (xs1 : Vec F S64x256 .f32) : Vec F S1x64x128 .f32 :=
  VO0_4.read (Elt F) (VO0_4.writes (Elt F) VO0_4.junk (kernelRun0_C c i arg2 harg2 arg3 harg3 arg4 harg4 arg5 harg5 arg6 harg6 arg7 harg7 arg8 harg8 arg9 harg9 hc0 hc1 x0 x1 x2 xs0 xs1).2.1)
/-- Case C's store into the per-task sums' buffer covers it. -/
theorem cover0_C_5 (hc0 : ¬cond0_0 i) (hc1 : cond0_1 i) (x0 : Vec F S4096x128 .f32) (x1 : Vec F S4096 .i32) (x2 : Vec F S64x512 .bf16) (xs0 : Vec F S64x128 .f32) (xs1 : Vec F S64x256 .f32) (y : S1x64x256.Idx) :
    ∃ pc ∈ (kernelRun0_C c i arg2 harg2 arg3 harg3 arg4 harg4 arg5 harg5 arg6 harg6 arg7 harg7 arg8 harg8 arg9 harg9 hc0 hc1 x0 x1 x2 xs0 xs1).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1).2.2.1 S1x64x256.size (by sl_kernel_rfl) y
/-- What case C leaves in the per-task sums' buffer. -/
def out0_C_5 (hc0 : ¬cond0_0 i) (hc1 : cond0_1 i) (x0 : Vec F S4096x128 .f32) (x1 : Vec F S4096 .i32) (x2 : Vec F S64x512 .bf16) (xs0 : Vec F S64x128 .f32) (xs1 : Vec F S64x256 .f32) : Vec F S1x64x256 .f32 :=
  VO0_5.read (Elt F) (VO0_5.writes (Elt F) VO0_5.junk (kernelRun0_C c i arg2 harg2 arg3 harg3 arg4 harg4 arg5 harg5 arg6 harg6 arg7 harg7 arg8 harg8 arg9 harg9 hc0 hc1 x0 x1 x2 xs0 xs1).2.2.1)
theorem scover0_C_0 (hc0 : ¬cond0_0 i) (hc1 : cond0_1 i) (x0 : Vec F S4096x128 .f32) (x1 : Vec F S4096 .i32) (x2 : Vec F S64x512 .bf16) (xs0 : Vec F S64x128 .f32) (xs1 : Vec F S64x256 .f32) (y : S64x128.Idx) :
    ∃ pc ∈ (kernelRun0_C c i arg2 harg2 arg3 harg3 arg4 harg4 arg5 harg5 arg6 harg6 arg7 harg7 arg8 harg8 arg9 harg9 hc0 hc1 x0 x1 x2 xs0 xs1).2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1).2.2.2.1 S64x128.size (by sl_kernel_rfl) y
def sout0_C_0 (hc0 : ¬cond0_0 i) (hc1 : cond0_1 i) (x0 : Vec F S4096x128 .f32) (x1 : Vec F S4096 .i32) (x2 : Vec F S64x512 .bf16) (xs0 : Vec F S64x128 .f32) (xs1 : Vec F S64x256 .f32) : Vec F S64x128 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 xs0 xs1).2.2.2.1)
theorem scover0_C_1 (hc0 : ¬cond0_0 i) (hc1 : cond0_1 i) (x0 : Vec F S4096x128 .f32) (x1 : Vec F S4096 .i32) (x2 : Vec F S64x512 .bf16) (xs0 : Vec F S64x128 .f32) (xs1 : Vec F S64x256 .f32) (y : S64x256.Idx) :
    ∃ pc ∈ (kernelRun0_C c i arg2 harg2 arg3 harg3 arg4 harg4 arg5 harg5 arg6 harg6 arg7 harg7 arg8 harg8 arg9 harg9 hc0 hc1 x0 x1 x2 xs0 xs1).2.2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1).2.2.2.2.1 S64x256.size (by sl_kernel_rfl) y
def sout0_C_1 (hc0 : ¬cond0_0 i) (hc1 : cond0_1 i) (x0 : Vec F S4096x128 .f32) (x1 : Vec F S4096 .i32) (x2 : Vec F S64x512 .bf16) (xs0 : Vec F S64x128 .f32) (xs1 : Vec F S64x256 .f32) : Vec F S64x256 .f32 :=
  VS0_1.read (Elt F) (VS0_1.writes (Elt F) VS0_1.junk (kernelRun0_C c i arg2 harg2 arg3 harg3 arg4 harg4 arg5 harg5 arg6 harg6 arg7 harg7 arg8 harg8 arg9 harg9 hc0 hc1 x0 x1 x2 xs0 xs1).2.2.2.2.1)

end Cases

/-- Cases A and B store nothing into the two per-task outputs (the windows are idle at their points and not
    written back there): a placeholder, junk read back, that nothing consults. -/
def out0_A_4 (c : Dev nD) (i : grid0.Coords) (arg2 : Memref sig .tc .vmem S4096x128 .f32) (harg2 : arg2.IsWhole) (arg3 : Memref sig .tc .vmem S4096 .i32) (harg3 : arg3.IsWhole) (arg4 : Memref sig .tc .vmem S64x512 .bf16) (harg4 : arg4.IsWhole) (arg5 : Memref sig .tc .vmem S4096x128 .f32) (harg5 : arg5.IsWhole) (arg6 : Memref sig .tc .vmem S1x64x128 .f32) (harg6 : arg6.IsWhole) (arg7 : Memref sig .tc .vmem S1x64x256 .f32) (harg7 : arg7.IsWhole) (arg8 : Memref sig .tc .vmem S64x128 .f32) (harg8 : arg8.IsWhole) (arg9 : Memref sig .tc .vmem S64x256 .f32) (harg9 : arg9.IsWhole) (hc0 : cond0_0 i) (hc1 : ¬cond0_1 i) (x0 : Vec F S4096x128 .f32) (x1 : Vec F S4096 .i32) (x2 : Vec F S64x512 .bf16) : Vec F S1x64x128 .f32 :=
  VO0_4.read (Elt F) VO0_4.junk
def out0_A_5 (c : Dev nD) (i : grid0.Coords) (arg2 : Memref sig .tc .vmem S4096x128 .f32) (harg2 : arg2.IsWhole) (arg3 : Memref sig .tc .vmem S4096 .i32) (harg3 : arg3.IsWhole) (arg4 : Memref sig .tc .vmem S64x512 .bf16) (harg4 : arg4.IsWhole) (arg5 : Memref sig .tc .vmem S4096x128 .f32) (harg5 : arg5.IsWhole) (arg6 : Memref sig .tc .vmem S1x64x128 .f32) (harg6 : arg6.IsWhole) (arg7 : Memref sig .tc .vmem S1x64x256 .f32) (harg7 : arg7.IsWhole) (arg8 : Memref sig .tc .vmem S64x128 .f32) (harg8 : arg8.IsWhole) (arg9 : Memref sig .tc .vmem S64x256 .f32) (harg9 : arg9.IsWhole) (hc0 : cond0_0 i) (hc1 : ¬cond0_1 i) (x0 : Vec F S4096x128 .f32) (x1 : Vec F S4096 .i32) (x2 : Vec F S64x512 .bf16) : Vec F S1x64x256 .f32 :=
  VO0_5.read (Elt F) VO0_5.junk
def out0_B_4 (c : Dev nD) (i : grid0.Coords) (arg2 : Memref sig .tc .vmem S4096x128 .f32) (harg2 : arg2.IsWhole) (arg3 : Memref sig .tc .vmem S4096 .i32) (harg3 : arg3.IsWhole) (arg4 : Memref sig .tc .vmem S64x512 .bf16) (harg4 : arg4.IsWhole) (arg5 : Memref sig .tc .vmem S4096x128 .f32) (harg5 : arg5.IsWhole) (arg6 : Memref sig .tc .vmem S1x64x128 .f32) (harg6 : arg6.IsWhole) (arg7 : Memref sig .tc .vmem S1x64x256 .f32) (harg7 : arg7.IsWhole) (arg8 : Memref sig .tc .vmem S64x128 .f32) (harg8 : arg8.IsWhole) (arg9 : Memref sig .tc .vmem S64x256 .f32) (harg9 : arg9.IsWhole) (hc0 : ¬cond0_0 i) (hc1 : ¬cond0_1 i) (x0 : Vec F S4096x128 .f32) (x1 : Vec F S4096 .i32) (x2 : Vec F S64x512 .bf16) (xs0 : Vec F S64x128 .f32) (xs1 : Vec F S64x256 .f32) : Vec F S1x64x128 .f32 :=
  VO0_4.read (Elt F) VO0_4.junk
def out0_B_5 (c : Dev nD) (i : grid0.Coords) (arg2 : Memref sig .tc .vmem S4096x128 .f32) (harg2 : arg2.IsWhole) (arg3 : Memref sig .tc .vmem S4096 .i32) (harg3 : arg3.IsWhole) (arg4 : Memref sig .tc .vmem S64x512 .bf16) (harg4 : arg4.IsWhole) (arg5 : Memref sig .tc .vmem S4096x128 .f32) (harg5 : arg5.IsWhole) (arg6 : Memref sig .tc .vmem S1x64x128 .f32) (harg6 : arg6.IsWhole) (arg7 : Memref sig .tc .vmem S1x64x256 .f32) (harg7 : arg7.IsWhole) (arg8 : Memref sig .tc .vmem S64x128 .f32) (harg8 : arg8.IsWhole) (arg9 : Memref sig .tc .vmem S64x256 .f32) (harg9 : arg9.IsWhole) (hc0 : ¬cond0_0 i) (hc1 : ¬cond0_1 i) (x0 : Vec F S4096x128 .f32) (x1 : Vec F S4096 .i32) (x2 : Vec F S64x512 .bf16) (xs0 : Vec F S64x128 .f32) (xs1 : Vec F S64x256 .f32) : Vec F S1x64x256 .f32 :=
  VO0_5.read (Elt F) VO0_5.junk

/-! ## What the outputs and the accumulators hold after each point -/

/-- Case A run at point t's own staging memrefs and input blocks: what it leaves in the three output buffers
    (windows 3, 4, 5) and then in the two accumulators. -/
abbrev outs0_A (c : Dev nD) (t : Fin cfg0.N) (hc0 : cond0_0 (grid0.coords t)) (hc1 : ¬cond0_1 (grid0.coords t)) : Vec F S4096x128 .f32 × Vec F S1x64x128 .f32 × Vec F S1x64x256 .f32 × Vec F S64x128 .f32 × Vec F S64x256 .f32 :=
  (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t))
/-- Case B at point t, over the accumulators' contents xs0 and xs1. -/
abbrev outs0_B (c : Dev nD) (t : Fin cfg0.N) (hc0 : ¬cond0_0 (grid0.coords t)) (hc1 : ¬cond0_1 (grid0.coords t)) (xs0 : Vec F S64x128 .f32) (xs1 : Vec F S64x256 .f32) : Vec F S4096x128 .f32 × Vec F S1x64x128 .f32 × Vec F S1x64x256 .f32 × Vec F S64x128 .f32 × Vec F S64x256 .f32 :=
  (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t) xs0 xs1, out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t) xs0 xs1, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t) xs0 xs1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t) xs0 xs1, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t) xs0 xs1)
/-- Case C at point t, over the accumulators' contents xs0 and xs1. -/
abbrev outs0_C (c : Dev nD) (t : Fin cfg0.N) (hc0 : ¬cond0_0 (grid0.coords t)) (hc1 : cond0_1 (grid0.coords t)) (xs0 : Vec F S64x128 .f32) (xs1 : Vec F S64x256 .f32) : Vec F S4096x128 .f32 × Vec F S1x64x128 .f32 × Vec F S1x64x256 .f32 × Vec F S64x128 .f32 × Vec F S64x256 .f32 :=
  (out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t) xs0 xs1, out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t) xs0 xs1, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t) xs0 xs1, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t) xs0 xs1, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t) xs0 xs1)

/-- THE ACCUMULATION. What the three outputs' staging buffers and the two accumulators hold after the body at
    position n: the case the second coordinate selects, run at the point's memrefs and input blocks, cases B and C
    over what position n - 1 left in the accumulators. No position is at step 0 and at step 15 of its axis at once. -/
def outsAt0 (c : Dev nD) : (n : ℕ) → n < cfg0.N → Vec F S4096x128 .f32 × Vec F S1x64x128 .f32 × Vec F S1x64x256 .f32 × Vec F S64x128 .f32 × Vec F S64x256 .f32
  | 0, hn => outs0_A m c ⟨0, hn⟩ ((hcond0_0 ⟨0, hn⟩).mpr (Nat.zero_mod _))
      (fun h => absurd ((hcond0_1 ⟨0, hn⟩).mp h) (show ¬(0 % 16 = 15) from by decide))
  | n + 1, hn =>
    if h0 : (n + 1) % 16 = 0 then
      if h1 : (n + 1) % 16 = 15 then
        False.elim (by omega)
      else
        outs0_A m c ⟨n + 1, hn⟩ ((hcond0_0 ⟨n + 1, hn⟩).mpr h0) (fun h => h1 ((hcond0_1 ⟨n + 1, hn⟩).mp h))
    else
      if h1 : (n + 1) % 16 = 15 then
        outs0_C m c ⟨n + 1, hn⟩ (fun h => h0 ((hcond0_0 ⟨n + 1, hn⟩).mp h)) ((hcond0_1 ⟨n + 1, hn⟩).mpr h1)
          (outsAt0 c n (Nat.lt_of_succ_lt hn)).2.2.2.1 (outsAt0 c n (Nat.lt_of_succ_lt hn)).2.2.2.2
      else
        outs0_B m c ⟨n + 1, hn⟩ (fun h => h0 ((hcond0_0 ⟨n + 1, hn⟩).mp h)) (fun h => h1 ((hcond0_1 ⟨n + 1, hn⟩).mp h))
          (outsAt0 c n (Nat.lt_of_succ_lt hn)).2.2.2.1 (outsAt0 c n (Nat.lt_of_succ_lt hn)).2.2.2.2

/-- At a point of case A: that case's contents. -/
theorem outsAt0_A (c : Dev nD) (t : Fin cfg0.N) (h0 : t.val % 16 = 0) (h1 : ¬t.val % 16 = 15) :
    outsAt0 m c t.val t.isLt = outs0_A m c t ((hcond0_0 t).mpr h0) (fun h => h1 ((hcond0_1 t).mp h)) := by
  obtain ⟨n, hn⟩ := t
  cases n with
  | zero => rfl
  | succ n => exact (dif_pos h0).trans (dif_neg h1)

/-- At a point of case B: that case's contents, over what the point before left in the accumulators. -/
theorem outsAt0_B (c : Dev nD) (t : Fin cfg0.N) (h0 : ¬t.val % 16 = 0) (h1 : ¬t.val % 16 = 15) :
    outsAt0 m c t.val t.isLt = outs0_B m c t (fun h => h0 ((hcond0_0 t).mp h)) (fun h => h1 ((hcond0_1 t).mp h))
      (outsAt0 m c (t.val - 1) (Nat.lt_of_le_of_lt (Nat.sub_le _ _) t.isLt)).2.2.2.1
      (outsAt0 m c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans (dif_neg h1)

/-- At a point of case C: that case's contents, over what the point before left in the accumulators. -/
theorem outsAt0_C (c : Dev nD) (t : Fin cfg0.N) (h0 : ¬t.val % 16 = 0) (h1 : t.val % 16 = 15) :
    outsAt0 m c t.val t.isLt = outs0_C m c t (fun h => h0 ((hcond0_0 t).mp h)) ((hcond0_1 t).mpr h1)
      (outsAt0 m c (t.val - 1) (Nat.lt_of_le_of_lt (Nat.sub_le _ _) t.isLt)).2.2.2.1
      (outsAt0 m c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans (dif_pos h1)

/-! ## The region invariant, position by position -/

/-- Before the first point: the class's invariant (both accumulators at anything). Before position n + 1: both
    accumulators at what position n left in them, and the random-bit register at some state. -/
def PhiS (c : Dev nD) : (n : ℕ) → n ≤ cfg0.N → sProp 𝕄
  | 0, _ => Pipeline.ΦA spec0 c
  | n + 1, hn => iprop(iprop(owns (c : Thread nD τ) scM0_0 fullShare (outsAt0 m c n hn).2.2.2.1
      ∗ owns (c : Thread nD τ) scM0_1 fullShare (outsAt0 m c n hn).2.2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (outsAt0 m c n hn).2.2.2.1
      ∗ owns (c : Thread nD τ) scM0_1 fullShare (outsAt0 m c n hn).2.2.2.2) ∗ (∃ r, prngReg c r)) := rfl

theorem PhiS_pos (c : Dev nD) (n : ℕ) (h : n ≤ cfg0.N) (hz : n ≠ 0) :
    PhiS m c n h = iprop(iprop(owns (c : Thread nD τ) scM0_0 fullShare (outsAt0 m c (n - 1) (by omega)).2.2.2.1
      ∗ owns (c : Thread nD τ) scM0_1 fullShare (outsAt0 m c (n - 1) (by omega)).2.2.2.2) ∗ (∃ r, prngReg c r)) := by
  cases n with
  | zero => exact absurd rfl hz
  | succ n => rfl

/-- At every position the invariant gives both accumulators at some contents: their named contents forgotten. -/
theorem PhiS_forget (c : Dev nD) (n : ℕ) (h : n ≤ cfg0.N) :
    PhiS m c n h ⊢ iprop(iprop((∃ d, owns (c : Thread nD τ) scM0_0 fullShare d) ∗ (∃ d, owns (c : Thread nD τ) scM0_1 fullShare d)) ∗ (∃ r, prngReg c r)) := by
  cases n with
  | zero => rw [PhiS_zero m c 0 h rfl, PhiA0_eq]
  | succ n =>
    rw [PhiS_succ]
    iintro ⟨⟨HS0, HS1⟩, Hg⟩
    isplitl [HS0 HS1]
    · isplitl [HS0]
      · iexists _; iexact HS0
      · iexists _; iexact HS1
    · iexact Hg

/-! ## The pipeline's proof data -/

/-- The proof data of the pipeline on core c: the arrays as the region finds them; after the body at point t each
    input's buffer at its block and the three outputs' at the point's contents; the invariant by position; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

end Cert.Kernel.Region

end
-- ==== Proof.KernelFrame.lean ====
/-
  The body obligation of the pipeline at a generic grid point, case by case of the second grid coordinate; the
  frame run of @main around the region, by the library's launch theorem for an @main that continues after the
  region with host lines; and the frame claim: the program runs and its six argument arrays end unchanged.
-/
import proofs.«402983_j34497177321524_3_alg».proof.Proof.KernelData

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point t: the invariant, what the core owes, and each window's current staging
    buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- A buffer left at a covering list of writes is owned at the list read back through any view over junk. -/
theorem owns_of_cover {c : Dev nD} {sp : Space} {s : Shape} {e : EltTy} (M : Memref sig .tc sp s e)
    {κ' : Kind} {sp' : Space} (v' : View sig κ' sp' s e) (L : List (View.Piece (Elt F) s e)) (hcov : ∀ y, ∃ p ∈ L, y ∈ p.1.set) :
    (iprop(∃ f, M.view.loc (c : Thread nD τ) ↦[M.view.set]{fullShare} M.view.writes (Elt F) f L) : sProp 𝕄)
      ⊢ owns (c : Thread nD τ) M fullShare (v'.read (Elt F) (v'.writes (Elt F) v'.junk L)) := by
  iintro ⟨%f, H⟩
  unfold owns
  iexists M.view.writes (Elt F) f L
  isplitr
  · ipureintro; exact View.read_writes_of_cover _ _ _ _ _ hcov
  · iexact H

/-- The post's clause for a window live at the point: its buffer at what the body leaves. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- The body at a point of case A (the second coordinate is 0): the inputs' buffers hold their blocks; the invariant
    hands over both accumulators at whatever they hold, the case resets them and leaves them at this block's sums;
    the two per-task outputs are idle and handed back untouched. -/
theorem sound_body_A (c : Dev nD) (t : Fin cfg0.N) (h0 : t.val % 16 = 0) (h1 : ¬t.val % 16 = 15) :
    bodyPre m c t ⊢ wp frame (wpE (defs₀ (F := F)) Variants.none c none) Set.univ (bodyAt0 t) (fun _ => bodyPost m c t) := by
  have hcA : cond0_0 (grid0.coords t) := (hcond0_0 t).mpr h0
  have hcB : ¬cond0_1 (grid0.coords t) := fun h => h1 ((hcond0_1 t).mp h)
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves_live m c 0 t (liveAt0_0 t), leaves_live m c 1 t (liveAt0_1 t), leaves_live m c 2 t (liveAt0_2 t),
    leaves_live m c 3 t (liveAt0_3 t), after0_0, after0_1, after0_2, after0_3]
  rw [Dat.leavesExact_idle (dats m 0 c) 4 t (idleAt0_4_A t hcA hcB) (noFlush0_4_A t hcA hcB),
    Dat.leavesExact_idle (dats m 0 c) 5 t (idleAt0_5_A t hcA hcB) (noFlush0_5_A t hcA hcB)]
  rw [outsAt0_A m c t h0 h1, PhiS_castSucc m c t]
  -- the tuple's components, spelled as the piece lists read back
  dsimp only [outs0_A]
  unfold out0_A_3 sout0_A_0 sout0_A_1
  iintro ⟨HΦ, Ho, ⟨%d0, H0⟩, ⟨%d1, H1⟩, ⟨%d2, H2⟩, ⟨%d3, H3⟩, ⟨%d4, H4⟩, ⟨%d5, H5⟩⟩
  -- the accumulators' contents do not matter to this case: it resets them
  ihave ⟨⟨HS0, HS1⟩, Hg⟩ := (PhiS_forget m c t.val _) $$ HΦ
  iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hcA hcB (iblk m c 0 t) (iblk m c 1 t) (iblk m c 2 t)).2.2.2 ((dats m 0 c).before 4 t d4) ((dats m 0 c).before 5 t d5) Set.univ _)
  isplitl [H0]; · iexact H0
  isplitl [H1]; · iexact H1
  isplitl [H2]; · iexact H2
  isplitl [H3]; · iexists _; iexact H3
  isplitl [H4]; · iexact H4
  isplitl [H5]; · iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iapply (owns_of_cover (c := c) scM0_0 VS0_0 _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hcA hcB (iblk m c 0 t) (iblk m c 1 t) (iblk m c 2 t))); iexact HS0
      · iapply (owns_of_cover (c := c) scM0_1 VS0_1 _ (scover0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hcA hcB (iblk m c 0 t) (iblk m c 1 t) (iblk m c 2 t))); iexact HS1
    · iexact Hg
  isplitl [Ho]; · iexact Ho
  isplitl [H0]; · iexact H0
  isplitl [H1]; · iexact H1
  isplitl [H2]; · iexact H2
  isplitl [H3]
  · iapply (owns_of_cover (c := c) (ms0_3 t) VO0_3 _ (cover0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hcA hcB (iblk m c 0 t) (iblk m c 1 t) (iblk m c 2 t))); iexact H3
  isplitl [H4]; · iexists _; iexact H4
  iexists _; iexact H5

/-- The body at a point of case B (the second coordinate strictly between 0 and 15): the invariant hands over both
    accumulators at what the point before left, the case adds this block's sums; the two per-task outputs idle. -/
theorem sound_body_B (c : Dev nD) (t : Fin cfg0.N) (h0 : ¬t.val % 16 = 0) (h1 : ¬t.val % 16 = 15) :
    bodyPre m c t ⊢ wp frame (wpE (defs₀ (F := F)) Variants.none c none) Set.univ (bodyAt0 t) (fun _ => bodyPost m c t) := by
  have hcA : ¬cond0_0 (grid0.coords t) := fun h => h0 ((hcond0_0 t).mp h)
  have hcB : ¬cond0_1 (grid0.coords t) := fun h => h1 ((hcond0_1 t).mp h)
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves_live m c 0 t (liveAt0_0 t), leaves_live m c 1 t (liveAt0_1 t), leaves_live m c 2 t (liveAt0_2 t),
    leaves_live m c 3 t (liveAt0_3 t), after0_0, after0_1, after0_2, after0_3]
  rw [Dat.leavesExact_idle (dats m 0 c) 4 t (idleAt0_4_B t hcA hcB) (noFlush0_4_B t hcA hcB),
    Dat.leavesExact_idle (dats m 0 c) 5 t (idleAt0_5_B t hcA hcB) (noFlush0_5_B t hcA hcB)]
  have hz : t.val ≠ 0 := fun e => h0 (by rw [e])
  rw [outsAt0_B m c t h0 h1, PhiS_castSucc m c t, PhiS_pos m c _ _ hz]
  dsimp only [outs0_B]
  unfold out0_B_3 sout0_B_0 sout0_B_1
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hcA hcB (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2).2.2.2 ((dats m 0 c).before 4 t d4) ((dats m 0 c).before 5 t d5) Set.univ _)
  isplitl [H0]; · iexact H0
  isplitl [H1]; · iexact H1
  isplitl [H2]; · iexact H2
  isplitl [H3]; · iexists _; iexact H3
  isplitl [H4]; · iexact H4
  isplitl [H5]; · iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iapply (owns_of_cover (c := c) scM0_0 VS0_0 _ (scover0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hcA hcB (iblk m c 0 t) (iblk m c 1 t) (iblk m c 2 t) _ _)); iexact HS0
      · iapply (owns_of_cover (c := c) scM0_1 VS0_1 _ (scover0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hcA hcB (iblk m c 0 t) (iblk m c 1 t) (iblk m c 2 t) _ _)); iexact HS1
    · iexact Hg
  isplitl [Ho]; · iexact Ho
  isplitl [H0]; · iexact H0
  isplitl [H1]; · iexact H1
  isplitl [H2]; · iexact H2
  isplitl [H3]
  · iapply (owns_of_cover (c := c) (ms0_3 t) VO0_3 _ (cover0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hcA hcB (iblk m c 0 t) (iblk m c 1 t) (iblk m c 2 t) _ _)); iexact H3
  isplitl [H4]; · iexists _; iexact H4
  iexists _; iexact H5

/-- The body at a point of case C (the second coordinate is 15): as case B, and the two per-task outputs are live:
    the case stores the accumulators into them whole. -/
theorem sound_body_C (c : Dev nD) (t : Fin cfg0.N) (h0 : ¬t.val % 16 = 0) (h1 : t.val % 16 = 15) :
    bodyPre m c t ⊢ wp frame (wpE (defs₀ (F := F)) Variants.none c none) Set.univ (bodyAt0 t) (fun _ => bodyPost m c t) := by
  have hcA : ¬cond0_0 (grid0.coords t) := fun h => h0 ((hcond0_0 t).mp h)
  have hcB : cond0_1 (grid0.coords t) := (hcond0_1 t).mpr h1
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves_live m c 0 t (liveAt0_0 t), leaves_live m c 1 t (liveAt0_1 t), leaves_live m c 2 t (liveAt0_2 t),
    leaves_live m c 3 t (liveAt0_3 t), after0_0, after0_1, after0_2, after0_3]
  rw [leaves_live m c 4 t (liveAt0_4_C t hcA hcB), leaves_live m c 5 t (liveAt0_5_C t hcA hcB), after0_4, after0_5]
  have hz : t.val ≠ 0 := fun e => h0 (by rw [e])
  rw [outsAt0_C m c t h0 h1, PhiS_castSucc m c t, PhiS_pos m c _ _ hz]
  dsimp only [outs0_C]
  unfold out0_C_3 out0_C_4 out0_C_5 sout0_C_0 sout0_C_1
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hcA hcB (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2).2.2.2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iapply (owns_of_cover (c := c) scM0_0 VS0_0 _ (scover0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hcA hcB (iblk m c 0 t) (iblk m c 1 t) (iblk m c 2 t) _ _)); iexact HS0
      · iapply (owns_of_cover (c := c) scM0_1 VS0_1 _ (scover0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hcA hcB (iblk m c 0 t) (iblk m c 1 t) (iblk m c 2 t) _ _)); iexact HS1
    · iexact Hg
  isplitl [Ho]; · iexact Ho
  isplitl [H0]; · iexact H0
  isplitl [H1]; · iexact H1
  isplitl [H2]; · iexact H2
  isplitl [H3]
  · iapply (owns_of_cover (c := c) (ms0_3 t) VO0_3 _ (cover0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hcA hcB (iblk m c 0 t) (iblk m c 1 t) (iblk m c 2 t) _ _)); iexact H3
  isplitl [H4]
  · iapply (owns_of_cover (c := c) (ms0_4 t) VO0_4 _ (cover0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hcA hcB (iblk m c 0 t) (iblk m c 1 t) (iblk m c 2 t) _ _)); iexact H4
  iapply (owns_of_cover (c := c) (ms0_5 t) VO0_5 _ (cover0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hcA hcB (iblk m c 0 t) (iblk m c 1 t) (iblk m c 2 t) _ _)); iexact H5

/-- The body at any point: the second coordinate says which case the point is in. -/
theorem sound_body (c : Dev nD) (t : Fin cfg0.N) :
    bodyPre m c t ⊢ wp frame (wpE (defs₀ (F := F)) Variants.none c none) Set.univ (bodyAt0 t) (fun _ => bodyPost m c t) := by
  by_cases h0 : t.val % 16 = 0
  · by_cases h1 : t.val % 16 = 15
    · exact absurd ((hcond0_1 t).mpr h1) (noCase_AC t ((hcond0_0 t).mpr h0))
    · exact sound_body_A m c t h0 h1
  · by_cases h1 : t.val % 16 = 15
    · exact sound_body_C m c t h0 h1
    · exact sound_body_B m c t h0 h1

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After any point the invariant gives the class's back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiA0_eq]
  exact PhiS_forget m c t.val _

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- From any memory with zero counters every weakly fair execution of @main on the TensorCore terminates, and every
    final state has every array of the pipeline at what the library computes from the proof data and every other
    unscoped buffer as the seven stretches after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- THE FRAME: the program runs, and its six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Region

end
-- ==== Proof.KernelIdealRuns.lean ====
/-
  What the runs of the kernel body at the three kinds of grid point, and the frame module that launches the
  region around them, share: @main as host lines, the region, host lines; the contents the region is entered
  at; the windows' blocks read off those contents; the two branch conditions of the body, decided over the
  32 grid points; where the two accumulator outputs are idle; the staging and scratch memrefs the body is
  called with; and the region invariant as ownership of the two scratch accumulators.
-/
import proofs.«402983_j34497177321524_3_alg».proof.Proof.Gen.KernelIdeal.Launch
import proofs.«402983_j34497177321524_3_alg».proof.Proof.Gen.KernelIdeal.Skeleton
import proofs.«402983_j34497177321524_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The seven host stretches that follow the region, in order. -/
abbrev tailOps : List (List (HloOp τ sig (Elt F))) :=
  [hostOps1, hostOps1_1, hostOps1_2, hostOps1_3, hostOps1_4, hostOps1_5, hostOps1_6]

/-- Core c's TensorCore buffer contents when the region is entered, as a valuation: the launch contents after
    the eleven host operations that build the gather table. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- An operation that writes one buffer y writes no reference of a list K that y is not in. -/
theorem not_writes_of {K : List (Ref sig .tc)} {op : HloOp τ sig (Elt F)} {y : Ref sig .tc}
    (hw : op.writes = {Proc.devRef .tc y}) (hy : y ∉ K) : ∀ r ∈ K, Proc.devRef .tc r ∉ op.writes := by
  intro r hr hmem
  rw [hw, Finset.mem_singleton] at hmem
  exact hy (Proc.devRef_injective _ hmem ▸ hr)

/-- The references the host lines must leave alone: the six arguments and the four arrays of the region that are
    no argument (the gather table and the three results). -/
abbrev kept : List (Ref sig .tc) :=
  [main_arg0, main_arg1, main_arg2, main_arg3, main_arg4, main_arg5, main_v10, main_v11_0, main_v11_1, main_v11_2]

theorem hostOps0_fresh : (hostOps0 : List (HloOp τ sig (Elt F))).Forall fun op => op.fresh = ∅ := by
  repeat' (first | exact rfl | refine ⟨rfl, ?_⟩)
theorem hostOps1_fresh : (hostOps1 : List (HloOp τ sig (Elt F))).Forall fun op => op.fresh = ∅ := by
  repeat' (first | exact rfl | refine ⟨rfl, ?_⟩)
theorem hostOps1_1_fresh : (hostOps1_1 : List (HloOp τ sig (Elt F))).Forall fun op => op.fresh = ∅ := by
  repeat' (first | exact rfl | refine ⟨rfl, ?_⟩)
theorem hostOps1_2_fresh : (hostOps1_2 : List (HloOp τ sig (Elt F))).Forall fun op => op.fresh = ∅ := by
  repeat' (first | exact rfl | refine ⟨rfl, ?_⟩)
theorem hostOps1_3_fresh : (hostOps1_3 : List (HloOp τ sig (Elt F))).Forall fun op => op.fresh = ∅ := by
  repeat' (first | exact rfl | refine ⟨rfl, ?_⟩)
theorem hostOps1_4_fresh : (hostOps1_4 : List (HloOp τ sig (Elt F))).Forall fun op => op.fresh = ∅ := by
  repeat' (first | exact rfl | refine ⟨rfl, ?_⟩)
theorem hostOps1_5_fresh : (hostOps1_5 : List (HloOp τ sig (Elt F))).Forall fun op => op.fresh = ∅ := by
  repeat' (first | exact rfl | refine ⟨rfl, ?_⟩)
theorem hostOps1_6_fresh : (hostOps1_6 : List (HloOp τ sig (Elt F))).Forall fun op => op.fresh = ∅ := by
  repeat' (first | exact rfl | refine ⟨rfl, ?_⟩)

/-- A property of operations that holds along each of the seven stretches holds of every operation after the region. -/
theorem tail_forall {P : HloOp τ sig (Elt F) → Prop}
    (h0 : (hostOps1 : List (HloOp τ sig (Elt F))).Forall P) (h1 : (hostOps1_1 : List (HloOp τ sig (Elt F))).Forall P)
    (h2 : (hostOps1_2 : List (HloOp τ sig (Elt F))).Forall P) (h3 : (hostOps1_3 : List (HloOp τ sig (Elt F))).Forall P)
    (h4 : (hostOps1_4 : List (HloOp τ sig (Elt F))).Forall P) (h5 : (hostOps1_5 : List (HloOp τ sig (Elt F))).Forall P)
    (h6 : (hostOps1_6 : List (HloOp τ sig (Elt F))).Forall P) :
    ∀ ops ∈ (tailOps : List (List (HloOp τ sig (Elt F)))), ∀ op ∈ ops, P op := by
  intro ops hops
  simp only [List.mem_cons, List.mem_nil_iff, or_false] at hops
  rcases hops with rfl | rfl | rfl | rfl | rfl | rfl | rfl
  exacts [List.forall_iff_forall_mem.mp h0, List.forall_iff_forall_mem.mp h1, List.forall_iff_forall_mem.mp h2,
    List.forall_iff_forall_mem.mp h3, List.forall_iff_forall_mem.mp h4, List.forall_iff_forall_mem.mp h5,
    List.forall_iff_forall_mem.mp h6]

/-- The six argument references. -/
abbrev args : List (Ref sig .tc) := [main_arg0, main_arg1, main_arg2, main_arg3, main_arg4, main_arg5]

/-- The eleven operations before the region write the table's pieces and the table, no argument. -/
theorem hostOps0_keeps : (hostOps0 : List (HloOp τ sig (Elt F))).Forall fun op => ∀ r ∈ args, Proc.devRef .tc r ∉ op.writes := by
  repeat' (first | exact not_writes_of rfl (by decide) | refine ⟨not_writes_of rfl (by decide), ?_⟩)

/-- Each operation after the region writes its own result buffer, which is no argument and no array of the region:
    stretch by stretch. -/
theorem hostOps1_keeps : (hostOps1 : List (HloOp τ sig (Elt F))).Forall fun op => ∀ r ∈ kept, Proc.devRef .tc r ∉ op.writes := by
  repeat' (first | exact not_writes_of rfl (by decide) | refine ⟨not_writes_of rfl (by decide), ?_⟩)
theorem hostOps1_1_keeps : (hostOps1_1 : List (HloOp τ sig (Elt F))).Forall fun op => ∀ r ∈ kept, Proc.devRef .tc r ∉ op.writes := by
  repeat' (first | exact not_writes_of rfl (by decide) | refine ⟨not_writes_of rfl (by decide), ?_⟩)
theorem hostOps1_2_keeps : (hostOps1_2 : List (HloOp τ sig (Elt F))).Forall fun op => ∀ r ∈ kept, Proc.devRef .tc r ∉ op.writes := by
  repeat' (first | exact not_writes_of rfl (by decide) | refine ⟨not_writes_of rfl (by decide), ?_⟩)
theorem hostOps1_3_keeps : (hostOps1_3 : List (HloOp τ sig (Elt F))).Forall fun op => ∀ r ∈ kept, Proc.devRef .tc r ∉ op.writes := by
  repeat' (first | exact not_writes_of rfl (by decide) | refine ⟨not_writes_of rfl (by decide), ?_⟩)
theorem hostOps1_4_keeps : (hostOps1_4 : List (HloOp τ sig (Elt F))).Forall fun op => ∀ r ∈ kept, Proc.devRef .tc r ∉ op.writes := by
  repeat' (first | exact not_writes_of rfl (by decide) | refine ⟨not_writes_of rfl (by decide), ?_⟩)
theorem hostOps1_5_keeps : (hostOps1_5 : List (HloOp τ sig (Elt F))).Forall fun op => ∀ r ∈ kept, Proc.devRef .tc r ∉ op.writes := by
  repeat' (first | exact not_writes_of rfl (by decide) | refine ⟨not_writes_of rfl (by decide), ?_⟩)
theorem hostOps1_6_keeps : (hostOps1_6 : List (HloOp τ sig (Elt F))).Forall fun op => ∀ r ∈ kept, Proc.devRef .tc r ∉ op.writes := by
  repeat' (first | exact not_writes_of rfl (by decide) | refine ⟨not_writes_of rfl (by decide), ?_⟩)

/-- No operation after the region writes a reference of the list. -/
theorem tail_keeps : ∀ ops ∈ (tailOps : List (List (HloOp τ sig (Elt F)))), ∀ op ∈ ops, ∀ r ∈ kept, Proc.devRef .tc r ∉ op.writes :=
  tail_forall hostOps1_keeps hostOps1_1_keeps hostOps1_2_keeps hostOps1_3_keeps hostOps1_4_keeps hostOps1_5_keeps hostOps1_6_keeps

/-- Every array of the region is in the list. -/
theorem arr_mem_kept : ∀ w : Fin 6, Pipeline.arrRef spec0 w ∈ kept := by decide

/-- @main around the region: the host lines before it, the region, the seven host stretches after it. It reduces
    to the region continued by the later stretches, at the contents after the earlier lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [hostOps0] tailOps hostOps0_sub hostOps0_fresh main_chain

/-- The stretches after the region touch the region's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  have hsub : ∀ {L : List (HloOp τ sig (Elt F))}, (L.Forall fun op => op.bufs ⊆ StableHlo.tcRefs τ sig) →
      L.Forall fun op => op.bufs ⊆ Pipeline.ucRefs τ sig := fun h =>
    List.forall_iff_forall_mem.mpr fun op hop => Pipeline.sub_ucRefs op (List.forall_iff_forall_mem.mp h op hop)
  exact tail_forall (hsub hostOps1_sub) (hsub hostOps1_1_sub) (hsub hostOps1_2_sub) (hsub hostOps1_3_sub)
    (hsub hostOps1_4_sub) (hsub hostOps1_5_sub) (hsub hostOps1_6_sub)
/-- They allocate nothing. -/
theorem sfx_fresh : ∀ ops ∈ (tailOps : List (List (HloOp τ sig (Elt F)))), ∀ op ∈ ops, op.fresh = ∅ :=
  tail_forall hostOps1_fresh hostOps1_1_fresh hostOps1_2_fresh hostOps1_3_fresh hostOps1_4_fresh hostOps1_5_fresh hostOps1_6_fresh
/-- And write no array of the region. -/
theorem sfx_keeps : ∀ ops ∈ (tailOps : List (List (HloOp τ sig (Elt F)))), ∀ op ∈ ops,
    ∀ w, Proc.devRef .tc (Pipeline.arrRef spec0 w) ∉ op.writes :=
  fun ops hops op hop w => tail_keeps ops hops op hop _ (arr_mem_kept w)

/-- An argument holds at the region's entry what it held at launch: no operation before the region writes it. -/
theorem V_of_mem_args (c : Dev nD) {r : Ref sig .tc} (hr : r ∈ args) : V m c r = m ((c : Thread nD τ).loc r) :=
  StableHlo.after_of_forall_not_mem _ _ fun op hop =>
    List.forall_iff_forall_mem.mp hostOps0_keeps op
      (by simpa only [List.flatten_cons, List.flatten_nil, List.append_nil] using hop) r hr

theorem V_main_arg0 (c : Dev nD) : V m c main_arg0 = m ((c : Thread nD τ).loc main_arg0) := V_of_mem_args m c (by decide)
theorem V_main_arg1 (c : Dev nD) : V m c main_arg1 = m ((c : Thread nD τ).loc main_arg1) := V_of_mem_args m c (by decide)
theorem V_main_arg2 (c : Dev nD) : V m c main_arg2 = m ((c : Thread nD τ).loc main_arg2) := V_of_mem_args m c (by decide)
theorem V_main_arg3 (c : Dev nD) : V m c main_arg3 = m ((c : Thread nD τ).loc main_arg3) := V_of_mem_args m c (by decide)
theorem V_main_arg4 (c : Dev nD) : V m c main_arg4 = m ((c : Thread nD τ).loc main_arg4) := V_of_mem_args m c (by decide)
theorem V_main_arg5 (c : Dev nD) : V m c main_arg5 = m ((c : Thread nD τ).loc main_arg5) := V_of_mem_args m c (by decide)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0 (the rows of x): its current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t := by
  -- the block of the proof data's array is the block of the entry contents
  have hblk : ∀ t, dat.blockOf 0 t = iblk m c 0 t := fun t =>
    congrArg (((cfg0.win 0).blk t).view.read (Elt F)) hA
  -- the body leaves the block in place (the window is uncut: what is moved is all of it)
  have hkeep : ∀ t, (cfg0.win 0).cut (cfg0.grid.coords t) (dat.after 0 t) = dat.blockOf 0 t := fun t =>
    (hafter t).trans (hblk t).symm
  -- so the buffer holds what a fetch would put there, fetched at this point or not; uncut, that is the block
  exact (dat.before_in_eq_fetched 0 rfl (fun _ => rfl) (fun _ _ _ => rfl) hkeep t d).trans (hblk t)
/-- Input window 1 (the task ids of the rows). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t := by
  -- the block of the proof data's array is the block of the entry contents
  have hblk : ∀ t, dat.blockOf 1 t = iblk m c 1 t := fun t =>
    congrArg (((cfg0.win 1).blk t).view.read (Elt F)) hA
  -- the body leaves the block in place (the window is uncut: what is moved is all of it)
  have hkeep : ∀ t, (cfg0.win 1).cut (cfg0.grid.coords t) (dat.after 1 t) = dat.blockOf 1 t := fun t =>
    (hafter t).trans (hblk t).symm
  -- so the buffer holds what a fetch would put there, fetched at this point or not; uncut, that is the block
  exact (dat.before_in_eq_fetched 1 rfl (fun _ => rfl) (fun _ _ _ => rfl) hkeep t d).trans (hblk t)
/-- Input window 2 (the gather table): fetched at the first point only, its block index never moves. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t := by
  -- the block of the proof data's array is the block of the entry contents
  have hblk : ∀ t, dat.blockOf 2 t = iblk m c 2 t := fun t =>
    congrArg (((cfg0.win 2).blk t).view.read (Elt F)) hA
  -- the body leaves the block in place (the window is uncut: what is moved is all of it)
  have hkeep : ∀ t, (cfg0.win 2).cut (cfg0.grid.coords t) (dat.after 2 t) = dat.blockOf 2 t := fun t =>
    (hafter t).trans (hblk t).symm
  -- so the buffer holds what a fetch would put there, fetched at this point or not; uncut, that is the block
  exact (dat.before_in_eq_fetched 2 rfl (fun _ => rfl) (fun _ _ _ => rfl) hkeep t d).trans (hblk t)

/-! ## The frame claim's post from the frame run's -/

/-- A listed buffer that is no array of the region holds after the seven stretches what it held at the region's
    entry: the region leaves it (it is not an array) and no later operation writes it. -/
theorem afterTail_kept (dats : (p : Fin 1) → (c : Dev nD) → Dat τ (Elt F) Unit ℕ (UR sig nD τ) ℕ (cfgs p) c) (c : Dev nD)
    {b : Ref sig .tc} (hb : b ∈ kept) (ha : ∀ w, Pipeline.arrRef spec0 w ≠ b) :
    Pipeline.afterTail₀ cfgs dats 0 (V0 m) tailOps c b = V m c b := by
  unfold Pipeline.afterTail₀
  rw [StableHlo.after_of_forall_not_mem _ _ fun op hop => ?_, Pipeline.withArrays_of_ne _ c (V0 m c) _ b ha]
  obtain ⟨ops, hops, hop'⟩ := List.mem_flatten.mp hop
  exact tail_keeps ops hops op hop' b hb

/-- THE FRAME from a frame run: the two staged arguments end at the contents the proof data enter with (an input's
    array is never written), the four arguments no window stages at what they held at the region's entry; and at
    the region's entry every argument held its launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r hr c => ?_) h
  obtain ⟨harr, hrest⟩ := hr c
  have hin : ∀ w : Fin 6, (cfg0.win w).isOut = false →
      r.2.mem (((cfgs 0).spec w).arr.view.loc (c.tc : Thread nD τ)) = V m c (Pipeline.arrRef spec0 w) :=
    fun w hw => (harr w).trans (((dats 0 c).arrAt_in w hw _).trans (hA c w))
  have hby : ∀ b : Ref sig .tc, b ∈ kept → b.isScoped = false → (∀ w, Pipeline.arrRef spec0 w ≠ b) →
      r.2.mem ((c.tc : Thread nD τ).loc b) = V m c b :=
    fun b hb hs ha => (hrest b (Pipeline.mem_restRefs_of b hs ha)).trans (afterTail_kept m dats c hb ha)
  exact ⟨(hin 0 rfl).trans (V_main_arg0 m c), (hin 1 rfl).trans (V_main_arg1 m c),
    (hby main_arg2 (by decide) rfl (by decide)).trans (V_main_arg2 m c),
    (hby main_arg3 (by decide) rfl (by decide)).trans (V_main_arg3 m c),
    (hby main_arg4 (by decide) rfl (by decide)).trans (V_main_arg4 m c),
    (hby main_arg5 (by decide) rfl (by decide)).trans (V_main_arg5 m c)⟩

/-! ## The body's branch conditions -/

/-- The condition of the body's first branch (reset the accumulators), from the grid coordinates. -/
abbrev cond0_0 (i : grid0.Coords) : Prop := (Scalar.cmpi .ne (Scalar.extui (Scalar.cmpi .eq (BitVec.ofNat 32 (i 1).val) 0#32)) 0#32) = 1#1
/-- It holds where the second coordinate is 0: the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- The condition of the body's second branch (write the accumulators out), from the grid coordinates. -/
abbrev cond0_1 (i : grid0.Coords) : Prop := k0_cond2 i = 1#1
/-- It holds where the second coordinate is 15: the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-- A 16-step axis is never at step 0 and at step 15 at once. -/
theorem noCase_AC : ∀ t : Fin cfg0.N, cond0_0 (grid0.coords t) → ¬cond0_1 (grid0.coords t) := by
  intro t h0 h1
  have e0 := (hcond0_0 t).mp h0
  have e1 := (hcond0_1 t).mp h1
  omega

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
theorem liveAt0_4_C : ∀ t : Fin cfg0.N, ¬cond0_0 (grid0.coords t) → cond0_1 (grid0.coords t) → cfg0.idle 4 (grid0.coords t) = false := by decide +kernel
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
theorem liveAt0_5_C : ∀ t : Fin cfg0.N, ¬cond0_0 (grid0.coords t) → cond0_1 (grid0.coords t) → cfg0.idle 5 (grid0.coords t) = false := by decide +kernel

/-! ## The memrefs the body is called with -/

abbrev VO0_3 : View sig .tc .vmem S4096x128 .f32 := (Memref.whole cc0_stg3_0 : Memref sig .tc .vmem S4096x128 .f32).view
abbrev VO0_4 : View sig .tc .vmem S1x64x128 .f32 := (Memref.whole cc0_stg4_0 : Memref sig .tc .vmem S1x64x128 .f32).view
abbrev VO0_5 : View sig .tc .vmem S1x64x256 .f32 := (Memref.whole cc0_stg5_0 : Memref sig .tc .vmem S1x64x256 .f32).view
abbrev ms0_0 (t : Fin cfg0.N) : Memref sig .tc .vmem S4096x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64x256 .f32 := win0_5.stage (cfg0.slots t 5)
abbrev hs0_5 (t : Fin cfg0.N) : (ms0_5 t).IsWhole := hstage0_5 ((cfg0.slots t 5).cast nbuf0_5)
abbrev scM0_0 : Memref sig .tc .vmem S64x128 .f32 := Memref.whole cc0_scratch0
abbrev scM0_1 : Memref sig .tc .vmem S64x256 .f32 := Memref.whole cc0_scratch1
abbrev VS0_0 : View sig .tc .vmem S64x128 .f32 := scM0_0.view
abbrev VS0_1 : View sig .tc .vmem S64x256 .f32 := scM0_1.view

/-- The region invariant of a kernel that keeps state in scratch: the core's scoped buffers that are no staging
    buffer are the two accumulators, each a whole buffer owned at some contents, beside the random-bit register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA
  rw [scopedRest0_eq]
  simp only [owns_whole]
  -- the two sides now differ only in how the bound contents' type is spelled
  rfl

end Cert.KernelIdeal.Region

end
-- ==== Proof.KernelIdealRunA.lean ====
/-
  The whole-body run of the kernel function at the first point of each core's sixteen steps: the first
  conditional of the body is taken (the second grid coordinate is 0: both scratch accumulators are set to zero
  before the step's sums are added to them) and the second is not (nothing is written to the two partial-sum
  output windows). The lists of pieces that the body's stores leave in the output window's buffer and in the
  two scratch accumulators are the witness; the triple says that from the three input buffers at their
  contents, the output buffer and the two scratches at anything, and the two idle partial-sum buffers at given
  contents, the body runs to a continuation that is handed the inputs and the idle buffers as they were and
  the three written buffers with those pieces written.
-/
import proofs.«402983_j34497177321524_3_alg».proof.Proof.KernelIdealRuns

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run when its first conditional is taken and its second is not. The three lists are what the
    body's stores leave, last store first, in the output window's buffer and in the two scratch accumulators:
    the run finds them. On whole buffers — the three inputs at contents x0, x1, x2; the output's, which the body
    loads once before it overwrites it whole, at anything; the two partial-sum buffers, which this case leaves
    alone, at xi4 and xi5; the two scratches, which this case zeroes before it adds to them, at anything — the
    body runs to the continuation, which gets the inputs and the two partial-sum buffers back unchanged and
    the output's buffer and the scratches with their pieces written. -/
noncomputable def kernelRun0_A (c : Dev nD) (i : grid0.Coords) (arg2 : Memref sig .tc .vmem S4096x128 .f32) (harg2 : arg2.IsWhole) (arg3 : Memref sig .tc .vmem S4096 .i32) (harg3 : arg3.IsWhole) (arg4 : Memref sig .tc .vmem S64x512 .bf16) (harg4 : arg4.IsWhole) (arg5 : Memref sig .tc .vmem S4096x128 .f32) (harg5 : arg5.IsWhole) (arg6 : Memref sig .tc .vmem S1x64x128 .f32) (harg6 : arg6.IsWhole) (arg7 : Memref sig .tc .vmem S1x64x256 .f32) (harg7 : arg7.IsWhole) (arg8 : Memref sig .tc .vmem S64x128 .f32) (harg8 : arg8.IsWhole) (arg9 : Memref sig .tc .vmem S64x256 .f32) (harg9 : arg9.IsWhole) (hc0 : cond0_0 i) (hc1 : ¬cond0_1 i)
    (x0 : Vec F S4096x128 .f32) (x1 : Vec F S4096 .i32) (x2 : Vec F S64x512 .bf16) :
    Σ' (L3 : List (View.Piece (Elt F) S4096x128 .f32)) (LS0 : List (View.Piece (Elt F) S64x128 .f32)), { LS1 : List (View.Piece (Elt F) S64x256 .f32) //
      ∀ (xi4 : Vec F S1x64x128 .f32) (xi5 : Vec F S1x64x256 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨?_, ?_, ⟨?_, fun xi4 xi5 E K => ?run⟩⟩
  case run =>
    simp only [cc0__kernel_eq_skeleton]; unfold cc0__kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [H4]
    · iexists _; isplitr; · ipureintro; exact harg6.read_unread _
      iexact H4
    isplitl [H5]
    · iexists _; isplitr; · ipureintro; exact harg7.read_unread _
      iexact H5
    isplitl [HS0]
    · iexists _; iexact HS0
    iexists _; iexact HS1

end Cert.KernelIdeal.Region

end
-- ==== Proof.KernelIdealRunB.lean ====
/-
  The whole-body run of the kernel function at a MIDDLE grid point: neither conditional region of the body is
  entered. The two scratch accumulators hold what the point before left and the body adds this point's partial
  sums to them; the normalized block is stored whole into the output window's buffer (which the body first
  loads, a value nothing reads); the three input windows' buffers are only read; the buffers of the two
  partial-sum output windows are not touched and are handed back as they came.
-/
import proofs.«402983_j34497177321524_3_alg».proof.Proof.KernelIdealRunA

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave, last first, in the output window's buffer (`L3`) and in the two scratch
    accumulators (`LS0`, `LS1`) at a grid point where neither conditional region is entered, WITH the run itself:
    from whole buffers — the three inputs' at contents `x0`, `x1`, `x2`, the output window's at anything, the two
    idle partial-sum windows' at `xi4`, `xi5`, the two accumulators at what the point before left, `xs0`, `xs1` —
    the body runs to a continuation that holds the inputs' and the idle windows' buffers as they were, and the
    output window's and the two accumulators' buffers with those pieces written. -/
noncomputable def kernelRun0_B (c : Dev nD) (i : grid0.Coords) (arg2 : Memref sig .tc .vmem S4096x128 .f32) (harg2 : arg2.IsWhole) (arg3 : Memref sig .tc .vmem S4096 .i32) (harg3 : arg3.IsWhole) (arg4 : Memref sig .tc .vmem S64x512 .bf16) (harg4 : arg4.IsWhole) (arg5 : Memref sig .tc .vmem S4096x128 .f32) (harg5 : arg5.IsWhole) (arg6 : Memref sig .tc .vmem S1x64x128 .f32) (harg6 : arg6.IsWhole) (arg7 : Memref sig .tc .vmem S1x64x256 .f32) (harg7 : arg7.IsWhole) (arg8 : Memref sig .tc .vmem S64x128 .f32) (harg8 : arg8.IsWhole) (arg9 : Memref sig .tc .vmem S64x256 .f32) (harg9 : arg9.IsWhole) (hc0 : ¬cond0_0 i) (hc1 : ¬cond0_1 i)
    (x0 : Vec F S4096x128 .f32) (x1 : Vec F S4096 .i32) (x2 : Vec F S64x512 .bf16) (xs0 : Vec F S64x128 .f32) (xs1 : Vec F S64x256 .f32) :
    Σ' (L3 : List (View.Piece (Elt F) S4096x128 .f32)) (LS0 : List (View.Piece (Elt F) S64x128 .f32)), { LS1 : List (View.Piece (Elt F) S64x256 .f32) //
      ∀ (xi4 : Vec F S1x64x128 .f32) (xi5 : Vec F S1x64x256 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨?_, ?_, ⟨?_, fun xi4 xi5 E K => ?run⟩⟩
  case run =>
    simp only [cc0__kernel_eq_skeleton]; unfold cc0__kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hf4; obtain rfl := harg7.eq_unread hf5
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [H4]
    · iexists _; isplitr; · ipureintro; exact harg6.read_unread _
      iexact H4
    isplitl [H5]
    · iexists _; isplitr; · ipureintro; exact harg7.read_unread _
      iexact H5
    isplitl [HS0]
    · iexists _; iexact HS0
    iexists _; iexact HS1

end Cert.KernelIdeal.Region

end
-- ==== Proof.KernelIdealRunC.lean ====
/-
  The run of the whole kernel body at the last step of a core: the second grid coordinate is 15, so the first
  conditional of the body (the reset of the two accumulators, at coordinate 0) is not taken and the second (the
  write-out, at coordinate 15) is taken.  At such a point the body reads the three input windows, stores the
  normalized block whole into the first output window's buffer (which it has loaded once before, a value it never
  uses), adds the step's per-task sums to the two scratch accumulators it finds at what the point before left in
  them, and then copies each accumulator whole into its partial-sum window's buffer (again after a load whose
  value is dropped).
-/
import proofs.«402983_j34497177321524_3_alg».proof.Proof.KernelIdealRunB

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the proof term of the run is large: closing the definition walks it past the default budget)
set_option maxHeartbeats 1000000 in
/-- The pieces the body's stores leave in the three output windows' buffers and in the two scratch accumulators
    when the first conditional is not taken and the second is, together with the triple that finds them: on this
    path each of the five buffers is stored into exactly once, whole, so each list is one piece (`View.writes` would
    list a later store ahead of an earlier one).  Held at entry: the three input windows' buffers at their contents `x0`, `x1`, `x2`; the three
    output windows' buffers at any contents; the two accumulators at the contents `xs0`, `xs1` the point before
    left.  Every buffer is a whole memref, so what a whole-rectangle load reads of an input is the contents
    themselves.  The body then runs to any continuation that accepts the inputs as they were and each of the five
    written buffers at some base contents with its pieces written over them.  The two conditionals are decided by
    the hypotheses `hc0`, `hc1`; a piece list is fixed at the moment its buffer is handed to the continuation. -/
noncomputable def kernelRun0_C (c : Dev nD) (i : grid0.Coords) (arg2 : Memref sig .tc .vmem S4096x128 .f32) (harg2 : arg2.IsWhole) (arg3 : Memref sig .tc .vmem S4096 .i32) (harg3 : arg3.IsWhole) (arg4 : Memref sig .tc .vmem S64x512 .bf16) (harg4 : arg4.IsWhole) (arg5 : Memref sig .tc .vmem S4096x128 .f32) (harg5 : arg5.IsWhole) (arg6 : Memref sig .tc .vmem S1x64x128 .f32) (harg6 : arg6.IsWhole) (arg7 : Memref sig .tc .vmem S1x64x256 .f32) (harg7 : arg7.IsWhole) (arg8 : Memref sig .tc .vmem S64x128 .f32) (harg8 : arg8.IsWhole) (arg9 : Memref sig .tc .vmem S64x256 .f32) (harg9 : arg9.IsWhole) (hc0 : ¬cond0_0 i) (hc1 : cond0_1 i)
    (x0 : Vec F S4096x128 .f32) (x1 : Vec F S4096 .i32) (x2 : Vec F S64x512 .bf16) (xs0 : Vec F S64x128 .f32) (xs1 : Vec F S64x256 .f32) :
    Σ' (L3 : List (View.Piece (Elt F) S4096x128 .f32)) (L4 : List (View.Piece (Elt F) S1x64x128 .f32)) (L5 : List (View.Piece (Elt F) S1x64x256 .f32)) (LS0 : List (View.Piece (Elt F) S64x128 .f32)), { LS1 : List (View.Piece (Elt F) S64x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨?_, ?_, ?_, ?_, ?_, fun E K => ?run⟩
  case run =>
    simp only [cc0__kernel_eq_skeleton]; unfold cc0__kernel_skel
    unfold owns
    -- inputs and accumulators: contents read through the whole view; outputs: any contents
    iintro ⟨⟨%f0, %hf0, H0⟩, ⟨%f1, %hf1, H1⟩, ⟨%f2, %hf2, H2⟩, ⟨%d3, %f3, -, H3⟩, ⟨%d4, %f4, -, H4⟩,
      ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg8.eq_unread hfs0; obtain rfl := harg9.eq_unread hfs1
    -- the loads, stores and the two decided conditionals, in program order; then the return
    sl_exec (disch := first | exact hc0 | exact hc1)
    sl_step
    iapply Hk
    -- the three inputs are unchanged: reading back what was laid out gives the contents
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    -- the three outputs and the two accumulators: each buffer's writes are its piece list
    isplitl [H3]; · iexists _; iexact H3
    isplitl [H4]; · iexists _; iexact H4
    isplitl [H5]; · iexists _; iexact H5
    isplitl [HS0]; · iexists _; iexact HS0
    iexists _; iexact HS1

end Cert.KernelIdeal.Region

end
-- ==== Proof.KernelIdealData.lean ====
/-
  What the three cases of the kernel body leave in the output buffers and in the two scratch accumulators, as
  their piece lists read back; the accumulation of those contents point by point over the 32 grid points; the region
  invariant position by position; and the proof data of the pipeline stated over them.
-/
import proofs.«402983_j34497177321524_3_alg».proof.Proof.KernelIdealRunC

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case of the body leaves -/

section Cases

variable (c : Dev nD) (i : grid0.Coords)
  (arg2 : Memref sig .tc .vmem S4096x128 .f32) (harg2 : arg2.IsWhole)
  (arg3 : Memref sig .tc .vmem S4096 .i32) (harg3 : arg3.IsWhole)
  (arg4 : Memref sig .tc .vmem S64x512 .bf16) (harg4 : arg4.IsWhole)
  (arg5 : Memref sig .tc .vmem S4096x128 .f32) (harg5 : arg5.IsWhole)
  (arg6 : Memref sig .tc .vmem S1x64x128 .f32) (harg6 : arg6.IsWhole)
  (arg7 : Memref sig .tc .vmem S1x64x256 .f32) (harg7 : arg7.IsWhole)
  (arg8 : Memref sig .tc .vmem S64x128 .f32) (harg8 : arg8.IsWhole)
  (arg9 : Memref sig .tc .vmem S64x256 .f32) (harg9 : arg9.IsWhole)

/-! ### Case A: the second coordinate is 0 — the accumulators are reset, then this block is added -/

/-- Case A's stores into the normalized-rows buffer tile it, so they cover it. -/
theorem cover0_A_3 (hc0 : cond0_0 i) (hc1 : ¬cond0_1 i) (x0 : Vec F S4096x128 .f32) (x1 : Vec F S4096 .i32) (x2 : Vec F S64x512 .bf16) (y : S4096x128.Idx) :
    ∃ pc ∈ (kernelRun0_A c i arg2 harg2 arg3 harg3 arg4 harg4 arg5 harg5 arg6 harg6 arg7 harg7 arg8 harg8 arg9 harg9 hc0 hc1 x0 x1 x2).1, y ∈ pc.1.set :=
  View.cover_of_tiledL (kernelRun0_A c i arg2 harg2 arg3 harg3 arg4 harg4 arg5 harg5 arg6 harg6 arg7 harg7 arg8 harg8 arg9 harg9 hc0 hc1 x0 x1 x2).1 S4096x128.size (by sl_kernel_rfl) y
/-- What case A leaves in the normalized-rows buffer: its pieces read back over junk. -/
def out0_A_3 (hc0 : cond0_0 i) (hc1 : ¬cond0_1 i) (x0 : Vec F S4096x128 .f32) (x1 : Vec F S4096 .i32) (x2 : Vec F S64x512 .bf16) : Vec F S4096x128 .f32 :=
  VO0_3.read (Elt F) (VO0_3.writes (Elt F) VO0_3.junk (kernelRun0_A c i arg2 harg2 arg3 harg3 arg4 harg4 arg5 harg5 arg6 harg6 arg7 harg7 arg8 harg8 arg9 harg9 hc0 hc1 x0 x1 x2).1)
/-- Case A's stores into the first accumulator cover it. -/
theorem scover0_A_0 (hc0 : cond0_0 i) (hc1 : ¬cond0_1 i) (x0 : Vec F S4096x128 .f32) (x1 : Vec F S4096 .i32) (x2 : Vec F S64x512 .bf16) (y : S64x128.Idx) :
    ∃ pc ∈ (kernelRun0_A c i arg2 harg2 arg3 harg3 arg4 harg4 arg5 harg5 arg6 harg6 arg7 harg7 arg8 harg8 arg9 harg9 hc0 hc1 x0 x1 x2).2.1, y ∈ pc.1.set :=
  View.cover_of_tiledL (kernelRun0_A c i arg2 harg2 arg3 harg3 arg4 harg4 arg5 harg5 arg6 harg6 arg7 harg7 arg8 harg8 arg9 harg9 hc0 hc1 x0 x1 x2).2.1 S64x128.size (by sl_kernel_rfl) y
/-- What case A leaves in the first accumulator. -/
def sout0_A_0 (hc0 : cond0_0 i) (hc1 : ¬cond0_1 i) (x0 : Vec F S4096x128 .f32) (x1 : Vec F S4096 .i32) (x2 : Vec F S64x512 .bf16) : Vec F S64x128 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2).2.1)
/-- Case A's stores into the second accumulator cover it. -/
theorem scover0_A_1 (hc0 : cond0_0 i) (hc1 : ¬cond0_1 i) (x0 : Vec F S4096x128 .f32) (x1 : Vec F S4096 .i32) (x2 : Vec F S64x512 .bf16) (y : S64x256.Idx) :
    ∃ pc ∈ (kernelRun0_A c i arg2 harg2 arg3 harg3 arg4 harg4 arg5 harg5 arg6 harg6 arg7 harg7 arg8 harg8 arg9 harg9 hc0 hc1 x0 x1 x2).2.2.1, y ∈ pc.1.set :=
  View.cover_of_tiledL (kernelRun0_A c i arg2 harg2 arg3 harg3 arg4 harg4 arg5 harg5 arg6 harg6 arg7 harg7 arg8 harg8 arg9 harg9 hc0 hc1 x0 x1 x2).2.2.1 S64x256.size (by sl_kernel_rfl) y
/-- What case A leaves in the second accumulator. -/
def sout0_A_1 (hc0 : cond0_0 i) (hc1 : ¬cond0_1 i) (x0 : Vec F S4096x128 .f32) (x1 : Vec F S4096 .i32) (x2 : Vec F S64x512 .bf16) : Vec F S64x256 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1 x2).2.2.1)

/-! ### Case B: the second coordinate is strictly between 0 and 15 — this block is added to what the point before left -/

theorem cover0_B_3 (hc0 : ¬cond0_0 i) (hc1 : ¬cond0_1 i) (x0 : Vec F S4096x128 .f32) (x1 : Vec F S4096 .i32) (x2 : Vec F S64x512 .bf16) (xs0 : Vec F S64x128 .f32) (xs1 : Vec F S64x256 .f32) (y : S4096x128.Idx) :
    ∃ pc ∈ (kernelRun0_B c i arg2 harg2 arg3 harg3 arg4 harg4 arg5 harg5 arg6 harg6 arg7 harg7 arg8 harg8 arg9 harg9 hc0 hc1 x0 x1 x2 xs0 xs1).1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1).1 S4096x128.size (by sl_kernel_rfl) y
def out0_B_3 (hc0 : ¬cond0_0 i) (hc1 : ¬cond0_1 i) (x0 : Vec F S4096x128 .f32) (x1 : Vec F S4096 .i32) (x2 : Vec F S64x512 .bf16) (xs0 : Vec F S64x128 .f32) (xs1 : Vec F S64x256 .f32) : Vec F S4096x128 .f32 :=
  VO0_3.read (Elt F) (VO0_3.writes (Elt F) VO0_3.junk (kernelRun0_B c i arg2 harg2 arg3 harg3 arg4 harg4 arg5 harg5 arg6 harg6 arg7 harg7 arg8 harg8 arg9 harg9 hc0 hc1 x0 x1 x2 xs0 xs1).1)
theorem scover0_B_0 (hc0 : ¬cond0_0 i) (hc1 : ¬cond0_1 i) (x0 : Vec F S4096x128 .f32) (x1 : Vec F S4096 .i32) (x2 : Vec F S64x512 .bf16) (xs0 : Vec F S64x128 .f32) (xs1 : Vec F S64x256 .f32) (y : S64x128.Idx) :
    ∃ pc ∈ (kernelRun0_B c i arg2 harg2 arg3 harg3 arg4 harg4 arg5 harg5 arg6 harg6 arg7 harg7 arg8 harg8 arg9 harg9 hc0 hc1 x0 x1 x2 xs0 xs1).2.1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1).2.1 S64x128.size (by sl_kernel_rfl) y
def sout0_B_0 (hc0 : ¬cond0_0 i) (hc1 : ¬cond0_1 i) (x0 : Vec F S4096x128 .f32) (x1 : Vec F S4096 .i32) (x2 : Vec F S64x512 .bf16) (xs0 : Vec F S64x128 .f32) (xs1 : Vec F S64x256 .f32) : Vec F S64x128 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 xs0 xs1).2.1)
theorem scover0_B_1 (hc0 : ¬cond0_0 i) (hc1 : ¬cond0_1 i) (x0 : Vec F S4096x128 .f32) (x1 : Vec F S4096 .i32) (x2 : Vec F S64x512 .bf16) (xs0 : Vec F S64x128 .f32) (xs1 : Vec F S64x256 .f32) (y : S64x256.Idx) :
    ∃ pc ∈ (kernelRun0_B c i arg2 harg2 arg3 harg3 arg4 harg4 arg5 harg5 arg6 harg6 arg7 harg7 arg8 harg8 arg9 harg9 hc0 hc1 x0 x1 x2 xs0 xs1).2.2.1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1).2.2.1 S64x256.size (by sl_kernel_rfl) y
def sout0_B_1 (hc0 : ¬cond0_0 i) (hc1 : ¬cond0_1 i) (x0 : Vec F S4096x128 .f32) (x1 : Vec F S4096 .i32) (x2 : Vec F S64x512 .bf16) (xs0 : Vec F S64x128 .f32) (xs1 : Vec F S64x256 .f32) : Vec F S64x256 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 x2 xs0 xs1).2.2.1)

/-! ### Case C: the second coordinate is 15 — this block is added and the accumulators are written out -/

theorem cover0_C_3 (hc0 : ¬cond0_0 i) (hc1 : cond0_1 i) (x0 : Vec F S4096x128 .f32) (x1 : Vec F S4096 .i32) (x2 : Vec F S64x512 .bf16) (xs0 : Vec F S64x128 .f32) (xs1 : Vec F S64x256 .f32) (y : S4096x128.Idx) :
    ∃ pc ∈ (kernelRun0_C c i arg2 harg2 arg3 harg3 arg4 harg4 arg5 harg5 arg6 harg6 arg7 harg7 arg8 harg8 arg9 harg9 hc0 hc1 x0 x1 x2 xs0 xs1).1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1).1 S4096x128.size (by sl_kernel_rfl) y
def out0_C_3 (hc0 : ¬cond0_0 i) (hc1 : cond0_1 i) (x0 : Vec F S4096x128 .f32) (x1 : Vec F S4096 .i32) (x2 : Vec F S64x512 .bf16) (xs0 : Vec F S64x128 .f32) (xs1 : Vec F S64x256 .f32) : Vec F S4096x128 .f32 :=
  VO0_3.read (Elt F) (VO0_3.writes (Elt F) VO0_3.junk (kernelRun0_C c i arg2 harg2 arg3 harg3 arg4 harg4 arg5 harg5 arg6 harg6 arg7 harg7 arg8 harg8 arg9 harg9 hc0 hc1 x0 x1 x2 xs0 xs1).1)
/-- Case C's store into the per-task counts' buffer covers it. -/
theorem cover0_C_4 (hc0 : ¬cond0_0 i) (hc1 : cond0_1 i) (x0 : Vec F S4096x128 .f32) (x1 : Vec F S4096 .i32) (x2 : Vec F S64x512 .bf16) (xs0 : Vec F S64x128 .f32) (xs1 : Vec F S64x256 .f32) (y : S1x64x128.Idx) :
    ∃ pc ∈ (kernelRun0_C c i arg2 harg2 arg3 harg3 arg4 harg4 arg5 harg5 arg6 harg6 arg7 harg7 arg8 harg8 arg9 harg9 hc0 hc1 x0 x1 x2 xs0 xs1).2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1).2.1 S1x64x128.size (by sl_kernel_rfl) y
/-- What case C leaves in the per-task counts' buffer. -/
def out0_C_4 (hc0 : ¬cond0_0 i) (hc1 : cond0_1 i) (x0 : Vec F S4096x128 .f32) (x1 : Vec F S4096 .i32) (x2 : Vec F S64x512 .bf16) (xs0 : Vec F S64x128 .f32) (xs1 : Vec F S64x256 .f32) : Vec F S1x64x128 .f32 :=
  VO0_4.read (Elt F) (VO0_4.writes (Elt F) VO0_4.junk (kernelRun0_C c i arg2 harg2 arg3 harg3 arg4 harg4 arg5 harg5 arg6 harg6 arg7 harg7 arg8 harg8 arg9 harg9 hc0 hc1 x0 x1 x2 xs0 xs1).2.1)
/-- Case C's store into the per-task sums' buffer covers it. -/
theorem cover0_C_5 (hc0 : ¬cond0_0 i) (hc1 : cond0_1 i) (x0 : Vec F S4096x128 .f32) (x1 : Vec F S4096 .i32) (x2 : Vec F S64x512 .bf16) (xs0 : Vec F S64x128 .f32) (xs1 : Vec F S64x256 .f32) (y : S1x64x256.Idx) :
    ∃ pc ∈ (kernelRun0_C c i arg2 harg2 arg3 harg3 arg4 harg4 arg5 harg5 arg6 harg6 arg7 harg7 arg8 harg8 arg9 harg9 hc0 hc1 x0 x1 x2 xs0 xs1).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1).2.2.1 S1x64x256.size (by sl_kernel_rfl) y
/-- What case C leaves in the per-task sums' buffer. -/
def out0_C_5 (hc0 : ¬cond0_0 i) (hc1 : cond0_1 i) (x0 : Vec F S4096x128 .f32) (x1 : Vec F S4096 .i32) (x2 : Vec F S64x512 .bf16) (xs0 : Vec F S64x128 .f32) (xs1 : Vec F S64x256 .f32) : Vec F S1x64x256 .f32 :=
  VO0_5.read (Elt F) (VO0_5.writes (Elt F) VO0_5.junk (kernelRun0_C c i arg2 harg2 arg3 harg3 arg4 harg4 arg5 harg5 arg6 harg6 arg7 harg7 arg8 harg8 arg9 harg9 hc0 hc1 x0 x1 x2 xs0 xs1).2.2.1)
theorem scover0_C_0 (hc0 : ¬cond0_0 i) (hc1 : cond0_1 i) (x0 : Vec F S4096x128 .f32) (x1 : Vec F S4096 .i32) (x2 : Vec F S64x512 .bf16) (xs0 : Vec F S64x128 .f32) (xs1 : Vec F S64x256 .f32) (y : S64x128.Idx) :
    ∃ pc ∈ (kernelRun0_C c i arg2 harg2 arg3 harg3 arg4 harg4 arg5 harg5 arg6 harg6 arg7 harg7 arg8 harg8 arg9 harg9 hc0 hc1 x0 x1 x2 xs0 xs1).2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1).2.2.2.1 S64x128.size (by sl_kernel_rfl) y
def sout0_C_0 (hc0 : ¬cond0_0 i) (hc1 : cond0_1 i) (x0 : Vec F S4096x128 .f32) (x1 : Vec F S4096 .i32) (x2 : Vec F S64x512 .bf16) (xs0 : Vec F S64x128 .f32) (xs1 : Vec F S64x256 .f32) : Vec F S64x128 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 xs0 xs1).2.2.2.1)
theorem scover0_C_1 (hc0 : ¬cond0_0 i) (hc1 : cond0_1 i) (x0 : Vec F S4096x128 .f32) (x1 : Vec F S4096 .i32) (x2 : Vec F S64x512 .bf16) (xs0 : Vec F S64x128 .f32) (xs1 : Vec F S64x256 .f32) (y : S64x256.Idx) :
    ∃ pc ∈ (kernelRun0_C c i arg2 harg2 arg3 harg3 arg4 harg4 arg5 harg5 arg6 harg6 arg7 harg7 arg8 harg8 arg9 harg9 hc0 hc1 x0 x1 x2 xs0 xs1).2.2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1).2.2.2.2.1 S64x256.size (by sl_kernel_rfl) y
def sout0_C_1 (hc0 : ¬cond0_0 i) (hc1 : cond0_1 i) (x0 : Vec F S4096x128 .f32) (x1 : Vec F S4096 .i32) (x2 : Vec F S64x512 .bf16) (xs0 : Vec F S64x128 .f32) (xs1 : Vec F S64x256 .f32) : Vec F S64x256 .f32 :=
  VS0_1.read (Elt F) (VS0_1.writes (Elt F) VS0_1.junk (kernelRun0_C c i arg2 harg2 arg3 harg3 arg4 harg4 arg5 harg5 arg6 harg6 arg7 harg7 arg8 harg8 arg9 harg9 hc0 hc1 x0 x1 x2 xs0 xs1).2.2.2.2.1)

end Cases

/-- Cases A and B store nothing into the two per-task outputs (the windows are idle at their points and not
    written back there): a placeholder, junk read back, that nothing consults. -/
def out0_A_4 (c : Dev nD) (i : grid0.Coords) (arg2 : Memref sig .tc .vmem S4096x128 .f32) (harg2 : arg2.IsWhole) (arg3 : Memref sig .tc .vmem S4096 .i32) (harg3 : arg3.IsWhole) (arg4 : Memref sig .tc .vmem S64x512 .bf16) (harg4 : arg4.IsWhole) (arg5 : Memref sig .tc .vmem S4096x128 .f32) (harg5 : arg5.IsWhole) (arg6 : Memref sig .tc .vmem S1x64x128 .f32) (harg6 : arg6.IsWhole) (arg7 : Memref sig .tc .vmem S1x64x256 .f32) (harg7 : arg7.IsWhole) (arg8 : Memref sig .tc .vmem S64x128 .f32) (harg8 : arg8.IsWhole) (arg9 : Memref sig .tc .vmem S64x256 .f32) (harg9 : arg9.IsWhole) (hc0 : cond0_0 i) (hc1 : ¬cond0_1 i) (x0 : Vec F S4096x128 .f32) (x1 : Vec F S4096 .i32) (x2 : Vec F S64x512 .bf16) : Vec F S1x64x128 .f32 :=
  VO0_4.read (Elt F) VO0_4.junk
def out0_A_5 (c : Dev nD) (i : grid0.Coords) (arg2 : Memref sig .tc .vmem S4096x128 .f32) (harg2 : arg2.IsWhole) (arg3 : Memref sig .tc .vmem S4096 .i32) (harg3 : arg3.IsWhole) (arg4 : Memref sig .tc .vmem S64x512 .bf16) (harg4 : arg4.IsWhole) (arg5 : Memref sig .tc .vmem S4096x128 .f32) (harg5 : arg5.IsWhole) (arg6 : Memref sig .tc .vmem S1x64x128 .f32) (harg6 : arg6.IsWhole) (arg7 : Memref sig .tc .vmem S1x64x256 .f32) (harg7 : arg7.IsWhole) (arg8 : Memref sig .tc .vmem S64x128 .f32) (harg8 : arg8.IsWhole) (arg9 : Memref sig .tc .vmem S64x256 .f32) (harg9 : arg9.IsWhole) (hc0 : cond0_0 i) (hc1 : ¬cond0_1 i) (x0 : Vec F S4096x128 .f32) (x1 : Vec F S4096 .i32) (x2 : Vec F S64x512 .bf16) : Vec F S1x64x256 .f32 :=
  VO0_5.read (Elt F) VO0_5.junk
def out0_B_4 (c : Dev nD) (i : grid0.Coords) (arg2 : Memref sig .tc .vmem S4096x128 .f32) (harg2 : arg2.IsWhole) (arg3 : Memref sig .tc .vmem S4096 .i32) (harg3 : arg3.IsWhole) (arg4 : Memref sig .tc .vmem S64x512 .bf16) (harg4 : arg4.IsWhole) (arg5 : Memref sig .tc .vmem S4096x128 .f32) (harg5 : arg5.IsWhole) (arg6 : Memref sig .tc .vmem S1x64x128 .f32) (harg6 : arg6.IsWhole) (arg7 : Memref sig .tc .vmem S1x64x256 .f32) (harg7 : arg7.IsWhole) (arg8 : Memref sig .tc .vmem S64x128 .f32) (harg8 : arg8.IsWhole) (arg9 : Memref sig .tc .vmem S64x256 .f32) (harg9 : arg9.IsWhole) (hc0 : ¬cond0_0 i) (hc1 : ¬cond0_1 i) (x0 : Vec F S4096x128 .f32) (x1 : Vec F S4096 .i32) (x2 : Vec F S64x512 .bf16) (xs0 : Vec F S64x128 .f32) (xs1 : Vec F S64x256 .f32) : Vec F S1x64x128 .f32 :=
  VO0_4.read (Elt F) VO0_4.junk
def out0_B_5 (c : Dev nD) (i : grid0.Coords) (arg2 : Memref sig .tc .vmem S4096x128 .f32) (harg2 : arg2.IsWhole) (arg3 : Memref sig .tc .vmem S4096 .i32) (harg3 : arg3.IsWhole) (arg4 : Memref sig .tc .vmem S64x512 .bf16) (harg4 : arg4.IsWhole) (arg5 : Memref sig .tc .vmem S4096x128 .f32) (harg5 : arg5.IsWhole) (arg6 : Memref sig .tc .vmem S1x64x128 .f32) (harg6 : arg6.IsWhole) (arg7 : Memref sig .tc .vmem S1x64x256 .f32) (harg7 : arg7.IsWhole) (arg8 : Memref sig .tc .vmem S64x128 .f32) (harg8 : arg8.IsWhole) (arg9 : Memref sig .tc .vmem S64x256 .f32) (harg9 : arg9.IsWhole) (hc0 : ¬cond0_0 i) (hc1 : ¬cond0_1 i) (x0 : Vec F S4096x128 .f32) (x1 : Vec F S4096 .i32) (x2 : Vec F S64x512 .bf16) (xs0 : Vec F S64x128 .f32) (xs1 : Vec F S64x256 .f32) : Vec F S1x64x256 .f32 :=
  VO0_5.read (Elt F) VO0_5.junk

/-! ## What the outputs and the accumulators hold after each point -/

/-- Case A run at point t's own staging memrefs and input blocks: what it leaves in the three output buffers
    (windows 3, 4, 5) and then in the two accumulators. -/
abbrev outs0_A (c : Dev nD) (t : Fin cfg0.N) (hc0 : cond0_0 (grid0.coords t)) (hc1 : ¬cond0_1 (grid0.coords t)) : Vec F S4096x128 .f32 × Vec F S1x64x128 .f32 × Vec F S1x64x256 .f32 × Vec F S64x128 .f32 × Vec F S64x256 .f32 :=
  (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t))
/-- Case B at point t, over the accumulators' contents xs0 and xs1. -/
abbrev outs0_B (c : Dev nD) (t : Fin cfg0.N) (hc0 : ¬cond0_0 (grid0.coords t)) (hc1 : ¬cond0_1 (grid0.coords t)) (xs0 : Vec F S64x128 .f32) (xs1 : Vec F S64x256 .f32) : Vec F S4096x128 .f32 × Vec F S1x64x128 .f32 × Vec F S1x64x256 .f32 × Vec F S64x128 .f32 × Vec F S64x256 .f32 :=
  (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t) xs0 xs1, out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t) xs0 xs1, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t) xs0 xs1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t) xs0 xs1, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t) xs0 xs1)
/-- Case C at point t, over the accumulators' contents xs0 and xs1. -/
abbrev outs0_C (c : Dev nD) (t : Fin cfg0.N) (hc0 : ¬cond0_0 (grid0.coords t)) (hc1 : cond0_1 (grid0.coords t)) (xs0 : Vec F S64x128 .f32) (xs1 : Vec F S64x256 .f32) : Vec F S4096x128 .f32 × Vec F S1x64x128 .f32 × Vec F S1x64x256 .f32 × Vec F S64x128 .f32 × Vec F S64x256 .f32 :=
  (out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t) xs0 xs1, out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t) xs0 xs1, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t) xs0 xs1, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t) xs0 xs1, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t) xs0 xs1)

/-- THE ACCUMULATION. What the three outputs' staging buffers and the two accumulators hold after the body at
    position n: the case the second coordinate selects, run at the point's memrefs and input blocks, cases B and C
    over what position n - 1 left in the accumulators. No position is at step 0 and at step 15 of its axis at once. -/
def outsAt0 (c : Dev nD) : (n : ℕ) → n < cfg0.N → Vec F S4096x128 .f32 × Vec F S1x64x128 .f32 × Vec F S1x64x256 .f32 × Vec F S64x128 .f32 × Vec F S64x256 .f32
  | 0, hn => outs0_A m c ⟨0, hn⟩ ((hcond0_0 ⟨0, hn⟩).mpr (Nat.zero_mod _))
      (fun h => absurd ((hcond0_1 ⟨0, hn⟩).mp h) (show ¬(0 % 16 = 15) from by decide))
  | n + 1, hn =>
    if h0 : (n + 1) % 16 = 0 then
      if h1 : (n + 1) % 16 = 15 then
        False.elim (by omega)
      else
        outs0_A m c ⟨n + 1, hn⟩ ((hcond0_0 ⟨n + 1, hn⟩).mpr h0) (fun h => h1 ((hcond0_1 ⟨n + 1, hn⟩).mp h))
    else
      if h1 : (n + 1) % 16 = 15 then
        outs0_C m c ⟨n + 1, hn⟩ (fun h => h0 ((hcond0_0 ⟨n + 1, hn⟩).mp h)) ((hcond0_1 ⟨n + 1, hn⟩).mpr h1)
          (outsAt0 c n (Nat.lt_of_succ_lt hn)).2.2.2.1 (outsAt0 c n (Nat.lt_of_succ_lt hn)).2.2.2.2
      else
        outs0_B m c ⟨n + 1, hn⟩ (fun h => h0 ((hcond0_0 ⟨n + 1, hn⟩).mp h)) (fun h => h1 ((hcond0_1 ⟨n + 1, hn⟩).mp h))
          (outsAt0 c n (Nat.lt_of_succ_lt hn)).2.2.2.1 (outsAt0 c n (Nat.lt_of_succ_lt hn)).2.2.2.2

/-- At a point of case A: that case's contents. -/
theorem outsAt0_A (c : Dev nD) (t : Fin cfg0.N) (h0 : t.val % 16 = 0) (h1 : ¬t.val % 16 = 15) :
    outsAt0 m c t.val t.isLt = outs0_A m c t ((hcond0_0 t).mpr h0) (fun h => h1 ((hcond0_1 t).mp h)) := by
  obtain ⟨n, hn⟩ := t
  cases n with
  | zero => rfl
  | succ n => exact (dif_pos h0).trans (dif_neg h1)

/-- At a point of case B: that case's contents, over what the point before left in the accumulators. -/
theorem outsAt0_B (c : Dev nD) (t : Fin cfg0.N) (h0 : ¬t.val % 16 = 0) (h1 : ¬t.val % 16 = 15) :
    outsAt0 m c t.val t.isLt = outs0_B m c t (fun h => h0 ((hcond0_0 t).mp h)) (fun h => h1 ((hcond0_1 t).mp h))
      (outsAt0 m c (t.val - 1) (Nat.lt_of_le_of_lt (Nat.sub_le _ _) t.isLt)).2.2.2.1
      (outsAt0 m c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans (dif_neg h1)

/-- At a point of case C: that case's contents, over what the point before left in the accumulators. -/
theorem outsAt0_C (c : Dev nD) (t : Fin cfg0.N) (h0 : ¬t.val % 16 = 0) (h1 : t.val % 16 = 15) :
    outsAt0 m c t.val t.isLt = outs0_C m c t (fun h => h0 ((hcond0_0 t).mp h)) ((hcond0_1 t).mpr h1)
      (outsAt0 m c (t.val - 1) (Nat.lt_of_le_of_lt (Nat.sub_le _ _) t.isLt)).2.2.2.1
      (outsAt0 m c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans (dif_pos h1)

/-! ## The region invariant, position by position -/

/-- Before the first point: the class's invariant (both accumulators at anything). Before position n + 1: both
    accumulators at what position n left in them, and the random-bit register at some state. -/
def PhiS (c : Dev nD) : (n : ℕ) → n ≤ cfg0.N → sProp 𝕄
  | 0, _ => Pipeline.ΦA spec0 c
  | n + 1, hn => iprop(iprop(owns (c : Thread nD τ) scM0_0 fullShare (outsAt0 m c n hn).2.2.2.1
      ∗ owns (c : Thread nD τ) scM0_1 fullShare (outsAt0 m c n hn).2.2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (outsAt0 m c n hn).2.2.2.1
      ∗ owns (c : Thread nD τ) scM0_1 fullShare (outsAt0 m c n hn).2.2.2.2) ∗ (∃ r, prngReg c r)) := rfl

theorem PhiS_pos (c : Dev nD) (n : ℕ) (h : n ≤ cfg0.N) (hz : n ≠ 0) :
    PhiS m c n h = iprop(iprop(owns (c : Thread nD τ) scM0_0 fullShare (outsAt0 m c (n - 1) (by omega)).2.2.2.1
      ∗ owns (c : Thread nD τ) scM0_1 fullShare (outsAt0 m c (n - 1) (by omega)).2.2.2.2) ∗ (∃ r, prngReg c r)) := by
  cases n with
  | zero => exact absurd rfl hz
  | succ n => rfl

/-- At every position the invariant gives both accumulators at some contents: their named contents forgotten. -/
theorem PhiS_forget (c : Dev nD) (n : ℕ) (h : n ≤ cfg0.N) :
    PhiS m c n h ⊢ iprop(iprop((∃ d, owns (c : Thread nD τ) scM0_0 fullShare d) ∗ (∃ d, owns (c : Thread nD τ) scM0_1 fullShare d)) ∗ (∃ r, prngReg c r)) := by
  cases n with
  | zero => rw [PhiS_zero m c 0 h rfl, PhiA0_eq]
  | succ n =>
    rw [PhiS_succ]
    iintro ⟨⟨HS0, HS1⟩, Hg⟩
    isplitl [HS0 HS1]
    · isplitl [HS0]
      · iexists _; iexact HS0
      · iexists _; iexact HS1
    · iexact Hg

/-! ## The pipeline's proof data -/

/-- The proof data of the pipeline on core c: the arrays as the region finds them; after the body at point t each
    input's buffer at its block and the three outputs' at the point's contents; the invariant by position; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

end Cert.KernelIdeal.Region

end
-- ==== Proof.KernelIdealFrame.lean ====
/-
  The body obligation of the pipeline at a generic grid point, case by case of the second grid coordinate; the
  frame run of @main around the region, by the library's launch theorem for an @main that continues after the
  region with host lines; and the frame claim: the program runs and its six argument arrays end unchanged.
-/
import proofs.«402983_j34497177321524_3_alg».proof.Proof.KernelIdealData

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point t: the invariant, what the core owes, and each window's current staging
    buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- A buffer left at a covering list of writes is owned at the list read back through any view over junk. -/
theorem owns_of_cover {c : Dev nD} {sp : Space} {s : Shape} {e : EltTy} (M : Memref sig .tc sp s e)
    {κ' : Kind} {sp' : Space} (v' : View sig κ' sp' s e) (L : List (View.Piece (Elt F) s e)) (hcov : ∀ y, ∃ p ∈ L, y ∈ p.1.set) :
    (iprop(∃ f, M.view.loc (c : Thread nD τ) ↦[M.view.set]{fullShare} M.view.writes (Elt F) f L) : sProp 𝕄)
      ⊢ owns (c : Thread nD τ) M fullShare (v'.read (Elt F) (v'.writes (Elt F) v'.junk L)) := by
  iintro ⟨%f, H⟩
  unfold owns
  iexists M.view.writes (Elt F) f L
  isplitr
  · ipureintro; exact View.read_writes_of_cover _ _ _ _ _ hcov
  · iexact H

/-- The post's clause for a window live at the point: its buffer at what the body leaves. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- The body at a point of case A (the second coordinate is 0): the inputs' buffers hold their blocks; the invariant
    hands over both accumulators at whatever they hold, the case resets them and leaves them at this block's sums;
    the two per-task outputs are idle and handed back untouched. -/
theorem sound_body_A (c : Dev nD) (t : Fin cfg0.N) (h0 : t.val % 16 = 0) (h1 : ¬t.val % 16 = 15) :
    bodyPre m c t ⊢ wp frame (wpE (defs₀ (F := F)) Variants.none c none) Set.univ (bodyAt0 t) (fun _ => bodyPost m c t) := by
  have hcA : cond0_0 (grid0.coords t) := (hcond0_0 t).mpr h0
  have hcB : ¬cond0_1 (grid0.coords t) := fun h => h1 ((hcond0_1 t).mp h)
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves_live m c 0 t (liveAt0_0 t), leaves_live m c 1 t (liveAt0_1 t), leaves_live m c 2 t (liveAt0_2 t),
    leaves_live m c 3 t (liveAt0_3 t), after0_0, after0_1, after0_2, after0_3]
  rw [Dat.leavesExact_idle (dats m 0 c) 4 t (idleAt0_4_A t hcA hcB) (noFlush0_4_A t hcA hcB),
    Dat.leavesExact_idle (dats m 0 c) 5 t (idleAt0_5_A t hcA hcB) (noFlush0_5_A t hcA hcB)]
  rw [outsAt0_A m c t h0 h1, PhiS_castSucc m c t]
  -- the tuple's components, spelled as the piece lists read back
  dsimp only [outs0_A]
  unfold out0_A_3 sout0_A_0 sout0_A_1
  iintro ⟨HΦ, Ho, ⟨%d0, H0⟩, ⟨%d1, H1⟩, ⟨%d2, H2⟩, ⟨%d3, H3⟩, ⟨%d4, H4⟩, ⟨%d5, H5⟩⟩
  -- the accumulators' contents do not matter to this case: it resets them
  ihave ⟨⟨HS0, HS1⟩, Hg⟩ := (PhiS_forget m c t.val _) $$ HΦ
  iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hcA hcB (iblk m c 0 t) (iblk m c 1 t) (iblk m c 2 t)).2.2.2 ((dats m 0 c).before 4 t d4) ((dats m 0 c).before 5 t d5) Set.univ _)
  isplitl [H0]; · iexact H0
  isplitl [H1]; · iexact H1
  isplitl [H2]; · iexact H2
  isplitl [H3]; · iexists _; iexact H3
  isplitl [H4]; · iexact H4
  isplitl [H5]; · iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iapply (owns_of_cover (c := c) scM0_0 VS0_0 _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hcA hcB (iblk m c 0 t) (iblk m c 1 t) (iblk m c 2 t))); iexact HS0
      · iapply (owns_of_cover (c := c) scM0_1 VS0_1 _ (scover0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hcA hcB (iblk m c 0 t) (iblk m c 1 t) (iblk m c 2 t))); iexact HS1
    · iexact Hg
  isplitl [Ho]; · iexact Ho
  isplitl [H0]; · iexact H0
  isplitl [H1]; · iexact H1
  isplitl [H2]; · iexact H2
  isplitl [H3]
  · iapply (owns_of_cover (c := c) (ms0_3 t) VO0_3 _ (cover0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hcA hcB (iblk m c 0 t) (iblk m c 1 t) (iblk m c 2 t))); iexact H3
  isplitl [H4]; · iexists _; iexact H4
  iexists _; iexact H5

/-- The body at a point of case B (the second coordinate strictly between 0 and 15): the invariant hands over both
    accumulators at what the point before left, the case adds this block's sums; the two per-task outputs idle. -/
theorem sound_body_B (c : Dev nD) (t : Fin cfg0.N) (h0 : ¬t.val % 16 = 0) (h1 : ¬t.val % 16 = 15) :
    bodyPre m c t ⊢ wp frame (wpE (defs₀ (F := F)) Variants.none c none) Set.univ (bodyAt0 t) (fun _ => bodyPost m c t) := by
  have hcA : ¬cond0_0 (grid0.coords t) := fun h => h0 ((hcond0_0 t).mp h)
  have hcB : ¬cond0_1 (grid0.coords t) := fun h => h1 ((hcond0_1 t).mp h)
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves_live m c 0 t (liveAt0_0 t), leaves_live m c 1 t (liveAt0_1 t), leaves_live m c 2 t (liveAt0_2 t),
    leaves_live m c 3 t (liveAt0_3 t), after0_0, after0_1, after0_2, after0_3]
  rw [Dat.leavesExact_idle (dats m 0 c) 4 t (idleAt0_4_B t hcA hcB) (noFlush0_4_B t hcA hcB),
    Dat.leavesExact_idle (dats m 0 c) 5 t (idleAt0_5_B t hcA hcB) (noFlush0_5_B t hcA hcB)]
  have hz : t.val ≠ 0 := fun e => h0 (by rw [e])
  rw [outsAt0_B m c t h0 h1, PhiS_castSucc m c t, PhiS_pos m c _ _ hz]
  dsimp only [outs0_B]
  unfold out0_B_3 sout0_B_0 sout0_B_1
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hcA hcB (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2).2.2.2 ((dats m 0 c).before 4 t d4) ((dats m 0 c).before 5 t d5) Set.univ _)
  isplitl [H0]; · iexact H0
  isplitl [H1]; · iexact H1
  isplitl [H2]; · iexact H2
  isplitl [H3]; · iexists _; iexact H3
  isplitl [H4]; · iexact H4
  isplitl [H5]; · iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iapply (owns_of_cover (c := c) scM0_0 VS0_0 _ (scover0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hcA hcB (iblk m c 0 t) (iblk m c 1 t) (iblk m c 2 t) _ _)); iexact HS0
      · iapply (owns_of_cover (c := c) scM0_1 VS0_1 _ (scover0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hcA hcB (iblk m c 0 t) (iblk m c 1 t) (iblk m c 2 t) _ _)); iexact HS1
    · iexact Hg
  isplitl [Ho]; · iexact Ho
  isplitl [H0]; · iexact H0
  isplitl [H1]; · iexact H1
  isplitl [H2]; · iexact H2
  isplitl [H3]
  · iapply (owns_of_cover (c := c) (ms0_3 t) VO0_3 _ (cover0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hcA hcB (iblk m c 0 t) (iblk m c 1 t) (iblk m c 2 t) _ _)); iexact H3
  isplitl [H4]; · iexists _; iexact H4
  iexists _; iexact H5

/-- The body at a point of case C (the second coordinate is 15): as case B, and the two per-task outputs are live:
    the case stores the accumulators into them whole. -/
theorem sound_body_C (c : Dev nD) (t : Fin cfg0.N) (h0 : ¬t.val % 16 = 0) (h1 : t.val % 16 = 15) :
    bodyPre m c t ⊢ wp frame (wpE (defs₀ (F := F)) Variants.none c none) Set.univ (bodyAt0 t) (fun _ => bodyPost m c t) := by
  have hcA : ¬cond0_0 (grid0.coords t) := fun h => h0 ((hcond0_0 t).mp h)
  have hcB : cond0_1 (grid0.coords t) := (hcond0_1 t).mpr h1
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves_live m c 0 t (liveAt0_0 t), leaves_live m c 1 t (liveAt0_1 t), leaves_live m c 2 t (liveAt0_2 t),
    leaves_live m c 3 t (liveAt0_3 t), after0_0, after0_1, after0_2, after0_3]
  rw [leaves_live m c 4 t (liveAt0_4_C t hcA hcB), leaves_live m c 5 t (liveAt0_5_C t hcA hcB), after0_4, after0_5]
  have hz : t.val ≠ 0 := fun e => h0 (by rw [e])
  rw [outsAt0_C m c t h0 h1, PhiS_castSucc m c t, PhiS_pos m c _ _ hz]
  dsimp only [outs0_C]
  unfold out0_C_3 out0_C_4 out0_C_5 sout0_C_0 sout0_C_1
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hcA hcB (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2).2.2.2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iapply (owns_of_cover (c := c) scM0_0 VS0_0 _ (scover0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hcA hcB (iblk m c 0 t) (iblk m c 1 t) (iblk m c 2 t) _ _)); iexact HS0
      · iapply (owns_of_cover (c := c) scM0_1 VS0_1 _ (scover0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hcA hcB (iblk m c 0 t) (iblk m c 1 t) (iblk m c 2 t) _ _)); iexact HS1
    · iexact Hg
  isplitl [Ho]; · iexact Ho
  isplitl [H0]; · iexact H0
  isplitl [H1]; · iexact H1
  isplitl [H2]; · iexact H2
  isplitl [H3]
  · iapply (owns_of_cover (c := c) (ms0_3 t) VO0_3 _ (cover0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hcA hcB (iblk m c 0 t) (iblk m c 1 t) (iblk m c 2 t) _ _)); iexact H3
  isplitl [H4]
  · iapply (owns_of_cover (c := c) (ms0_4 t) VO0_4 _ (cover0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hcA hcB (iblk m c 0 t) (iblk m c 1 t) (iblk m c 2 t) _ _)); iexact H4
  iapply (owns_of_cover (c := c) (ms0_5 t) VO0_5 _ (cover0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hcA hcB (iblk m c 0 t) (iblk m c 1 t) (iblk m c 2 t) _ _)); iexact H5

/-- The body at any point: the second coordinate says which case the point is in. -/
theorem sound_body (c : Dev nD) (t : Fin cfg0.N) :
    bodyPre m c t ⊢ wp frame (wpE (defs₀ (F := F)) Variants.none c none) Set.univ (bodyAt0 t) (fun _ => bodyPost m c t) := by
  by_cases h0 : t.val % 16 = 0
  · by_cases h1 : t.val % 16 = 15
    · exact absurd ((hcond0_1 t).mpr h1) (noCase_AC t ((hcond0_0 t).mpr h0))
    · exact sound_body_A m c t h0 h1
  · by_cases h1 : t.val % 16 = 15
    · exact sound_body_C m c t h0 h1
    · exact sound_body_B m c t h0 h1

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After any point the invariant gives the class's back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiA0_eq]
  exact PhiS_forget m c t.val _

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- From any memory with zero counters every weakly fair execution of @main on the TensorCore terminates, and every
    final state has every array of the pipeline at what the library computes from the proof data and every other
    unscoped buffer as the seven stretches after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- THE FRAME: the program runs, and its six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Region

end
-- ==== Proof.KernelArrays.lean ====
/-
  What the three output arrays hold when the region ends, read off what the body left at each grid point.

  The grid has 2 × 16 points; point t has coordinates (t / 16, t % 16). The normalized rows are written back at
  every point, block t of 4096 rows at rows 4096·t … 4096·t + 4095: the 32 blocks are pairwise disjoint, so a row
  of the array ends at what its own point left. The per-task counts and the per-task sums are written back only at
  the last point of each group of 16, t = 16·k₀ + 15, as block k₀ of the leading axis: the two blocks are
  disjoint, so plane k₀ of the array ends at what point 16·k₀ + 15 left.
-/
import proofs.«402983_j34497177321524_3_alg».proof.Proof.KernelIdealData
import Idealize.ShloMosaic.Lib.Pipeline.Value
import Idealize.ShloMosaic.Lib.ValueIdx

noncomputable section

namespace Cert.KernelIdeal.Arrays

open Idealize.ShloMosaic Idealize.ShloMosaic.ValueIdx Cert.KernelIdeal Cert.KernelIdeal.Gen Cert.KernelIdeal.Region
open Idealize.ShloMosaic.TcCoe
open Idealize.ShloMosaic.Pipeline (Dat)

variable [Cert.KernelIdeal.Facts]

variable (m : (ℓ : Loc nD τ sig) → Buf (Elt Ideal) ℓ)

/-! ## The arrays after the region, and the two bounds their statements need -/

/-- The normalized rows after the region. -/
abbrev arr3 (c : Dev nD) : Vec Ideal S131072x128 .f32 := (dats m 0 c).arrAt 3 cfg0.N
/-- The per-task counts after the region, one plane per group of 16 points. -/
abbrev arr4 (c : Dev nD) : Vec Ideal S2x64x128 .f32 := (dats m 0 c).arrAt 4 cfg0.N
/-- The per-task sums (of the deviations and of their squares) after the region, one plane per group. -/
abbrev arr5 (c : Dev nD) : Vec Ideal S2x64x256 .f32 := (dats m 0 c).arrAt 5 cfg0.N

/-- Row p of block t is a row of the array. -/
theorem row_lt (t : Fin cfg0.N) (p : Fin 4096) : 4096 * t.val + p.val < 131072 := by
  have ht : t.val < 32 := N_0 ▸ t.isLt
  have hp := p.isLt
  omega

/-- The last point of group k₀ is a point of the grid. -/
theorem last_lt (k0 : Fin 2) : 16 * k0.val + 15 < cfg0.N := by
  have hk := k0.isLt
  show _ < grid0.N
  rw [N_0]; omega

/-! ## The normalized rows: block t at rows 4096·t … -/

/-- The block index of the normalized-rows window at point t is (t, 0): decided over the 32 points. -/
theorem index3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

/-- So distinct points have distinct block indices. -/
theorem index3_inj (t t' : Fin cfg0.N) (h : win0_3.index t = win0_3.index t') : t = t' := by
  have e : win0_3.index t (0 : Fin 2) = win0_3.index t' (0 : Fin 2) := congrFun h 0
  rw [(index3 t).1, (index3 t').1] at e
  exact Fin.ext e

/-- Two points' blocks of normalized rows share no index. -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (index3_inj t t' h)

/-- Where element (p, j) of point t's block sits in the array: row 4096·t + p, column j. -/
theorem emb3 (t : Fin cfg0.N) (p : Fin 4096) (j : Fin 128) :
    ((cfg0.win 3).blk t).view.emb (ix2 p j) = (ix2 ⟨4096 * t.val + p.val, row_lt t p⟩ j : S131072x128.Idx) := by
  funext a; apply Fin.ext
  match a with
  | ⟨0, _⟩ => show win0_3.index t (0 : Fin 2) * 4096 + 1 * p.val = 4096 * t.val + p.val; rw [(index3 t).1]; omega
  | ⟨1, _⟩ => show win0_3.index t (1 : Fin 2) * 128 + 1 * j.val = j.val; rw [(index3 t).2]; omega

/-- A row of the array ends at what its own grid point left in the window's buffer: no other point's block
    meets it, and what a point writes back is what the body left there. -/
theorem arr3_apply (c : Dev nD) (t : Fin cfg0.N) (p : Fin 4096) (j : Fin 128) :
    arr3 m c (ix2 ⟨4096 * t.val + p.val, row_lt t p⟩ j) = (outsAt0 m c t.val t.isLt).1 (ix2 p j) := by
  rw [← emb3 t p j]
  refine ((dats m 0 c).arrAt_emb_eq_flushed 3 disjoint3 t (flush0_3 t) (ix2 p j)).trans ?_
  show (dats m 0 c).after 3 t (ix2 p j) = _
  rw [after0_3]

/-! ## The per-task counts and sums: plane k₀ from the last point of group k₀ -/

/-- The last point of group k₀. -/
abbrev lastPt (k0 : Fin 2) : Fin cfg0.N := ⟨16 * k0.val + 15, last_lt k0⟩

/-! ### The counts -/

/-- The block index of the counts' window at point t is (t / 16, 0, 0): decided over the 32 points. -/
theorem index4 : ∀ t : Fin cfg0.N, win0_4.index t (0 : Fin 3) = t.val / 16 ∧ win0_4.index t (1 : Fin 3) = 0 ∧ win0_4.index t (2 : Fin 3) = 0 :=
  (by decide +kernel : ∀ t : Fin grid0.N, win0_4.index t (0 : Fin 3) = t.val / 16 ∧ win0_4.index t (1 : Fin 3) = 0 ∧ win0_4.index t (2 : Fin 3) = 0)

/-- The counts are written back at the last point of each group. -/
theorem flush4_last (k0 : Fin 2) : (cfg0.win 4).flush (lastPt k0) = true :=
  (flush0_4 (lastPt k0)).mpr (by show (16 * k0.val + 15) % 16 = 15; omega)

/-- The points that write the counts back are one per group, and a group's block index is its number: two of
    them have different block indices, so their blocks share no index. -/
theorem disjoint4 : ∀ t t' : Fin cfg0.N, (cfg0.win 4).flush t = true → (cfg0.win 4).flush t' = true → t ≠ t' →
    Disjoint ((cfg0.win 4).blk t).view.set ((cfg0.win 4).blk t').view.set :=
  fun t t' hf hf' hne => (cfg0.win 4).disjoint_blk fun (h : win0_4.index t = win0_4.index t') => hne (by
    have e : win0_4.index t (0 : Fin 3) = win0_4.index t' (0 : Fin 3) := congrFun h 0
    rw [(index4 t).1, (index4 t').1] at e
    have a := (flush0_4 t).mp hf
    have b := (flush0_4 t').mp hf'
    exact Fin.ext (by omega))

/-- Where element (0, k, l) of the block of group k₀'s last point sits in the array: plane k₀. -/
theorem emb4 (k0 : Fin 2) (k : Fin 64) (l : Fin 128) :
    ((cfg0.win 4).blk (lastPt k0)).view.emb (ix3 (0 : Fin 1) k l) = (ix3 k0 k l : S2x64x128.Idx) := by
  funext a; apply Fin.ext
  match a with
  | ⟨0, _⟩ => show win0_4.index (lastPt k0) (0 : Fin 3) * 1 + 1 * 0 = k0.val; rw [(index4 _).1]; show (16 * k0.val + 15) / 16 * 1 + 1 * 0 = k0.val; omega
  | ⟨1, _⟩ => show win0_4.index (lastPt k0) (1 : Fin 3) * 64 + 1 * k.val = k.val; rw [(index4 _).2.1]; omega
  | ⟨2, _⟩ => show win0_4.index (lastPt k0) (2 : Fin 3) * 128 + 1 * l.val = l.val; rw [(index4 _).2.2]; omega

/-- Plane k₀ of the counts ends at what the last point of group k₀ left in the window's buffer. -/
theorem arr4_apply (c : Dev nD) (k0 : Fin 2) (k : Fin 64) (l : Fin 128) :
    arr4 m c (ix3 k0 k l) = (outsAt0 m c (16 * k0.val + 15) (last_lt k0)).2.1 (ix3 (0 : Fin 1) k l) := by
  rw [← emb4 k0 k l]
  refine ((dats m 0 c).arrAt_emb_eq_flushed 4 disjoint4 (lastPt k0) (flush4_last k0) (ix3 (0 : Fin 1) k l)).trans ?_
  show (dats m 0 c).after 4 (lastPt k0) (ix3 (0 : Fin 1) k l) = _
  rw [after0_4]

/-! ### The sums -/

/-- The block index of the sums' window at point t is (t / 16, 0, 0): decided over the 32 points. -/
theorem index5 : ∀ t : Fin cfg0.N, win0_5.index t (0 : Fin 3) = t.val / 16 ∧ win0_5.index t (1 : Fin 3) = 0 ∧ win0_5.index t (2 : Fin 3) = 0 :=
  (by decide +kernel : ∀ t : Fin grid0.N, win0_5.index t (0 : Fin 3) = t.val / 16 ∧ win0_5.index t (1 : Fin 3) = 0 ∧ win0_5.index t (2 : Fin 3) = 0)

/-- The sums are written back at the last point of each group. -/
theorem flush5_last (k0 : Fin 2) : (cfg0.win 5).flush (lastPt k0) = true :=
  (flush0_5 (lastPt k0)).mpr (by show (16 * k0.val + 15) % 16 = 15; omega)

/-- As for the counts: the two points that write the sums back have different block indices. -/
theorem disjoint5 : ∀ t t' : Fin cfg0.N, (cfg0.win 5).flush t = true → (cfg0.win 5).flush t' = true → t ≠ t' →
    Disjoint ((cfg0.win 5).blk t).view.set ((cfg0.win 5).blk t').view.set :=
  fun t t' hf hf' hne => (cfg0.win 5).disjoint_blk fun (h : win0_5.index t = win0_5.index t') => hne (by
    have e : win0_5.index t (0 : Fin 3) = win0_5.index t' (0 : Fin 3) := congrFun h 0
    rw [(index5 t).1, (index5 t').1] at e
    have a := (flush0_5 t).mp hf
    have b := (flush0_5 t').mp hf'
    exact Fin.ext (by omega))

/-- Where element (0, k, q) of the block of group k₀'s last point sits in the array: plane k₀. -/
theorem emb5 (k0 : Fin 2) (k : Fin 64) (q : Fin 256) :
    ((cfg0.win 5).blk (lastPt k0)).view.emb (ix3 (0 : Fin 1) k q) = (ix3 k0 k q : S2x64x256.Idx) := by
  funext a; apply Fin.ext
  match a with
  | ⟨0, _⟩ => show win0_5.index (lastPt k0) (0 : Fin 3) * 1 + 1 * 0 = k0.val; rw [(index5 _).1]; show (16 * k0.val + 15) / 16 * 1 + 1 * 0 = k0.val; omega
  | ⟨1, _⟩ => show win0_5.index (lastPt k0) (1 : Fin 3) * 64 + 1 * k.val = k.val; rw [(index5 _).2.1]; omega
  | ⟨2, _⟩ => show win0_5.index (lastPt k0) (2 : Fin 3) * 256 + 1 * q.val = q.val; rw [(index5 _).2.2]; omega

/-- Plane k₀ of the sums ends at what the last point of group k₀ left in the window's buffer. -/
theorem arr5_apply (c : Dev nD) (k0 : Fin 2) (k : Fin 64) (q : Fin 256) :
    arr5 m c (ix3 k0 k q) = (outsAt0 m c (16 * k0.val + 15) (last_lt k0)).2.2.1 (ix3 (0 : Fin 1) k q) := by
  rw [← emb5 k0 k q]
  refine ((dats m 0 c).arrAt_emb_eq_flushed 5 disjoint5 (lastPt k0) (flush5_last k0) (ix3 (0 : Fin 1) k q)).trans ?_
  show (dats m 0 c).after 5 (lastPt k0) (ix3 (0 : Fin 1) k q) = _
  rw [after0_5]

end Cert.KernelIdeal.Arrays

end
-- ==== Proof.KernelPieces.lean ====
/-
  What the body's stores leave, case by case, read back as the body's own values. In each of the three cases
  the normalized rows' buffer ends with one store that covers it, of the quotient of the rows' deviations from
  their task's mean by the task's spread; each accumulator ends with one covering store of what it held
  plus this grid point's contribution, where what it held is zero when the case began by resetting it and the
  contents the point before left otherwise; and in the last case each of the two per-task buffers ends with
  one covering store of the accumulator's final contents, recast to the buffer's shape. Every load of the
  body goes through the whole of a whole buffer and so reads the buffer's contents.
-/
import proofs.«402983_j34497177321524_3_alg».proof.Proof.KernelIdealData
import Idealize.ShloMosaic.Lib.Pipeline.Value
import Idealize.ShloMosaic.PureOps.Ideal
import Idealize.ShloMosaic.Lib.Tactic

set_option maxRecDepth 16384

noncomputable section

namespace Cert.KernelIdeal.Pieces

open Idealize.ShloMosaic Cert.KernelIdeal Cert.KernelIdeal.Gen Cert.KernelIdeal.Region
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable [Cert.KernelIdeal.Facts]

/-- The offsets of a rectangle that starts at the origin, in one, two and three axes. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (arg2 : Memref sig .tc .vmem S4096x128 .f32) (harg2 : arg2.IsWhole)
  (arg3 : Memref sig .tc .vmem S4096 .i32) (harg3 : arg3.IsWhole)
  (arg4 : Memref sig .tc .vmem S64x512 .bf16) (harg4 : arg4.IsWhole)
  (arg5 : Memref sig .tc .vmem S4096x128 .f32) (harg5 : arg5.IsWhole)
  (arg6 : Memref sig .tc .vmem S1x64x128 .f32) (harg6 : arg6.IsWhole)
  (arg7 : Memref sig .tc .vmem S1x64x256 .f32) (harg7 : arg7.IsWhole)
  (arg8 : Memref sig .tc .vmem S64x128 .f32) (harg8 : arg8.IsWhole)
  (arg9 : Memref sig .tc .vmem S64x256 .f32) (harg9 : arg9.IsWhole)

/-- The first point of a core's steps leaves the normalized rows in their buffer. -/
theorem out0_A_3_eq (hc0 : cond0_0 i) (hc1 : ¬cond0_1 i) (x0 : Vec Ideal S4096x128 .f32) (x1 : Vec Ideal S4096 .i32) (x2 : Vec Ideal S64x512 .bf16) :
    out0_A_3 (F := Ideal) c i arg2 harg2 arg3 harg3 arg4 harg4 arg5 harg5 arg6 harg6 arg7 harg7 arg8 harg8 arg9 harg9 hc0 hc1 x0 x1 x2 = k0_pay11 x0 x1 x2 := by
  unfold out0_A_3
  rw [View.read_writes_eq_canon _ _ _ (cover0_A_3 c i arg2 harg2 arg3 harg3 arg4 harg4 arg5 harg5 arg6 harg6 arg7 harg7 arg8 harg8 arg9 harg9 hc0 hc1 x0 x1 x2)]
  unfold kernelRun0_A
  dsimp only
  sl_unfold_run_names
  rw [View.canon_unit_zero hz2]
  simp only [View.readAt_eq_ld, harg2.read_unread, harg3.read_unread, harg4.read_unread, View.ld_unit_zero (S := S4096x128) hz2, View.ld_unit_zero (S := S4096) hz1, View.ld_unit_zero (S := S64x512) hz2]

/-- The first point leaves in the first accumulator the reset's zero plus the point's counts. -/
theorem sout0_A_0_eq (hc0 : cond0_0 i) (hc1 : ¬cond0_1 i) (x0 : Vec Ideal S4096x128 .f32) (x1 : Vec Ideal S4096 .i32) (x2 : Vec Ideal S64x512 .bf16) :
    sout0_A_0 (F := Ideal) c i arg2 harg2 arg3 harg3 arg4 harg4 arg5 harg5 arg6 harg6 arg7 harg7 arg8 harg8 arg9 harg9 hc0 hc1 x0 x1 x2 = k0_pay1 (k0_pay13 x1) (k0_pay5 (F := Ideal)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2)]
  unfold kernelRun0_A
  dsimp only
  sl_unfold_run_names
  rw [View.canon_cons_unit_zero (S := S64x128) hz2, View.readCov_unit_zero (S := S64x128) _ hz2]
  simp only [View.readAt_eq_ld, harg3.read_unread, View.ld_unit_zero (S := S4096) hz1]

/-- The first point leaves in the second accumulator the reset's zero plus the point's sums. -/
theorem sout0_A_1_eq (hc0 : cond0_0 i) (hc1 : ¬cond0_1 i) (x0 : Vec Ideal S4096x128 .f32) (x1 : Vec Ideal S4096 .i32) (x2 : Vec Ideal S64x512 .bf16) :
    sout0_A_1 (F := Ideal) c i arg2 harg2 arg3 harg3 arg4 harg4 arg5 harg5 arg6 harg6 arg7 harg7 arg8 harg8 arg9 harg9 hc0 hc1 x0 x1 x2 = k0_pay2 (k0_pay12 x0 x1 x2) (k0_pay6 (F := Ideal)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2)]
  unfold kernelRun0_A
  dsimp only
  sl_unfold_run_names
  rw [View.canon_cons_unit_zero (S := S64x256) hz2, View.readCov_unit_zero (S := S64x256) _ hz2]
  simp only [View.readAt_eq_ld, harg2.read_unread, harg3.read_unread, harg4.read_unread, View.ld_unit_zero (S := S4096x128) hz2, View.ld_unit_zero (S := S4096) hz1, View.ld_unit_zero (S := S64x512) hz2]

/-- A middle point leaves the normalized rows in their buffer. -/
theorem out0_B_3_eq (hc0 : ¬cond0_0 i) (hc1 : ¬cond0_1 i) (x0 : Vec Ideal S4096x128 .f32) (x1 : Vec Ideal S4096 .i32) (x2 : Vec Ideal S64x512 .bf16) (xs0 : Vec Ideal S64x128 .f32) (xs1 : Vec Ideal S64x256 .f32) :
    out0_B_3 (F := Ideal) c i arg2 harg2 arg3 harg3 arg4 harg4 arg5 harg5 arg6 harg6 arg7 harg7 arg8 harg8 arg9 harg9 hc0 hc1 x0 x1 x2 xs0 xs1 = k0_pay11 x0 x1 x2 := by
  unfold out0_B_3
  rw [View.read_writes_eq_canon _ _ _ (cover0_B_3 c i arg2 harg2 arg3 harg3 arg4 harg4 arg5 harg5 arg6 harg6 arg7 harg7 arg8 harg8 arg9 harg9 hc0 hc1 x0 x1 x2 xs0 xs1)]
  unfold kernelRun0_B
  dsimp only
  sl_unfold_run_names
  rw [View.canon_unit_zero hz2]
  simp only [View.readAt_eq_ld, harg2.read_unread, harg3.read_unread, harg4.read_unread, View.ld_unit_zero (S := S4096x128) hz2, View.ld_unit_zero (S := S4096) hz1, View.ld_unit_zero (S := S64x512) hz2]

/-- A middle point leaves in the first accumulator what it held plus the point's counts. -/
theorem sout0_B_0_eq (hc0 : ¬cond0_0 i) (hc1 : ¬cond0_1 i) (x0 : Vec Ideal S4096x128 .f32) (x1 : Vec Ideal S4096 .i32) (x2 : Vec Ideal S64x512 .bf16) (xs0 : Vec Ideal S64x128 .f32) (xs1 : Vec Ideal S64x256 .f32) :
    sout0_B_0 (F := Ideal) c i arg2 harg2 arg3 harg3 arg4 harg4 arg5 harg5 arg6 harg6 arg7 harg7 arg8 harg8 arg9 harg9 hc0 hc1 x0 x1 x2 xs0 xs1 = k0_pay1 (k0_pay13 x1) xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 xs0 xs1)]
  unfold kernelRun0_B
  dsimp only
  sl_unfold_run_names
  rw [View.canon_unit_zero hz2]
  simp only [View.readAt_eq_ld, harg3.read_unread, View.ld_unit_zero (S := S4096) hz1, harg8.read_unread, View.ld_unit_zero (S := S64x128) hz2]

/-- A middle point leaves in the second accumulator what it held plus the point's sums. -/
theorem sout0_B_1_eq (hc0 : ¬cond0_0 i) (hc1 : ¬cond0_1 i) (x0 : Vec Ideal S4096x128 .f32) (x1 : Vec Ideal S4096 .i32) (x2 : Vec Ideal S64x512 .bf16) (xs0 : Vec Ideal S64x128 .f32) (xs1 : Vec Ideal S64x256 .f32) :
    sout0_B_1 (F := Ideal) c i arg2 harg2 arg3 harg3 arg4 harg4 arg5 harg5 arg6 harg6 arg7 harg7 arg8 harg8 arg9 harg9 hc0 hc1 x0 x1 x2 xs0 xs1 = k0_pay2 (k0_pay12 x0 x1 x2) xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 xs0 xs1)]
  unfold kernelRun0_B
  dsimp only
  sl_unfold_run_names
  rw [View.canon_unit_zero hz2]
  simp only [View.readAt_eq_ld, harg2.read_unread, harg3.read_unread, harg4.read_unread, View.ld_unit_zero (S := S4096x128) hz2, View.ld_unit_zero (S := S4096) hz1, View.ld_unit_zero (S := S64x512) hz2, harg9.read_unread, View.ld_unit_zero (S := S64x256) hz2]

/-- The last point of a core's steps leaves the normalized rows in their buffer. -/
theorem out0_C_3_eq (hc0 : ¬cond0_0 i) (hc1 : cond0_1 i) (x0 : Vec Ideal S4096x128 .f32) (x1 : Vec Ideal S4096 .i32) (x2 : Vec Ideal S64x512 .bf16) (xs0 : Vec Ideal S64x128 .f32) (xs1 : Vec Ideal S64x256 .f32) :
    out0_C_3 (F := Ideal) c i arg2 harg2 arg3 harg3 arg4 harg4 arg5 harg5 arg6 harg6 arg7 harg7 arg8 harg8 arg9 harg9 hc0 hc1 x0 x1 x2 xs0 xs1 = k0_pay11 x0 x1 x2 := by
  unfold out0_C_3
  rw [View.read_writes_eq_canon _ _ _ (cover0_C_3 c i arg2 harg2 arg3 harg3 arg4 harg4 arg5 harg5 arg6 harg6 arg7 harg7 arg8 harg8 arg9 harg9 hc0 hc1 x0 x1 x2 xs0 xs1)]
  unfold kernelRun0_C
  dsimp only
  sl_unfold_run_names
  rw [View.canon_unit_zero hz2]
  simp only [View.readAt_eq_ld, harg2.read_unread, harg3.read_unread, harg4.read_unread, View.ld_unit_zero (S := S4096x128) hz2, View.ld_unit_zero (S := S4096) hz1, View.ld_unit_zero (S := S64x512) hz2]

/-- The last point leaves in the first accumulator what it held plus the point's counts. -/
theorem sout0_C_0_eq (hc0 : ¬cond0_0 i) (hc1 : cond0_1 i) (x0 : Vec Ideal S4096x128 .f32) (x1 : Vec Ideal S4096 .i32) (x2 : Vec Ideal S64x512 .bf16) (xs0 : Vec Ideal S64x128 .f32) (xs1 : Vec Ideal S64x256 .f32) :
    sout0_C_0 (F := Ideal) c i arg2 harg2 arg3 harg3 arg4 harg4 arg5 harg5 arg6 harg6 arg7 harg7 arg8 harg8 arg9 harg9 hc0 hc1 x0 x1 x2 xs0 xs1 = k0_pay1 (k0_pay13 x1) xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 xs0 xs1)]
  unfold kernelRun0_C
  dsimp only
  sl_unfold_run_names
  rw [View.canon_unit_zero hz2]
  simp only [View.readAt_eq_ld, harg3.read_unread, View.ld_unit_zero (S := S4096) hz1, harg8.read_unread, View.ld_unit_zero (S := S64x128) hz2]

/-- The last point leaves in the second accumulator what it held plus the point's sums. -/
theorem sout0_C_1_eq (hc0 : ¬cond0_0 i) (hc1 : cond0_1 i) (x0 : Vec Ideal S4096x128 .f32) (x1 : Vec Ideal S4096 .i32) (x2 : Vec Ideal S64x512 .bf16) (xs0 : Vec Ideal S64x128 .f32) (xs1 : Vec Ideal S64x256 .f32) :
    sout0_C_1 (F := Ideal) c i arg2 harg2 arg3 harg3 arg4 harg4 arg5 harg5 arg6 harg6 arg7 harg7 arg8 harg8 arg9 harg9 hc0 hc1 x0 x1 x2 xs0 xs1 = k0_pay2 (k0_pay12 x0 x1 x2) xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 xs0 xs1)]
  unfold kernelRun0_C
  dsimp only
  sl_unfold_run_names
  rw [View.canon_unit_zero hz2]
  simp only [View.readAt_eq_ld, harg2.read_unread, harg3.read_unread, harg4.read_unread, View.ld_unit_zero (S := S4096x128) hz2, View.ld_unit_zero (S := S4096) hz1, View.ld_unit_zero (S := S64x512) hz2, harg9.read_unread, View.ld_unit_zero (S := S64x256) hz2]

/-- The last point writes the first accumulator's final contents, recast, to the per-task counts' buffer. -/
theorem out0_C_4_eq (hc0 : ¬cond0_0 i) (hc1 : cond0_1 i) (x0 : Vec Ideal S4096x128 .f32) (x1 : Vec Ideal S4096 .i32) (x2 : Vec Ideal S64x512 .bf16) (xs0 : Vec Ideal S64x128 .f32) (xs1 : Vec Ideal S64x256 .f32) :
    out0_C_4 (F := Ideal) c i arg2 harg2 arg3 harg3 arg4 harg4 arg5 harg5 arg6 harg6 arg7 harg7 arg8 harg8 arg9 harg9 hc0 hc1 x0 x1 x2 xs0 xs1 = k0_pay3 (k0_pay1 (k0_pay13 x1) xs0) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 xs0 xs1)]
  unfold kernelRun0_C
  dsimp only
  sl_unfold_run_names
  rw [View.canon_unit_zero hz3, View.readCov_unit_zero (S := S64x128) _ hz2]
  simp only [View.readAt_eq_ld, harg3.read_unread, View.ld_unit_zero (S := S4096) hz1, harg8.read_unread, View.ld_unit_zero (S := S64x128) hz2]

/-- The last point writes the second accumulator's final contents, recast, to the per-task sums' buffer. -/
theorem out0_C_5_eq (hc0 : ¬cond0_0 i) (hc1 : cond0_1 i) (x0 : Vec Ideal S4096x128 .f32) (x1 : Vec Ideal S4096 .i32) (x2 : Vec Ideal S64x512 .bf16) (xs0 : Vec Ideal S64x128 .f32) (xs1 : Vec Ideal S64x256 .f32) :
    out0_C_5 (F := Ideal) c i arg2 harg2 arg3 harg3 arg4 harg4 arg5 harg5 arg6 harg6 arg7 harg7 arg8 harg8 arg9 harg9 hc0 hc1 x0 x1 x2 xs0 xs1 = k0_pay4 (k0_pay2 (k0_pay12 x0 x1 x2) xs1) := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 xs0 xs1)]
  unfold kernelRun0_C
  dsimp only
  sl_unfold_run_names
  rw [View.canon_unit_zero hz3, View.readCov_unit_zero (S := S64x256) _ hz2]
  simp only [View.readAt_eq_ld, harg2.read_unread, harg3.read_unread, harg4.read_unread, View.ld_unit_zero (S := S4096x128) hz2, View.ld_unit_zero (S := S4096) hz1, View.ld_unit_zero (S := S64x512) hz2, harg9.read_unread, View.ld_unit_zero (S := S64x256) hz2]

end Cert.KernelIdeal.Pieces

end
-- ==== Proof.Spec.lean ====
/-
  The vocabulary both sides of the equivalence are read in, and the algebra that joins them. No program is
  imported here.

  A row `r` of the batch belongs to the task its id names; task `t`'s rows are `seg tid t`, their number
  `cnt tid t`. The normalized output of a row is `(x - μ) / (σ + ε)` with `μ, σ` the row's task's entries of the
  two tables. The statistics are updated per (task, feature) entry by one scalar function of the batch count
  `n`, the batch mean `b`, the batch variance `v` and the entry's old mean, variance, deviation and count
  (`newMean`, `newVar`, `newStd`, `newCount`): Chan's merge of two samples' moments, taken only where the batch
  is not empty. One program forms the batch moments from sums shifted by the old mean,
  `b = μ + S₁/n`, `v = max (S₂/n - (S₁/n)²) 0` with `S₁ = Σ (x - μ)`, `S₂ = Σ (x - μ)²`; the other from the plain
  two-pass formulas `b = (Σ x)/n`, `v = Σ (x - b)²/n`. Over the reals, for `n ≥ 1`, these agree (`shifted_mean`,
  `shifted_var`: the second is the identity `Σ (x - μ)²/n - (x̄ - μ)² = Σ (x - x̄)²/n`, whose right side is not
  negative, so the `max` with `0` is inert). For `n = 0` they differ — `μ` against `0` — and the merge does
  not look at them (`newMean_congr` and its companions).
-/
import Idealize.ShloMosaic.PureOps.Ideal
import Idealize.ShloMosaic.PureOps.Float
import Mathlib.Algebra.BigOperators.Field
import Mathlib.Data.EReal.Basic
import Mathlib.Tactic.Ring
import Mathlib.Tactic.Positivity
import Mathlib.Tactic.FieldSimp

noncomputable section

namespace Cert.Spec

open Idealize.ShloMosaic

/-! ## Rows and tasks -/

/-- The task a row's id names (an id in `[0, 64)` read as itself). -/
def taskOf (w : BitVec 32) : Fin 64 := ⟨w.toNat % 64, Nat.mod_lt _ (by decide)⟩

/-- The rows of the batch that belong to task `t`. -/
def seg (tid : Fin 131072 → BitVec 32) (t : Fin 64) : Finset (Fin 131072) :=
  Finset.univ.filter fun r => taskOf (tid r) = t

/-- How many rows task `t` has in the batch. -/
def cnt (tid : Fin 131072 → BitVec 32) (t : Fin 64) : ℕ := (seg tid t).card

/-- A word whose signed reading lies in `[0, 64)` has that same unsigned reading. -/
theorem toNat_of_toInt_range {w : BitVec 32} (h0 : 0 ≤ w.toInt) (h1 : w.toInt < 64) :
    w.toNat < 64 ∧ w.toInt = (w.toNat : ℤ) := by
  have hlt := w.isLt
  have hc := BitVec.toInt_eq_toNat_cond w
  split_ifs at hc <;> omega

/-- An id in range is the word of its task, and of no other. -/
theorem eq_ofNat_iff {w : BitVec 32} (h0 : 0 ≤ w.toInt) (h1 : w.toInt < 64) (t : Fin 64) :
    w = BitVec.ofNat 32 t.val ↔ taskOf w = t := by
  obtain ⟨hn, -⟩ := toNat_of_toInt_range h0 h1
  have ht := t.isLt
  constructor
  · intro h
    apply Fin.ext
    have h' : w.toNat = t.val % 2 ^ 32 := by rw [h, BitVec.toNat_ofNat]
    show w.toNat % 64 = t.val
    omega
  · intro h
    have h' : w.toNat % 64 = t.val := congrArg Fin.val h
    apply BitVec.eq_of_toNat_eq
    rw [BitVec.toNat_ofNat]
    omega

/-- An id in range, read signed, is its task's number. -/
theorem toInt_eq_task {w : BitVec 32} (h0 : 0 ≤ w.toInt) (h1 : w.toInt < 64) : w.toInt = ((taskOf w).val : ℤ) := by
  obtain ⟨hn, hi⟩ := toNat_of_toInt_range h0 h1
  rw [hi]
  show (w.toNat : ℤ) = ((w.toNat % 64 : ℕ) : ℤ)
  omega

/-! ## The literals, each evaluated once -/

/-- The ε both programs add to the deviation: the binary32 number nearest 0.01, left as its word. -/
def eps : EReal := Ideal.ofBits .f32 0x3C23D70A#32
def one : EReal := Ideal.ofBits .f32 0x3F800000#32
def zero : EReal := Ideal.ofBits .f32 0x00000000#32

theorem one_eq : one = ((1 : ℝ) : EReal) := by
  unfold one
  simp [Ideal.ofBits, Ideal.ieee, -EReal.coe_mul]; norm_num
theorem zero_eq : zero = ((0 : ℝ) : EReal) := by
  unfold zero
  simp [Ideal.ofBits, Ideal.ieee]

/-! ## The normalized output -/

/-- `(x - μ) / (σ + ε)` on the extended reals. -/
def outAt (x mu sd : EReal) : EReal := Ideal.div (x - mu) (sd + eps)

/-! ## The merge of one entry (each line in the operand order the programs print) -/

/-- The old count as a number. -/
def oldN (c : BitVec 32) : EReal := ((c.toInt : ℝ) : EReal)
/-- `max (old + n) 1`. -/
def safeNew (n : EReal) (c : BitVec 32) : EReal := max (oldN c + n) one
/-- `max n 1`. -/
def safeNb (n : EReal) : EReal := max n one
/-- Is the batch not empty for this task? -/
def hasBatch (n : EReal) : BitVec 1 := Ideal.cmp .ogt n zero
/-- Had the task been seen before? -/
def hadCount (c : BitVec 32) : BitVec 1 := Ideal.cmp .ogt (oldN c) zero
/-- `μ + (n / N) · (b - μ)`. -/
def updMean (n b mu : EReal) (c : BitVec 32) : EReal := mu + Ideal.div n (safeNew n c) * (b - mu)
/-- `(σ² · old + v · n + (b - μ)² · (old · n / N)) / N`. -/
def mergedVar (n b v mu var : EReal) (c : BitVec 32) : EReal :=
  Ideal.div (var * oldN c + v * n + (b - mu) * (b - mu) * Ideal.div (oldN c * n) (safeNew n c)) (safeNew n c)
def newVar (n b v mu var : EReal) (c : BitVec 32) : EReal :=
  Scalar.select (hasBatch n) (Scalar.select (hadCount c) (mergedVar n b v mu var c) v) var
def newMean (n b mu : EReal) (c : BitVec 32) : EReal := Scalar.select (hasBatch n) (updMean n b mu c) mu
def newStd (n b v mu var sd : EReal) (c : BitVec 32) : EReal :=
  Scalar.select (hasBatch n) (Ideal.sqrt (newVar n b v mu var c)) sd
def newCount (n : EReal) (c : BitVec 32) : BitVec 32 := c + Ideal.fptosi 32 n

/-- One program's batch mean, from the sum shifted by the old mean. -/
def shiftedMean (n s1 mu : EReal) : EReal := mu + Ideal.div s1 (safeNb n)
/-- Its batch variance. -/
def shiftedVar (n s1 s2 : EReal) : EReal :=
  max (Ideal.div s2 (safeNb n) - Ideal.div s1 (safeNb n) * Ideal.div s1 (safeNb n)) zero
/-- The other's batch mean, `(Σ x) / max n 1`. -/
def plainMean (n sx : EReal) : EReal := Ideal.div sx (safeNb n)

/-! ## The merge does not look at an empty batch's moments -/

theorem hasBatch_natCast (k : ℕ) : hasBatch (((k : ℝ) : EReal)) = 1#1 ↔ 0 < k := by
  unfold hasBatch Ideal.cmp
  rw [zero_eq]
  by_cases h : 0 < k
  · have h' : ((0 : ℝ) : EReal) < ((k : ℝ) : EReal) := EReal.coe_lt_coe_iff.mpr (Nat.cast_pos.mpr h)
    simp [h, h']
  · have h' : ¬ ((0 : ℝ) : EReal) < ((k : ℝ) : EReal) := fun hlt =>
      h (Nat.cast_pos.mp (EReal.coe_lt_coe_iff.mp hlt))
    simp [h, h']

theorem newMean_congr (k : ℕ) (b b' mu : EReal) (c : BitVec 32) (h : 0 < k → b = b') :
    newMean (((k : ℝ) : EReal)) b mu c = newMean (((k : ℝ) : EReal)) b' mu c := by
  unfold newMean Scalar.select
  by_cases hb : hasBatch (((k : ℝ) : EReal)) = 1
  · rw [h ((hasBatch_natCast k).mp hb)]
  · rw [if_neg hb, if_neg hb]

theorem newVar_congr (k : ℕ) (b b' v v' mu var : EReal) (c : BitVec 32) (h : 0 < k → b = b' ∧ v = v') :
    newVar (((k : ℝ) : EReal)) b v mu var c = newVar (((k : ℝ) : EReal)) b' v' mu var c := by
  unfold newVar
  by_cases hb : hasBatch (((k : ℝ) : EReal)) = 1
  · obtain ⟨hbb, hvv⟩ := h ((hasBatch_natCast k).mp hb)
    rw [hbb, hvv]
  · unfold Scalar.select
    rw [if_neg hb, if_neg hb]

theorem newStd_congr (k : ℕ) (b b' v v' mu var sd : EReal) (c : BitVec 32) (h : 0 < k → b = b' ∧ v = v') :
    newStd (((k : ℝ) : EReal)) b v mu var sd c = newStd (((k : ℝ) : EReal)) b' v' mu var sd c := by
  unfold newStd
  by_cases hb : hasBatch (((k : ℝ) : EReal)) = 1
  · obtain ⟨hbb, hvv⟩ := h ((hasBatch_natCast k).mp hb)
    rw [hbb, hvv]
  · unfold Scalar.select
    rw [if_neg hb, if_neg hb]

/-! ## The shifted moments are the plain ones, over the reals, for a batch that is not empty -/

variable {ι : Type} [DecidableEq ι]

/-- `μ + Σ (x - μ) / n = (Σ x) / n`. -/
theorem shifted_mean (s : Finset ι) (x : ι → ℝ) (mu : ℝ) (hs : 0 < s.card) :
    mu + (∑ r ∈ s, (x r - mu)) / (s.card : ℝ) = (∑ r ∈ s, x r) / (s.card : ℝ) := by
  have hn : (s.card : ℝ) ≠ 0 := Nat.cast_ne_zero.mpr hs.ne'
  rw [Finset.sum_sub_distrib, Finset.sum_const, nsmul_eq_mul]
  field_simp
  ring

/-- `Σ (x - c)² = Σ x² - 2c Σ x + n c²`. -/
theorem sum_sq_shift (s : Finset ι) (x : ι → ℝ) (c : ℝ) :
    ∑ r ∈ s, (x r - c) * (x r - c) = ∑ r ∈ s, x r * x r - 2 * c * ∑ r ∈ s, x r + (s.card : ℝ) * (c * c) := by
  have h : ∀ r, (x r - c) * (x r - c) = x r * x r - 2 * c * x r + c * c := fun r => by ring
  simp only [h, Finset.sum_add_distrib, Finset.sum_sub_distrib, ← Finset.mul_sum, Finset.sum_const, nsmul_eq_mul]
  ring

/-- `Σ (x - μ)²/n - (Σ (x - μ)/n)² = Σ (x - x̄)²/n` with `x̄ = (Σ x)/n`. -/
theorem shifted_var_eq (s : Finset ι) (x : ι → ℝ) (mu : ℝ) (hs : 0 < s.card) :
    (∑ r ∈ s, (x r - mu) * (x r - mu)) / (s.card : ℝ)
        - (∑ r ∈ s, (x r - mu)) / (s.card : ℝ) * ((∑ r ∈ s, (x r - mu)) / (s.card : ℝ))
      = (∑ r ∈ s, (x r - (∑ q ∈ s, x q) / (s.card : ℝ)) * (x r - (∑ q ∈ s, x q) / (s.card : ℝ))) / (s.card : ℝ) := by
  have hn : (s.card : ℝ) ≠ 0 := Nat.cast_ne_zero.mpr hs.ne'
  rw [sum_sq_shift s x mu, sum_sq_shift s x ((∑ q ∈ s, x q) / (s.card : ℝ)), Finset.sum_sub_distrib,
    Finset.sum_const, nsmul_eq_mul]
  field_simp
  ring

/-- The right side is not negative, so the `max` with `0` is inert. -/
theorem plain_var_nonneg (s : Finset ι) (x : ι → ℝ) :
    0 ≤ (∑ r ∈ s, (x r - (∑ q ∈ s, x q) / (s.card : ℝ)) * (x r - (∑ q ∈ s, x q) / (s.card : ℝ))) / (s.card : ℝ) := by
  exact div_nonneg (Finset.sum_nonneg fun _ _ => mul_self_nonneg _) (Nat.cast_nonneg _)

/-! ## The same on the extended reals, at the programs' own terms -/

/-- A finite sum of reals, pushed out of the coercion. -/
theorem coe_sum (s : Finset ι) (f : ι → ℝ) : ((∑ r ∈ s, f r : ℝ) : EReal) = ∑ r ∈ s, ((f r : ℝ) : EReal) := by
  induction s using Finset.induction_on with
  | empty => simp
  | insert a s ha ih => rw [Finset.sum_insert ha, Finset.sum_insert ha, EReal.coe_add, ih]

/-- A positive count is its own `max` with one. -/
theorem safeNb_natCast (k : ℕ) (hk : 0 < k) : safeNb (((k : ℝ) : EReal)) = ((k : ℝ) : EReal) := by
  unfold safeNb
  rw [one_eq]
  exact max_eq_left (EReal.coe_le_coe_iff.mpr (by exact_mod_cast hk))

/-- Division by a positive count on the extended reals is the reals' division. -/
theorem div_natCast (a : ℝ) (k : ℕ) (hk : 0 < k) :
    Ideal.div (a : EReal) (safeNb (((k : ℝ) : EReal))) = ((a / (k : ℝ) : ℝ) : EReal) := by
  have hk0 : (k : ℝ) ≠ 0 := Nat.cast_ne_zero.mpr hk.ne'
  rw [safeNb_natCast k hk, Ideal.div_coe hk0, ← EReal.coe_mul, mul_one_div]

/-- For a batch that is not empty the shifted batch mean is the plain one. -/
theorem shiftedMean_eq (s : Finset ι) (x : ι → ℝ) (mu : ℝ) (hs : 0 < s.card) :
    shiftedMean (((s.card : ℝ)) : EReal) (((∑ r ∈ s, (x r - mu) : ℝ)) : EReal) (mu : EReal)
      = plainMean (((s.card : ℝ)) : EReal) (((∑ r ∈ s, x r : ℝ)) : EReal) := by
  unfold shiftedMean plainMean
  rw [div_natCast _ _ hs, div_natCast _ _ hs, ← EReal.coe_add, shifted_mean s x mu hs]

/-- And the shifted batch variance is the two-pass one. -/
theorem shiftedVar_eq (s : Finset ι) (x : ι → ℝ) (mu : ℝ) (hs : 0 < s.card) :
    shiftedVar (((s.card : ℝ)) : EReal) (((∑ r ∈ s, (x r - mu) : ℝ)) : EReal)
        (((∑ r ∈ s, (x r - mu) * (x r - mu) : ℝ)) : EReal)
      = Ideal.div (((∑ r ∈ s, (x r - (∑ q ∈ s, x q) / (s.card : ℝ)) * (x r - (∑ q ∈ s, x q) / (s.card : ℝ)) : ℝ)) : EReal)
          (safeNb (((s.card : ℝ)) : EReal)) := by
  unfold shiftedVar
  rw [div_natCast _ _ hs, div_natCast _ _ hs, div_natCast _ _ hs, ← EReal.coe_mul, ← EReal.coe_sub, zero_eq,
    shifted_var_eq s x mu hs]
  exact max_eq_left (EReal.coe_le_coe_iff.mpr (plain_var_nonneg s x))

end Cert.Spec

end
-- ==== Proof.KernelBlocks.lean ====
/-
  What the kernel's three input windows hand the body at a grid point, read off the program's argument arrays.
  The grid is 2 × 16 and the index map of the rows is 16·i₀ + i₁, which is the point's own number t: the block
  of x at point t is rows 4096·t … 4096·t + 4095 of x, and the block of task ids is the same rows of the ids.
  The third window is the whole gather table at every point. Eleven host operations build the table from the
  table of means and the table of deviations: its 512 columns are the means, the deviations, and the remainders
  "mean − mean" and "deviation − deviation" that splitting an entry into a short float and the rest leaves;
  over the extended reals the short float is the entry itself, so a remainder is 0 wherever the entry is real.
-/
import proofs.«402983_j34497177321524_3_alg».proof.Proof.KernelIdealRuns
import proofs.«402983_j34497177321524_3_alg».proof.Proof.Spec
import Idealize.ShloMosaic.Lib.StableHlo.Run
import Idealize.ShloMosaic.Lib.ValueIdx
import Idealize.ShloMosaic.Lib.ValueLayout
import Idealize.ShloMosaic.Lib.Pipeline.Value
import Mathlib.Data.EReal.Basic

set_option maxRecDepth 16384

noncomputable section

namespace Cert.KernelIdeal.Blocks

open Idealize.ShloMosaic Idealize.ShloMosaic.TcCoe Idealize.ShloMosaic.ValueIdx
open Cert.KernelIdeal Cert.KernelIdeal.Gen Cert.KernelIdeal.Region

variable (m : (ℓ : Loc nD τ sig) → Buf (Elt Ideal) ℓ)

/-! ## The blocks, by their literal types -/

/-- The block of x the body is handed at point t. -/
abbrev xblk (c : Dev nD) (t : Fin cfg0.N) : Vec Ideal S4096x128 .f32 := iblk m c 0 t
/-- The block of task ids at point t. -/
abbrev idblk (c : Dev nD) (t : Fin cfg0.N) : Vec Ideal S4096 .i32 := iblk m c 1 t
/-- The gather table's block at point t. -/
abbrev tblk (c : Dev nD) (t : Fin cfg0.N) : Vec Ideal S64x512 .bf16 := iblk m c 2 t

/-- Row p of block t is a row of the array: 32 blocks of 4096 rows. -/
theorem row_lt (t : Fin cfg0.N) (p : Fin 4096) : 4096 * t.val + p.val < 131072 := by
  have ht : t.val < 32 := t.isLt.trans_eq N_0
  have hp := p.isLt
  omega

/-! ## The index maps over the grid -/

/-- The block index of x at point t = 16·i₀ + i₁ is (16·i₀ + i₁, 0): the point's own number on the rows. -/
theorem idx_x : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
/-- The block index of the ids is the same number. -/
theorem idx_id : ∀ t : Fin cfg0.N, win0_1.index t (0 : Fin 1) = t.val :=
  (by decide +kernel : ∀ t : Fin grid0.N, win0_1.index t (0 : Fin 1) = t.val)
/-- The table's block index is (0, 0) at every point. -/
theorem idx_tab : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-! ## The two moving windows

A block's coordinate on an axis is the block index times the block's extent plus the coordinate inside the block;
the array at the region's entry is the argument, which no host operation before the region writes. -/

/-- Row p of the block of x at point t is row 4096·t + p of x. -/
theorem xblk_apply (c : Dev nD) (t : Fin cfg0.N) (p : Fin 4096) (j : Fin 128) :
    xblk m c t (ix2 p j) = m ((c : Thread nD τ).loc main_arg0) (ix2 ⟨4096 * t.val + p.val, row_lt t p⟩ j) := by
  obtain ⟨e0, e1⟩ := idx_x t
  show V m c main_arg0 (((cfg0.win 0).blk t).view.emb (ix2 p j)) = _
  rw [V_main_arg0]
  refine congrArg _ ?_
  funext a; apply Fin.ext
  match a with
  | ⟨0, _⟩ => show win0_0.index t (0 : Fin 2) * 4096 + 1 * p.val = 4096 * t.val + p.val; omega
  | ⟨1, _⟩ => show win0_0.index t (1 : Fin 2) * 128 + 1 * j.val = j.val; omega

/-- Entry p of the block of ids at point t is entry 4096·t + p of the ids. -/
theorem idblk_apply (c : Dev nD) (t : Fin cfg0.N) (p : Fin 4096) :
    idblk m c t (ix1 p) = m ((c : Thread nD τ).loc main_arg1) (ix1 ⟨4096 * t.val + p.val, row_lt t p⟩) := by
  have e0 := idx_id t
  show V m c main_arg1 (((cfg0.win 1).blk t).view.emb (ix1 p)) = _
  rw [V_main_arg1]
  refine congrArg _ ?_
  funext a; apply Fin.ext
  match a with
  | ⟨0, _⟩ => show win0_1.index t (0 : Fin 1) * 4096 + 1 * p.val = 4096 * t.val + p.val; omega

/-! ## The table's window -/

/-- The table's block is the whole table at every point: the block is the array's size and its index is 0. -/
theorem tblk_eq (c : Dev nD) (t : Fin cfg0.N) : tblk m c t = V m c main_v10 := by
  obtain ⟨e0, e1⟩ := idx_tab t
  funext i
  show V m c main_v10 (((cfg0.win 2).blk t).view.emb i) = V m c main_v10 i
  refine congrArg _ ?_
  funext a; apply Fin.ext
  match a with
  | ⟨0, _⟩ => show win0_2.index t (0 : Fin 2) * 64 + 1 * (i 0).val = (i 0).val; omega
  | ⟨1, _⟩ => show win0_2.index t (1 : Fin 2) * 512 + 1 * (i 1).val = (i 1).val; omega

/-! ## The table's contents -/

/-- The table of means, and the table of deviations, as the program is launched with them. -/
abbrev meanTab (c : Dev nD) : Vec Ideal S64x128 .f32 := m ((c : Thread nD τ).loc main_arg2)
abbrev stdTab (c : Dev nD) : Vec Ideal S64x128 .f32 := m ((c : Thread nD τ).loc main_arg4)

/-- The short-float part of a 64 × 128 table. -/
abbrev hi (a : Vec Ideal S64x128 .f32) : FVec Ideal S64x128 .bf16 := truncf .bf16 a bitsLt_bf16_f32
/-- What the short-float part leaves of the table, itself cut to a short float. -/
abbrev lo (a : Vec Ideal S64x128 .f32) : FVec Ideal S64x128 .bf16 :=
  truncf .bf16 (subf a (extf .f32 (hi a) bitsLt_bf16_f32)) bitsLt_bf16_f32

/-- Over the extended reals cutting to a short float changes nothing: the short-float part is the table, -/
theorem hi_apply (a : Vec Ideal S64x128 .f32) (i : S64x128.Idx) : hi a i = a i := rfl
/-- and the rest is each entry less itself. -/
theorem lo_apply (a : Vec Ideal S64x128 .f32) (i : S64x128.Idx) : lo a i = a i - a i := rfl

/-- A real number less itself is 0 (an infinite entry less itself is not). -/
theorem coe_sub_self {x : EReal} (h : ∃ r : ℝ, x = (r : EReal)) : x - x = ((0 : ℝ) : EReal) := by
  obtain ⟨r, rfl⟩ := h
  rw [← EReal.coe_sub, sub_self]

/-- The gather table as the eleven host operations leave it: side by side the two short-float parts, then
    side by side the two remainders, the two pairs again side by side. -/
theorem table_term (c : Dev nD) :
    (V m c main_v10 : S64x512.Idx → EReal)
      = concatenate S64x512 1
          [⟨S64x256, concatenate S64x256 1 [⟨S64x128, hi (meanTab m c)⟩, ⟨S64x128, hi (stdTab m c)⟩]
              concatenates_S64x128_S64x128_S64x256_d1⟩,
           ⟨S64x256, concatenate S64x256 1 [⟨S64x128, lo (meanTab m c)⟩, ⟨S64x128, lo (stdTab m c)⟩]
              concatenates_S64x128_S64x128_S64x256_d1⟩]
          concatenates_S64x256_S64x256_S64x512_d1 := by
  dsimp only [V, V0]
  simp only [hostOps0, List.flatten_cons, List.flatten_nil, List.append_nil]
  after_results

/-- Columns 0 … 127: the means. -/
theorem table_mean (c : Dev nD) (k : Fin 64) (j : Fin 128) :
    V (F := Ideal) m c main_v10 (ix2 k ⟨j.val, by have := j.isLt; omega⟩) = m ((c : Thread nD τ).loc main_arg2) (ix2 k j) := by
  refine (congrFun (table_term m c) _).trans ?_
  -- a column below 256 is in the left pair, at the same column
  refine (concatenate_pair_apply_left (t := S64x512) (s₁ := S64x256) (s₂ := S64x256) (1 : Fin 2) _ _ _ _ rfl
    (ix2 k (⟨j.val, by have := j.isLt; omega⟩ : Fin 256)) (fun b => by
      match b with
      | ⟨0, _⟩ => rfl
      | ⟨1, _⟩ => rfl)).trans ?_
  -- a column below 128 of the pair is in its left half, at the same column
  exact concatenate_pair_apply_left (t := S64x256) (s₁ := S64x128) (s₂ := S64x128) (1 : Fin 2) _ _ _ _ rfl
    (ix2 k j) (fun b => by
      match b with
      | ⟨0, _⟩ => rfl
      | ⟨1, _⟩ => rfl)

/-- Columns 128 … 255: the deviations. -/
theorem table_std (c : Dev nD) (k : Fin 64) (j : Fin 128) :
    V (F := Ideal) m c main_v10 (ix2 k ⟨128 + j.val, by have := j.isLt; omega⟩) = m ((c : Thread nD τ).loc main_arg4) (ix2 k j) := by
  refine (congrFun (table_term m c) _).trans ?_
  -- a column below 256 is in the left pair, at the same column
  refine (concatenate_pair_apply_left (t := S64x512) (s₁ := S64x256) (s₂ := S64x256) (1 : Fin 2) _ _ _ _ rfl
    (ix2 k (⟨128 + j.val, by have := j.isLt; omega⟩ : Fin 256)) (fun b => by
      match b with
      | ⟨0, _⟩ => rfl
      | ⟨1, _⟩ => rfl)).trans ?_
  -- a column from 128 on of the pair is in its right half, 128 columns less
  exact concatenate_pair_apply_right (t := S64x256) (s₁ := S64x128) (s₂ := S64x128) (1 : Fin 2) _ _ _ _ rfl rfl
    (ix2 k j) (fun b hb => by
      match b with
      | ⟨0, _⟩ => rfl
      | ⟨1, _⟩ => exact absurd rfl hb) (by show j.val + 128 = 128 + j.val; omega)

/-- Columns 256 … 383: a real mean less itself. -/
theorem table_lo_mean (c : Dev nD) (hmean : ∀ i, ∃ r : ℝ, m ((c : Thread nD τ).loc main_arg2) i = (r : EReal)) (k : Fin 64) (j : Fin 128) :
    V (F := Ideal) m c main_v10 (ix2 k ⟨256 + j.val, by have := j.isLt; omega⟩) = ((0 : ℝ) : EReal) := by
  refine (congrFun (table_term m c) _).trans ?_
  -- a column from 256 on is in the right pair, 256 columns less
  refine (concatenate_pair_apply_right (t := S64x512) (s₁ := S64x256) (s₂ := S64x256) (1 : Fin 2) _ _ _ _ rfl rfl
    (ix2 k (⟨j.val, by have := j.isLt; omega⟩ : Fin 256)) (fun b hb => by
      match b with
      | ⟨0, _⟩ => rfl
      | ⟨1, _⟩ => exact absurd rfl hb) (by show j.val + 256 = 256 + j.val; omega)).trans ?_
  -- a column below 128 of the pair is in its left half, at the same column
  refine (concatenate_pair_apply_left (t := S64x256) (s₁ := S64x128) (s₂ := S64x128) (1 : Fin 2) _ _ _ _ rfl
    (ix2 k j) (fun b => by
      match b with
      | ⟨0, _⟩ => rfl
      | ⟨1, _⟩ => rfl)).trans ?_
  exact coe_sub_self (hmean (ix2 k j))

/-- Columns 384 … 511: a real deviation less itself. -/
theorem table_lo_std (c : Dev nD) (hstd : ∀ i, ∃ r : ℝ, m ((c : Thread nD τ).loc main_arg4) i = (r : EReal)) (k : Fin 64) (j : Fin 128) :
    V (F := Ideal) m c main_v10 (ix2 k ⟨384 + j.val, by have := j.isLt; omega⟩) = ((0 : ℝ) : EReal) := by
  refine (congrFun (table_term m c) _).trans ?_
  -- a column from 256 on is in the right pair, 256 columns less
  refine (concatenate_pair_apply_right (t := S64x512) (s₁ := S64x256) (s₂ := S64x256) (1 : Fin 2) _ _ _ _ rfl rfl
    (ix2 k (⟨128 + j.val, by have := j.isLt; omega⟩ : Fin 256)) (fun b hb => by
      match b with
      | ⟨0, _⟩ => rfl
      | ⟨1, _⟩ => exact absurd rfl hb) (by show 128 + j.val + 256 = 384 + j.val; omega)).trans ?_
  -- a column from 128 on of the pair is in its right half, 128 columns less
  refine (concatenate_pair_apply_right (t := S64x256) (s₁ := S64x128) (s₂ := S64x128) (1 : Fin 2) _ _ _ _ rfl rfl
    (ix2 k j) (fun b hb => by
      match b with
      | ⟨0, _⟩ => rfl
      | ⟨1, _⟩ => exact absurd rfl hb) (by show j.val + 128 = 128 + j.val; omega)).trans ?_
  exact coe_sub_self (hstd (ix2 k j))

end Cert.KernelIdeal.Blocks

end
-- ==== Proof.LibColumns.lean ====
/-
  Two layout operations read at an entry, for a column kept as an [a, 1] matrix — what a row reduction with
  kept dimensions passes through on its way back over the rows: a vector of a entries cast to one column, and
  one column laid along every column of an a × b matrix. Stated for any element type and any extents.
-/
import Idealize.ShloMosaic.Lib.Pipeline.Value
import Idealize.ShloMosaic.Lib.ValueIdx

namespace Cert.Lib.Columns

open Idealize.ShloMosaic Idealize.ShloMosaic.ValueIdx

variable {α : Type}

/-- An `[a]` array cast to `[a, 1]` reads, at `(i, u)`, the operand at `i`, whatever the unit coordinate `u`:
    both indices have the same row-major position, i · 1 + 0 = i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Columns
-- ==== Proof.KernelPoint.lean ====
/-
  WHAT ONE GRID POINT OF THE KERNEL COMPUTES, entry by entry, on the extended reals.

  The body builds the one-hot matrix oh[p, k] = [task id of row p is k] of its 4096 rows against the 64 tasks and uses
  it three times. (i) oh · table (contracting the 64 tasks) gathers, for each row, its task's row of the statistics
  table; the table arrives as a leading half and a remainder half (columns 0–255 and 256–511), the two products are
  added, and the result's columns 0–127 are the row's mean and 128–255 its deviation. Since every row of oh has exactly
  one 1, and 1 · a = a, 0 · a = 0 for EVERY extended real, the product is the table row itself: no finiteness is needed.
  (ii) The normalized output is (x − mean) / (deviation + ε). (iii) ohᵀ · [d | d²] (contracting the 4096 rows), with
  d = x − mean, is for each task the sum of d and of d² over the task's rows; the body adds a second product against
  the operand's own remainder v − v, which is 0 entry by entry exactly when the entry is a real number (⊤ − ⊤ is not
  0): that is the one place where finiteness of d is used. The column sums of oh count each task's rows.
-/
import proofs.«402983_j34497177321524_3_alg».proof.Proof.Gen.KernelIdeal.Skeleton
import proofs.«402983_j34497177321524_3_alg».proof.Proof.Spec
import proofs.«402983_j34497177321524_3_alg».proof.Proof.LibColumns
import Idealize.ShloMosaic.Lib.ValueIdx
import Idealize.ShloMosaic.Lib.ValueLayout
import Idealize.ShloMosaic.Lib.Pipeline.Value
import Idealize.ShloMosaic.PureOps.Ideal.Laws
import Mathlib.Data.EReal.Basic
import Mathlib.Algebra.BigOperators.Group.Finset.Basic

noncomputable section

namespace Cert.KernelIdeal.Point

open Idealize.ShloMosaic Idealize.ShloMosaic.ValueIdx Cert.KernelIdeal Cert.KernelIdeal.Gen
open Cert

variable [Cert.KernelIdeal.Facts]

/-! ## The accumulations, the resets and the casts -/

/-- The first accumulator's update: what it held plus the grid point's counts. -/
theorem acc0_apply (v40 : FVec Ideal S64x128 .f32) (v41 : Vec Ideal S64x128 .f32) (i : S64x128.Idx) :
    k0_pay1 (F := Ideal) v40 v41 i = v41 i + v40 i := by
  unfold k0_pay1
  rw [shapeCast_self]
  rfl

/-- The second accumulator's update: what it held plus the grid point's sums. -/
theorem acc1_apply (v35 : FVec Ideal S64x256 .f32) (v46 : Vec Ideal S64x256 .f32) (i : S64x256.Idx) :
    k0_pay2 (F := Ideal) v35 v46 i = v46 i + v35 i := by
  unfold k0_pay2
  rw [shapeCast_self]
  rfl

/-- The first accumulator's reset: zero everywhere. -/
theorem zero0_apply (i : S64x128.Idx) : k0_pay5 (F := Ideal) i = ((0 : ℝ) : EReal) := by
  unfold k0_pay5
  rw [shapeCast_self]
  show Ideal.ofBits .f32 0x00000000#32 = _
  rw [Ideal.ofBits_zero_f32, EReal.coe_zero]

/-- The second accumulator's reset: zero everywhere. -/
theorem zero1_apply (i : S64x256.Idx) : k0_pay6 (F := Ideal) i = ((0 : ℝ) : EReal) := by
  unfold k0_pay6
  rw [shapeCast_self]
  show Ideal.ofBits .f32 0x00000000#32 = _
  rw [Ideal.ofBits_zero_f32, EReal.coe_zero]

/-- A [64, 128] value written out as a [1, 64, 128] block keeps its entries. -/
theorem cast3_apply (v54 : Vec Ideal S64x128 .f32) (k : Fin 64) (l : Fin 128) :
    k0_pay3 (F := Ideal) v54 (ix3 (0 : Fin 1) k l) = v54 (ix2 k l) := by
  unfold k0_pay3
  exact shapeCast_ab_1ab_apply v54 _ 0 k l

/-- A [64, 256] value written out as a [1, 64, 256] block keeps its entries. -/
theorem cast4_apply (v58 : Vec Ideal S64x256 .f32) (k : Fin 64) (q : Fin 256) :
    k0_pay4 (F := Ideal) v58 (ix3 (0 : Fin 1) k q) = v58 (ix2 k q) := by
  unfold k0_pay4
  exact shapeCast_ab_1ab_apply v58 _ 0 k q

/-! ## The one-hot matrix -/

/-- The one-hot matrix of the task ids, read at row p and column k: 1 where the row's id is the word k, else 0. The
    column index is the iota along axis 1, the row's id is carried to every column through the [4096] → [4096, 1] cast and the
    broadcast along the columns, the comparison bit is widened to a 32-bit word and that word, read signed, is 0 or 1. -/
theorem onehot_apply (x1 : Vec Ideal S4096 .i32) (p : Fin 4096) (k : Fin 64) :
    k0_pay7 (F := Ideal) x1 (ix2 p k) = if x1 (ix1 p) = BitVec.ofNat 32 k.val then ((1 : ℝ) : EReal) else ((0 : ℝ) : EReal) := by
  unfold k0_pay7
  rw [sitofp_apply, extui_apply]
  show FloatOps.sitofp (F := Ideal) .f32 ((IntOp.cmpi .eq (broadcastTo S4096x64 (shapeCast S4096x1 x1 _) _ (ix2 p k)) (iota .tc S4096x64 32 [1] _ (ix2 p k))).setWidth 32) = _
  rw [Cert.Lib.Columns.broadcastTo_a1_ab_apply, Cert.Lib.Columns.shapeCast_a_a1_apply, iota_single_apply]
  show FloatOps.sitofp (F := Ideal) .f32 ((IntOp.cmpi .eq (x1 (ix1 p)) (BitVec.ofNat 32 k.val)).setWidth 32) = _
  by_cases h : x1 (ix1 p) = BitVec.ofNat 32 k.val
  · have hc : IntOp.cmpi .eq (x1 (ix1 p)) (BitVec.ofNat 32 k.val) = 1#1 := IntOp.cmpi_eq.2 h
    rw [if_pos h, hc]
    show (((((1#1 : BitVec 1).setWidth 32).toInt : ℤ) : ℝ) : EReal) = ((1 : ℝ) : EReal)
    rw [show ((1#1 : BitVec 1).setWidth 32).toInt = 1 from by decide, Int.cast_one]
  · have hc : IntOp.cmpi .eq (x1 (ix1 p)) (BitVec.ofNat 32 k.val) = 0#1 :=
      eq_zero_of_ne_one fun h1 => h (IntOp.cmpi_eq.1 h1)
    rw [if_neg h, hc]
    show (((((0#1 : BitVec 1).setWidth 32).toInt : ℤ) : ℝ) : EReal) = ((0 : ℝ) : EReal)
    rw [show ((0#1 : BitVec 1).setWidth 32).toInt = 0 from by decide, Int.cast_zero]

/-- The same matrix after the change of format, which is the identity on extended reals. -/
theorem onehot8_apply (x1 : Vec Ideal S4096 .i32) (p : Fin 4096) (k : Fin 64) :
    k0_pay8 (F := Ideal) x1 (ix2 p k) = if x1 (ix1 p) = BitVec.ofNat 32 k.val then ((1 : ℝ) : EReal) else ((0 : ℝ) : EReal) := by
  unfold k0_pay8
  rw [truncf_apply]
  exact onehot_apply x1 p k

/-- With the ids in range, row p of the one-hot matrix is 1 at the row's task and 0 at every other column. -/
theorem onehot8_task (x1 : Vec Ideal S4096 .i32)
    (hr : ∀ p : Fin 4096, 0 ≤ (x1 (ix1 p)).toInt ∧ (x1 (ix1 p)).toInt < 64) (p : Fin 4096) (k : Fin 64) :
    k0_pay8 (F := Ideal) x1 (ix2 p k) = if Spec.taskOf (x1 (ix1 p)) = k then ((1 : ℝ) : EReal) else ((0 : ℝ) : EReal) := by
  rw [onehot8_apply]
  exact if_congr (Spec.eq_ofNat_iff (hr p).1 (hr p).2 k) rfl rfl

/-! ## The first product's dimension numbers: rows × (contracted) times (contracted) × columns -/

theorem lhs_dotA_0 (j : S4096x256.Idx) (k : dot_S4096x64_S64x256_S4096x256_1_0_0_1_n_n.contr.Idx) :
    (dot_S4096x64_S64x256_S4096x256_1_0_0_1_n_n.lhsIdx j k 0 : ℕ) = j 0 := by
  simp [DotDims.lhsIdx, dot_S4096x64_S64x256_S4096x256_1_0_0_1_n_n]; rfl
theorem lhs_dotA_1 (j : S4096x256.Idx) (k : dot_S4096x64_S64x256_S4096x256_1_0_0_1_n_n.contr.Idx) :
    (dot_S4096x64_S64x256_S4096x256_1_0_0_1_n_n.lhsIdx j k 1 : ℕ) = k ⟨0, by decide⟩ := by
  simp [DotDims.lhsIdx, dot_S4096x64_S64x256_S4096x256_1_0_0_1_n_n]; rfl
theorem rhs_dotA_0 (j : S4096x256.Idx) (k : dot_S4096x64_S64x256_S4096x256_1_0_0_1_n_n.contr.Idx) :
    (dot_S4096x64_S64x256_S4096x256_1_0_0_1_n_n.rhsIdx j k 0 : ℕ) = k ⟨0, by decide⟩ := by
  simp [DotDims.rhsIdx, dot_S4096x64_S64x256_S4096x256_1_0_0_1_n_n]; rfl
theorem rhs_dotA_1 (j : S4096x256.Idx) (k : dot_S4096x64_S64x256_S4096x256_1_0_0_1_n_n.contr.Idx) :
    (dot_S4096x64_S64x256_S4096x256_1_0_0_1_n_n.rhsIdx j k 1 : ℕ) = j 1 := by
  simp [DotDims.rhsIdx, dot_S4096x64_S64x256_S4096x256_1_0_0_1_n_n]; rfl

/-- The first product into a zero accumulator, read at (p, q): the sum over the 64 contracted positions c of
    lhs (p, c) · rhs (c, q). -/
theorem matmulA_apply (lhs : FVec Ideal S4096x64 .bf16) (rhs : FVec Ideal S64x256 .bf16) (p : Fin 4096) (q : Fin 256) :
    matmul dot_S4096x64_S64x256_S4096x256_1_0_0_1_n_n none lhs rhs (constant S4096x256 .f32 0x00000000#32) (ix2 p q)
      = ∑ c : Fin 64, lhs (ix2 p c) * rhs (ix2 c q) := by
  refine (Ideal.matmul_constant_zero_apply dot_S4096x64_S64x256_S4096x256_1_0_0_1_n_n none lhs rhs (ix2 p q)).trans ?_
  rw [← Equiv.sum_comp (contrEquiv1 dot_S4096x64_S64x256_S4096x256_1_0_0_1_n_n 64 rfl rfl).symm]
  refine Finset.sum_congr rfl fun c _ => ?_
  have hk := contrEquiv1_symm_val dot_S4096x64_S64x256_S4096x256_1_0_0_1_n_n 64 rfl rfl c
  have hl : dot_S4096x64_S64x256_S4096x256_1_0_0_1_n_n.lhsIdx (ix2 p q)
      ((contrEquiv1 dot_S4096x64_S64x256_S4096x256_1_0_0_1_n_n 64 rfl rfl).symm c) = ix2 p c := by
    funext a; apply Fin.ext
    match a with
    | ⟨0, _⟩ => exact lhs_dotA_0 _ _
    | ⟨1, _⟩ => exact (lhs_dotA_1 _ _).trans hk
  have hrr : dot_S4096x64_S64x256_S4096x256_1_0_0_1_n_n.rhsIdx (ix2 p q)
      ((contrEquiv1 dot_S4096x64_S64x256_S4096x256_1_0_0_1_n_n 64 rfl rfl).symm c) = ix2 c q := by
    funext a; apply Fin.ext
    match a with
    | ⟨0, _⟩ => exact (rhs_dotA_0 _ _).trans hk
    | ⟨1, _⟩ => exact rhs_dotA_1 _ _
  rw [hl, hrr]

/-! ## The gathered rows, the mean and the output -/

/-- A row of the one-hot matrix against any column of 64 extended reals picks the entry at the row's task: 1 · a = a
    and 0 · a = 0 hold for every extended real, the infinities included. -/
theorem onehot_row_sum (x1 : Vec Ideal S4096 .i32)
    (hr : ∀ p : Fin 4096, 0 ≤ (x1 (ix1 p)).toInt ∧ (x1 (ix1 p)).toInt < 64) (p : Fin 4096) (f : Fin 64 → EReal) :
    ∑ c : Fin 64, k0_pay8 (F := Ideal) x1 (ix2 p c) * f c = f (Spec.taskOf (x1 (ix1 p))) := by
  rw [Finset.sum_eq_single (Spec.taskOf (x1 (ix1 p)))]
  · rw [onehot8_task x1 hr, if_pos rfl, EReal.coe_one, one_mul]
  · intro c _ hc
    rw [onehot8_task x1 hr, if_neg (Ne.symm hc), EReal.coe_zero, zero_mul]
  · intro h; exact absurd (Finset.mem_univ _) h

/-- The gathered table rows: at row p and column q the two products with the one-hot matrix read the table's two
    halves at the row's task, the leading half at column q and the remainder half at column 256 + q, and their sum is
    what the body goes on with. -/
theorem gathered_apply (x1 : Vec Ideal S4096 .i32) (x2 : Vec Ideal S64x512 .bf16)
    (hr : ∀ p : Fin 4096, 0 ≤ (x1 (ix1 p)).toInt ∧ (x1 (ix1 p)).toInt < 64) (p : Fin 4096) (q : Fin 256) :
    k0_pay9 (F := Ideal) x1 x2 (ix2 p q)
      = x2 (ix2 (Spec.taskOf (x1 (ix1 p))) ⟨q.val, by omega⟩) + x2 (ix2 (Spec.taskOf (x1 (ix1 p))) ⟨256 + q.val, by omega⟩) := by
  unfold k0_pay9
  rw [addf_apply, matmulA_apply, matmulA_apply, shapeCast_self, onehot_row_sum x1 hr, onehot_row_sum x1 hr]
  rw [slice2_axis1_apply 0 x2 _ _ q ⟨q.val, by omega⟩ (by simp), slice2_axis1_apply 256 x2 _ _ q ⟨256 + q.val, by omega⟩ rfl]

/-- The mean the body subtracts, at row p and feature j: the first 128 columns of the gathered rows. -/
theorem centered_apply (x1 : Vec Ideal S4096 .i32) (x2 : Vec Ideal S64x512 .bf16)
    (hr : ∀ p : Fin 4096, 0 ≤ (x1 (ix1 p)).toInt ∧ (x1 (ix1 p)).toInt < 64) (p : Fin 4096) (j : Fin 128) :
    k0_pay10 (F := Ideal) x1 x2 (ix2 p j)
      = x2 (ix2 (Spec.taskOf (x1 (ix1 p))) ⟨j.val, by omega⟩) + x2 (ix2 (Spec.taskOf (x1 (ix1 p))) ⟨256 + j.val, by omega⟩) := by
  unfold k0_pay10
  rw [slice2_axis1_apply 0 _ _ p j ⟨j.val, by omega⟩ (by simp)]
  exact gathered_apply x1 x2 hr p ⟨j.val, by omega⟩

/-- The normalized output at row p and feature j: (x − mean) / (deviation + ε), the mean and the deviation read at the
    row's task as the sums of their leading and remainder halves. -/
theorem out_apply (x0 : Vec Ideal S4096x128 .f32) (x1 : Vec Ideal S4096 .i32) (x2 : Vec Ideal S64x512 .bf16)
    (hr : ∀ p : Fin 4096, 0 ≤ (x1 (ix1 p)).toInt ∧ (x1 (ix1 p)).toInt < 64) (p : Fin 4096) (j : Fin 128) :
    k0_pay11 (F := Ideal) x0 x1 x2 (ix2 p j)
      = Ideal.div (x0 (ix2 p j) - (x2 (ix2 (Spec.taskOf (x1 (ix1 p))) ⟨j.val, by omega⟩) + x2 (ix2 (Spec.taskOf (x1 (ix1 p))) ⟨256 + j.val, by omega⟩)))
          ((x2 (ix2 (Spec.taskOf (x1 (ix1 p))) ⟨128 + j.val, by omega⟩) + x2 (ix2 (Spec.taskOf (x1 (ix1 p))) ⟨384 + j.val, by omega⟩)) + Spec.eps) := by
  unfold k0_pay11
  rw [divf_apply, subf_apply, addf_apply, centered_apply x1 x2 hr, broadcast_apply,
    slice2_axis1_apply 128 _ _ p j ⟨128 + j.val, by omega⟩ rfl, gathered_apply x1 x2 hr]
  have e : (⟨256 + (128 + j.val), by omega⟩ : Fin 512) = ⟨384 + j.val, by omega⟩ :=
    Fin.ext (by show 256 + (128 + j.val) = 384 + j.val; omega)
  exact congrArg (fun c : Fin 512 => Ideal.div (x0 (ix2 p j) - (x2 (ix2 (Spec.taskOf (x1 (ix1 p))) ⟨j.val, by omega⟩) + x2 (ix2 (Spec.taskOf (x1 (ix1 p))) ⟨256 + j.val, by omega⟩)))
    (x2 (ix2 (Spec.taskOf (x1 (ix1 p))) ⟨128 + j.val, by omega⟩) + x2 (ix2 (Spec.taskOf (x1 (ix1 p))) c) + Spec.eps)) e

/-! ## The counts -/

/-- The number of each task's rows, laid along the 128 lanes: the column sums of the one-hot matrix, a sum over the 4096
    rows of 1 where the row's task is k. -/
theorem count_apply (x1 : Vec Ideal S4096 .i32)
    (hr : ∀ p : Fin 4096, 0 ≤ (x1 (ix1 p)).toInt ∧ (x1 (ix1 p)).toInt < 64) (k : Fin 64) (l : Fin 128) :
    k0_pay13 (F := Ideal) x1 (ix2 k l)
      = ∑ p : Fin 4096, (if Spec.taskOf (x1 (ix1 p)) = k then ((1 : ℝ) : EReal) else ((0 : ℝ) : EReal)) := by
  unfold k0_pay13
  rw [Cert.Lib.Columns.broadcastTo_a1_ab_apply, shapeCast_self, Cert.Lib.Columns.shapeCast_a_a1_apply]
  refine (Ideal.multiReduction_add_single (k0_pay7 (F := Ideal) x1) 0x00000000#32 reduces_S4096x64_S64 (.inl rfl) rfl (ix1 k)).trans ?_
  show ∑ c : Fin 4096, k0_pay7 (F := Ideal) x1 (reduces_S4096x64_S64.lift (ix1 k) c) = _
  refine Finset.sum_congr rfl fun c _ => ?_
  have hl : reduces_S4096x64_S64.lift (ix1 k) c = ix2 c k := by
    funext a; apply Fin.ext
    match a with
    | ⟨0, _⟩ => rfl
    | ⟨1, _⟩ => rfl
  rw [hl, onehot_apply]
  exact if_congr (Spec.eq_ofNat_iff (hr c).1 (hr c).2 k) rfl rfl

/-! ## The second product's dimension numbers: both operands contract their rows -/

theorem lhs_dotB_0 (j : S64x256.Idx) (k : dot_S4096x64_S4096x256_S64x256_0_0_1_1_n_n.contr.Idx) :
    (dot_S4096x64_S4096x256_S64x256_0_0_1_1_n_n.lhsIdx j k 0 : ℕ) = k ⟨0, by decide⟩ := by
  simp [DotDims.lhsIdx, dot_S4096x64_S4096x256_S64x256_0_0_1_1_n_n]; rfl
theorem lhs_dotB_1 (j : S64x256.Idx) (k : dot_S4096x64_S4096x256_S64x256_0_0_1_1_n_n.contr.Idx) :
    (dot_S4096x64_S4096x256_S64x256_0_0_1_1_n_n.lhsIdx j k 1 : ℕ) = j 0 := by
  simp [DotDims.lhsIdx, dot_S4096x64_S4096x256_S64x256_0_0_1_1_n_n]; rfl
theorem rhs_dotB_0 (j : S64x256.Idx) (k : dot_S4096x64_S4096x256_S64x256_0_0_1_1_n_n.contr.Idx) :
    (dot_S4096x64_S4096x256_S64x256_0_0_1_1_n_n.rhsIdx j k 0 : ℕ) = k ⟨0, by decide⟩ := by
  simp [DotDims.rhsIdx, dot_S4096x64_S4096x256_S64x256_0_0_1_1_n_n]; rfl
theorem rhs_dotB_1 (j : S64x256.Idx) (k : dot_S4096x64_S4096x256_S64x256_0_0_1_1_n_n.contr.Idx) :
    (dot_S4096x64_S4096x256_S64x256_0_0_1_1_n_n.rhsIdx j k 1 : ℕ) = j 1 := by
  simp [DotDims.rhsIdx, dot_S4096x64_S4096x256_S64x256_0_0_1_1_n_n]; rfl

/-- The second product into a zero accumulator, read at (k, q): the sum over the 4096 contracted rows c of
    lhs (c, k) · rhs (c, q). -/
theorem matmulB_apply (lhs : FVec Ideal S4096x64 .bf16) (rhs : FVec Ideal S4096x256 .bf16) (k : Fin 64) (q : Fin 256) :
    matmul dot_S4096x64_S4096x256_S64x256_0_0_1_1_n_n none lhs rhs (constant S64x256 .f32 0x00000000#32) (ix2 k q)
      = ∑ c : Fin 4096, lhs (ix2 c k) * rhs (ix2 c q) := by
  refine (Ideal.matmul_constant_zero_apply dot_S4096x64_S4096x256_S64x256_0_0_1_1_n_n none lhs rhs (ix2 k q)).trans ?_
  rw [← Equiv.sum_comp (contrEquiv1 dot_S4096x64_S4096x256_S64x256_0_0_1_1_n_n 4096 rfl rfl).symm]
  refine Finset.sum_congr rfl fun c _ => ?_
  have hk := contrEquiv1_symm_val dot_S4096x64_S4096x256_S64x256_0_0_1_1_n_n 4096 rfl rfl c
  have hl : dot_S4096x64_S4096x256_S64x256_0_0_1_1_n_n.lhsIdx (ix2 k q)
      ((contrEquiv1 dot_S4096x64_S4096x256_S64x256_0_0_1_1_n_n 4096 rfl rfl).symm c) = ix2 c k := by
    funext a; apply Fin.ext
    match a with
    | ⟨0, _⟩ => exact (lhs_dotB_0 _ _).trans hk
    | ⟨1, _⟩ => exact lhs_dotB_1 _ _
  have hrr : dot_S4096x64_S4096x256_S64x256_0_0_1_1_n_n.rhsIdx (ix2 k q)
      ((contrEquiv1 dot_S4096x64_S4096x256_S64x256_0_0_1_1_n_n 4096 rfl rfl).symm c) = ix2 c q := by
    funext a; apply Fin.ext
    match a with
    | ⟨0, _⟩ => exact (rhs_dotB_0 _ _).trans hk
    | ⟨1, _⟩ => exact rhs_dotB_1 _ _
  rw [hl, hrr]

/-! ## The per-task sums -/

/-- The summand of the two per-task sums at row p and column q of the [64 × 256] accumulator: with d the row's
    centered entry at feature q mod 128, d itself in the first 128 columns and d² in the last 128. -/
def rhsAt (x0 : Vec Ideal S4096x128 .f32) (x1 : Vec Ideal S4096 .i32) (x2 : Vec Ideal S64x512 .bf16) (p : Fin 4096) (q : Fin 256) : EReal :=
  if q.val < 128 then
    x0 (ix2 p ⟨q.val % 128, Nat.mod_lt _ (by decide)⟩) - k0_pay10 (F := Ideal) x1 x2 (ix2 p ⟨q.val % 128, Nat.mod_lt _ (by decide)⟩)
  else
    (x0 (ix2 p ⟨q.val % 128, Nat.mod_lt _ (by decide)⟩) - k0_pay10 (F := Ideal) x1 x2 (ix2 p ⟨q.val % 128, Nat.mod_lt _ (by decide)⟩))
      * (x0 (ix2 p ⟨q.val % 128, Nat.mod_lt _ (by decide)⟩) - k0_pay10 (F := Ideal) x1 x2 (ix2 p ⟨q.val % 128, Nat.mod_lt _ (by decide)⟩))

/-- The operand [d | d²] of the second product, read at row p and column q. -/
theorem stacked_apply (x0 : Vec Ideal S4096x128 .f32) (x1 : Vec Ideal S4096 .i32) (x2 : Vec Ideal S64x512 .bf16) (p : Fin 4096) (q : Fin 256) :
    concatenate S4096x256 1 [⟨S4096x128, subf (F := Ideal) (φ := .f32) x0 (k0_pay10 (F := Ideal) x1 x2)⟩,
        ⟨S4096x128, mulf (subf (F := Ideal) (φ := .f32) x0 (k0_pay10 (F := Ideal) x1 x2)) (subf (F := Ideal) (φ := .f32) x0 (k0_pay10 (F := Ideal) x1 x2))⟩]
      concatenates_S4096x128_S4096x128_S4096x256_d1 (ix2 p q) = rhsAt x0 x1 x2 p q := by
  unfold rhsAt
  by_cases hq : q.val < 128
  · rw [if_pos hq]
    refine (concatenate_pair_apply_left (t := S4096x256) (s₁ := S4096x128) (s₂ := S4096x128) 1 _ _ _ (ix2 p q) rfl (ix2 p (⟨q.val % 128, Nat.mod_lt _ (by decide)⟩ : Fin 128)) fun b => ?_).trans rfl
    match b with
    | ⟨0, _⟩ => rfl
    | ⟨1, _⟩ => exact Nat.mod_eq_of_lt hq
  · rw [if_neg hq]
    refine (concatenate_pair_apply_right (t := S4096x256) (s₁ := S4096x128) (s₂ := S4096x128) 1 _ _ _ (ix2 p q) rfl rfl (ix2 p (⟨q.val % 128, Nat.mod_lt _ (by decide)⟩ : Fin 128)) (fun b hb => ?_) ?_).trans rfl
    · match b, hb with
      | ⟨0, _⟩, _ => rfl
      | ⟨1, _⟩, hb => exact absurd rfl hb
    · show q.val % 128 + 128 = q.val
      have := q.isLt
      omega

/-- The per-task sums at task k and column q: the sum over the task's rows of d (columns 0–127) or d² (columns 128–255).
    The second product's operand v − v vanishes entry by entry because each entry of v is a real number. -/
theorem sums_apply (x0 : Vec Ideal S4096x128 .f32) (x1 : Vec Ideal S4096 .i32) (x2 : Vec Ideal S64x512 .bf16)
    (hr : ∀ p : Fin 4096, 0 ≤ (x1 (ix1 p)).toInt ∧ (x1 (ix1 p)).toInt < 64)
    (hfin : ∀ (p : Fin 4096) (j : Fin 128), ∃ r : ℝ, x0 (ix2 p j) - k0_pay10 (F := Ideal) x1 x2 (ix2 p j) = (r : EReal))
    (k : Fin 64) (q : Fin 256) :
    k0_pay12 (F := Ideal) x0 x1 x2 (ix2 k q)
      = ∑ p : Fin 4096, (if Spec.taskOf (x1 (ix1 p)) = k then rhsAt x0 x1 x2 p q else 0) := by
  have hreal : ∀ c : Fin 4096, ∃ r : ℝ, rhsAt x0 x1 x2 c q = (r : EReal) := fun c => by
    obtain ⟨r, hr'⟩ := hfin c ⟨q.val % 128, Nat.mod_lt _ (by decide)⟩
    unfold rhsAt
    split
    · exact ⟨r, hr'⟩
    · exact ⟨r * r, by rw [hr', EReal.coe_mul]⟩
  unfold k0_pay12
  rw [addf_apply, matmulB_apply, matmulB_apply]
  simp only [truncf_apply, subf_apply, stacked_apply]
  rw [show (∑ c : Fin 4096, k0_pay8 (F := Ideal) x1 (ix2 c k) * (rhsAt x0 x1 x2 c q - rhsAt x0 x1 x2 c q)) = 0 from
      Finset.sum_eq_zero fun c _ => by
        obtain ⟨r, hr'⟩ := hreal c
        rw [hr', ← EReal.coe_sub, sub_self, EReal.coe_zero, mul_zero], add_zero]
  refine Finset.sum_congr rfl fun c _ => ?_
  rw [onehot8_task x1 hr]
  split
  · rw [EReal.coe_one, one_mul]
  · rw [EReal.coe_zero, zero_mul]

end Cert.KernelIdeal.Point

end
-- ==== Proof.KernelAccum.lean ====
/-
  What the kernel leaves, point by point, in terms of the body's payloads at the points' own input blocks.  The
  grid is 2 × 16: a core k0 runs sixteen steps s = 0 … 15, the point's number being 16·k0 + s.  At every point
  the first output's buffer holds the normalized block of that point's inputs.  The two scratch accumulators are
  reset at step 0 and added to at every step, so after step s they hold the sums of the steps' terms over
  s' = 0 … s; the terms stay symbolic here (no arithmetic on their values), and the only algebra is that of an
  additive commutative monoid, the extended reals.  At step 15 the two partial-sum outputs are the accumulators as
  that step leaves them, read under the cast that puts a unit axis in front.
-/
import proofs.«402983_j34497177321524_3_alg».proof.Proof.KernelIdealData
import proofs.«402983_j34497177321524_3_alg».proof.Proof.KernelPieces
import proofs.«402983_j34497177321524_3_alg».proof.Proof.KernelBlocks
import proofs.«402983_j34497177321524_3_alg».proof.Proof.KernelPoint
import Idealize.ShloMosaic.Lib.ValueIdx
import Mathlib.Data.EReal.Basic
import Mathlib.Algebra.BigOperators.Group.Finset.Basic

noncomputable section

namespace Cert.KernelIdeal.Accum

open Idealize.ShloMosaic Idealize.ShloMosaic.ValueIdx Cert.KernelIdeal Cert.KernelIdeal.Gen Cert.KernelIdeal.Region
open Cert.KernelIdeal.Pieces Cert.KernelIdeal.Blocks

variable [Cert.KernelIdeal.Facts]

variable (m : (ℓ : Loc nD τ sig) → Buf (Elt Ideal) ℓ)

/-- Point s of core k0's sixteen steps: the grid is 2 × 16 and a point's number is 16·k0 + s. -/
def pt (k0 : Fin 2) (s : Fin 16) : Fin cfg0.N :=
  ⟨16 * k0.val + s.val, lt_of_lt_of_eq (by have := k0.isLt; have := s.isLt; omega) N_0.symm⟩

@[simp] theorem pt_val (k0 : Fin 2) (s : Fin 16) : (pt k0 s).val = 16 * k0.val + s.val := rfl

/-- The accumulation depends on the position's number only. -/
theorem outsAt0_congr (c : Dev nD) {a b : ℕ} (h : a = b) (ha : a < cfg0.N) (hb : b < cfg0.N) :
    outsAt0 m c a ha = outsAt0 m c b hb := by
  subst h; rfl

/-- What the point before t left in the first accumulator. -/
abbrev prev0 (c : Dev nD) (t : Fin cfg0.N) : Vec Ideal S64x128 .f32 :=
  (outsAt0 m c (t.val - 1) (Nat.lt_of_le_of_lt (Nat.sub_le _ _) t.isLt)).2.2.2.1
/-- What the point before t left in the second accumulator. -/
abbrev prev1 (c : Dev nD) (t : Fin cfg0.N) : Vec Ideal S64x256 .f32 :=
  (outsAt0 m c (t.val - 1) (Nat.lt_of_le_of_lt (Nat.sub_le _ _) t.isLt)).2.2.2.2

/-! ## The normalized block -/

/-- In each of the three cases the first output's buffer holds the normalized block of the point's own inputs. -/
theorem out3_eq (c : Dev nD) (t : Fin cfg0.N) :
    (outsAt0 m c t.val t.isLt).1 = k0_pay11 (xblk m c t) (idblk m c t) (tblk m c t) := by
  by_cases h0 : t.val % 16 = 0
  · have h1 : ¬t.val % 16 = 15 := by omega
    rw [outsAt0_A m c t h0 h1]; dsimp only
    exact out0_A_3_eq c (grid0.coords t) (ms0_0 t) (hs0_0 t) (ms0_1 t) (hs0_1 t) (ms0_2 t) (hs0_2 t) (ms0_3 t) (hs0_3 t)
      (ms0_4 t) (hs0_4 t) (ms0_5 t) (hs0_5 t) scM0_0 (Memref.isWhole_whole _) scM0_1 (Memref.isWhole_whole _)
      ((hcond0_0 t).mpr h0) (fun h => h1 ((hcond0_1 t).mp h)) (xblk m c t) (idblk m c t) (tblk m c t)
  · by_cases h1 : t.val % 16 = 15
    · rw [outsAt0_C m c t h0 h1]; dsimp only
      exact out0_C_3_eq c (grid0.coords t) (ms0_0 t) (hs0_0 t) (ms0_1 t) (hs0_1 t) (ms0_2 t) (hs0_2 t) (ms0_3 t) (hs0_3 t)
        (ms0_4 t) (hs0_4 t) (ms0_5 t) (hs0_5 t) scM0_0 (Memref.isWhole_whole _) scM0_1 (Memref.isWhole_whole _)
        (fun h => h0 ((hcond0_0 t).mp h)) ((hcond0_1 t).mpr h1) (xblk m c t) (idblk m c t) (tblk m c t)
        (prev0 m c t) (prev1 m c t)
    · rw [outsAt0_B m c t h0 h1]; dsimp only
      exact out0_B_3_eq c (grid0.coords t) (ms0_0 t) (hs0_0 t) (ms0_1 t) (hs0_1 t) (ms0_2 t) (hs0_2 t) (ms0_3 t) (hs0_3 t)
        (ms0_4 t) (hs0_4 t) (ms0_5 t) (hs0_5 t) scM0_0 (Memref.isWhole_whole _) scM0_1 (Memref.isWhole_whole _)
        (fun h => h0 ((hcond0_0 t).mp h)) (fun h => h1 ((hcond0_1 t).mp h)) (xblk m c t) (idblk m c t) (tblk m c t)
        (prev0 m c t) (prev1 m c t)

/-! ## One step of the two accumulators -/

/-- At a core's first step the first accumulator is reset to zero and the step's term added: it holds that term. -/
theorem acc0_first (c : Dev nD) (t : Fin cfg0.N) (h0 : t.val % 16 = 0) (i : S64x128.Idx) :
    (outsAt0 m c t.val t.isLt).2.2.2.1 i = k0_pay13 (F := Ideal) (idblk m c t) i := by
  have h1 : ¬t.val % 16 = 15 := by omega
  rw [outsAt0_A m c t h0 h1]; dsimp only
  refine (congrFun (sout0_A_0_eq c (grid0.coords t) (ms0_0 t) (hs0_0 t) (ms0_1 t) (hs0_1 t) (ms0_2 t) (hs0_2 t) (ms0_3 t) (hs0_3 t)
      (ms0_4 t) (hs0_4 t) (ms0_5 t) (hs0_5 t) scM0_0 (Memref.isWhole_whole _) scM0_1 (Memref.isWhole_whole _)
      ((hcond0_0 t).mpr h0) (fun h => h1 ((hcond0_1 t).mp h)) (xblk m c t) (idblk m c t) (tblk m c t)) i).trans ?_
  refine (Point.acc0_apply _ _ i).trans ?_
  rw [Point.zero0_apply, EReal.coe_zero, zero_add]

/-- The same for the second accumulator. -/
theorem acc1_first (c : Dev nD) (t : Fin cfg0.N) (h0 : t.val % 16 = 0) (i : S64x256.Idx) :
    (outsAt0 m c t.val t.isLt).2.2.2.2 i = k0_pay12 (F := Ideal) (xblk m c t) (idblk m c t) (tblk m c t) i := by
  have h1 : ¬t.val % 16 = 15 := by omega
  rw [outsAt0_A m c t h0 h1]; dsimp only
  refine (congrFun (sout0_A_1_eq c (grid0.coords t) (ms0_0 t) (hs0_0 t) (ms0_1 t) (hs0_1 t) (ms0_2 t) (hs0_2 t) (ms0_3 t) (hs0_3 t)
      (ms0_4 t) (hs0_4 t) (ms0_5 t) (hs0_5 t) scM0_0 (Memref.isWhole_whole _) scM0_1 (Memref.isWhole_whole _)
      ((hcond0_0 t).mpr h0) (fun h => h1 ((hcond0_1 t).mp h)) (xblk m c t) (idblk m c t) (tblk m c t)) i).trans ?_
  refine (Point.acc1_apply _ _ i).trans ?_
  rw [Point.zero1_apply, EReal.coe_zero, zero_add]

/-- At every later step the first accumulator holds what the step before left plus the step's term. -/
theorem acc0_next (c : Dev nD) (t : Fin cfg0.N) (h0 : ¬t.val % 16 = 0) (i : S64x128.Idx) :
    (outsAt0 m c t.val t.isLt).2.2.2.1 i = prev0 m c t i + k0_pay13 (F := Ideal) (idblk m c t) i := by
  by_cases h1 : t.val % 16 = 15
  · rw [outsAt0_C m c t h0 h1]; dsimp only
    exact (congrFun (sout0_C_0_eq c (grid0.coords t) (ms0_0 t) (hs0_0 t) (ms0_1 t) (hs0_1 t) (ms0_2 t) (hs0_2 t) (ms0_3 t) (hs0_3 t)
      (ms0_4 t) (hs0_4 t) (ms0_5 t) (hs0_5 t) scM0_0 (Memref.isWhole_whole _) scM0_1 (Memref.isWhole_whole _)
      (fun h => h0 ((hcond0_0 t).mp h)) ((hcond0_1 t).mpr h1) (xblk m c t) (idblk m c t) (tblk m c t)
      (prev0 m c t) (prev1 m c t)) i).trans (Point.acc0_apply _ _ i)
  · rw [outsAt0_B m c t h0 h1]; dsimp only
    exact (congrFun (sout0_B_0_eq c (grid0.coords t) (ms0_0 t) (hs0_0 t) (ms0_1 t) (hs0_1 t) (ms0_2 t) (hs0_2 t) (ms0_3 t) (hs0_3 t)
      (ms0_4 t) (hs0_4 t) (ms0_5 t) (hs0_5 t) scM0_0 (Memref.isWhole_whole _) scM0_1 (Memref.isWhole_whole _)
      (fun h => h0 ((hcond0_0 t).mp h)) (fun h => h1 ((hcond0_1 t).mp h)) (xblk m c t) (idblk m c t) (tblk m c t)
      (prev0 m c t) (prev1 m c t)) i).trans (Point.acc0_apply _ _ i)

/-- The same for the second accumulator. -/
theorem acc1_next (c : Dev nD) (t : Fin cfg0.N) (h0 : ¬t.val % 16 = 0) (i : S64x256.Idx) :
    (outsAt0 m c t.val t.isLt).2.2.2.2 i
      = prev1 m c t i + k0_pay12 (F := Ideal) (xblk m c t) (idblk m c t) (tblk m c t) i := by
  by_cases h1 : t.val % 16 = 15
  · rw [outsAt0_C m c t h0 h1]; dsimp only
    exact (congrFun (sout0_C_1_eq c (grid0.coords t) (ms0_0 t) (hs0_0 t) (ms0_1 t) (hs0_1 t) (ms0_2 t) (hs0_2 t) (ms0_3 t) (hs0_3 t)
      (ms0_4 t) (hs0_4 t) (ms0_5 t) (hs0_5 t) scM0_0 (Memref.isWhole_whole _) scM0_1 (Memref.isWhole_whole _)
      (fun h => h0 ((hcond0_0 t).mp h)) ((hcond0_1 t).mpr h1) (xblk m c t) (idblk m c t) (tblk m c t)
      (prev0 m c t) (prev1 m c t)) i).trans (Point.acc1_apply _ _ i)
  · rw [outsAt0_B m c t h0 h1]; dsimp only
    exact (congrFun (sout0_B_1_eq c (grid0.coords t) (ms0_0 t) (hs0_0 t) (ms0_1 t) (hs0_1 t) (ms0_2 t) (hs0_2 t) (ms0_3 t) (hs0_3 t)
      (ms0_4 t) (hs0_4 t) (ms0_5 t) (hs0_5 t) scM0_0 (Memref.isWhole_whole _) scM0_1 (Memref.isWhole_whole _)
      (fun h => h0 ((hcond0_0 t).mp h)) (fun h => h1 ((hcond0_1 t).mp h)) (xblk m c t) (idblk m c t) (tblk m c t)
      (prev0 m c t) (prev1 m c t)) i).trans (Point.acc1_apply _ _ i)

/-! ## The accumulators as sums over a core's steps -/

/-- The point before step n + 1 of a core is its step n. -/
theorem prev0_pt (c : Dev nD) (k0 : Fin 2) (n : ℕ) (hn : n + 1 < 16) :
    prev0 m c (pt k0 ⟨n + 1, hn⟩)
      = (outsAt0 m c (pt k0 ⟨n, Nat.lt_of_succ_lt hn⟩).val (pt k0 ⟨n, Nat.lt_of_succ_lt hn⟩).isLt).2.2.2.1 :=
  congrArg (fun o => o.2.2.2.1) (outsAt0_congr m c (by show 16 * k0.val + (n + 1) - 1 = 16 * k0.val + n; omega) _ _)

theorem prev1_pt (c : Dev nD) (k0 : Fin 2) (n : ℕ) (hn : n + 1 < 16) :
    prev1 m c (pt k0 ⟨n + 1, hn⟩)
      = (outsAt0 m c (pt k0 ⟨n, Nat.lt_of_succ_lt hn⟩).val (pt k0 ⟨n, Nat.lt_of_succ_lt hn⟩).isLt).2.2.2.2 :=
  congrArg (fun o => o.2.2.2.2) (outsAt0_congr m c (by show 16 * k0.val + (n + 1) - 1 = 16 * k0.val + n; omega) _ _)

/-- After step n of core k0 the first accumulator is the sum of the terms of steps 0 … n: by induction on n,
    the first step resetting and every later one adding its term. -/
theorem acc0_nat (c : Dev nD) (k0 : Fin 2) (n : ℕ) (hn : n < 16) (i : S64x128.Idx) :
    (outsAt0 m c (pt k0 ⟨n, hn⟩).val (pt k0 ⟨n, hn⟩).isLt).2.2.2.1 i
      = ∑ s' ∈ Finset.range (n + 1), (if h : s' < 16 then k0_pay13 (F := Ideal) (idblk m c (pt k0 ⟨s', h⟩)) i else 0) := by
  induction n with
  | zero =>
    rw [Finset.sum_range_one, dif_pos hn]
    exact acc0_first m c (pt k0 ⟨0, hn⟩) (by show (16 * k0.val + 0) % 16 = 0; omega) i
  | succ n ih =>
    rw [Finset.sum_range_succ, dif_pos hn, ← ih (Nat.lt_of_succ_lt hn)]
    refine (acc0_next m c (pt k0 ⟨n + 1, hn⟩) (by show ¬(16 * k0.val + (n + 1)) % 16 = 0; omega) i).trans ?_
    rw [prev0_pt m c k0 n hn]

theorem acc1_nat (c : Dev nD) (k0 : Fin 2) (n : ℕ) (hn : n < 16) (i : S64x256.Idx) :
    (outsAt0 m c (pt k0 ⟨n, hn⟩).val (pt k0 ⟨n, hn⟩).isLt).2.2.2.2 i
      = ∑ s' ∈ Finset.range (n + 1), (if h : s' < 16 then k0_pay12 (F := Ideal) (xblk m c (pt k0 ⟨s', h⟩)) (idblk m c (pt k0 ⟨s', h⟩)) (tblk m c (pt k0 ⟨s', h⟩)) i else 0) := by
  induction n with
  | zero =>
    rw [Finset.sum_range_one, dif_pos hn]
    exact acc1_first m c (pt k0 ⟨0, hn⟩) (by show (16 * k0.val + 0) % 16 = 0; omega) i
  | succ n ih =>
    rw [Finset.sum_range_succ, dif_pos hn, ← ih (Nat.lt_of_succ_lt hn)]
    refine (acc1_next m c (pt k0 ⟨n + 1, hn⟩) (by show ¬(16 * k0.val + (n + 1)) % 16 = 0; omega) i).trans ?_
    rw [prev1_pt m c k0 n hn]

theorem acc0_eq (c : Dev nD) (k0 : Fin 2) (s : Fin 16) (i : S64x128.Idx) :
    (outsAt0 m c (pt k0 s).val (pt k0 s).isLt).2.2.2.1 i
      = ∑ s' ∈ Finset.range (s.val + 1), (if h : s' < 16 then k0_pay13 (F := Ideal) (idblk m c (pt k0 ⟨s', h⟩)) i else 0) :=
  acc0_nat m c k0 s.val s.isLt i

theorem acc1_eq (c : Dev nD) (k0 : Fin 2) (s : Fin 16) (i : S64x256.Idx) :
    (outsAt0 m c (pt k0 s).val (pt k0 s).isLt).2.2.2.2 i
      = ∑ s' ∈ Finset.range (s.val + 1), (if h : s' < 16 then k0_pay12 (F := Ideal) (xblk m c (pt k0 ⟨s', h⟩)) (idblk m c (pt k0 ⟨s', h⟩)) (tblk m c (pt k0 ⟨s', h⟩)) i else 0) :=
  acc1_nat m c k0 s.val s.isLt i

/-! ## The write-out at a core's last step -/

/-- At step 15 the first partial-sum output is the first accumulator as that step leaves it, under the cast that
    puts a unit axis in front. -/
theorem out4_eq (c : Dev nD) (k0 : Fin 2) (k : Fin 64) (l : Fin 128) :
    (outsAt0 m c (pt k0 15).val (pt k0 15).isLt).2.1 (ix3 (0 : Fin 1) k l)
      = (outsAt0 m c (pt k0 15).val (pt k0 15).isLt).2.2.2.1 (ix2 k l) := by
  have h0 : ¬(pt k0 15).val % 16 = 0 := by show ¬(16 * k0.val + 15) % 16 = 0; omega
  have h1 : (pt k0 15).val % 16 = 15 := by show (16 * k0.val + 15) % 16 = 15; omega
  rw [outsAt0_C m c (pt k0 15) h0 h1]; dsimp only
  refine (congrFun (out0_C_4_eq c (grid0.coords (pt k0 15)) (ms0_0 (pt k0 15)) (hs0_0 (pt k0 15)) (ms0_1 (pt k0 15)) (hs0_1 (pt k0 15))
      (ms0_2 (pt k0 15)) (hs0_2 (pt k0 15)) (ms0_3 (pt k0 15)) (hs0_3 (pt k0 15)) (ms0_4 (pt k0 15)) (hs0_4 (pt k0 15))
      (ms0_5 (pt k0 15)) (hs0_5 (pt k0 15)) scM0_0 (Memref.isWhole_whole _) scM0_1 (Memref.isWhole_whole _)
      (fun h => h0 ((hcond0_0 (pt k0 15)).mp h)) ((hcond0_1 (pt k0 15)).mpr h1)
      (xblk m c (pt k0 15)) (idblk m c (pt k0 15)) (tblk m c (pt k0 15)) (prev0 m c (pt k0 15)) (prev1 m c (pt k0 15))) _).trans ?_
  refine (Point.cast3_apply _ k l).trans ?_
  exact (congrFun (sout0_C_0_eq c (grid0.coords (pt k0 15)) (ms0_0 (pt k0 15)) (hs0_0 (pt k0 15)) (ms0_1 (pt k0 15)) (hs0_1 (pt k0 15))
      (ms0_2 (pt k0 15)) (hs0_2 (pt k0 15)) (ms0_3 (pt k0 15)) (hs0_3 (pt k0 15)) (ms0_4 (pt k0 15)) (hs0_4 (pt k0 15))
      (ms0_5 (pt k0 15)) (hs0_5 (pt k0 15)) scM0_0 (Memref.isWhole_whole _) scM0_1 (Memref.isWhole_whole _)
      (fun h => h0 ((hcond0_0 (pt k0 15)).mp h)) ((hcond0_1 (pt k0 15)).mpr h1)
      (xblk m c (pt k0 15)) (idblk m c (pt k0 15)) (tblk m c (pt k0 15)) (prev0 m c (pt k0 15)) (prev1 m c (pt k0 15))) (ix2 k l)).symm

/-- The same for the second partial-sum output and the second accumulator. -/
theorem out5_eq (c : Dev nD) (k0 : Fin 2) (k : Fin 64) (q : Fin 256) :
    (outsAt0 m c (pt k0 15).val (pt k0 15).isLt).2.2.1 (ix3 (0 : Fin 1) k q)
      = (outsAt0 m c (pt k0 15).val (pt k0 15).isLt).2.2.2.2 (ix2 k q) := by
  have h0 : ¬(pt k0 15).val % 16 = 0 := by show ¬(16 * k0.val + 15) % 16 = 0; omega
  have h1 : (pt k0 15).val % 16 = 15 := by show (16 * k0.val + 15) % 16 = 15; omega
  rw [outsAt0_C m c (pt k0 15) h0 h1]; dsimp only
  refine (congrFun (out0_C_5_eq c (grid0.coords (pt k0 15)) (ms0_0 (pt k0 15)) (hs0_0 (pt k0 15)) (ms0_1 (pt k0 15)) (hs0_1 (pt k0 15))
      (ms0_2 (pt k0 15)) (hs0_2 (pt k0 15)) (ms0_3 (pt k0 15)) (hs0_3 (pt k0 15)) (ms0_4 (pt k0 15)) (hs0_4 (pt k0 15))
      (ms0_5 (pt k0 15)) (hs0_5 (pt k0 15)) scM0_0 (Memref.isWhole_whole _) scM0_1 (Memref.isWhole_whole _)
      (fun h => h0 ((hcond0_0 (pt k0 15)).mp h)) ((hcond0_1 (pt k0 15)).mpr h1)
      (xblk m c (pt k0 15)) (idblk m c (pt k0 15)) (tblk m c (pt k0 15)) (prev0 m c (pt k0 15)) (prev1 m c (pt k0 15))) _).trans ?_
  refine (Point.cast4_apply _ k q).trans ?_
  exact (congrFun (sout0_C_1_eq c (grid0.coords (pt k0 15)) (ms0_0 (pt k0 15)) (hs0_0 (pt k0 15)) (ms0_1 (pt k0 15)) (hs0_1 (pt k0 15))
      (ms0_2 (pt k0 15)) (hs0_2 (pt k0 15)) (ms0_3 (pt k0 15)) (hs0_3 (pt k0 15)) (ms0_4 (pt k0 15)) (hs0_4 (pt k0 15))
      (ms0_5 (pt k0 15)) (hs0_5 (pt k0 15)) scM0_0 (Memref.isWhole_whole _) scM0_1 (Memref.isWhole_whole _)
      (fun h => h0 ((hcond0_0 (pt k0 15)).mp h)) ((hcond0_1 (pt k0 15)).mpr h1)
      (xblk m c (pt k0 15)) (idblk m c (pt k0 15)) (tblk m c (pt k0 15)) (prev0 m c (pt k0 15)) (prev1 m c (pt k0 15))) (ix2 k q)).symm

end Cert.KernelIdeal.Accum

end
-- ==== Proof.KernelValue.lean ====
/-
  WHAT THE KERNEL'S THREE OUTPUT ARRAYS HOLD WHEN THE REGION ENDS, on the extended reals.

  The 131072 rows are cut into 32 blocks of 4096 rows, block t = 16 · k0 + s handled at step s of core k0. The first
  output holds, row by row, (x − mean) / (deviation + ε) at the row's task. Each core keeps two accumulators over its 16
  steps and writes them out at its last step, so the second output holds per core and task the number of the core's
  rows of that task, and the third the sums Σ (x − mean) and Σ (x − mean)² over those rows. Adding the two cores' parts
  gives the sums over ALL rows of the task. The one piece of arithmetic is the re-indexing of a sum over the rows as a
  triple sum over (core, step, row in block); a sum of indicators is then a cardinality, and a sum of real summands
  kept on one task's rows is the coerced real sum over the task's rows. The means are real numbers, so the remainder
  half of the gather table vanishes and the gathered mean is the mean; x is real, so each centered entry is a real.
-/
import proofs.«402983_j34497177321524_3_alg».proof.Proof.KernelArrays
import proofs.«402983_j34497177321524_3_alg».proof.Proof.KernelAccum
import proofs.«402983_j34497177321524_3_alg».proof.Proof.KernelBlocks
import proofs.«402983_j34497177321524_3_alg».proof.Proof.KernelPoint
import proofs.«402983_j34497177321524_3_alg».proof.Proof.Spec
import Mathlib.Data.EReal.Basic
import Mathlib.Algebra.BigOperators.Fin
import Mathlib.Algebra.BigOperators.Group.Finset.Basic
import Mathlib.Algebra.BigOperators.Ring.Finset
import Mathlib.Logic.Equiv.Fin.Basic

noncomputable section

namespace Cert.KernelIdeal.KValue

open Idealize.ShloMosaic Idealize.ShloMosaic.TcCoe Idealize.ShloMosaic.ValueIdx
open Cert Cert.KernelIdeal Cert.KernelIdeal.Gen Cert.KernelIdeal.Region
open Cert.KernelIdeal.Arrays Cert.KernelIdeal.Accum Cert.KernelIdeal.Blocks Cert.KernelIdeal.Point

variable [Cert.KernelIdeal.Facts]

variable (m : (ℓ : Loc nD τ sig) → Buf (Elt Ideal) ℓ) (c : Dev nD)

/-! ## The argument arrays and the vocabulary -/

/-- The rows of x, the task ids, the table of means and the table of deviations, as the region finds them. -/
abbrev X : S131072x128.Idx → EReal := m ((c : Thread nD τ).loc main_arg0)
abbrev IDS : S131072.Idx → BitVec 32 := m ((c : Thread nD τ).loc main_arg1)
abbrev MEAN : S64x128.Idx → EReal := m ((c : Thread nD τ).loc main_arg2)
abbrev STD : S64x128.Idx → EReal := m ((c : Thread nD τ).loc main_arg4)

/-- The task ids as a function of the row. -/
def idsF : Fin 131072 → BitVec 32 := fun r => IDS m c (ix1 r)
/-- The task of row r. -/
def T (r : Fin 131072) : Fin 64 := Spec.taskOf (idsF m c r)

/-- The real number an entry of x is. -/
def xr (hx : ∀ i, ∃ r : ℝ, X m c i = (r : EReal)) (r : Fin 131072) (j : Fin 128) : ℝ := Classical.choose (hx (ix2 r j))
theorem xr_spec (hx : ∀ i, ∃ r : ℝ, X m c i = (r : EReal)) (r : Fin 131072) (j : Fin 128) :
    X m c (ix2 r j) = (xr m c hx r j : EReal) := Classical.choose_spec (hx (ix2 r j))
/-- The real number an entry of the table of means is. -/
def mur (hmean : ∀ i, ∃ r : ℝ, MEAN m c i = (r : EReal)) (t : Fin 64) (j : Fin 128) : ℝ := Classical.choose (hmean (ix2 t j))
theorem mur_spec (hmean : ∀ i, ∃ r : ℝ, MEAN m c i = (r : EReal)) (t : Fin 64) (j : Fin 128) :
    MEAN m c (ix2 t j) = (mur m c hmean t j : EReal) := Classical.choose_spec (hmean (ix2 t j))

/-- The batch count of task t, the sum of its rows' centered entries, and the sum of their squares. -/
def nbK (t : Fin 64) : EReal := ((Spec.cnt (idsF m c) t : ℝ) : EReal)
def s1K (hx : ∀ i, ∃ r : ℝ, X m c i = (r : EReal)) (hmean : ∀ i, ∃ r : ℝ, MEAN m c i = (r : EReal)) (t : Fin 64) (j : Fin 128) : EReal :=
  ((∑ r ∈ Spec.seg (idsF m c) t, (xr m c hx r j - mur m c hmean t j) : ℝ) : EReal)
def s2K (hx : ∀ i, ∃ r : ℝ, X m c i = (r : EReal)) (hmean : ∀ i, ∃ r : ℝ, MEAN m c i = (r : EReal)) (t : Fin 64) (j : Fin 128) : EReal :=
  ((∑ r ∈ Spec.seg (idsF m c) t, (xr m c hx r j - mur m c hmean t j) * (xr m c hx r j - mur m c hmean t j) : ℝ) : EReal)

/-! ## A grid point's blocks in the arrays' terms -/

/-- The ids of a block are in range. -/
theorem hr_blk (hr : ∀ i, 0 ≤ (IDS m c i).toInt ∧ (IDS m c i).toInt < 64) (t' : Fin cfg0.N) (p : Fin 4096) :
    0 ≤ (idblk m c t' (ix1 p)).toInt ∧ (idblk m c t' (ix1 p)).toInt < 64 := by
  rw [idblk_apply]; exact hr _

/-- The task of row p of block t' is the task of row 4096·t' + p. -/
theorem task_blk (t' : Fin cfg0.N) (p : Fin 4096) :
    Spec.taskOf (idblk m c t' (ix1 p)) = T m c ⟨4096 * t'.val + p.val, Blocks.row_lt t' p⟩ := by
  rw [idblk_apply]; rfl

/-- The table's two halves of the means add to the mean: the remainder half is 0 where the mean is real. -/
theorem tbl_mean (hmean : ∀ i, ∃ r : ℝ, MEAN m c i = (r : EReal)) (t' : Fin cfg0.N) (k : Fin 64) (j : Fin 128) :
    tblk m c t' (ix2 k ⟨j.val, by omega⟩) + tblk m c t' (ix2 k ⟨256 + j.val, by omega⟩) = MEAN m c (ix2 k j) := by
  rw [tblk_eq, table_mean, table_lo_mean m c hmean, EReal.coe_zero, add_zero]

/-- The table's two halves of the deviations add to the deviation. -/
theorem tbl_std (hstd : ∀ i, ∃ r : ℝ, STD m c i = (r : EReal)) (t' : Fin cfg0.N) (k : Fin 64) (j : Fin 128) :
    tblk m c t' (ix2 k ⟨128 + j.val, by omega⟩) + tblk m c t' (ix2 k ⟨384 + j.val, by omega⟩) = STD m c (ix2 k j) := by
  rw [tblk_eq, table_std, table_lo_std m c hstd, EReal.coe_zero, add_zero]

/-- The normalized rows at row p of block t'. -/
theorem kv_out_blk (hmean : ∀ i, ∃ r : ℝ, MEAN m c i = (r : EReal)) (hstd : ∀ i, ∃ r : ℝ, STD m c i = (r : EReal))
    (hr : ∀ i, 0 ≤ (IDS m c i).toInt ∧ (IDS m c i).toInt < 64) (t' : Fin cfg0.N) (p : Fin 4096) (j : Fin 128) :
    arr3 m c (ix2 ⟨4096 * t'.val + p.val, Blocks.row_lt t' p⟩ j)
      = Spec.outAt (X m c (ix2 ⟨4096 * t'.val + p.val, Blocks.row_lt t' p⟩ j))
          (MEAN m c (ix2 (T m c ⟨4096 * t'.val + p.val, Blocks.row_lt t' p⟩) j))
          (STD m c (ix2 (T m c ⟨4096 * t'.val + p.val, Blocks.row_lt t' p⟩) j)) := by
  refine (arr3_apply m c t' p j).trans ?_
  rw [out3_eq, out_apply _ _ _ (hr_blk m c hr t'), tbl_mean m c hmean, tbl_std m c hstd, task_blk, xblk_apply]
  rfl

/-- THE NORMALIZED ROWS: row r, feature j of the first output is (x − mean) / (deviation + ε) at the row's task. -/
theorem kv_out (hmean : ∀ i, ∃ r : ℝ, MEAN m c i = (r : EReal)) (hstd : ∀ i, ∃ r : ℝ, STD m c i = (r : EReal))
    (hr : ∀ i, 0 ≤ (IDS m c i).toInt ∧ (IDS m c i).toInt < 64) (r : Fin 131072) (j : Fin 128) :
    arr3 m c (ix2 r j) = Spec.outAt (X m c (ix2 r j)) (MEAN m c (ix2 (T m c r) j)) (STD m c (ix2 (T m c r) j)) := by
  have hN : cfg0.N = 32 := N_0
  obtain ⟨t', p, rfl⟩ : ∃ (t' : Fin cfg0.N) (p : Fin 4096), r = ⟨4096 * t'.val + p.val, Blocks.row_lt t' p⟩ :=
    ⟨⟨r.val / 4096, by have := r.isLt; omega⟩, ⟨r.val % 4096, Nat.mod_lt _ (by decide)⟩, Fin.ext (by
      show r.val = 4096 * (r.val / 4096) + r.val % 4096
      omega)⟩
  exact kv_out_blk m c hmean hstd hr t' p j

/-! ## Rows by (core, step, row in block) -/

section Reindex
variable {M : Type*} [AddCommMonoid M]

/-- Position p of block t of b is below a · b. -/
theorem split_lt {a b : ℕ} (t : Fin a) (p : Fin b) : b * t.val + p.val < a * b := by
  have h1 : b * (t.val + 1) ≤ b * a := Nat.mul_le_mul_left b t.isLt
  rw [Nat.mul_add, Nat.mul_one] at h1
  have hp := p.isLt
  rw [Nat.mul_comm a b]
  omega

/-- A sum over a · b positions is the double sum over a blocks of b positions, position b · t + p in block t. -/
theorem sum_split (a b : ℕ) (f : Fin (a * b) → M) :
    ∑ r, f r = ∑ t : Fin a, ∑ p : Fin b, f ⟨b * t.val + p.val, split_lt t p⟩ := by
  rw [← Equiv.sum_comp finProdFinEquiv f, Fintype.sum_prod_type]
  refine Finset.sum_congr rfl fun t _ => Finset.sum_congr rfl fun p _ => congrArg f (Fin.ext ?_)
  show p.val + b * t.val = b * t.val + p.val
  exact Nat.add_comm _ _

/-- THE RE-INDEXING: the 131072 rows are 2 cores × 16 steps × 4096 rows of a block, row 4096 · (16 · k0 + s) + p. -/
theorem sum_rows (f : Fin 131072 → M) :
    ∑ r, f r = ∑ k0 : Fin 2, ∑ s : Fin 16, ∑ p : Fin 4096,
      f ⟨4096 * (16 * k0.val + s.val) + p.val, by have := k0.isLt; have := s.isLt; have := p.isLt; omega⟩ := by
  refine (sum_split 32 4096 f).trans ?_
  exact sum_split 2 16 fun t : Fin 32 => ∑ p : Fin 4096, f ⟨4096 * t.val + p.val, split_lt t p⟩

end Reindex

/-! ## Sums over the rows as counts and as sums over a task's rows -/

/-- The number of rows of task t, as a sum of 1s over all rows. -/
theorem sum_indicator (t : Fin 64) :
    ∑ r : Fin 131072, (if T m c r = t then ((1 : ℝ) : EReal) else ((0 : ℝ) : EReal)) = nbK m c t := by
  have h : ((Spec.cnt (idsF m c) t : ℕ) : ℝ) = ∑ r : Fin 131072, (if T m c r = t then (1 : ℝ) else 0) := by
    unfold Spec.cnt Spec.seg T
    rw [Finset.sum_boole]
  unfold nbK
  rw [h, Spec.coe_sum]
  refine Finset.sum_congr rfl fun r _ => ?_
  split <;> rfl

/-- A sum over all rows of a real summand kept only on task t's rows is the sum over the task's rows. -/
theorem sum_seg (t : Fin 64) (g : Fin 131072 → ℝ) :
    ∑ r : Fin 131072, (if T m c r = t then ((g r : ℝ) : EReal) else 0)
      = ((∑ r ∈ Spec.seg (idsF m c) t, g r : ℝ) : EReal) := by
  unfold Spec.seg
  rw [Finset.sum_filter, Spec.coe_sum]
  refine Finset.sum_congr rfl fun r _ => ?_
  by_cases h : T m c r = t
  · rw [if_pos h, if_pos (show Spec.taskOf (idsF m c r) = t from h)]
  · rw [if_neg h, if_neg (show ¬Spec.taskOf (idsF m c r) = t from h), EReal.coe_zero]

/-- An accumulator's sum over the steps up to the last is the sum over the 16 steps. -/
theorem sum_steps (g : Fin 16 → EReal) :
    ∑ s' ∈ Finset.range ((15 : Fin 16).val + 1), (if h : s' < 16 then g ⟨s', h⟩ else 0) = ∑ s : Fin 16, g s := by
  show ∑ s' ∈ Finset.range 16, (if h : s' < 16 then g ⟨s', h⟩ else 0) = ∑ s : Fin 16, g s
  rw [Finset.sum_range]
  refine Finset.sum_congr rfl fun s _ => ?_
  rw [dif_pos s.isLt]

/-! ## The counts -/

/-- The counts of one block: the rows of the block whose task is t. -/
theorem blk_nb (hr : ∀ i, 0 ≤ (IDS m c i).toInt ∧ (IDS m c i).toInt < 64) (t' : Fin cfg0.N) (t : Fin 64) (l : Fin 128) :
    k0_pay13 (F := Ideal) (idblk m c t') (ix2 t l)
      = ∑ p : Fin 4096, (if T m c ⟨4096 * t'.val + p.val, Blocks.row_lt t' p⟩ = t then ((1 : ℝ) : EReal) else ((0 : ℝ) : EReal)) := by
  rw [count_apply _ (hr_blk m c hr t')]
  refine Finset.sum_congr rfl fun p _ => ?_
  rw [task_blk]

/-- What core k0 leaves in the counts' array at task t: the counts of its 16 blocks. -/
theorem arr4_core (hr : ∀ i, 0 ≤ (IDS m c i).toInt ∧ (IDS m c i).toInt < 64) (k0 : Fin 2) (t : Fin 64) (l : Fin 128) :
    arr4 m c (ix3 k0 t l) = ∑ s : Fin 16, ∑ p : Fin 4096,
      (if T m c ⟨4096 * (16 * k0.val + s.val) + p.val, by have := k0.isLt; have := s.isLt; have := p.isLt; omega⟩ = t
        then ((1 : ℝ) : EReal) else ((0 : ℝ) : EReal)) := by
  refine (arr4_apply m c k0 t l).trans ?_
  refine (out4_eq m c k0 t l).trans ?_
  refine (acc0_eq m c k0 15 (ix2 t l)).trans ?_
  refine (sum_steps fun s => k0_pay13 (F := Ideal) (idblk m c (pt k0 s)) (ix2 t l)).trans ?_
  refine Finset.sum_congr rfl fun s _ => ?_
  exact blk_nb m c hr (pt k0 s) t l

/-- THE COUNTS: the two cores' counts of task t add to the number of the task's rows. -/
theorem kv_nb (hr : ∀ i, 0 ≤ (IDS m c i).toInt ∧ (IDS m c i).toInt < 64) (t : Fin 64) :
    arr4 m c (ix3 (0 : Fin 2) t (0 : Fin 128)) + arr4 m c (ix3 (1 : Fin 2) t (0 : Fin 128)) = nbK m c t := by
  rw [← sum_indicator, sum_rows, Fin.sum_univ_two, arr4_core m c hr 0, arr4_core m c hr 1]

/-! ## The centered entries of a block -/

/-- The mean the body subtracts at row p of block t' is the row's task's mean. -/
theorem centered_blk (hmean : ∀ i, ∃ r : ℝ, MEAN m c i = (r : EReal)) (hr : ∀ i, 0 ≤ (IDS m c i).toInt ∧ (IDS m c i).toInt < 64)
    (t' : Fin cfg0.N) (p : Fin 4096) (j : Fin 128) :
    k0_pay10 (F := Ideal) (idblk m c t') (tblk m c t') (ix2 p j)
      = MEAN m c (ix2 (T m c ⟨4096 * t'.val + p.val, Blocks.row_lt t' p⟩) j) := by
  rw [centered_apply _ _ (hr_blk m c hr t'), tbl_mean m c hmean, task_blk]

/-- The centered entry at row p of block t' is a real number: the difference of the two reals x and mean are. -/
theorem d_blk (hx : ∀ i, ∃ r : ℝ, X m c i = (r : EReal)) (hmean : ∀ i, ∃ r : ℝ, MEAN m c i = (r : EReal))
    (hr : ∀ i, 0 ≤ (IDS m c i).toInt ∧ (IDS m c i).toInt < 64) (t' : Fin cfg0.N) (p : Fin 4096) (j : Fin 128) :
    xblk m c t' (ix2 p j) - k0_pay10 (F := Ideal) (idblk m c t') (tblk m c t') (ix2 p j)
      = ((xr m c hx ⟨4096 * t'.val + p.val, Blocks.row_lt t' p⟩ j
          - mur m c hmean (T m c ⟨4096 * t'.val + p.val, Blocks.row_lt t' p⟩) j : ℝ) : EReal) := by
  rw [centered_blk m c hmean hr, xblk_apply, EReal.coe_sub, ← xr_spec m c hx, ← mur_spec m c hmean]

/-- The summand of the per-task sums in a column of the first half: the centered entry. -/
theorem rhsAt_lo (x0 : Vec Ideal S4096x128 .f32) (x1 : Vec Ideal S4096 .i32) (x2 : Vec Ideal S64x512 .bf16) (p : Fin 4096) (j : Fin 128)
    (h : j.val < 256) : rhsAt x0 x1 x2 p ⟨j.val, h⟩ = x0 (ix2 p j) - k0_pay10 (F := Ideal) x1 x2 (ix2 p j) := by
  have e : (⟨(⟨j.val, h⟩ : Fin 256).val % 128, Nat.mod_lt _ (by decide)⟩ : Fin 128) = j := Fin.ext (Nat.mod_eq_of_lt j.isLt)
  unfold rhsAt
  rw [if_pos (show (⟨j.val, h⟩ : Fin 256).val < 128 from j.isLt), e]

/-- … and in a column of the second half: its square. -/
theorem rhsAt_hi (x0 : Vec Ideal S4096x128 .f32) (x1 : Vec Ideal S4096 .i32) (x2 : Vec Ideal S64x512 .bf16) (p : Fin 4096) (j : Fin 128)
    (h : 128 + j.val < 256) : rhsAt x0 x1 x2 p ⟨128 + j.val, h⟩
      = (x0 (ix2 p j) - k0_pay10 (F := Ideal) x1 x2 (ix2 p j)) * (x0 (ix2 p j) - k0_pay10 (F := Ideal) x1 x2 (ix2 p j)) := by
  have e : (⟨(⟨128 + j.val, h⟩ : Fin 256).val % 128, Nat.mod_lt _ (by decide)⟩ : Fin 128) = j :=
    Fin.ext (by show (128 + j.val) % 128 = j.val; have := j.isLt; omega)
  unfold rhsAt
  rw [if_neg (show ¬(⟨128 + j.val, h⟩ : Fin 256).val < 128 from by show ¬(128 + j.val < 128); omega), e]

/-! ## The per-task sums -/

/-- The first sum of one block: over the rows of the block whose task is t, the centered entries. -/
theorem blk_s1 (hx : ∀ i, ∃ r : ℝ, X m c i = (r : EReal)) (hmean : ∀ i, ∃ r : ℝ, MEAN m c i = (r : EReal))
    (hr : ∀ i, 0 ≤ (IDS m c i).toInt ∧ (IDS m c i).toInt < 64) (t' : Fin cfg0.N) (t : Fin 64) (j : Fin 128) :
    k0_pay12 (F := Ideal) (xblk m c t') (idblk m c t') (tblk m c t') (ix2 t ⟨j.val, by omega⟩)
      = ∑ p : Fin 4096, (if T m c ⟨4096 * t'.val + p.val, Blocks.row_lt t' p⟩ = t
          then ((xr m c hx ⟨4096 * t'.val + p.val, Blocks.row_lt t' p⟩ j - mur m c hmean t j : ℝ) : EReal) else 0) := by
  rw [sums_apply _ _ _ (hr_blk m c hr t') (fun p j => ⟨_, d_blk m c hx hmean hr t' p j⟩)]
  refine Finset.sum_congr rfl fun p _ => ?_
  rw [task_blk, rhsAt_lo, d_blk m c hx hmean hr]
  by_cases h : T m c ⟨4096 * t'.val + p.val, Blocks.row_lt t' p⟩ = t
  · rw [if_pos h, if_pos h, h]
  · rw [if_neg h, if_neg h]

/-- The second sum of one block: the squares of the same entries. -/
theorem blk_s2 (hx : ∀ i, ∃ r : ℝ, X m c i = (r : EReal)) (hmean : ∀ i, ∃ r : ℝ, MEAN m c i = (r : EReal))
    (hr : ∀ i, 0 ≤ (IDS m c i).toInt ∧ (IDS m c i).toInt < 64) (t' : Fin cfg0.N) (t : Fin 64) (j : Fin 128) :
    k0_pay12 (F := Ideal) (xblk m c t') (idblk m c t') (tblk m c t') (ix2 t ⟨128 + j.val, by omega⟩)
      = ∑ p : Fin 4096, (if T m c ⟨4096 * t'.val + p.val, Blocks.row_lt t' p⟩ = t
          then (((xr m c hx ⟨4096 * t'.val + p.val, Blocks.row_lt t' p⟩ j - mur m c hmean t j)
            * (xr m c hx ⟨4096 * t'.val + p.val, Blocks.row_lt t' p⟩ j - mur m c hmean t j) : ℝ) : EReal) else 0) := by
  rw [sums_apply _ _ _ (hr_blk m c hr t') (fun p j => ⟨_, d_blk m c hx hmean hr t' p j⟩)]
  refine Finset.sum_congr rfl fun p _ => ?_
  rw [task_blk, rhsAt_hi, d_blk m c hx hmean hr, ← EReal.coe_mul]
  by_cases h : T m c ⟨4096 * t'.val + p.val, Blocks.row_lt t' p⟩ = t
  · rw [if_pos h, if_pos h, h]
  · rw [if_neg h, if_neg h]

/-- What core k0 leaves in the sums' array at task t and column q: the sums of its 16 blocks. -/
theorem arr5_core (k0 : Fin 2) (t : Fin 64) (q : Fin 256) :
    arr5 m c (ix3 k0 t q) = ∑ s : Fin 16,
      k0_pay12 (F := Ideal) (xblk m c (pt k0 s)) (idblk m c (pt k0 s)) (tblk m c (pt k0 s)) (ix2 t q) := by
  refine (arr5_apply m c k0 t q).trans ?_
  refine (out5_eq m c k0 t q).trans ?_
  refine (acc1_eq m c k0 15 (ix2 t q)).trans ?_
  exact sum_steps fun s => k0_pay12 (F := Ideal) (xblk m c (pt k0 s)) (idblk m c (pt k0 s)) (tblk m c (pt k0 s)) (ix2 t q)

/-- THE FIRST SUMS: the two cores' sums add to the sum of the centered entries over the task's rows. -/
theorem kv_s1 (hx : ∀ i, ∃ r : ℝ, X m c i = (r : EReal)) (hmean : ∀ i, ∃ r : ℝ, MEAN m c i = (r : EReal))
    (hstd : ∀ i, ∃ r : ℝ, STD m c i = (r : EReal)) (hr : ∀ i, 0 ≤ (IDS m c i).toInt ∧ (IDS m c i).toInt < 64) (t : Fin 64) (j : Fin 128) :
    arr5 m c (ix3 (0 : Fin 2) t ⟨j.val, by omega⟩) + arr5 m c (ix3 (1 : Fin 2) t ⟨j.val, by omega⟩) = s1K m c hx hmean t j := by
  rw [s1K, ← sum_seg, sum_rows, Fin.sum_univ_two, arr5_core, arr5_core]
  congr 1 <;> exact Finset.sum_congr rfl fun s _ => blk_s1 m c hx hmean hr (pt _ s) t j

/-- THE SECOND SUMS: likewise for the squares. -/
theorem kv_s2 (hx : ∀ i, ∃ r : ℝ, X m c i = (r : EReal)) (hmean : ∀ i, ∃ r : ℝ, MEAN m c i = (r : EReal))
    (hstd : ∀ i, ∃ r : ℝ, STD m c i = (r : EReal)) (hr : ∀ i, 0 ≤ (IDS m c i).toInt ∧ (IDS m c i).toInt < 64) (t : Fin 64) (j : Fin 128) :
    arr5 m c (ix3 (0 : Fin 2) t ⟨128 + j.val, by omega⟩) + arr5 m c (ix3 (1 : Fin 2) t ⟨128 + j.val, by omega⟩) = s2K m c hx hmean t j := by
  rw [s2K, ← sum_seg, sum_rows, Fin.sum_univ_two, arr5_core, arr5_core]
  congr 1 <;> exact Finset.sum_congr rfl fun s _ => blk_s2 m c hx hmean hr (pt _ s) t j

end Cert.KernelIdeal.KValue

end
-- ==== Proof.KernelTail.lean ====
/-
  The host operations that follow the region in the idealized program, read at an index.

  After the region the program holds, per core, the tasks' row counts (lane 0 of a 2 x 64 x 128 array) and, side by
  side in a 2 x 64 x 256 array, the sums `Σ (x - μ)` (columns 0 to 127) and `Σ (x - μ)²` (columns 128 to 255) of each
  task's rows. Seventy-six operations then add the two cores' halves, form the batch mean and variance from the
  shifted sums, and merge them into the old mean, variance, deviation and count of every (task, feature) entry.
  Read at an entry, what they leave in the four result arrays is the merge of Proof/Spec.lean applied to that
  entry's own numbers: every operation is pointwise, a broadcast of a per-task column, a slice of one core's
  half, or a reshape that drops a leading unit axis. So each result is first written as the operations' composed
  term over the contents the operations start from, and the index is then pushed through that term operation by
  operation; what is left is Spec's merge with its definitions unfolded. The statements hold for any contents of
  the buffers at the moment the operations start. The arguments and the normalized output are written by none
  of the operations.
-/
import proofs.«402983_j34497177321524_3_alg».proof.Proof.Gen.KernelIdeal.Launch
import proofs.«402983_j34497177321524_3_alg».proof.Proof.Spec
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Tail

open Idealize.ShloMosaic Idealize.ShloMosaic.ValueIdx Cert.KernelIdeal Cert.KernelIdeal.Gen

/-! ## Layout operations of these shapes at an index -/

section Layout
variable {α : Type}

/-- A scalar broadcast to any shape reads the scalar. -/
theorem bcast_scalar_apply {T : Shape} (h : (⟨0, ![]⟩ : Shape).BroadcastsInDim T ![])
    (x : (⟨0, ![]⟩ : Shape).Idx → α) (j : T.Idx) : broadcastInDim T ![] h x j = x ix0 := by
  unfold broadcastInDim; exact congrArg x (funext fun a => a.elim0)

/-- A vector broadcast to a column reads its entry at the row. -/
theorem bcast_col_apply {n : ℕ} (h : (⟨1, ![n]⟩ : Shape).BroadcastsInDim ⟨2, ![n, 1]⟩ ![0])
    (x : (⟨1, ![n]⟩ : Shape).Idx → α) (t : Fin n) (k : Fin 1) (hn : n ≠ 1) :
    broadcastInDim ⟨2, ![n, 1]⟩ ![0] h x (ix2 t k) = x (ix1 t) :=
  broadcastInDim_apply _ h x _ _ (fun a => by
    match a with
    | ⟨0, _⟩ => show t.val = if n = 1 then 0 else t.val; rw [if_neg hn])

/-- A column broadcast along its unit axis reads its entry at the row. -/
theorem bcast_row_apply {n m : ℕ} (h : (⟨2, ![n, 1]⟩ : Shape).BroadcastsInDim ⟨2, ![n, m]⟩ ![0, 1])
    (x : (⟨2, ![n, 1]⟩ : Shape).Idx → α) (t : Fin n) (j : Fin m) (hn : n ≠ 1) :
    broadcastInDim ⟨2, ![n, m]⟩ ![0, 1] h x (ix2 t j) = x (ix2 t (0 : Fin 1)) :=
  broadcastInDim_apply _ h x _ _ (fun a => by
    match a with
    | ⟨0, _⟩ => show t.val = if n = 1 then 0 else t.val; rw [if_neg hn]
    | ⟨1, _⟩ => exact (if_pos rfl).symm)

/-- One core's half, one lane wide, of a rank-3 array: read at `(0, t, 0)` it is the array at `(c, t, 0)`. -/
theorem slice_core_lane_apply {n0 n1 n2 : ℕ} (c : Fin n0) (X : (⟨3, ![n0, n1, n2]⟩ : Shape).Idx → α)
    (h : (⟨3, ![n0, n1, n2]⟩ : Shape).Slices ![c.val, 0, 0] ⟨3, ![1, n1, 1]⟩) (t : Fin n1) (z : Fin n2) (hz : z.val = 0) :
    extractStridedSlice ⟨3, ![1, n1, 1]⟩ ![c.val, 0, 0] X h (ix3 (0 : Fin 1) t (0 : Fin 1)) = X (ix3 c t z) :=
  extractStridedSlice_apply _ _ _ _ _ (fun ax => by
    match ax with
    | ⟨0, _⟩ => exact (Nat.add_zero _).symm
    | ⟨1, _⟩ => exact (Nat.zero_add _).symm
    | ⟨2, _⟩ => show z.val = 0 + 0; rw [hz])

/-- One core's half of a rank-3 array from column `o`: read at `(0, t, j)` it is the array at `(c, t, o + j)`. -/
theorem slice_core_cols_apply {n0 n1 n2 m : ℕ} (c : Fin n0) (o : ℕ) (X : (⟨3, ![n0, n1, n2]⟩ : Shape).Idx → α)
    (h : (⟨3, ![n0, n1, n2]⟩ : Shape).Slices ![c.val, 0, o] ⟨3, ![1, n1, m]⟩) (t : Fin n1) (j : Fin m) (k : Fin n2)
    (hk : k.val = o + j.val) :
    extractStridedSlice ⟨3, ![1, n1, m]⟩ ![c.val, 0, o] X h (ix3 (0 : Fin 1) t j) = X (ix3 c t k) :=
  extractStridedSlice_apply _ _ _ _ _ (fun ax => by
    match ax with
    | ⟨0, _⟩ => exact (Nat.add_zero _).symm
    | ⟨1, _⟩ => exact (Nat.zero_add _).symm
    | ⟨2, _⟩ => exact hk)

/-- A `[1, n, 1]` array cast to `[n]` reads, at `t`, the operand at `(0, t, 0)`. -/
theorem shapeCast_1n1_n_apply {n : ℕ} (x : (⟨3, ![1, n, 1]⟩ : Shape).Idx → α)
    (h : (⟨3, ![1, n, 1]⟩ : Shape).ShapeCasts ⟨1, ![n]⟩) (t : Fin n) :
    shapeCast ⟨1, ![n]⟩ x h (ix1 t) = x (ix3 (0 : Fin 1) t (0 : Fin 1)) :=
  shapeCast_apply x h _ _ (by
    rw [Shape.rowMajor_val_three, Shape.rowMajor_val_one]
    show (0 * n + t.val) * 1 + 0 = t.val
    omega)

/-! ### The same at this program's shapes -/

theorem bcast_col64 (h : (⟨1, ![64]⟩ : Shape).BroadcastsInDim ⟨2, ![64, 1]⟩ ![0]) (x : (⟨1, ![64]⟩ : Shape).Idx → α)
    (t : Fin 64) (k : Fin 1) : broadcastInDim ⟨2, ![64, 1]⟩ ![0] h x (ix2 t k) = x (ix1 t) :=
  bcast_col_apply h x t k (by decide)

theorem bcast_row64 (h : (⟨2, ![64, 1]⟩ : Shape).BroadcastsInDim ⟨2, ![64, 128]⟩ ![0, 1])
    (x : (⟨2, ![64, 1]⟩ : Shape).Idx → α) (t : Fin 64) (j : Fin 128) :
    broadcastInDim ⟨2, ![64, 128]⟩ ![0, 1] h x (ix2 t j) = x (ix2 t (0 : Fin 1)) :=
  bcast_row_apply h x t j (by decide)

theorem slice_cnt0 (X : (⟨3, ![2, 64, 128]⟩ : Shape).Idx → α)
    (h : (⟨3, ![2, 64, 128]⟩ : Shape).Slices ![0, 0, 0] ⟨3, ![1, 64, 1]⟩) (t : Fin 64) :
    extractStridedSlice ⟨3, ![1, 64, 1]⟩ ![0, 0, 0] X h (ix3 (0 : Fin 1) t (0 : Fin 1)) = X (ix3 (0 : Fin 2) t (0 : Fin 128)) :=
  slice_core_lane_apply (0 : Fin 2) X h t (0 : Fin 128) rfl

theorem slice_cnt1 (X : (⟨3, ![2, 64, 128]⟩ : Shape).Idx → α)
    (h : (⟨3, ![2, 64, 128]⟩ : Shape).Slices ![1, 0, 0] ⟨3, ![1, 64, 1]⟩) (t : Fin 64) :
    extractStridedSlice ⟨3, ![1, 64, 1]⟩ ![1, 0, 0] X h (ix3 (0 : Fin 1) t (0 : Fin 1)) = X (ix3 (1 : Fin 2) t (0 : Fin 128)) :=
  slice_core_lane_apply (1 : Fin 2) X h t (0 : Fin 128) rfl

theorem slice_sum0_lo (X : (⟨3, ![2, 64, 256]⟩ : Shape).Idx → α)
    (h : (⟨3, ![2, 64, 256]⟩ : Shape).Slices ![0, 0, 0] ⟨3, ![1, 64, 128]⟩) (t : Fin 64) (j : Fin 128) :
    extractStridedSlice ⟨3, ![1, 64, 128]⟩ ![0, 0, 0] X h (ix3 (0 : Fin 1) t j)
      = X (ix3 (0 : Fin 2) t (⟨j.val, by omega⟩ : Fin 256)) :=
  slice_core_cols_apply (0 : Fin 2) 0 X h t j _ (Nat.zero_add _).symm

theorem slice_sum1_lo (X : (⟨3, ![2, 64, 256]⟩ : Shape).Idx → α)
    (h : (⟨3, ![2, 64, 256]⟩ : Shape).Slices ![1, 0, 0] ⟨3, ![1, 64, 128]⟩) (t : Fin 64) (j : Fin 128) :
    extractStridedSlice ⟨3, ![1, 64, 128]⟩ ![1, 0, 0] X h (ix3 (0 : Fin 1) t j)
      = X (ix3 (1 : Fin 2) t (⟨j.val, by omega⟩ : Fin 256)) :=
  slice_core_cols_apply (1 : Fin 2) 0 X h t j _ (Nat.zero_add _).symm

theorem slice_sum0_hi (X : (⟨3, ![2, 64, 256]⟩ : Shape).Idx → α)
    (h : (⟨3, ![2, 64, 256]⟩ : Shape).Slices ![0, 0, 128] ⟨3, ![1, 64, 128]⟩) (t : Fin 64) (j : Fin 128) :
    extractStridedSlice ⟨3, ![1, 64, 128]⟩ ![0, 0, 128] X h (ix3 (0 : Fin 1) t j)
      = X (ix3 (0 : Fin 2) t (⟨128 + j.val, by omega⟩ : Fin 256)) :=
  slice_core_cols_apply (0 : Fin 2) 128 X h t j _ rfl

theorem slice_sum1_hi (X : (⟨3, ![2, 64, 256]⟩ : Shape).Idx → α)
    (h : (⟨3, ![2, 64, 256]⟩ : Shape).Slices ![1, 0, 128] ⟨3, ![1, 64, 128]⟩) (t : Fin 64) (j : Fin 128) :
    extractStridedSlice ⟨3, ![1, 64, 128]⟩ ![1, 0, 128] X h (ix3 (0 : Fin 1) t j)
      = X (ix3 (1 : Fin 2) t (⟨128 + j.val, by omega⟩ : Fin 256)) :=
  slice_core_cols_apply (1 : Fin 2) 128 X h t j _ rfl

end Layout

/-! ## The pointwise operations the library's index lemmas do not name, at an index -/

section Pointwise
variable {s : Shape} {φ : FTy}

theorem addi_apply {w : ℕ} (a b : IVec s w) (i : s.Idx) : addi a b i = a i + b i := rfl
theorem fptosi_apply (w : ℕ) (a : FVec Ideal s φ) (i : s.Idx) : fptosi w a i = Ideal.fptosi w (a i) := rfl
theorem hostDivf_apply (a b : FVec Ideal s φ) (i : s.Idx) : Host.divf a b i = Ideal.div (a i) (b i) := rfl
theorem hostSqrt_apply (a : FVec Ideal s φ) (i : s.Idx) : Host.sqrt a i = Ideal.sqrt (a i) := rfl
theorem cmpf_ideal_apply (p : CmpFPredicate) (a b : FVec Ideal s φ) (i : s.Idx) : cmpf p a b i = Ideal.cmp p (a i) (b i) := rfl
theorem sitofp_ideal_apply {w : ℕ} (x : IVec s w) (i : s.Idx) :
    (sitofp φ x : FVec Ideal s φ) i = (((x i).toInt : ℝ) : EReal) := rfl

end Pointwise

variable [Cert.KernelIdeal.Facts]

/-- The operations after the region, in order. -/
abbrev tail : List (HloOp τ sig (Elt Ideal)) :=
  List.flatten [hostOps1, hostOps1_1, hostOps1_2, hostOps1_3, hostOps1_4, hostOps1_5, hostOps1_6]

variable (W : Valuation τ sig (Elt Ideal))

/-- The arrays the operations read, in `W`: the two cores' counts and sums, and the four statistics. -/
abbrev cnts : S2x64x128.Idx → EReal := W (Proc.devRef .tc main_v11_1)
abbrev sums : S2x64x256.Idx → EReal := W (Proc.devRef .tc main_v11_2)
abbrev mu : S64x128.Idx → EReal := W (Proc.devRef .tc main_arg2)
abbrev var : S64x128.Idx → EReal := W (Proc.devRef .tc main_arg3)
abbrev sd : S64x128.Idx → EReal := W (Proc.devRef .tc main_arg4)
abbrev cw : S64.Idx → BitVec 32 := W (Proc.devRef .tc main_arg5)

/-- Task `t`'s row count in the batch: the two cores' counts, lane 0. -/
def nbOf (t : Fin 64) : EReal :=
  cnts W (ix3 (0 : Fin 2) t (0 : Fin 128)) + cnts W (ix3 (1 : Fin 2) t (0 : Fin 128))

/-- `Σ (x - μ)` over task `t`'s rows at feature `j`: the two cores' halves, columns 0 to 127. -/
def s1Of (t : Fin 64) (j : Fin 128) : EReal :=
  sums W (ix3 (0 : Fin 2) t (⟨j.val, by omega⟩ : Fin 256)) + sums W (ix3 (1 : Fin 2) t (⟨j.val, by omega⟩ : Fin 256))

/-- `Σ (x - μ)²` likewise: columns 128 to 255. -/
def s2Of (t : Fin 64) (j : Fin 128) : EReal :=
  sums W (ix3 (0 : Fin 2) t (⟨128 + j.val, by omega⟩ : Fin 256))
    + sums W (ix3 (1 : Fin 2) t (⟨128 + j.val, by omega⟩ : Fin 256))

/-! ## The six reshapes, each at its own pair of buffers

A reshape's result shape is spelled through the result buffer's type, so each is read at an index by a lemma
stated over that buffer: the count columns lose both unit axes, the sum halves their leading one. -/

theorem reshape13_at {α : Type} (X : (main_v12 : Ref sig .tc).ty.shape.Idx → α)
    (hn : (main_v12 : Ref sig .tc).ty.shape.ShapeCasts (main_v13 : Ref sig .tc).ty.shape) (t : Fin 64) :
    shapeCast (main_v13 : Ref sig .tc).ty.shape X hn (ix1 t) = X (ix3 (0 : Fin 1) t (0 : Fin 1)) :=
  shapeCast_1n1_n_apply X hn t
theorem reshape15_at {α : Type} (X : (main_v14 : Ref sig .tc).ty.shape.Idx → α)
    (hn : (main_v14 : Ref sig .tc).ty.shape.ShapeCasts (main_v15 : Ref sig .tc).ty.shape) (t : Fin 64) :
    shapeCast (main_v15 : Ref sig .tc).ty.shape X hn (ix1 t) = X (ix3 (0 : Fin 1) t (0 : Fin 1)) :=
  shapeCast_1n1_n_apply X hn t
theorem reshape18_at {α : Type} (X : (main_v17 : Ref sig .tc).ty.shape.Idx → α)
    (hn : (main_v17 : Ref sig .tc).ty.shape.ShapeCasts (main_v18 : Ref sig .tc).ty.shape) (t : Fin 64) (j : Fin 128) :
    shapeCast (main_v18 : Ref sig .tc).ty.shape X hn (ix2 t j) = X (ix3 (0 : Fin 1) t j) :=
  shapeCast_1ab_ab_apply X hn t j
theorem reshape20_at {α : Type} (X : (main_v19 : Ref sig .tc).ty.shape.Idx → α)
    (hn : (main_v19 : Ref sig .tc).ty.shape.ShapeCasts (main_v20 : Ref sig .tc).ty.shape) (t : Fin 64) (j : Fin 128) :
    shapeCast (main_v20 : Ref sig .tc).ty.shape X hn (ix2 t j) = X (ix3 (0 : Fin 1) t j) :=
  shapeCast_1ab_ab_apply X hn t j
theorem reshape23_at {α : Type} (X : (main_v22 : Ref sig .tc).ty.shape.Idx → α)
    (hn : (main_v22 : Ref sig .tc).ty.shape.ShapeCasts (main_v23 : Ref sig .tc).ty.shape) (t : Fin 64) (j : Fin 128) :
    shapeCast (main_v23 : Ref sig .tc).ty.shape X hn (ix2 t j) = X (ix3 (0 : Fin 1) t j) :=
  shapeCast_1ab_ab_apply X hn t j
theorem reshape25_at {α : Type} (X : (main_v24 : Ref sig .tc).ty.shape.Idx → α)
    (hn : (main_v24 : Ref sig .tc).ty.shape.ShapeCasts (main_v25 : Ref sig .tc).ty.shape) (t : Fin 64) (j : Fin 128) :
    shapeCast (main_v25 : Ref sig .tc).ty.shape X hn (ix2 t j) = X (ix3 (0 : Fin 1) t j) :=
  shapeCast_1ab_ab_apply X hn t j

/-! ## The four results at an entry

Each proof has the same four steps: the seven stretches as one list; every operation's result at its own buffer
and every other buffer passed through, in one pass; the transports of the two outlined selects' typed references
dropped; the index pushed through. What is left is Spec's merge of the entry's numbers up to unfolding. -/

set_option maxHeartbeats 4000000 in
theorem tail_count (t : Fin 64) :
    (StableHlo.after tail W (Proc.devRef .tc main_v78) : S64.Idx → BitVec 32) (ix1 t)
      = Spec.newCount (nbOf W t) (cw W (ix1 t)) := by
  simp only [tail, hostOps1, hostOps1_1, hostOps1_2, hostOps1_3, hostOps1_4, hostOps1_5, hostOps1_6,
    List.flatten_cons, List.flatten_nil, List.append_nil, List.cons_append, List.nil_append]
  after_results_simp
  simp only [select_apply, addf_apply, subf_apply, mulf_apply, maximumf_apply, hostDivf_apply, hostSqrt_apply,
    cmpf_ideal_apply, sitofp_ideal_apply, addi_apply, fptosi_apply, constant_apply,
    (bcast_scalar_apply), (bcast_col64), (bcast_row64),
    reshape13_at, reshape15_at, reshape18_at, reshape20_at, reshape23_at, reshape25_at,
    slice_cnt0, slice_cnt1, slice_sum0_lo, slice_sum1_lo, slice_sum0_hi, slice_sum1_hi]
  rfl

set_option maxHeartbeats 4000000 in
theorem tail_mean (t : Fin 64) (j : Fin 128) :
    (StableHlo.after tail W (Proc.devRef .tc main_v74) : S64x128.Idx → EReal) (ix2 t j)
      = Spec.newMean (nbOf W t) (Spec.shiftedMean (nbOf W t) (s1Of W t j) (mu W (ix2 t j))) (mu W (ix2 t j))
          (cw W (ix1 t)) := by
  simp only [tail, hostOps1, hostOps1_1, hostOps1_2, hostOps1_3, hostOps1_4, hostOps1_5, hostOps1_6,
    List.flatten_cons, List.flatten_nil, List.append_nil, List.cons_append, List.nil_append]
  after_results_simp
  simp only [StableHlo.TRef.ofBuf, StableHlo.TRef.toBuf, cast_eq]
  simp only [select_apply, addf_apply, subf_apply, mulf_apply, maximumf_apply, hostDivf_apply, hostSqrt_apply,
    cmpf_ideal_apply, sitofp_ideal_apply, addi_apply, fptosi_apply, constant_apply,
    (bcast_scalar_apply), (bcast_col64), (bcast_row64),
    reshape13_at, reshape15_at, reshape18_at, reshape20_at, reshape23_at, reshape25_at,
    slice_cnt0, slice_cnt1, slice_sum0_lo, slice_sum1_lo, slice_sum0_hi, slice_sum1_hi]
  rfl

set_option maxHeartbeats 4000000 in
theorem tail_var (t : Fin 64) (j : Fin 128) :
    (StableHlo.after tail W (Proc.devRef .tc main_v73) : S64x128.Idx → EReal) (ix2 t j)
      = Spec.newVar (nbOf W t) (Spec.shiftedMean (nbOf W t) (s1Of W t j) (mu W (ix2 t j)))
          (Spec.shiftedVar (nbOf W t) (s1Of W t j) (s2Of W t j)) (mu W (ix2 t j)) (var W (ix2 t j))
          (cw W (ix1 t)) := by
  simp only [tail, hostOps1, hostOps1_1, hostOps1_2, hostOps1_3, hostOps1_4, hostOps1_5, hostOps1_6,
    List.flatten_cons, List.flatten_nil, List.append_nil, List.cons_append, List.nil_append]
  after_results_simp
  simp only [StableHlo.TRef.ofBuf, StableHlo.TRef.toBuf, cast_eq]
  simp only [select_apply, addf_apply, subf_apply, mulf_apply, maximumf_apply, hostDivf_apply, hostSqrt_apply,
    cmpf_ideal_apply, sitofp_ideal_apply, addi_apply, fptosi_apply, constant_apply,
    (bcast_scalar_apply), (bcast_col64), (bcast_row64),
    reshape13_at, reshape15_at, reshape18_at, reshape20_at, reshape23_at, reshape25_at,
    slice_cnt0, slice_cnt1, slice_sum0_lo, slice_sum1_lo, slice_sum0_hi, slice_sum1_hi]
  rfl

set_option maxHeartbeats 4000000 in
theorem tail_std (t : Fin 64) (j : Fin 128) :
    (StableHlo.after tail W (Proc.devRef .tc main_v76) : S64x128.Idx → EReal) (ix2 t j)
      = Spec.newStd (nbOf W t) (Spec.shiftedMean (nbOf W t) (s1Of W t j) (mu W (ix2 t j)))
          (Spec.shiftedVar (nbOf W t) (s1Of W t j) (s2Of W t j)) (mu W (ix2 t j)) (var W (ix2 t j))
          (sd W (ix2 t j)) (cw W (ix1 t)) := by
  simp only [tail, hostOps1, hostOps1_1, hostOps1_2, hostOps1_3, hostOps1_4, hostOps1_5, hostOps1_6,
    List.flatten_cons, List.flatten_nil, List.append_nil, List.cons_append, List.nil_append]
  after_results_simp
  simp only [StableHlo.TRef.ofBuf, StableHlo.TRef.toBuf, cast_eq]
  simp only [select_apply, addf_apply, subf_apply, mulf_apply, maximumf_apply, hostDivf_apply, hostSqrt_apply,
    cmpf_ideal_apply, sitofp_ideal_apply, addi_apply, fptosi_apply, constant_apply,
    (bcast_scalar_apply), (bcast_col64), (bcast_row64),
    reshape13_at, reshape15_at, reshape18_at, reshape20_at, reshape23_at, reshape25_at,
    slice_cnt0, slice_cnt1, slice_sum0_lo, slice_sum1_lo, slice_sum0_hi, slice_sum1_hi]
  rfl

/-! ## What the operations leave alone -/

/-- An operation that writes one buffer `y` writes no reference of a list that `y` is not in. -/
theorem not_writes_of {K : List (Ref sig .tc)} {op : HloOp τ sig (Elt Ideal)} {y : Ref sig .tc}
    (hw : op.writes = {Proc.devRef .tc y}) (hy : y ∉ K) : ∀ r ∈ K, Proc.devRef .tc r ∉ op.writes := by
  intro r hr hmem
  rw [hw, Finset.mem_singleton] at hmem
  exact hy (Proc.devRef_injective _ hmem ▸ hr)

/-- The six arguments and the normalized output. -/
abbrev kept : List (Ref sig .tc) :=
  [main_arg0, main_arg1, main_arg2, main_arg3, main_arg4, main_arg5, main_v11_0]

set_option maxHeartbeats 4000000 in
/-- Each operation writes its own result buffer, which is none of the seven. -/
theorem tail_writes : (tail : List (HloOp τ sig (Elt Ideal))).Forall fun op => ∀ r ∈ kept, Proc.devRef .tc r ∉ op.writes := by
  simp only [tail, hostOps1, hostOps1_1, hostOps1_2, hostOps1_3, hostOps1_4, hostOps1_5, hostOps1_6,
    List.flatten_cons, List.flatten_nil, List.append_nil, List.cons_append, List.nil_append]
  repeat' (first | exact not_writes_of rfl (by decide) | refine ⟨not_writes_of rfl (by decide), ?_⟩)

theorem tail_keeps_of {r : Ref sig .tc} (hr : r ∈ kept) :
    StableHlo.after tail W (Proc.devRef .tc r) = W (Proc.devRef .tc r) :=
  StableHlo.after_of_forall_not_mem _ _ fun op hop => List.forall_iff_forall_mem.mp tail_writes op hop r hr

theorem tail_keeps_out : StableHlo.after tail W (Proc.devRef .tc main_v11_0) = W (Proc.devRef .tc main_v11_0) :=
  tail_keeps_of W (by decide)
theorem tail_keeps_arg0 : StableHlo.after tail W (Proc.devRef .tc main_arg0) = W (Proc.devRef .tc main_arg0) :=
  tail_keeps_of W (by decide)
theorem tail_keeps_arg1 : StableHlo.after tail W (Proc.devRef .tc main_arg1) = W (Proc.devRef .tc main_arg1) :=
  tail_keeps_of W (by decide)
theorem tail_keeps_arg2 : StableHlo.after tail W (Proc.devRef .tc main_arg2) = W (Proc.devRef .tc main_arg2) :=
  tail_keeps_of W (by decide)
theorem tail_keeps_arg3 : StableHlo.after tail W (Proc.devRef .tc main_arg3) = W (Proc.devRef .tc main_arg3) :=
  tail_keeps_of W (by decide)
theorem tail_keeps_arg4 : StableHlo.after tail W (Proc.devRef .tc main_arg4) = W (Proc.devRef .tc main_arg4) :=
  tail_keeps_of W (by decide)
theorem tail_keeps_arg5 : StableHlo.after tail W (Proc.devRef .tc main_arg5) = W (Proc.devRef .tc main_arg5) :=
  tail_keeps_of W (by decide)

end Cert.KernelIdeal.Tail

end
-- ==== Proof.RefTail.lean ====
/-
  The second half of the reference program, read at an entry. Its operations %45 … %84 merge the batch's
  moments into the running statistics: from task t's row count n (%21), the batch mean b (%29) and the batch
  variance v (%44) at entry (t, j), and the old mean, variance, deviation and count, they form the new mean, the
  new variance, the new deviation and the new count. Every one of these forty operations is pointwise, a
  broadcast of a per-task column along the features, a select, a square root or a conversion, so each result at
  an entry is a scalar function of that entry's own numbers; that function is the merge of Proof/Spec.lean.
  The three stages the merge starts from are left as they are: nothing here looks inside them.
-/
import proofs.«402983_j34497177321524_3_alg».proof.Proof.ReferenceIdealRead
import proofs.«402983_j34497177321524_3_alg».proof.Proof.Spec
import Idealize.ShloMosaic.Lib.ValueIdx
import Idealize.ShloMosaic.Lib.ValueLayout
import Idealize.ShloMosaic.Lib.Pipeline.Value

noncomputable section

namespace Cert.ReferenceIdeal.RefTail

open Idealize.ShloMosaic Idealize.ShloMosaic.ValueIdx Cert Cert.ReferenceIdeal Cert.ReferenceIdeal.Read

variable (x0 : FVec Ideal S131072x128 .f32) (x1 : IVec S131072 32)
variable (x2 x3 x4 : FVec Ideal S64x128 .f32) (x5 : IVec S64 32)

/-! ## A per-task column broadcast along the features

The program broadcasts a vector over the 64 tasks to the 64 × 128 entries in two steps, 64 → 64 × 1 → 64 × 128.
Read at entry (t, j), the result is the vector at t. -/

/-- An index of the 64 tasks whose coordinate is t is t. -/
theorem task_idx {i : S64.Idx} {t : Fin 64} (h : (i 0).val = t.val) : i = ix1 t :=
  funext fun a => Fin.ext (by match a with | ⟨0, _⟩ => exact h)

/-- %52 at (t, j) is %50 at t. -/
theorem v52_at (t : Fin 64) (j : Fin 128) :
    val_main_v52 (F := Ideal) x1 x5 (ix2 t j) = val_main_v50 (F := Ideal) x1 x5 (ix1 t) :=
  (val_main_v52_apply x1 x5 _).trans ((val_main_v51_apply x1 x5 _).trans (congrArg _ (task_idx rfl)))
/-- %56 at (t, j) is %45 at t. -/
theorem v56_at (t : Fin 64) (j : Fin 128) :
    val_main_v56 (F := Ideal) x5 (ix2 t j) = val_main_v45 (F := Ideal) x5 (ix1 t) :=
  (val_main_v56_apply x5 _).trans ((val_main_v55_apply x5 _).trans (congrArg _ (task_idx rfl)))
/-- %59 at (t, j) is %21 at t. -/
theorem v59_at (t : Fin 64) (j : Fin 128) :
    val_main_v59 (F := Ideal) x1 (ix2 t j) = val_main_v21 (F := Ideal) x1 (ix1 t) :=
  (val_main_v59_apply x1 _).trans ((val_main_v58_apply x1 _).trans (congrArg _ (task_idx rfl)))
/-- %66 at (t, j) is %64 at t. -/
theorem v66_at (t : Fin 64) (j : Fin 128) :
    val_main_v66 (F := Ideal) x1 x5 (ix2 t j) = val_main_v64 (F := Ideal) x1 x5 (ix1 t) :=
  (val_main_v66_apply x1 x5 _).trans ((val_main_v65_apply x1 x5 _).trans (congrArg _ (task_idx rfl)))
/-- %70 at (t, j) is %48 at t. -/
theorem v70_at (t : Fin 64) (j : Fin 128) :
    val_main_v70 (F := Ideal) x1 x5 (ix2 t j) = val_main_v48 (F := Ideal) x1 x5 (ix1 t) :=
  (val_main_v70_apply x1 x5 _).trans ((val_main_v69_apply x1 x5 _).trans (congrArg _ (task_idx rfl)))
/-- The condition of %78 at (t, j) is %76 at t. -/
theorem call0_at (t : Fin 64) (j : Fin 128) :
    val_main_call0_v0 (F := Ideal) x5 (ix2 t j) = val_main_v76 (F := Ideal) x5 (ix1 t) :=
  (val_main_call0_v0_apply x5 _).trans ((val_main_v77_apply x5 _).trans (congrArg _ (task_idx rfl)))
/-- The condition of %79 at (t, j) is %73 at t, -/
theorem call1_at (t : Fin 64) (j : Fin 128) :
    val_main_call1_v0 (F := Ideal) x1 (ix2 t j) = val_main_v73 (F := Ideal) x1 (ix1 t) :=
  (val_main_call1_v0_apply x1 _).trans ((val_main_v74_apply x1 _).trans (congrArg _ (task_idx rfl)))
/-- and so is the condition of %80, -/
theorem call2_at (t : Fin 64) (j : Fin 128) :
    val_main_call2_v0 (F := Ideal) x1 (ix2 t j) = val_main_v73 (F := Ideal) x1 (ix1 t) :=
  (val_main_call2_v0_apply x1 _).trans ((val_main_v74_apply x1 _).trans (congrArg _ (task_idx rfl)))
/-- and of %82. -/
theorem call3_at (t : Fin 64) (j : Fin 128) :
    val_main_call3_v0 (F := Ideal) x1 (ix2 t j) = val_main_v73 (F := Ideal) x1 (ix1 t) :=
  (val_main_call3_v0_apply x1 _).trans ((val_main_v74_apply x1 _).trans (congrArg _ (task_idx rfl)))

/-! ## The constants -/

/-- %47 is 1 at every task. -/
theorem v47_at (i : S64.Idx) : val_main_v47 (F := Ideal) i = Spec.one := (val_main_v47_apply i).trans rfl
/-- %72 is 0 at every task, -/
theorem v72_at (i : S64.Idx) : val_main_v72 (F := Ideal) i = Spec.zero := (val_main_v72_apply i).trans rfl
/-- and so is %75. -/
theorem v75_at (i : S64.Idx) : val_main_v75 (F := Ideal) i = Spec.zero := (val_main_v75_apply i).trans rfl

/-! ## The per-task numbers -/

/-- %45 at t: the old count as a real. -/
theorem v45_at (t : Fin 64) : val_main_v45 (F := Ideal) x5 (ix1 t) = Spec.oldN (x5 (ix1 t)) := rfl

/-- %48 at t: the new count, kept from falling under 1. -/
theorem v48_at (t : Fin 64) :
    val_main_v48 (F := Ideal) x1 x5 (ix1 t) = Spec.safeNew (val_main_v21 (F := Ideal) x1 (ix1 t)) (x5 (ix1 t)) := by
  rw [val_main_v48_apply, val_main_v46_apply, v47_at, v45_at]
  rfl

/-- %73 at t: whether the task has rows in the batch. -/
theorem v73_at (t : Fin 64) :
    val_main_v73 (F := Ideal) x1 (ix1 t) = Spec.hasBatch (val_main_v21 (F := Ideal) x1 (ix1 t)) := by
  rw [val_main_v73_apply, v72_at]
  rfl

/-- %76 at t: whether the task had rows before. -/
theorem v76_at (t : Fin 64) : val_main_v76 (F := Ideal) x5 (ix1 t) = Spec.hadCount (x5 (ix1 t)) := by
  rw [val_main_v76_apply, v75_at, v45_at]
  rfl

/-! ## The merged moments at an entry -/

/-- %54 at (t, j): the old mean moved toward the batch mean by the batch's share of the rows. -/
theorem v54_at (t : Fin 64) (j : Fin 128) :
    val_main_v54 (F := Ideal) x0 x1 x2 x5 (ix2 t j)
      = Spec.updMean (val_main_v21 (F := Ideal) x1 (ix1 t)) (val_main_v29 (F := Ideal) x0 x1 (ix2 t j)) (x2 (ix2 t j)) (x5 (ix1 t)) := by
  rw [val_main_v54_apply, val_main_v53_apply, v52_at, val_main_v50_apply, v48_at, val_main_v49_apply]
  rfl

/-- %71 at (t, j): the two samples' second moments pooled, with the between-samples term. -/
theorem v71_at (t : Fin 64) (j : Fin 128) :
    val_main_v71 (F := Ideal) x0 x1 x2 x3 x5 (ix2 t j)
      = Spec.mergedVar (val_main_v21 (F := Ideal) x1 (ix1 t)) (val_main_v29 (F := Ideal) x0 x1 (ix2 t j))
          (val_main_v44 (F := Ideal) x0 x1 (ix2 t j)) (x2 (ix2 t j)) (x3 (ix2 t j)) (x5 (ix1 t)) := by
  rw [val_main_v71_apply, v70_at, v48_at, val_main_v68_apply, val_main_v61_apply, val_main_v57_apply, v56_at, v45_at,
    val_main_v60_apply, v59_at, val_main_v67_apply, val_main_v62_apply, val_main_v49_apply, v66_at, val_main_v64_apply,
    val_main_v63_apply, v45_at, v48_at]
  rfl

/-! ## The four results at an entry -/

/-- The new mean (%80) at entry (t, j) is the merge's, of the entry's own numbers. -/
theorem ref_tail_mean (t : Fin 64) (j : Fin 128) :
    val_main_v80 (F := Ideal) x0 x1 x2 x5 (ix2 t j)
      = Spec.newMean (val_main_v21 (F := Ideal) x1 (ix1 t)) (val_main_v29 (F := Ideal) x0 x1 (ix2 t j)) (x2 (ix2 t j)) (x5 (ix1 t)) := by
  rw [val_main_v80_apply, call2_at, v73_at, v54_at]
  rfl

/-- The new variance (%79) at entry (t, j). -/
theorem ref_tail_var (t : Fin 64) (j : Fin 128) :
    val_main_v79 (F := Ideal) x0 x1 x2 x3 x5 (ix2 t j)
      = Spec.newVar (val_main_v21 (F := Ideal) x1 (ix1 t)) (val_main_v29 (F := Ideal) x0 x1 (ix2 t j))
          (val_main_v44 (F := Ideal) x0 x1 (ix2 t j)) (x2 (ix2 t j)) (x3 (ix2 t j)) (x5 (ix1 t)) := by
  rw [val_main_v79_apply, call1_at, v73_at, val_main_v78_apply, call0_at, v76_at, v71_at]
  rfl

/-- The new deviation (%82) at entry (t, j): the square root of the new variance where the task has rows. -/
theorem ref_tail_std (t : Fin 64) (j : Fin 128) :
    val_main_v82 (F := Ideal) x0 x1 x2 x3 x4 x5 (ix2 t j)
      = Spec.newStd (val_main_v21 (F := Ideal) x1 (ix1 t)) (val_main_v29 (F := Ideal) x0 x1 (ix2 t j))
          (val_main_v44 (F := Ideal) x0 x1 (ix2 t j)) (x2 (ix2 t j)) (x3 (ix2 t j)) (x4 (ix2 t j)) (x5 (ix1 t)) := by
  rw [val_main_v82_apply, call3_at, v73_at, val_main_v81_apply, ref_tail_var, Ideal.hostUnary_sqrt_def]
  rfl

/-- The new count (%84) of task t. -/
theorem ref_tail_count (t : Fin 64) :
    val_main_v84 (F := Ideal) x1 x5 (ix1 t) = Spec.newCount (val_main_v21 (F := Ideal) x1 (ix1 t)) (x5 (ix1 t)) := by
  rw [val_main_v84_apply, val_main_v83_apply]
  rfl

end Cert.ReferenceIdeal.RefTail

end
-- ==== Proof.RefValue.lean ====
/-
  What the idealized reference program computes, entry by entry, in the vocabulary of Spec.lean.

  Every id is a word in `[0, 64)` (the hypothesis `hr`). Then the wrap `select (id < 0) (id + 64) id` is the identity, the row
  gather's clamp into `[0, 63]` is inert, and no update of a scatter-add falls outside its operand:
    • the gather of a `[64, 128]` table by the ids reads, at `(r, j)`, the table at `(task r, j)` (`gather_row_apply`,
      `gather_task`: the dimension numbers unfolded at the literal axes — axis 0 collapsed and start-indexed, axis 1 the offset);
    • an update of a scatter-add lands at entry `t` (same column) exactly when its row's id is `t` (`scatter1_lands`,
      `scatter2_lands`), so the sum a scatter-add forms at an entry is the sum over the rows of that task (`scatter1_sum`,
      `scatter2_sum`: the sum over the update indices that land there, re-indexed by the row).
  With the entries of `x` real numbers (`hx`) these sums are real sums, and
    • the batch count of task `t` is the number of its rows (`ref_nb`);
    • the batch mean is `(Σ x) / max n 1` (`ref_bm`);
    • the batch variance is `Σ (x - x̄)² / max n 1` with `x̄` the task's real mean (`ref_bv`): a row that contributes has a
      task that is not empty, so the mean gathered back to it is the division of reals, and a task with no row contributes the
      empty sum on both sides;
    • the normalized output of row `r` is `Spec.outAt` of its task's old mean and deviation (`ref_out`);
    • the new mean, variance, deviation and count are Spec.lean's merge of these (`ref_mean`, `ref_var`, `ref_std`, `ref_count`).
-/
import proofs.«402983_j34497177321524_3_alg».proof.Proof.ReferenceIdealRead
import proofs.«402983_j34497177321524_3_alg».proof.Proof.Spec
import proofs.«402983_j34497177321524_3_alg».proof.Proof.RefTail
import Idealize.ShloMosaic.Lib.ValueIdx
import Idealize.ShloMosaic.Lib.Pipeline.Value
import Mathlib.Algebra.BigOperators.Group.Finset.Basic
import Mathlib.Data.EReal.Basic

noncomputable section

namespace Cert.ReferenceIdeal.RefValue

open Cert.ReferenceIdeal Cert.ReferenceIdeal.Read Idealize.ShloMosaic Idealize.ShloMosaic.ValueIdx
open scoped BigOperators

variable [Cert.ReferenceIdeal.Facts]

/-! ## Broadcasts read at an index built from coordinates -/

/-- A scalar broadcast to any shape reads the scalar. -/
theorem bcast_scalar_apply {α : Type} {t : Shape} (h : S_.BroadcastsInDim t ![]) (v : S_.Idx → α) (j : t.Idx) :
    broadcastInDim t ![] h v j = v ix0 :=
  broadcastInDim_apply _ h v j ix0 (fun a => a.elim0)

/-- A vector laid as an `[n, 1]` column reads, at row `r`, its entry `r`. -/
theorem bcast_col_apply {α : Type} {n : Nat} (hn : n ≠ 1) (h : (⟨1, ![n]⟩ : Shape).BroadcastsInDim ⟨2, ![n, 1]⟩ ![0])
    (v : (⟨1, ![n]⟩ : Shape).Idx → α) (r : Fin n) (c : Fin 1) :
    broadcastInDim ⟨2, ![n, 1]⟩ ![0] h v (ix2 r c) = v (ix1 r) :=
  broadcastInDim_apply _ h v _ (ix1 r) (fun a => match a with
    | ⟨0, _⟩ => by show r.val = if n = 1 then 0 else r.val; rw [if_neg hn])

/-- An `[n, 1]` column repeated along a second axis reads, at `(t, j)`, the column at row `t`. -/
theorem bcast_row_apply {α : Type} {n m : Nat} (hn : n ≠ 1) (h : (⟨2, ![n, 1]⟩ : Shape).BroadcastsInDim ⟨2, ![n, m]⟩ ![0, 1])
    (v : (⟨2, ![n, 1]⟩ : Shape).Idx → α) (t : Fin n) (j : Fin m) :
    broadcastInDim ⟨2, ![n, m]⟩ ![0, 1] h v (ix2 t j) = v (ix2 t (0 : Fin 1)) :=
  broadcastInDim_apply _ h v _ (ix2 t (0 : Fin 1)) (fun a => match a with
    | ⟨0, _⟩ => by show t.val = if n = 1 then 0 else t.val; rw [if_neg hn]
    | ⟨1, _⟩ => by show (0 : ℕ) = if (1 : ℕ) = 1 then 0 else j.val; rw [if_pos rfl])

/-- The two together: a vector over the rows, read at `(t, j)`, is its entry `t`. -/
theorem bcast_rows_apply {α : Type} {n m : Nat} (hn : n ≠ 1) (h₁ : (⟨1, ![n]⟩ : Shape).BroadcastsInDim ⟨2, ![n, 1]⟩ ![0])
    (h₂ : (⟨2, ![n, 1]⟩ : Shape).BroadcastsInDim ⟨2, ![n, m]⟩ ![0, 1]) (v : (⟨1, ![n]⟩ : Shape).Idx → α) (t : Fin n) (j : Fin m) :
    broadcastInDim ⟨2, ![n, m]⟩ ![0, 1] h₂ (broadcastInDim ⟨2, ![n, 1]⟩ ![0] h₁ v) (ix2 t j) = v (ix1 t) := by
  rw [bcast_row_apply hn, bcast_col_apply hn]

/-! ## Ids: a word in `[0, 64)` is not wrapped, and names its task -/

/-- The wrap `select (w < 0) (w + 64) w` leaves a word that is not negative alone. -/
theorem wrap_word {w : BitVec 32} (h0 : 0 ≤ w.toInt) :
    Scalar.select (IntOp.cmpi .slt w 0#32) (IntOp.addi w 64#32) w = w := by
  have hs : w.slt 0#32 = false := by
    rw [BitVec.slt]
    have : (0#32 : BitVec 32).toInt = 0 := by decide
    rw [this]
    exact decide_eq_false (by omega)
  unfold Scalar.select IntOp.cmpi
  simp [hs]

/-- A word in `[0, 64)`, read signed, is `t` exactly when its task is `t`. -/
theorem toInt_eq_iff_task {w : BitVec 32} (h0 : 0 ≤ w.toInt) (h1 : w.toInt < 64) (t : Fin 64) :
    w.toInt = (t.val : ℤ) ↔ Spec.taskOf w = t := by
  rw [Spec.toInt_eq_task h0 h1]
  constructor
  · intro h; exact Fin.ext (by exact_mod_cast h)
  · intro h; rw [h]

/-! ## The row gather of a two-axis table -/

/-- Result element `(r, j)` of the row gather is the table at the row `r`'s start index names, read signed and clamped
    into `[0, 63]`, and the same column. -/
theorem gather_row_apply {α : Type} (x : S64x128.Idx → α) (idx : IVec S131072x1 32) (r : Fin 131072) (j : Fin 128) :
    Host.gather gather_S64x128_S131072x1_S131072x128_1_0_n_n_0_1_1128 x idx (ix2 r j)
      = x (ix2 ⟨min (idx (ix2 r (0 : Fin 1))).toInt.toNat 63, by omega⟩ j) := by
  unfold Host.gather
  congr 1
  funext a
  refine Fin.ext ?_
  match a with
  | ⟨0, _⟩ =>
    show gather_S64x128_S131072x1_S131072x128_1_0_n_n_0_1_1128.start (ix2 r j) idx ⟨0, by decide⟩
        + gather_S64x128_S131072x1_S131072x128_1_0_n_n_0_1_1128.batchCoord (ix2 r j) ⟨0, by decide⟩
        + gather_S64x128_S131072x1_S131072x128_1_0_n_n_0_1_1128.offCoord (ix2 r j) ⟨0, by decide⟩ = min (idx (ix2 r (0 : Fin 1))).toInt.toNat 63
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ gather_S64x128_S131072x1_S131072x128_1_0_n_n_0_1_1128.startIndexMap from List.mem_singleton.mpr rfl)]
    have hsi : gather_S64x128_S131072x1_S131072x128_1_0_n_n_0_1_1128.siIdx (ix2 r j)
        ⟨List.idxOf (⟨0, by decide⟩ : Fin 2) gather_S64x128_S131072x1_S131072x128_1_0_n_n_0_1_1128.startIndexMap,
          List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show gather_S64x128_S131072x1_S131072x128_1_0_n_n_0_1_1128.start (ix2 r j) idx ⟨1, by decide⟩
        + gather_S64x128_S131072x1_S131072x128_1_0_n_n_0_1_1128.batchCoord (ix2 r j) ⟨1, by decide⟩
        + gather_S64x128_S131072x1_S131072x128_1_0_n_n_0_1_1128.offCoord (ix2 r j) ⟨1, by decide⟩ = j.val
    rw [GatherDims.batchCoord_eq_zero _ _ _ List.not_mem_nil]
    unfold GatherDims.start
    rw [dif_neg (show (⟨1, by decide⟩ : Fin 2) ∉ gather_S64x128_S131072x1_S131072x128_1_0_n_n_0_1_1128.startIndexMap from (by decide : (⟨1, by decide⟩ : Fin 2) ∉ ([0] : List (Fin 2))))]
    simp only [Nat.zero_add]
    unfold GatherDims.offCoord
    rw [dif_pos ((GatherDims.mem_sKept _ _).mpr ⟨(by decide : (⟨1, by decide⟩ : Fin 2) ∉ ([0] : List (Fin 2))), List.not_mem_nil⟩)]
    rfl

/-- With the start index a word in `[0, 64)`, the row read is that word's task's. -/
theorem gather_task {α : Type} (x : S64x128.Idx → α) (idx : IVec S131072x1 32) (r : Fin 131072) (j : Fin 128)
    (w : BitVec 32) (hw : idx (ix2 r (0 : Fin 1)) = w) (h0 : 0 ≤ w.toInt) (h1 : w.toInt < 64) :
    Host.gather gather_S64x128_S131072x1_S131072x128_1_0_n_n_0_1_1128 x idx (ix2 r j) = x (ix2 (Spec.taskOf w) j) := by
  subst hw
  rw [gather_row_apply]
  have ht := Spec.toInt_eq_task h0 h1
  have hlt := (Spec.taskOf (idx (ix2 r (0 : Fin 1)))).isLt
  refine congrArg (fun k => x (ix2 k j)) (Fin.ext ?_)
  show min (idx (ix2 r (0 : Fin 1))).toInt.toNat 63 = (Spec.taskOf (idx (ix2 r (0 : Fin 1)))).val
  omega

/-! ## The two scatter-adds: where an update lands, and the sum that reaches an entry -/

/-- An update lands at `i` exactly when, on every axis, its start plus its window coordinate is `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  split
  · next h =>
    constructor
    · intro e a
      have e' := congrFun (Option.some.inj e) a
      have ha := h a
      have : ((d.start j idx a + (d.window j a : ℤ)).toNat) = (i a).val := congrArg Fin.val e'
      omega
    · intro e
      refine congrArg some (funext fun a => Fin.ext ?_)
      have := e a
      show (d.start j idx a + (d.window j a : ℤ)).toNat = (i a).val
      omega
  · next h =>
    constructor
    · intro e; exact absurd e (by simp)
    · intro e
      exact absurd (fun a => by have := e a; have := (i a).isLt; omega) h

/-- The count scatter: row `r`'s update lands at entry `t` exactly when `r`'s index word, read signed, is `t`. -/
theorem scatter1_lands (idx : IVec S131072x1 32) (r : Fin 131072) (t : Fin 64) :
    scatter_S64_S131072x1_S131072_n_0_0_1.resultIdx? (ix1 r) idx = some (ix1 t)
      ↔ (idx (ix2 r (0 : Fin 1))).toInt = (t.val : ℤ) := by
  rw [resultIdx?_eq_some_iff]
  have h0 : scatter_S64_S131072x1_S131072_n_0_0_1.start (ix1 r) idx ⟨0, by decide⟩ = (idx (ix2 r (0 : Fin 1))).toInt := by
    unfold ScatterDims.start
    rw [dif_pos (show (⟨0, by decide⟩ : Fin 1) ∈ scatter_S64_S131072x1_S131072_n_0_0_1.scatterDimsToOperandDims from List.mem_singleton.mpr rfl)]
    refine congrArg (fun k => (idx k).toInt) (funext fun b => Fin.ext ?_)
    match b with
    | ⟨0, _⟩ => rfl
    | ⟨1, _⟩ => rfl
  have hw : scatter_S64_S131072x1_S131072_n_0_0_1.window (ix1 r) ⟨0, by decide⟩ = 0 := by
    unfold ScatterDims.window
    exact dif_neg (show (⟨0, by decide⟩ : Fin 1) ∉ Shape.kept (s := S64) [⟨0, by decide⟩] from by decide)
  constructor
  · intro e
    have := e ⟨0, by decide⟩
    rw [h0, hw] at this
    simpa using this
  · intro e a
    match a with
    | ⟨0, _⟩ =>
      rw [h0, hw]
      simpa using e

/-- The row scatter: update element `(r, c)` lands at `(t, c')` exactly when `r`'s index word is `t` and `c = c'`. -/
theorem scatter2_lands (idx : IVec S131072x1 32) (r : Fin 131072) (c : Fin 128) (t : Fin 64) (c' : Fin 128) :
    scatter_S64x128_S131072x1_S131072x128_1_0_0_1.resultIdx? (ix2 r c) idx = some (ix2 t c')
      ↔ (idx (ix2 r (0 : Fin 1))).toInt = (t.val : ℤ) ∧ c = c' := by
  rw [resultIdx?_eq_some_iff]
  have h0 : scatter_S64x128_S131072x1_S131072x128_1_0_0_1.start (ix2 r c) idx ⟨0, by decide⟩ = (idx (ix2 r (0 : Fin 1))).toInt := by
    unfold ScatterDims.start
    rw [dif_pos (show (⟨0, by decide⟩ : Fin 2) ∈ scatter_S64x128_S131072x1_S131072x128_1_0_0_1.scatterDimsToOperandDims from List.mem_singleton.mpr rfl)]
    refine congrArg (fun k => (idx k).toInt) (funext fun b => Fin.ext ?_)
    match b with
    | ⟨0, _⟩ => rfl
    | ⟨1, _⟩ => rfl
  have hw0 : scatter_S64x128_S131072x1_S131072x128_1_0_0_1.window (ix2 r c) ⟨0, by decide⟩ = 0 := by
    unfold ScatterDims.window
    exact dif_neg (show (⟨0, by decide⟩ : Fin 2) ∉ Shape.kept (s := S64x128) [⟨0, by decide⟩] from by decide)
  have h1 : scatter_S64x128_S131072x1_S131072x128_1_0_0_1.start (ix2 r c) idx ⟨1, by decide⟩ = 0 := by
    unfold ScatterDims.start
    exact dif_neg (show (⟨1, by decide⟩ : Fin 2) ∉ ([⟨0, by decide⟩] : List (Fin 2)) from by decide)
  have hw1 : scatter_S64x128_S131072x1_S131072x128_1_0_0_1.window (ix2 r c) ⟨1, by decide⟩ = c.val := by
    unfold ScatterDims.window
    exact (dif_pos (show (⟨1, by decide⟩ : Fin 2) ∈ Shape.kept (s := S64x128) [⟨0, by decide⟩] from by decide)).trans rfl
  constructor
  · intro e
    have e0 := e ⟨0, by decide⟩
    have e1 := e ⟨1, by decide⟩
    rw [h0, hw0] at e0
    rw [h1, hw1] at e1
    refine ⟨by simpa using e0, Fin.ext ?_⟩
    have : ((c.val : ℕ) : ℤ) = ((c'.val : ℕ) : ℤ) := by simpa using e1
    exact_mod_cast this
  · rintro ⟨e, rfl⟩ a
    match a with
    | ⟨0, _⟩ =>
      rw [h0, hw0]
      simpa using e
    | ⟨1, _⟩ =>
      rw [h1, hw1]
      simp

/-- THE COUNT SCATTER AT AN ENTRY: the operand's entry plus the sum of the updates of the rows of task `t`. -/
theorem scatter1_sum (x0 : S64.Idx → EReal) (idx : IVec S131072x1 32) (upd : S131072.Idx → EReal)
    (tid : Fin 131072 → BitVec 32) (hidx : ∀ r, idx (ix2 r (0 : Fin 1)) = tid r)
    (hr : ∀ r, 0 ≤ (tid r).toInt ∧ (tid r).toInt < 64) (t : Fin 64) :
    Ideal.hostScatterAdd scatter_S64_S131072x1_S131072_n_0_0_1 x0 idx upd (ix1 t)
      = x0 (ix1 t) + ∑ r ∈ Spec.seg tid t, upd (ix1 r) := by
  show x0 (ix1 t) + ∑ j ∈ Finset.univ.filter (fun j =>
      scatter_S64_S131072x1_S131072_n_0_0_1.resultIdx? j idx = some (ix1 t)), upd j = _
  refine congrArg (fun s => x0 (ix1 t) + s) ?_
  have key : ∀ r : Fin 131072,
      scatter_S64_S131072x1_S131072_n_0_0_1.resultIdx? (ix1 r) idx = some (ix1 t) ↔ Spec.taskOf (tid r) = t := by
    intro r
    rw [scatter1_lands, hidx]
    exact toInt_eq_iff_task (hr _).1 (hr _).2 t
  unfold Spec.seg
  refine Finset.sum_nbij' (fun a => (a 0 : Fin 131072)) (fun r => ix1 r) ?_ ?_ ?_ ?_ ?_
  · intro a ha
    obtain ⟨r, rfl⟩ : ∃ r : Fin 131072, a = ix1 r := ⟨a 0, eq_ix1 a⟩
    exact Finset.mem_filter.mpr ⟨Finset.mem_univ _, (key r).mp (Finset.mem_filter.mp ha).2⟩
  · intro r hr'
    exact Finset.mem_filter.mpr ⟨Finset.mem_univ _, (key r).mpr (Finset.mem_filter.mp hr').2⟩
  · intro a _; exact (eq_ix1 a).symm
  · intro r _; rfl
  · intro a _; exact congrArg upd (eq_ix1 a)

/-- THE ROW SCATTER AT AN ENTRY: the operand's entry `(t, c)` plus the sum over the rows of task `t` of the updates'
    column `c`. -/
theorem scatter2_sum (x0 : S64x128.Idx → EReal) (idx : IVec S131072x1 32) (upd : S131072x128.Idx → EReal)
    (tid : Fin 131072 → BitVec 32) (hidx : ∀ r, idx (ix2 r (0 : Fin 1)) = tid r)
    (hr : ∀ r, 0 ≤ (tid r).toInt ∧ (tid r).toInt < 64) (t : Fin 64) (c : Fin 128) :
    Ideal.hostScatterAdd scatter_S64x128_S131072x1_S131072x128_1_0_0_1 x0 idx upd (ix2 t c)
      = x0 (ix2 t c) + ∑ r ∈ Spec.seg tid t, upd (ix2 r c) := by
  show x0 (ix2 t c) + ∑ j ∈ Finset.univ.filter (fun j =>
      scatter_S64x128_S131072x1_S131072x128_1_0_0_1.resultIdx? j idx = some (ix2 t c)), upd j = _
  refine congrArg (fun s => x0 (ix2 t c) + s) ?_
  have key : ∀ (r : Fin 131072) (c' : Fin 128),
      scatter_S64x128_S131072x1_S131072x128_1_0_0_1.resultIdx? (ix2 r c') idx = some (ix2 t c)
        ↔ Spec.taskOf (tid r) = t ∧ c' = c := by
    intro r c'
    rw [scatter2_lands, hidx]
    exact and_congr (toInt_eq_iff_task (hr _).1 (hr _).2 t) Iff.rfl
  unfold Spec.seg
  refine Finset.sum_nbij' (fun a => (a 0 : Fin 131072)) (fun r => ix2 r c) ?_ ?_ ?_ ?_ ?_
  · intro a ha
    obtain ⟨r, c', rfl⟩ : ∃ (r : Fin 131072) (c' : Fin 128), a = ix2 r c' := ⟨a 0, a 1, eq_ix2 a⟩
    exact Finset.mem_filter.mpr ⟨Finset.mem_univ _, ((key r c').mp (Finset.mem_filter.mp ha).2).1⟩
  · intro r hr'
    exact Finset.mem_filter.mpr ⟨Finset.mem_univ _, (key r c).mpr ⟨(Finset.mem_filter.mp hr').2, rfl⟩⟩
  · intro a ha
    obtain ⟨r, c', rfl⟩ : ∃ (r : Fin 131072) (c' : Fin 128), a = ix2 r c' := ⟨a 0, a 1, eq_ix2 a⟩
    obtain rfl : c' = c := ((key r c').mp (Finset.mem_filter.mp ha).2).2
    rfl
  · intro r _; rfl
  · intro a ha
    obtain ⟨r, c', rfl⟩ : ∃ (r : Fin 131072) (c' : Fin 128), a = ix2 r c' := ⟨a 0, a 1, eq_ix2 a⟩
    obtain rfl : c' = c := ((key r c').mp (Finset.mem_filter.mp ha).2).2
    rfl

/-! ## The vocabulary the reference's values are stated in -/

/-- The id of batch row `r`. -/
abbrev tidF (ids : IVec S131072 32) : Fin 131072 → BitVec 32 := fun r => ids (ix1 r)
/-- The task of batch row `r`. -/
abbrev T (ids : IVec S131072 32) (r : Fin 131072) : Fin 64 := Spec.taskOf (tidF ids r)
/-- The real number a finite entry of `x` is. -/
abbrev xr (x : FVec Ideal S131072x128 .f32) (hx : ∀ i, ∃ r : ℝ, x i = (r : EReal)) (r : Fin 131072) (j : Fin 128) : ℝ :=
  Classical.choose (hx (ix2 r j))
theorem xr_spec (x : FVec Ideal S131072x128 .f32) (hx : ∀ i, ∃ r : ℝ, x i = (r : EReal)) (r : Fin 131072) (j : Fin 128) :
    x (ix2 r j) = ((xr x hx r j : ℝ) : EReal) := Classical.choose_spec (hx (ix2 r j))
/-- The batch count of task `t`, as a number. -/
abbrev nbR (ids : IVec S131072 32) (t : Fin 64) : EReal := ((Spec.cnt (tidF ids) t : ℝ) : EReal)
/-- The sum of feature `j` over the rows of task `t`. -/
abbrev sxR (x : FVec Ideal S131072x128 .f32) (hx : ∀ i, ∃ r : ℝ, x i = (r : EReal)) (ids : IVec S131072 32)
    (t : Fin 64) (j : Fin 128) : EReal :=
  ((∑ r ∈ Spec.seg (tidF ids) t, xr x hx r j : ℝ) : EReal)
/-- The sum of squared deviations of feature `j` from its task mean, over the rows of task `t`. -/
abbrev vrR (x : FVec Ideal S131072x128 .f32) (hx : ∀ i, ∃ r : ℝ, x i = (r : EReal)) (ids : IVec S131072 32)
    (t : Fin 64) (j : Fin 128) : EReal :=
  ((∑ r ∈ Spec.seg (tidF ids) t,
      (xr x hx r j - (∑ q ∈ Spec.seg (tidF ids) t, xr x hx q j) / (Spec.cnt (tidF ids) t : ℝ))
        * (xr x hx r j - (∑ q ∈ Spec.seg (tidF ids) t, xr x hx q j) / (Spec.cnt (tidF ids) t : ℝ)) : ℝ) : EReal)

/-! ## The ids as the gathers and scatters read them -/

theorem v4_at (ids : IVec S131072 32) (hr : ∀ i, 0 ≤ (ids i).toInt ∧ (ids i).toInt < 64) (i : S131072.Idx) :
    val_main_v4 (F := Ideal) ids i = ids i := by
  rw [val_main_v4_apply, val_main_v1_apply, val_main_v3_apply, val_main_v0_apply, val_main_v2_apply, val_main_c_apply,
    val_main_c_0_apply]
  exact wrap_word (hr i).1
theorem v11_at (ids : IVec S131072 32) (hr : ∀ i, 0 ≤ (ids i).toInt ∧ (ids i).toInt < 64) (i : S131072.Idx) :
    val_main_v11 (F := Ideal) ids i = ids i := by
  rw [val_main_v11_apply, val_main_v8_apply, val_main_v10_apply, val_main_v7_apply, val_main_v9_apply, val_main_c_1_apply,
    val_main_c_2_apply]
  exact wrap_word (hr i).1
theorem v34_at (ids : IVec S131072 32) (hr : ∀ i, 0 ≤ (ids i).toInt ∧ (ids i).toInt < 64) (i : S131072.Idx) :
    val_main_v34 (F := Ideal) ids i = ids i := by
  rw [val_main_v34_apply, val_main_v31_apply, val_main_v33_apply, val_main_v30_apply, val_main_v32_apply, val_main_c_7_apply,
    val_main_c_8_apply]
  exact wrap_word (hr i).1

theorem v5_at (ids : IVec S131072 32) (hr : ∀ i, 0 ≤ (ids i).toInt ∧ (ids i).toInt < 64) (r : Fin 131072) :
    val_main_v5 (F := Ideal) ids (ix2 r (0 : Fin 1)) = ids (ix1 r) := by
  unfold val_main_v5
  rw [bcast_col_apply (n := 131072) (by decide)]
  exact v4_at ids hr _
theorem v12_at (ids : IVec S131072 32) (hr : ∀ i, 0 ≤ (ids i).toInt ∧ (ids i).toInt < 64) (r : Fin 131072) :
    val_main_v12 (F := Ideal) ids (ix2 r (0 : Fin 1)) = ids (ix1 r) := by
  unfold val_main_v12
  rw [bcast_col_apply (n := 131072) (by decide)]
  exact v11_at ids hr _
theorem v35_at (ids : IVec S131072 32) (hr : ∀ i, 0 ≤ (ids i).toInt ∧ (ids i).toInt < 64) (r : Fin 131072) :
    val_main_v35 (F := Ideal) ids (ix2 r (0 : Fin 1)) = ids (ix1 r) := by
  unfold val_main_v35
  rw [bcast_col_apply (n := 131072) (by decide)]
  exact v34_at ids hr _
theorem v20_at (ids : IVec S131072 32) (r : Fin 131072) :
    val_main_v20 (F := Ideal) ids (ix2 r (0 : Fin 1)) = ids (ix1 r) := by
  unfold val_main_v20
  rw [bcast_col_apply (n := 131072) (by decide)]
theorem v23_at (ids : IVec S131072 32) (r : Fin 131072) :
    val_main_v23 (F := Ideal) ids (ix2 r (0 : Fin 1)) = ids (ix1 r) := by
  unfold val_main_v23
  rw [bcast_col_apply (n := 131072) (by decide)]
theorem v40_at (ids : IVec S131072 32) (r : Fin 131072) :
    val_main_v40 (F := Ideal) ids (ix2 r (0 : Fin 1)) = ids (ix1 r) := by
  unfold val_main_v40
  rw [bcast_col_apply (n := 131072) (by decide)]

/-- The gathered old mean: row `r` reads its task's row of the table. -/
theorem v6_at (ids : IVec S131072 32) (tbl : FVec Ideal S64x128 .f32) (hr : ∀ i, 0 ≤ (ids i).toInt ∧ (ids i).toInt < 64)
    (r : Fin 131072) (j : Fin 128) :
    val_main_v6 (F := Ideal) ids tbl (ix2 r j) = tbl (ix2 (T ids r) j) := by
  unfold val_main_v6
  exact gather_task tbl _ r j _ (v5_at ids hr r) (hr _).1 (hr _).2
/-- The gathered old deviation. -/
theorem v13_at (ids : IVec S131072 32) (tbl : FVec Ideal S64x128 .f32) (hr : ∀ i, 0 ≤ (ids i).toInt ∧ (ids i).toInt < 64)
    (r : Fin 131072) (j : Fin 128) :
    val_main_v13 (F := Ideal) ids tbl (ix2 r j) = tbl (ix2 (T ids r) j) := by
  unfold val_main_v13
  exact gather_task tbl _ r j _ (v12_at ids hr r) (hr _).1 (hr _).2

/-! ## Result 0: the normalized rows -/

theorem ref_out (x : FVec Ideal S131072x128 .f32) (ids : IVec S131072 32) (mean std : FVec Ideal S64x128 .f32)
    (hr : ∀ i, 0 ≤ (ids i).toInt ∧ (ids i).toInt < 64) (r : Fin 131072) (j : Fin 128) :
    val_main_v17 (F := Ideal) x ids mean std (ix2 r j)
      = Spec.outAt (x (ix2 r j)) (mean (ix2 (T ids r) j)) (std (ix2 (T ids r) j)) := by
  rw [val_main_v17_apply, val_main_v14_apply, val_main_v16_apply, v6_at ids mean hr, v13_at ids std hr, val_main_v15_apply,
    val_main_cst_apply]
  rfl

/-! ## The batch count -/

theorem zero19_at (t : Fin 64) : val_main_v19 (F := Ideal) (ix1 t) = Spec.zero := by
  rw [val_main_v19_apply, val_main_cst_4_apply]; rfl
theorem one18_at (r : Fin 131072) : val_main_v18 (F := Ideal) (ix1 r) = Spec.one := by
  rw [val_main_v18_apply, val_main_cst_3_apply]; rfl

theorem ref_nb (ids : IVec S131072 32) (hr : ∀ i, 0 ≤ (ids i).toInt ∧ (ids i).toInt < 64) (t : Fin 64) :
    val_main_v21 (F := Ideal) ids (ix1 t) = nbR ids t := by
  show Ideal.hostScatterAdd scatter_S64_S131072x1_S131072_n_0_0_1 (val_main_v19 (F := Ideal))
    (val_main_v20 (F := Ideal) ids) (val_main_v18 (F := Ideal)) (ix1 t) = _
  rw [scatter1_sum _ _ _ (tidF ids) (fun r => v20_at ids r) (fun r => hr (ix1 r)) t, zero19_at,
    Finset.sum_congr rfl (fun r _ => one18_at r), Spec.zero_eq, Spec.one_eq, ← Spec.coe_sum, ← EReal.coe_add]
  refine congrArg (fun v : ℝ => (v : EReal)) ?_
  rw [Finset.sum_const, nsmul_eq_mul, mul_one, zero_add]
  rfl

/-! ## Result 4: the new count -/

theorem ref_count (ids : IVec S131072 32) (cw : IVec S64 32) (hr : ∀ i, 0 ≤ (ids i).toInt ∧ (ids i).toInt < 64) (t : Fin 64) :
    val_main_v84 (F := Ideal) ids cw (ix1 t) = Spec.newCount (nbR ids t) (cw (ix1 t)) := by
  rw [val_main_v84_apply, val_main_v83_apply, ref_nb ids hr t]
  rfl

/-! ## The batch mean -/

theorem zero22_at (t : Fin 64) (j : Fin 128) : val_main_v22 (F := Ideal) (ix2 t j) = Spec.zero := by
  rw [val_main_v22_apply, val_main_cst_5_apply]; rfl
theorem zero39_at (t : Fin 64) (j : Fin 128) : val_main_v39 (F := Ideal) (ix2 t j) = Spec.zero := by
  rw [val_main_v39_apply, val_main_cst_9_apply]; rfl

/-- `max n 1` of the batch count, per task … -/
theorem safe26_at (ids : IVec S131072 32) (hr : ∀ i, 0 ≤ (ids i).toInt ∧ (ids i).toInt < 64) (t : Fin 64) :
    val_main_v26 (F := Ideal) ids (ix1 t) = Spec.safeNb (nbR ids t) := by
  rw [val_main_v26_apply, ref_nb ids hr t, val_main_v25_apply, val_main_cst_6_apply]
  rfl
/-- … and laid over the features, for the mean's division … -/
theorem safe28_at (ids : IVec S131072 32) (hr : ∀ i, 0 ≤ (ids i).toInt ∧ (ids i).toInt < 64) (t : Fin 64) (j : Fin 128) :
    val_main_v28 (F := Ideal) ids (ix2 t j) = Spec.safeNb (nbR ids t) := by
  unfold val_main_v28 val_main_v27
  rw [bcast_rows_apply (n := 64) (by decide)]
  exact safe26_at ids hr t
/-- … and for the variance's. -/
theorem safe43_at (ids : IVec S131072 32) (hr : ∀ i, 0 ≤ (ids i).toInt ∧ (ids i).toInt < 64) (t : Fin 64) (j : Fin 128) :
    val_main_v43 (F := Ideal) ids (ix2 t j) = Spec.safeNb (nbR ids t) := by
  unfold val_main_v43 val_main_v42
  rw [bcast_rows_apply (n := 64) (by decide)]
  exact safe26_at ids hr t

/-- The per-task sum of the rows. -/
theorem v24_at (x : FVec Ideal S131072x128 .f32) (hx : ∀ i, ∃ r : ℝ, x i = (r : EReal)) (ids : IVec S131072 32)
    (hr : ∀ i, 0 ≤ (ids i).toInt ∧ (ids i).toInt < 64) (t : Fin 64) (j : Fin 128) :
    val_main_v24 (F := Ideal) x ids (ix2 t j) = sxR x hx ids t j := by
  show Ideal.hostScatterAdd scatter_S64x128_S131072x1_S131072x128_1_0_0_1 (val_main_v22 (F := Ideal))
    (val_main_v23 (F := Ideal) ids) x (ix2 t j) = _
  rw [scatter2_sum _ _ _ (tidF ids) (fun r => v23_at ids r) (fun r => hr (ix1 r)) t j, zero22_at,
    Finset.sum_congr rfl (fun r _ => xr_spec x hx r j), Spec.zero_eq, ← Spec.coe_sum, ← EReal.coe_add, zero_add]

theorem ref_bm (x : FVec Ideal S131072x128 .f32) (hx : ∀ i, ∃ r : ℝ, x i = (r : EReal)) (ids : IVec S131072 32)
    (hr : ∀ i, 0 ≤ (ids i).toInt ∧ (ids i).toInt < 64) (t : Fin 64) (j : Fin 128) :
    val_main_v29 (F := Ideal) x ids (ix2 t j) = Spec.plainMean (nbR ids t) (sxR x hx ids t j) := by
  rw [val_main_v29_apply, v24_at x hx ids hr, safe28_at ids hr]
  rfl

/-! ## The batch variance -/

/-- A row's own task has a row. -/
theorem cnt_pos (ids : IVec S131072 32) (r : Fin 131072) : 0 < Spec.cnt (tidF ids) (T ids r) :=
  Finset.card_pos.mpr ⟨r, Finset.mem_filter.mpr ⟨Finset.mem_univ _, rfl⟩⟩

/-- The batch mean gathered back to row `r` is the real mean of `r`'s task. -/
theorem v36_at (x : FVec Ideal S131072x128 .f32) (hx : ∀ i, ∃ r : ℝ, x i = (r : EReal)) (ids : IVec S131072 32)
    (hr : ∀ i, 0 ≤ (ids i).toInt ∧ (ids i).toInt < 64) (r : Fin 131072) (j : Fin 128) :
    val_main_v36 (F := Ideal) x ids (ix2 r j)
      = (((∑ q ∈ Spec.seg (tidF ids) (T ids r), xr x hx q j) / (Spec.cnt (tidF ids) (T ids r) : ℝ) : ℝ) : EReal) := by
  unfold val_main_v36
  rw [gather_task _ _ r j _ (v35_at ids hr r) (hr _).1 (hr _).2]
  show val_main_v29 (F := Ideal) x ids (ix2 (T ids r) j) = _
  rw [ref_bm x hx ids hr]
  exact Spec.div_natCast _ _ (cnt_pos ids r)

/-- The squared deviation of one element from a real mean. -/
theorem v38_at (x : FVec Ideal S131072x128 .f32) (ids : IVec S131072 32) (r : Fin 131072) (j : Fin 128) (a m : ℝ)
    (ha : x (ix2 r j) = (a : EReal)) (hm : val_main_v36 (F := Ideal) x ids (ix2 r j) = (m : EReal)) :
    val_main_v38 (F := Ideal) x ids (ix2 r j) = (((a - m) * (a - m) : ℝ) : EReal) := by
  rw [val_main_v38_apply, val_main_v37_apply, ha, hm]
  show ((a : EReal) - (m : EReal)) * ((a : EReal) - (m : EReal)) = _
  rw [← EReal.coe_sub, ← EReal.coe_mul]

/-- The per-task sum of squared deviations from the task's mean. -/
theorem v41_at (x : FVec Ideal S131072x128 .f32) (hx : ∀ i, ∃ r : ℝ, x i = (r : EReal)) (ids : IVec S131072 32)
    (hr : ∀ i, 0 ≤ (ids i).toInt ∧ (ids i).toInt < 64) (t : Fin 64) (j : Fin 128) :
    val_main_v41 (F := Ideal) x ids (ix2 t j) = vrR x hx ids t j := by
  have h38 : ∀ r ∈ Spec.seg (tidF ids) t, val_main_v38 (F := Ideal) x ids (ix2 r j)
      = (((xr x hx r j - (∑ q ∈ Spec.seg (tidF ids) t, xr x hx q j) / (Spec.cnt (tidF ids) t : ℝ))
          * (xr x hx r j - (∑ q ∈ Spec.seg (tidF ids) t, xr x hx q j) / (Spec.cnt (tidF ids) t : ℝ)) : ℝ) : EReal) := by
    intro r hrt
    have hT : T ids r = t := (Finset.mem_filter.mp hrt).2
    subst hT
    exact v38_at x ids r j _ _ (xr_spec x hx r j) (v36_at x hx ids hr r j)
  show Ideal.hostScatterAdd scatter_S64x128_S131072x1_S131072x128_1_0_0_1 (val_main_v39 (F := Ideal))
    (val_main_v40 (F := Ideal) ids) (val_main_v38 (F := Ideal) x ids) (ix2 t j) = _
  rw [scatter2_sum _ _ _ (tidF ids) (fun r => v40_at ids r) (fun r => hr (ix1 r)) t j, zero39_at,
    Finset.sum_congr rfl h38, Spec.zero_eq, ← Spec.coe_sum, ← EReal.coe_add, zero_add]

theorem ref_bv (x : FVec Ideal S131072x128 .f32) (hx : ∀ i, ∃ r : ℝ, x i = (r : EReal)) (ids : IVec S131072 32)
    (hr : ∀ i, 0 ≤ (ids i).toInt ∧ (ids i).toInt < 64) (t : Fin 64) (j : Fin 128) :
    val_main_v44 (F := Ideal) x ids (ix2 t j) = Ideal.div (vrR x hx ids t j) (Spec.safeNb (nbR ids t)) := by
  rw [val_main_v44_apply, v41_at x hx ids hr, safe43_at ids hr]
  rfl

/-! ## Results 1, 2, 3: the merged statistics

The merge of one entry is the scalar function Spec.lean states, of the batch count, mean and variance read above. -/

theorem ref_mean (x : FVec Ideal S131072x128 .f32) (hx : ∀ i, ∃ r : ℝ, x i = (r : EReal)) (ids : IVec S131072 32)
    (mean : FVec Ideal S64x128 .f32) (cw : IVec S64 32) (hr : ∀ i, 0 ≤ (ids i).toInt ∧ (ids i).toInt < 64)
    (t : Fin 64) (j : Fin 128) :
    val_main_v80 (F := Ideal) x ids mean cw (ix2 t j)
      = Spec.newMean (nbR ids t) (Spec.plainMean (nbR ids t) (sxR x hx ids t j)) (mean (ix2 t j)) (cw (ix1 t)) := by
  rw [RefTail.ref_tail_mean, ref_nb ids hr, ref_bm x hx ids hr]

theorem ref_var (x : FVec Ideal S131072x128 .f32) (hx : ∀ i, ∃ r : ℝ, x i = (r : EReal)) (ids : IVec S131072 32)
    (mean var : FVec Ideal S64x128 .f32) (cw : IVec S64 32) (hr : ∀ i, 0 ≤ (ids i).toInt ∧ (ids i).toInt < 64)
    (t : Fin 64) (j : Fin 128) :
    val_main_v79 (F := Ideal) x ids mean var cw (ix2 t j)
      = Spec.newVar (nbR ids t) (Spec.plainMean (nbR ids t) (sxR x hx ids t j))
          (Ideal.div (vrR x hx ids t j) (Spec.safeNb (nbR ids t))) (mean (ix2 t j)) (var (ix2 t j)) (cw (ix1 t)) := by
  rw [RefTail.ref_tail_var, ref_nb ids hr, ref_bm x hx ids hr, ref_bv x hx ids hr]

theorem ref_std (x : FVec Ideal S131072x128 .f32) (hx : ∀ i, ∃ r : ℝ, x i = (r : EReal)) (ids : IVec S131072 32)
    (mean var std : FVec Ideal S64x128 .f32) (cw : IVec S64 32) (hr : ∀ i, 0 ≤ (ids i).toInt ∧ (ids i).toInt < 64)
    (t : Fin 64) (j : Fin 128) :
    val_main_v82 (F := Ideal) x ids mean var std cw (ix2 t j)
      = Spec.newStd (nbR ids t) (Spec.plainMean (nbR ids t) (sxR x hx ids t j))
          (Ideal.div (vrR x hx ids t j) (Spec.safeNb (nbR ids t))) (mean (ix2 t j)) (var (ix2 t j)) (std (ix2 t j))
          (cw (ix1 t)) := by
  rw [RefTail.ref_tail_std, ref_nb ids hr, ref_bm x hx ids hr, ref_bv x hx ids hr]

end Cert.ReferenceIdeal.RefValue

end
-- ==== Proof.PreDecode.lean ====
/-
  WHAT THE PRECONDITION `finite_inputs` SAYS OF THE ARGUMENT ARRAYS, read at the extended reals.

  The printed precondition is a conjunction of five all-reductions by `and` (from the constant 1) of `i1` arrays:
  for each of the four float arrays a — x [131072 × 128], mean, var, std [64 × 128] — the array of comparisons
  |a| < +∞ (the pattern 0x7F800000 broadcast), and for the word array task_ids [131072] the array of
  0 ≤ t ∧ t < 64, both comparisons signed. The claim states that the conjunction is 1.

  Read back: a conjunction of bits is 1 exactly when each is; an all-reduction by `and` that is 1 met a 1 at every
  index; at one index, |a| < +∞ on the extended reals (|a| = max a (-a), and 0x7F800000 denotes ⊤) leaves only the
  real numbers, since max ⊥ (-⊥) = max ⊤ (-⊤) = ⊤; and the two signed comparisons say 0 ≤ t < 64 of the word read
  signed. Nothing here enumerates an index set: every step is the universal property of the reduction.
-/
import proofs.«402983_j34497177321524_3_alg».proof.Pre_finite_inputs
import Idealize.ShloMosaic.PureOps.Ideal
import Idealize.ShloMosaic.Lib.ReduceAll
import Idealize.ShloMosaic.Lib.StableHlo.Predicate
import Idealize.ShloMosaic.Lib.ValueIdx
import Mathlib.Data.EReal.Basic

noncomputable section

namespace Cert.PreDecode

open Idealize.ShloMosaic Cert.Pre_finite_inputs

/-- The scalar shape has one index. -/
instance : Subsingleton S_.Idx := ⟨fun a b => funext fun d => d.elim0⟩

/-! ## One element -/

/-- The f32 pattern 0x7F800000 (sign 0, exponent all ones, fraction 0) denotes +∞. -/
theorem ofBits_inf : Ideal.ofBits .f32 0x7F800000#32 = (⊤ : EReal) := by
  simp [Ideal.ofBits, Ideal.ieee]

/-- An extended real whose absolute value max a (-a) is below ⊤ is a real number: at ⊥ and at ⊤ the maximum is ⊤. -/
theorem real_of_abs_lt_top (a : EReal) (h : max a (-a) < ⊤) : ∃ r : ℝ, a = (r : EReal) := by
  induction a using EReal.rec with
  | bot => simp at h
  | coe r => exact ⟨r, rfl⟩
  | top => simp at h

/-- The comparison |a| < +∞ that is 1 at index i: a i is a real number. -/
theorem elem_real {s : Shape} (hb : S_.BroadcastsInDim s (![] : Fin 0 → Fin s.rank)) (a : FVec Ideal s .f32) (i : s.Idx)
    (h : cmpf .olt (Host.absf a) (broadcastInDim s ![] hb (constant S_ .f32 0x7F800000#32)) i = 1#1) :
    ∃ r : ℝ, a i = (r : EReal) := by
  apply real_of_abs_lt_top
  -- at index i the broadcast constant is the constant, the absolute value is max (a i) (-a i), the comparison the order's
  simp only [cmpf, Host.absf, broadcastInDim, constant] at h
  change Ideal.cmp .olt (max (a i) (-a i)) (Ideal.ofBits .f32 0x7F800000#32) = 1#1 at h
  rw [ofBits_inf, Ideal.cmp, StableHlo.Predicate.ofBool_eq_one_iff, decide_eq_true_eq] at h
  exact h

/-- The conjunction 0 ≤ t ∧ t < 64 of signed comparisons with broadcast constants that is 1 at index i: the word at i,
    read signed, lies in [0, 64). -/
theorem elem_range (hb : S_.BroadcastsInDim S131072 (![] : Fin 0 → Fin S131072.rank)) (tid : IVec S131072 32) (i : S131072.Idx)
    (h : andi (cmpi .sge tid (broadcastInDim S131072 ![] hb (constantI S_ 32 0#32)))
          (cmpi .slt tid (broadcastInDim S131072 ![] hb (constantI S_ 32 64#32))) i = 1#1) :
    0 ≤ (tid i).toInt ∧ (tid i).toInt < 64 := by
  simp only [andi, cmpi, broadcastInDim, constantI] at h
  obtain ⟨h0, h64⟩ := IntOp.andi_eq_one.1 h
  rw [IntOp.cmpi_sge] at h0
  rw [IntOp.cmpi_slt] at h64
  exact ⟨by simpa using h0, by simpa using h64⟩

/-! ## The all-reductions, as the precondition prints them -/

/-- "Every element of a is finite": the all-reduction by `and` of the comparisons |a| < +∞, at the scalar's index. -/
abbrev allFinite {s : Shape} {axes : List (Fin s.rank)} (hb : S_.BroadcastsInDim s (![] : Fin 0 → Fin s.rank))
    (hr : s.ReducesTo axes S_) (h0 : 0 < S_.numel) (a : FVec Ideal s .f32) : BitVec 1 :=
  Host.reduce IntOp.andi (cmpf .olt (Host.absf a) (broadcastInDim s ![] hb (constant S_ .f32 0x7F800000#32)))
    (constantI S_ 1 1#1) hr h0 ValueIdx.ix0

/-- "Every word of tid is in [0, 64)": the all-reduction by `and` of 0 ≤ t ∧ t < 64, at the scalar's index. -/
abbrev allInRange {axes : List (Fin S131072.rank)} (hb : S_.BroadcastsInDim S131072 (![] : Fin 0 → Fin S131072.rank))
    (hr : S131072.ReducesTo axes S_) (h0 : 0 < S_.numel) (tid : IVec S131072 32) : BitVec 1 :=
  Host.reduce IntOp.andi (andi (cmpi .sge tid (broadcastInDim S131072 ![] hb (constantI S_ 32 0#32)))
    (cmpi .slt tid (broadcastInDim S131072 ![] hb (constantI S_ 32 64#32)))) (constantI S_ 1 1#1) hr h0 ValueIdx.ix0

/-- An all-reduction of the finiteness comparisons that is 1: every element is a real number. -/
theorem all_real {s : Shape} {axes : List (Fin s.rank)} (hb : S_.BroadcastsInDim s (![] : Fin 0 → Fin s.rank))
    (hr : s.ReducesTo axes S_) (h0 : 0 < S_.numel) (a : FVec Ideal s .f32) (h : allFinite hb hr h0 a = 1#1) (i : s.Idx) :
    ∃ r : ℝ, a i = (r : EReal) :=
  elem_real hb a i (Host.reduce_andi_all _ _ hr h0 ValueIdx.ix0 h i)

/-- An all-reduction of the range comparisons that is 1: every word, read signed, is in [0, 64). -/
theorem all_range {axes : List (Fin S131072.rank)} (hb : S_.BroadcastsInDim S131072 (![] : Fin 0 → Fin S131072.rank))
    (hr : S131072.ReducesTo axes S_) (h0 : 0 < S_.numel) (tid : IVec S131072 32) (h : allInRange hb hr h0 tid = 1#1)
    (i : S131072.Idx) : 0 ≤ (tid i).toInt ∧ (tid i).toInt < 64 :=
  elem_range hb tid i (Host.reduce_andi_all _ _ hr h0 ValueIdx.ix0 h i)

/-! ## The precondition split, and its five conjuncts -/

section
variable [Facts]
open Facts

variable (x : FVec Ideal S131072x128 .f32) (tid : IVec S131072 32) (mean var std : FVec Ideal S64x128 .f32) (cnt : IVec S64 32)

/-- THE CONJUNCTION SPLIT: the precondition is the `and` of its five all-reductions (x, mean, var, std, task_ids, nested to
    the left in that order), so where it is 1 each of the five is. -/
theorem pre_split (h : fn (F := Ideal) x tid mean var std cnt = fun _ => 1#1) :
    allFinite bcast_S_S131072x128 reducesTo_S131072x128_S_d0_1 h_S_ x = 1#1
      ∧ allFinite bcast_S_S64x128 reducesTo_S64x128_S_d0_1 h_S_ mean = 1#1
      ∧ allFinite bcast_S_S64x128 reducesTo_S64x128_S_d0_1 h_S_ var = 1#1
      ∧ allFinite bcast_S_S64x128 reducesTo_S64x128_S_d0_1 h_S_ std = 1#1
      ∧ allInRange bcast_S_S131072 reducesTo_S131072_S_d0 h_S_ tid = 1#1 := by
  have e := congrFun h ValueIdx.ix0
  dsimp only [fn, fn_part1] at e
  obtain ⟨e4, et⟩ := IntOp.andi_eq_one.1 e
  obtain ⟨e3, es⟩ := IntOp.andi_eq_one.1 e4
  obtain ⟨e2, ev⟩ := IntOp.andi_eq_one.1 e3
  obtain ⟨ex, em⟩ := IntOp.andi_eq_one.1 e2
  exact ⟨ex, em, ev, es, et⟩

variable {x tid mean var std cnt}

/-- Every element of x is a real number. -/
theorem x_real (h : fn (F := Ideal) x tid mean var std cnt = fun _ => 1#1) (i : S131072x128.Idx) : ∃ r : ℝ, x i = (r : EReal) :=
  all_real _ _ _ x (pre_split x tid mean var std cnt h).1 i

/-- Every element of mean_buf is a real number. -/
theorem mean_real (h : fn (F := Ideal) x tid mean var std cnt = fun _ => 1#1) (i : S64x128.Idx) : ∃ r : ℝ, mean i = (r : EReal) :=
  all_real _ _ _ mean (pre_split x tid mean var std cnt h).2.1 i

/-- Every element of var_buf is a real number. -/
theorem var_real (h : fn (F := Ideal) x tid mean var std cnt = fun _ => 1#1) (i : S64x128.Idx) : ∃ r : ℝ, var i = (r : EReal) :=
  all_real _ _ _ var (pre_split x tid mean var std cnt h).2.2.1 i

/-- Every element of std_buf is a real number. -/
theorem std_real (h : fn (F := Ideal) x tid mean var std cnt = fun _ => 1#1) (i : S64x128.Idx) : ∃ r : ℝ, std i = (r : EReal) :=
  all_real _ _ _ std (pre_split x tid mean var std cnt h).2.2.2.1 i

/-- Every task id, read signed, is in [0, 64). -/
theorem tid_range (h : fn (F := Ideal) x tid mean var std cnt = fun _ => 1#1) (i : S131072.Idx) :
    0 ≤ (tid i).toInt ∧ (tid i).toInt < 64 :=
  all_range _ _ _ tid (pre_split x tid mean var std cnt h).2.2.2.2 i

end

/-- THE PRECONDITION DECODED: the four float arrays hold real numbers and every task id is in [0, 64). -/
theorem of_pre [Cert.Pre_finite_inputs.Facts] (x : FVec Ideal S131072x128 .f32) (tid : IVec S131072 32) (mean var std : FVec Ideal S64x128 .f32)
    (cnt : IVec S64 32) (h : Cert.Pre_finite_inputs.fn (F := Ideal) x tid mean var std cnt = fun _ => 1#1) :
    (∀ i, ∃ r : ℝ, x i = (r : EReal)) ∧ (∀ i, ∃ r : ℝ, mean i = (r : EReal)) ∧ (∀ i, ∃ r : ℝ, var i = (r : EReal))
      ∧ (∀ i, ∃ r : ℝ, std i = (r : EReal)) ∧ (∀ i, 0 ≤ (tid i).toInt ∧ (tid i).toInt < 64) :=
  ⟨x_real h, mean_real h, var_real h, std_real h, tid_range h⟩

end Cert.PreDecode

end
-- ==== Proof.Bridge.lean ====
/-
  THE LAST CONJUNCT: at the ideal instance the idealized kernel program and the idealized reference, run from
  memories that agree on the six arguments, end with equal results and unchanged arguments.

  The witnesses are the kernel's own values: the normalized rows as the region leaves them, and the four statistics
  as the seven host stretches after the region leave them. The kernel's run is the frame run, read at those buffers.
  The reference's run states each result as a closed term of its arguments; each term is shown equal to the kernel's
  value entry by entry. The normalized rows are the same function (x - μ) / (σ + ε) of the row's task on both sides.
  For a statistic both sides are one scalar merge of the batch count, the batch mean and the batch variance into the
  entry's old numbers; the kernel forms the batch moments from sums shifted by the old mean, the reference from the
  plain two-pass formulas, and over the reals these agree wherever the task has a row, which is the only place the
  merge looks at them. Both sides' real numbers are chosen from one finiteness fact, so they are the same numbers.
-/
import proofs.«402983_j34497177321524_3_alg».proof.Defs
import proofs.«402983_j34497177321524_3_alg».proof.Proof.Gen.Pre_finite_inputs
import proofs.«402983_j34497177321524_3_alg».proof.Proof.KernelIdealFrame
import proofs.«402983_j34497177321524_3_alg».proof.Proof.KernelValue
import proofs.«402983_j34497177321524_3_alg».proof.Proof.KernelTail
import proofs.«402983_j34497177321524_3_alg».proof.Proof.RefValue
import proofs.«402983_j34497177321524_3_alg».proof.Proof.PreDecode
import proofs.«402983_j34497177321524_3_alg».proof.Proof.Spec

set_option maxRecDepth 16384

noncomputable section

namespace Cert.Bridge

open Idealize.ShloMosaic Idealize.ShloMosaic.ValueIdx Idealize.ShloMosaic.TcCoe Idealize.SL.Sem
open Cert.KernelIdeal Cert.KernelIdeal.Gen
open Cert.KernelIdeal.KValue (X IDS MEAN STD idsF xr mur nbK s1K s2K)

/-! ## The kernel's side: the results after the seven stretches, read at an entry -/

section Kernel

variable (m : (ℓ : Loc nD τ sig) → Buf (Elt Ideal) ℓ) (c : Dev nD)

/-- The table of variances and the tasks' counts, as the region finds them. -/
abbrev VAR : S64x128.Idx → EReal := m ((c : Thread nD τ).loc main_arg3)
abbrev CNT : S64.Idx → BitVec 32 := m ((c : Thread nD τ).loc main_arg5)

/-- The core's buffers when the region ends: its arrays at their final contents, every other buffer as the region
    found it. -/
abbrev W : Valuation τ sig (Elt Ideal) :=
  Pipeline.withArrays spec0 c (Region.V0 m c) fun w => (Region.dats m 0 c).arrAt w cfg0.N

/-- What the stretches read of those buffers: the two accumulator outputs at their final contents, the four statistics
    at their launch contents. -/
theorem W_counts : Tail.cnts (W m c) = Arrays.arr4 m c :=
  Pipeline.withArrays_arr spec0 launch0.win.arr_inj c _ _ 4
theorem W_sums : Tail.sums (W m c) = Arrays.arr5 m c :=
  Pipeline.withArrays_arr spec0 launch0.win.arr_inj c _ _ 5
theorem W_mu : Tail.mu (W m c) = MEAN m c :=
  (Pipeline.withArrays_of_ne spec0 c _ _ main_arg2 (by decide)).trans (Region.V_main_arg2 m c)
theorem W_var : Tail.var (W m c) = VAR m c :=
  (Pipeline.withArrays_of_ne spec0 c _ _ main_arg3 (by decide)).trans (Region.V_main_arg3 m c)
theorem W_sd : Tail.sd (W m c) = STD m c :=
  (Pipeline.withArrays_of_ne spec0 c _ _ main_arg4 (by decide)).trans (Region.V_main_arg4 m c)
theorem W_cw : Tail.cw (W m c) = CNT m c :=
  (Pipeline.withArrays_of_ne spec0 c _ _ main_arg5 (by decide)).trans (Region.V_main_arg5 m c)

/-- A buffer the region bypasses, after the seven stretches. -/
abbrev kres (b : Ref sig .tc) : Buf (Elt Ideal) ((c : Thread nD τ).loc b) :=
  Pipeline.afterTail₀ cfgs (Region.dats m) 0 (Region.V0 m) Region.tailOps c b

theorem kres_eq (b : Ref sig .tc) : kres m c b = StableHlo.after Tail.tail (W m c) (Proc.devRef .tc b) := rfl

variable (hx : ∀ i, ∃ r : ℝ, X m c i = (r : EReal)) (hmean : ∀ i, ∃ r : ℝ, MEAN m c i = (r : EReal))
  (hstd : ∀ i, ∃ r : ℝ, STD m c i = (r : EReal)) (hr : ∀ i, 0 ≤ (IDS m c i).toInt ∧ (IDS m c i).toInt < 64)

include hr in
/-- The batch count the stretches read is the number of task t's rows. -/
theorem nbOf_eq (t : Fin 64) : Tail.nbOf (W m c) t = nbK m c t := by
  unfold Tail.nbOf; rw [W_counts]; exact KValue.kv_nb m c hr t

include hstd hr in
/-- The first shifted sum they read is the sum of the rows' centered entries. -/
theorem s1Of_eq (t : Fin 64) (j : Fin 128) : Tail.s1Of (W m c) t j = s1K m c hx hmean t j := by
  unfold Tail.s1Of; rw [W_sums]; exact KValue.kv_s1 m c hx hmean hstd hr t j

include hstd hr in
/-- The second is the sum of their squares. -/
theorem s2Of_eq (t : Fin 64) (j : Fin 128) : Tail.s2Of (W m c) t j = s2K m c hx hmean t j := by
  unfold Tail.s2Of; rw [W_sums]; exact KValue.kv_s2 m c hx hmean hstd hr t j

/-- The plain sum of task t's rows at feature j, and the sum of the squared deviations from their mean. -/
def sxK (t : Fin 64) (j : Fin 128) : EReal := ((∑ r ∈ Spec.seg (idsF m c) t, xr m c hx r j : ℝ) : EReal)
def vrK (t : Fin 64) (j : Fin 128) : EReal :=
  ((∑ r ∈ Spec.seg (idsF m c) t,
      (xr m c hx r j - (∑ q ∈ Spec.seg (idsF m c) t, xr m c hx q j) / ((Spec.seg (idsF m c) t).card : ℝ))
        * (xr m c hx r j - (∑ q ∈ Spec.seg (idsF m c) t, xr m c hx q j) / ((Spec.seg (idsF m c) t).card : ℝ)) : ℝ) : EReal)

/-- Where task t has rows, the batch mean formed from the shifted sum is the plain one; -/
theorem bmean_eq (t : Fin 64) (j : Fin 128) (hk : 0 < Spec.cnt (idsF m c) t) :
    Spec.shiftedMean (nbK m c t) (s1K m c hx hmean t j) (MEAN m c (ix2 t j))
      = Spec.plainMean (nbK m c t) (sxK m c hx t j) := by
  rw [KValue.mur_spec m c hmean t j]
  exact Spec.shiftedMean_eq (Spec.seg (idsF m c) t) (fun r => xr m c hx r j) (mur m c hmean t j) hk

/-- and the batch variance formed from the shifted sums is the two-pass one. -/
theorem bvar_eq (t : Fin 64) (j : Fin 128) (hk : 0 < Spec.cnt (idsF m c) t) :
    Spec.shiftedVar (nbK m c t) (s1K m c hx hmean t j) (s2K m c hx hmean t j)
      = Ideal.div (vrK m c hx t j) (Spec.safeNb (nbK m c t)) :=
  Spec.shiftedVar_eq (Spec.seg (idsF m c) t) (fun r => xr m c hx r j) (mur m c hmean t j) hk

include hmean hstd hr in
/-- The new mean the kernel's program leaves at entry (t, j), in the plain batch mean. -/
theorem k_mean (t : Fin 64) (j : Fin 128) :
    kres m c main_v74 (ix2 t j)
      = Spec.newMean (nbK m c t) (Spec.plainMean (nbK m c t) (sxK m c hx t j)) (MEAN m c (ix2 t j)) (CNT m c (ix1 t)) := by
  rw [kres_eq, Tail.tail_mean, nbOf_eq m c hr, s1Of_eq m c hx hmean hstd hr, W_mu, W_cw]
  exact Spec.newMean_congr (Spec.cnt (idsF m c) t) _ _ _ _ (bmean_eq m c hx hmean t j)

include hmean hstd hr in
/-- The new variance. -/
theorem k_var (t : Fin 64) (j : Fin 128) :
    kres m c main_v73 (ix2 t j)
      = Spec.newVar (nbK m c t) (Spec.plainMean (nbK m c t) (sxK m c hx t j)) (Ideal.div (vrK m c hx t j) (Spec.safeNb (nbK m c t)))
          (MEAN m c (ix2 t j)) (VAR m c (ix2 t j)) (CNT m c (ix1 t)) := by
  rw [kres_eq, Tail.tail_var, nbOf_eq m c hr, s1Of_eq m c hx hmean hstd hr, s2Of_eq m c hx hmean hstd hr, W_mu, W_var, W_cw]
  exact Spec.newVar_congr (Spec.cnt (idsF m c) t) _ _ _ _ _ _ _ fun hk => ⟨bmean_eq m c hx hmean t j hk, bvar_eq m c hx hmean t j hk⟩

include hmean hstd hr in
/-- The new deviation. -/
theorem k_std (t : Fin 64) (j : Fin 128) :
    kres m c main_v76 (ix2 t j)
      = Spec.newStd (nbK m c t) (Spec.plainMean (nbK m c t) (sxK m c hx t j)) (Ideal.div (vrK m c hx t j) (Spec.safeNb (nbK m c t)))
          (MEAN m c (ix2 t j)) (VAR m c (ix2 t j)) (STD m c (ix2 t j)) (CNT m c (ix1 t)) := by
  rw [kres_eq, Tail.tail_std, nbOf_eq m c hr, s1Of_eq m c hx hmean hstd hr, s2Of_eq m c hx hmean hstd hr, W_mu, W_var, W_sd, W_cw]
  exact Spec.newStd_congr (Spec.cnt (idsF m c) t) _ _ _ _ _ _ _ _ fun hk => ⟨bmean_eq m c hx hmean t j hk, bvar_eq m c hx hmean t j hk⟩

include hr in
/-- The new count. -/
theorem k_count (t : Fin 64) :
    kres m c main_v78 (ix1 t) = Spec.newCount (nbK m c t) (CNT m c (ix1 t)) := by
  rw [kres_eq, Tail.tail_count, nbOf_eq m c hr, W_cw]

end Kernel

/-- What the frame run's post says, core by core: the normalized rows at the array the proof data compute, the four
    statistics at the stretches' values, and the six arguments at their launch contents. -/
theorem kernel_post (m : (ℓ : Loc nD τ sig) → Buf (Elt Ideal) ℓ) (r : PUnit × MemSt nD τ sig (Elt Ideal))
    (h : Pipeline.FramePost cfgs (Region.dats m) 0 (Pipeline.afterTail₀ cfgs (Region.dats m) 0 (Region.V0 m) Region.tailOps) r) (c : Dev nD) :
    r.2.mem ((c.tc : Thread nD τ).loc main_v11_0) = Arrays.arr3 m c
      ∧ r.2.mem ((c.tc : Thread nD τ).loc main_v74) = kres m c main_v74
      ∧ r.2.mem ((c.tc : Thread nD τ).loc main_v73) = kres m c main_v73
      ∧ r.2.mem ((c.tc : Thread nD τ).loc main_v76) = kres m c main_v76
      ∧ r.2.mem ((c.tc : Thread nD τ).loc main_v78) = kres m c main_v78
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  obtain ⟨harr, hrest⟩ := h c
  have hin : ∀ w : Fin 6, (cfg0.win w).isOut = false →
      r.2.mem (((cfgs 0).spec w).arr.view.loc (c.tc : Thread nD τ)) = Region.V m c (Pipeline.arrRef spec0 w) :=
    fun w hw => (harr w).trans (((Region.dats m 0 c).arrAt_in w hw _).trans (Region.A_eq m c w))
  have hby : ∀ b : Ref sig .tc, b ∈ Region.kept → b.isScoped = false → (∀ w, Pipeline.arrRef spec0 w ≠ b) →
      r.2.mem ((c.tc : Thread nD τ).loc b) = Region.V m c b :=
    fun b hb hs ha => (hrest b (Pipeline.mem_restRefs_of b hs ha)).trans (Region.afterTail_kept m (Region.dats m) c hb ha)
  exact ⟨harr 3, hrest main_v74 (Pipeline.mem_restRefs_of _ rfl (by decide)),
    hrest main_v73 (Pipeline.mem_restRefs_of _ rfl (by decide)),
    hrest main_v76 (Pipeline.mem_restRefs_of _ rfl (by decide)),
    hrest main_v78 (Pipeline.mem_restRefs_of _ rfl (by decide)),
    (hin 0 rfl).trans (Region.V_main_arg0 m c), (hin 1 rfl).trans (Region.V_main_arg1 m c),
    (hby main_arg2 (by decide) rfl (by decide)).trans (Region.V_main_arg2 m c),
    (hby main_arg3 (by decide) rfl (by decide)).trans (Region.V_main_arg3 m c),
    (hby main_arg4 (by decide) rfl (by decide)).trans (Region.V_main_arg4 m c),
    (hby main_arg5 (by decide) rfl (by decide)).trans (Region.V_main_arg5 m c)⟩

/-! ## The reference's side: each result's term is the kernel's value -/

section Reference

variable (m : (ℓ : Loc nD τ sig) → Buf (Elt Ideal) ℓ) (c : Dev nD)
variable (hx : ∀ i, ∃ r : ℝ, X m c i = (r : EReal)) (hmean : ∀ i, ∃ r : ℝ, MEAN m c i = (r : EReal))
  (hstd : ∀ i, ∃ r : ℝ, STD m c i = (r : EReal)) (hr : ∀ i, 0 ≤ (IDS m c i).toInt ∧ (IDS m c i).toInt < 64)

include hmean hstd hr in
/-- The normalized rows: both sides are (x - μ) / (σ + ε) at the row's task. -/
theorem ref_out_eq :
    Cert.ReferenceIdeal.Read.val_main_v17 (F := Ideal) (X m c) (IDS m c) (MEAN m c) (STD m c) = Arrays.arr3 m c := by
  funext i
  obtain ⟨r, j, rfl⟩ : ∃ (r : Fin 131072) (j : Fin 128), i = ix2 r j := ⟨i 0, i 1, ValueIdx.eq_ix2 i⟩
  exact (Cert.ReferenceIdeal.RefValue.ref_out (X m c) (IDS m c) (MEAN m c) (STD m c) hr r j).trans
    (KValue.kv_out m c hmean hstd hr r j).symm

include hx hmean hstd hr in
/-- The new means. -/
theorem ref_mean_eq :
    Cert.ReferenceIdeal.Read.val_main_v80 (F := Ideal) (X m c) (IDS m c) (MEAN m c) (CNT m c) = kres m c main_v74 := by
  funext i
  obtain ⟨t, j, rfl⟩ : ∃ (t : Fin 64) (j : Fin 128), i = ix2 t j := ⟨i 0, i 1, ValueIdx.eq_ix2 i⟩
  exact (Cert.ReferenceIdeal.RefValue.ref_mean (X m c) hx (IDS m c) (MEAN m c) (CNT m c) hr t j).trans
    (k_mean m c hx hmean hstd hr t j).symm

include hx hmean hstd hr in
/-- The new variances. -/
theorem ref_var_eq :
    Cert.ReferenceIdeal.Read.val_main_v79 (F := Ideal) (X m c) (IDS m c) (MEAN m c) (VAR m c) (CNT m c) = kres m c main_v73 := by
  funext i
  obtain ⟨t, j, rfl⟩ : ∃ (t : Fin 64) (j : Fin 128), i = ix2 t j := ⟨i 0, i 1, ValueIdx.eq_ix2 i⟩
  exact (Cert.ReferenceIdeal.RefValue.ref_var (X m c) hx (IDS m c) (MEAN m c) (VAR m c) (CNT m c) hr t j).trans
    (k_var m c hx hmean hstd hr t j).symm

include hx hmean hstd hr in
/-- The new deviations. -/
theorem ref_std_eq :
    Cert.ReferenceIdeal.Read.val_main_v82 (F := Ideal) (X m c) (IDS m c) (MEAN m c) (VAR m c) (STD m c) (CNT m c) = kres m c main_v76 := by
  funext i
  obtain ⟨t, j, rfl⟩ : ∃ (t : Fin 64) (j : Fin 128), i = ix2 t j := ⟨i 0, i 1, ValueIdx.eq_ix2 i⟩
  exact (Cert.ReferenceIdeal.RefValue.ref_std (X m c) hx (IDS m c) (MEAN m c) (VAR m c) (STD m c) (CNT m c) hr t j).trans
    (k_std m c hx hmean hstd hr t j).symm

include hr in
/-- The new counts. -/
theorem ref_count_eq :
    Cert.ReferenceIdeal.Read.val_main_v84 (F := Ideal) (IDS m c) (CNT m c) = kres m c main_v78 := by
  funext i
  obtain ⟨t, rfl⟩ : ∃ t : Fin 64, i = ix1 t := ⟨i 0, ValueIdx.eq_ix1 i⟩
  exact (Cert.ReferenceIdeal.RefValue.ref_count (IDS m c) (CNT m c) hr t).trans (k_count m c hr t).symm

end Reference

/-! ## The claim -/

theorem algebraic : Cert.algebraic_KernelIdeal_ReferenceIdeal := by
  intro m ρ m' ρ' hpre hagree
  refine ⟨fun c => Arrays.arr3 m c, fun c => kres m c main_v74, fun c => kres m c main_v73,
    fun c => kres m c main_v76, fun c => kres m c main_v78, ?_, ?_⟩
  · -- the kernel's program: the frame run, read at the results and the arguments
    exact (θ_run Cert.KernelIdeal.defs _ _).mono (fun r h c => kernel_post m r h c) (Region.run_main (F := Ideal) m ρ)
  · -- the reference: its run's terms, at arguments that agree with the kernel's, are the kernel's values
    refine (θ_run Cert.ReferenceIdeal.defs _ _).mono (fun r h c => ?_) (Cert.ReferenceIdeal.Value.run (F := Ideal) m' ρ')
    obtain ⟨hx, hmean, hvar, hstd, hr⟩ := Cert.PreDecode.of_pre _ _ _ _ _ _ (hpre c)
    obtain ⟨e0, e1, e2, e3, e4, e5⟩ := hagree c
    obtain ⟨h0, h1, h2, h3, h4, hargs⟩ := h c
    refine ⟨h0.trans ?_, h1.trans ?_, h2.trans ?_, h3.trans ?_, h4.trans ?_, hargs⟩
    · refine (Cert.ReferenceIdeal.Read.val_main_v17_eq _ _ _ _).trans ?_
      rw [e0, e1, e2, e4]
      exact ref_out_eq m c hmean hstd hr
    · refine (Cert.ReferenceIdeal.Read.val_main_v80_eq _ _ _ _).trans ?_
      rw [e0, e1, e2, e5]
      exact ref_mean_eq m c hx hmean hstd hr
    · refine (Cert.ReferenceIdeal.Read.val_main_v79_eq m' c).trans ?_
      rw [e0, e1, e2, e3, e5]
      exact ref_var_eq m c hx hmean hstd hr
    · refine (Cert.ReferenceIdeal.Read.val_main_v82_eq m' c).trans ?_
      rw [e0, e1, e2, e3, e4, e5]
      exact ref_std_eq m c hx hmean hstd hr
    · refine (Cert.ReferenceIdeal.Read.val_main_v84_eq _ _).trans ?_
      rw [e1, e5]
      exact ref_count_eq m c hr

end Cert.Bridge

end
-- ==== Proof.lean ====
/-
  The certificate: the kernel normalizes each row of a batch by its task's running mean and deviation and folds the
  batch into the per-task running moments; the reference does the same with a gather and three segment sums.

  The claim is stated for task ids in [0, 64) (and finite float inputs): outside that range the reference's
  table lookup reads a clamped or wrapped row while the kernel's one-hot selector matches no row.

  * The three frames. Each program runs to the end, faults nowhere and leaves its six argument arrays as they
    were. For the two programs with the kernel this is the frame run of the pipeline — the body at each of the
    32 grid points in one of three cases (a core's first step resets the two accumulators, its last step writes
    them out), the 76 host operations after the region touching no array of the pipeline; for the reference it is
    its run with the results dropped.
  * The idealization removed two round trips through bfloat16 (the stacked centered values and their squares on
    their way into the second selector product; the selector itself before it is summed): at the ideal instance
    a change of format is the identity, which is what each rule's statement says.
  * Over the extended reals the two programs end with the same five arrays. The normalized output agrees entry by
    entry: the selector product picks the row's task's table entries, the low-order remainders of the split
    tables are zero because the tables are finite. The counts agree: both count a task's rows. For a task with
    rows, the kernel's batch mean, formed from the sum shifted by the old mean, is the plain mean, and its batch
    variance, the shifted second moment minus the square of the shifted mean, is the two-pass variance, which is
    not negative, so the clamp at zero is inert. For a task without rows the two batch means differ and every
    updated statistic is the old one, chosen by the same test on both sides.
-/
import proofs.«402983_j34497177321524_3_alg».proof.Defs
import proofs.«402983_j34497177321524_3_alg».proof.Proof.Gen.Kernel
import proofs.«402983_j34497177321524_3_alg».proof.Proof.Gen.KernelIdeal
import proofs.«402983_j34497177321524_3_alg».proof.Proof.Gen.ReferenceIdeal
import proofs.«402983_j34497177321524_3_alg».proof.Proof.Gen.Pre_finite_inputs
import proofs.«402983_j34497177321524_3_alg».proof.Proof.KernelFrame
import proofs.«402983_j34497177321524_3_alg».proof.Proof.KernelIdealFrame
import proofs.«402983_j34497177321524_3_alg».proof.Proof.ReferenceIdealRun
import proofs.«402983_j34497177321524_3_alg».proof.Proof.Bridge
import Idealize.ShloMosaic.Adequacy
import Idealize.ShloMosaic.Init

noncomputable section

namespace Cert.Proof

open Idealize.ShloMosaic Idealize.SL.Sem

/-- The word-level program's frame: its pipeline's frame run, read at the argument arrays. -/
theorem frame_p : Cert.frame_Kernel := fun m ρ _ => Cert.Kernel.Region.frame m ρ

/-- The idealized program's frame: the same run at the ideal instance. -/
theorem frame_pi : Cert.frame_KernelIdeal := fun m ρ _ => Cert.KernelIdeal.Region.frame m ρ

/-- The reference has no kernel: its frame is its run with the five results dropped. -/
theorem frame_ri : Cert.frame_ReferenceIdeal := fun m ρ _ =>
  (θ_run Cert.ReferenceIdeal.defs _ _).mono (fun _ h c => (h c).2.2.2.2.2) (Cert.ReferenceIdeal.Value.run (F := Ideal) m ρ)

/-- The two removed round trips through bfloat16, each by its rule's statement at the site's shape. -/
theorem preserves : Cert.preserves_Kernel_KernelIdeal :=
  ⟨IdealRules.truncf_extf.statement _ .f32 .bf16, IdealRules.truncf_extf.statement _ .f32 .bf16⟩

theorem claim : Cert.Claim :=
  ⟨Cert.Kernel.Gen.facts, Cert.KernelIdeal.Gen.facts, Cert.ReferenceIdeal.Gen.facts, Cert.Pre_finite_inputs.Gen.facts,
    frame_p, frame_pi, frame_ri, preserves, Cert.Bridge.algebraic⟩

end Cert.Proof

end
